-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S256x256 : Shape := ⟨2, ![256, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S512x256 .f32) (main_arg1 : FVec F S256x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Pre_finite_inputs_ReferenceIdeal.lean ====
abbrev S4096x256 : Shape := ⟨2, ![4096, 256]⟩
abbrev S256x256 : Shape := ⟨2, ![256, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S4096x256 .f32) (main_arg1 : FVec F S256x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S512x256 : Shape := ⟨2, ![512, 256]⟩
abbrev S256x256 : Shape := ⟨2, ![256, 256]⟩
abbrev S3x512x256 : Shape := ⟨3, ![3, 512, 256]⟩
abbrev S3x3 : Shape := ⟨2, ![3, 3]⟩
abbrev S_ : Shape := ⟨0, ![]⟩
abbrev S1x1 : Shape := ⟨2, ![1, 1]⟩
abbrev S1x176x256 : Shape := ⟨3, ![1, 176, 256]⟩
abbrev S176x256 : Shape := ⟨2, ![176, 256]⟩
abbrev S1x160x256 : Shape := ⟨3, ![1, 160, 256]⟩
abbrev S160x256 : Shape := ⟨2, ![160, 256]⟩
abbrev S1x512x256 : Shape := ⟨3, ![1, 512, 256]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256x256, .f32⟩
  | .hbm, ⟨2, _⟩ => ⟨S512x256, .f32⟩
  | .local _ .vmem, ⟨0, _⟩ => ⟨S512x256, .f32⟩
  | .local _ .vmem, ⟨1, _⟩ => ⟨S256x256, .f32⟩
  | .local _ .vmem, ⟨2, _⟩ => ⟨S512x256, .f32⟩
  | .local _ .vmem, ⟨3, _⟩ => ⟨S512x256, .bf16⟩
  | .local _ .vmem, ⟨4, _⟩ => ⟨S3x512x256, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v13 : BitVec 32 := Scalar.xori v2 c1_i32_4
  let c1_i32_7 : BitVec 32 := 1#32
  let v19 : BitVec 32 := Scalar.muli v13 c1_i32_7
  let v20 : BitVec 32 := Scalar.addi c0_i32_8 v19
  v20.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v14 : BitVec 32 := Scalar.subi v2 v12
  let c3_i32 : BitVec 32 := 3#32
  let v15 : BitVec 32 := Scalar.subi c3_i32 v12
  let v16 : BitVec 32 := Scalar.addi v14 v15
  let c1_i32_10 : BitVec 32 := 1#32
  let v21 : BitVec 32 := Scalar.muli v16 c1_i32_10
  let v22 : BitVec 32 := Scalar.addi c0_i32_11 v21
  v22.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v17 : BitVec 32 := Scalar.xori v2 c4_i32_5
  let c1_i32_13 : BitVec 32 := 1#32
  let v23 : BitVec 32 := Scalar.muli v17 c1_i32_13
  let v24 : BitVec 32 := Scalar.addi c0_i32_14 v23
  v24.toNat
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v13 : BitVec 32 := Scalar.xori v2 c1_i32_4
  let c1_i32_24 : BitVec 32 := 1#32
  let v31 : BitVec 32 := Scalar.muli v13 c1_i32_24
  let v32 : BitVec 32 := Scalar.addi c0_i32_25 v31
  v32.toNat
def k0_dev5 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v14 : BitVec 32 := Scalar.subi v2 v12
  let c3_i32 : BitVec 32 := 3#32
  let v15 : BitVec 32 := Scalar.subi c3_i32 v12
  let v16 : BitVec 32 := Scalar.addi v14 v15
  let c1_i32_35 : BitVec 32 := 1#32
  let v40 : BitVec 32 := Scalar.muli v16 c1_i32_35
  let v41 : BitVec 32 := Scalar.addi c0_i32_36 v40
  v41.toNat
def k0_dev6 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v17 : BitVec 32 := Scalar.xori v2 c4_i32_5
  let c1_i32_44 : BitVec 32 := 1#32
  let v49 : BitVec 32 := Scalar.muli v17 c1_i32_44
  let v50 : BitVec 32 := Scalar.addi c0_i32_45 v49
  v50.toNat
def k0_dev7 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v14 : BitVec 32 := Scalar.subi v2 v12
  let c3_i32 : BitVec 32 := 3#32
  let v15 : BitVec 32 := Scalar.subi c3_i32 v12
  let v16 : BitVec 32 := Scalar.addi v14 v15
  let c1_i32_124 : BitVec 32 := 1#32
  let v101 : BitVec 32 := Scalar.muli v16 c1_i32_124
  let v102 : BitVec 32 := Scalar.addi c0_i32_125 v101
  v102.toNat
def k0_dev8 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v17 : BitVec 32 := Scalar.xori v2 c4_i32_5
  let c1_i32_135 : BitVec 32 := 1#32
  let v110 : BitVec 32 := Scalar.muli v17 c1_i32_135
  let v111 : BitVec 32 := Scalar.addi c0_i32_136 v110
  v111.toNat
def k0_dev9 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v13 : BitVec 32 := Scalar.xori v2 c1_i32_4
  let c1_i32_146 : BitVec 32 := 1#32
  let v119 : BitVec 32 := Scalar.muli v13 c1_i32_146
  let v120 : BitVec 32 := Scalar.addi c0_i32_147 v119
  v120.toNat
def k0_dev10 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v17 : BitVec 32 := Scalar.xori v2 c4_i32_5
  let c1_i32_226 : BitVec 32 := 1#32
  let v171 : BitVec 32 := Scalar.muli v17 c1_i32_226
  let v172 : BitVec 32 := Scalar.addi c0_i32_227 v171
  v172.toNat
def k0_dev11 (d0 : Dev nD) : Nat :=
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v13 : BitVec 32 := Scalar.xori v2 c1_i32_4
  let c1_i32_237 : BitVec 32 := 1#32
  let v180 : BitVec 32 := Scalar.muli v13 c1_i32_237
  let v181 : BitVec 32 := Scalar.addi c0_i32_238 v180
  v181.toNat
def k0_dev12 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v14 : BitVec 32 := Scalar.subi v2 v12
  let c3_i32 : BitVec 32 := 3#32
  let v15 : BitVec 32 := Scalar.subi c3_i32 v12
  let v16 : BitVec 32 := Scalar.addi v14 v15
  let c1_i32_248 : BitVec 32 := 1#32
  let v189 : BitVec 32 := Scalar.muli v16 c1_i32_248
  let v190 : BitVec 32 := Scalar.addi c0_i32_249 v189
  v190.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  packedbf16_S512x256_S512x256_0_0 : (Rect.unit (s := S512x256) ![0, 0] S512x256.size inb_S512x256_S512x256_0_0).PackedRows (EltTy.packing .bf16)
  hamt_3 : (3#32 : BitVec 32).msb = false
  inb_S3x3_S1x1_0_0 : ∀ a, (![0, 0] : Fin 2 → Nat) a + S1x1.size a ≤ S3x3.size a
  squeezes_S1x1_S_ : S1x1.Squeezes S_
  inb_S3x512x256_S1x176x256_0_0_0 : ∀ a, (![0, 0, 0] : Fin 3 → Nat) a + S1x176x256.size a ≤ S3x512x256.size a
  squeezes_S1x176x256_S176x256 : S1x176x256.Squeezes S176x256
  inb_S512x256_S176x256_0_0 : ∀ a, (![0, 0] : Fin 2 → Nat) a + S176x256.size a ≤ S512x256.size a
  wordsbf16_S512x256_S176x256_0_0 : (Rect.unit (s := S512x256) ![0, 0] S176x256.size inb_S512x256_S176x256_0_0).WholeWords (EltTy.packing .bf16)
  wordsbf16_S3x512x256_S1x176x256_0_0_0 : (Rect.unit (s := S3x512x256) ![0, 0, 0] S1x176x256.size inb_S3x512x256_S1x176x256_0_0_0).WholeWords (EltTy.packing .bf16)
  inb_S3x3_S1x1_0_1 : ∀ a, (![0, 1] : Fin 2 → Nat) a + S1x1.size a ≤ S3x3.size a
  inb_S3x512x256_S1x176x256_0_176_0 : ∀ a, (![0, 176, 0] : Fin 3 → Nat) a + S1x176x256.size a ≤ S3x512x256.size a
  inb_S512x256_S176x256_176_0 : ∀ a, (![176, 0] : Fin 2 → Nat) a + S176x256.size a ≤ S512x256.size a
  wordsbf16_S512x256_S176x256_176_0 : (Rect.unit (s := S512x256) ![176, 0] S176x256.size inb_S512x256_S176x256_176_0).WholeWords (EltTy.packing .bf16)
  wordsbf16_S3x512x256_S1x176x256_0_176_0 : (Rect.unit (s := S3x512x256) ![0, 176, 0] S1x176x256.size inb_S3x512x256_S1x176x256_0_176_0).WholeWords (EltTy.packing .bf16)
  inb_S3x3_S1x1_0_2 : ∀ a, (![0, 2] : Fin 2 → Nat) a + S1x1.size a ≤ S3x3.size a
  inb_S3x512x256_S1x160x256_0_352_0 : ∀ a, (![0, 352, 0] : Fin 3 → Nat) a + S1x160x256.size a ≤ S3x512x256.size a
  squeezes_S1x160x256_S160x256 : S1x160x256.Squeezes S160x256
  inb_S512x256_S160x256_352_0 : ∀ a, (![352, 0] : Fin 2 → Nat) a + S160x256.size a ≤ S512x256.size a
  wordsbf16_S512x256_S160x256_352_0 : (Rect.unit (s := S512x256) ![352, 0] S160x256.size inb_S512x256_S160x256_352_0).WholeWords (EltTy.packing .bf16)
  wordsbf16_S3x512x256_S1x160x256_0_352_0 : (Rect.unit (s := S3x512x256) ![0, 352, 0] S1x160x256.size inb_S3x512x256_S1x160x256_0_352_0).WholeWords (EltTy.packing .bf16)
  inb_S3x512x256_S1x512x256_0_0_0 : ∀ a, (![0, 0, 0] : Fin 3 → Nat) a + S1x512x256.size a ≤ S3x512x256.size a
  h_S1x512x256 : 0 < S1x512x256.numel
  shapeCasts_S1x512x256_S512x256 : S1x512x256.ShapeCasts S512x256
  inb_S3x3_S1x1_1_0 : ∀ a, (![1, 0] : Fin 2 → Nat) a + S1x1.size a ≤ S3x3.size a
  inb_S3x512x256_S1x176x256_1_0_0 : ∀ a, (![1, 0, 0] : Fin 3 → Nat) a + S1x176x256.size a ≤ S3x512x256.size a
  wordsbf16_S3x512x256_S1x176x256_1_0_0 : (Rect.unit (s := S3x512x256) ![1, 0, 0] S1x176x256.size inb_S3x512x256_S1x176x256_1_0_0).WholeWords (EltTy.packing .bf16)
  inb_S3x3_S1x1_1_1 : ∀ a, (![1, 1] : Fin 2 → Nat) a + S1x1.size a ≤ S3x3.size a
  inb_S3x512x256_S1x176x256_1_176_0 : ∀ a, (![1, 176, 0] : Fin 3 → Nat) a + S1x176x256.size a ≤ S3x512x256.size a
  wordsbf16_S3x512x256_S1x176x256_1_176_0 : (Rect.unit (s := S3x512x256) ![1, 176, 0] S1x176x256.size inb_S3x512x256_S1x176x256_1_176_0).WholeWords (EltTy.packing .bf16)
  inb_S3x3_S1x1_1_2 : ∀ a, (![1, 2] : Fin 2 → Nat) a + S1x1.size a ≤ S3x3.size a
  inb_S3x512x256_S1x160x256_1_352_0 : ∀ a, (![1, 352, 0] : Fin 3 → Nat) a + S1x160x256.size a ≤ S3x512x256.size a
  wordsbf16_S3x512x256_S1x160x256_1_352_0 : (Rect.unit (s := S3x512x256) ![1, 352, 0] S1x160x256.size inb_S3x512x256_S1x160x256_1_352_0).WholeWords (EltTy.packing .bf16)
  inb_S3x512x256_S1x512x256_1_0_0 : ∀ a, (![1, 0, 0] : Fin 3 → Nat) a + S1x512x256.size a ≤ S3x512x256.size a
  inb_S3x3_S1x1_2_0 : ∀ a, (![2, 0] : Fin 2 → Nat) a + S1x1.size a ≤ S3x3.size a
  inb_S3x512x256_S1x176x256_2_0_0 : ∀ a, (![2, 0, 0] : Fin 3 → Nat) a + S1x176x256.size a ≤ S3x512x256.size a
  wordsbf16_S3x512x256_S1x176x256_2_0_0 : (Rect.unit (s := S3x512x256) ![2, 0, 0] S1x176x256.size inb_S3x512x256_S1x176x256_2_0_0).WholeWords (EltTy.packing .bf16)
  inb_S3x3_S1x1_2_1 : ∀ a, (![2, 1] : Fin 2 → Nat) a + S1x1.size a ≤ S3x3.size a
  inb_S3x512x256_S1x176x256_2_176_0 : ∀ a, (![2, 176, 0] : Fin 3 → Nat) a + S1x176x256.size a ≤ S3x512x256.size a
  wordsbf16_S3x512x256_S1x176x256_2_176_0 : (Rect.unit (s := S3x512x256) ![2, 176, 0] S1x176x256.size inb_S3x512x256_S1x176x256_2_176_0).WholeWords (EltTy.packing .bf16)
  inb_S3x3_S1x1_2_2 : ∀ a, (![2, 2] : Fin 2 → Nat) a + S1x1.size a ≤ S3x3.size a
  inb_S3x512x256_S1x160x256_2_352_0 : ∀ a, (![2, 352, 0] : Fin 3 → Nat) a + S1x160x256.size a ≤ S3x512x256.size a
  wordsbf16_S3x512x256_S1x160x256_2_352_0 : (Rect.unit (s := S3x512x256) ![2, 352, 0] S1x160x256.size inb_S3x512x256_S1x160x256_2_352_0).WholeWords (EltTy.packing .bf16)
  inb_S3x512x256_S1x512x256_2_0_0 : ∀ a, (![2, 0, 0] : Fin 3 → Nat) a + S1x512x256.size a ≤ S3x512x256.size a
  inb_S256x256_S256x256_0_0 : ∀ a, (![0, 0] : Fin 2 → Nat) a + S256x256.size a ≤ S256x256.size a
  h_S256x256 : 0 < S256x256.numel
  shapeCasts_S256x256_S256x256 : S256x256.ShapeCasts S256x256
  dot_S512x256_S256x256_S512x256_1_0_0_1_n_n_wf : DotDims.WF S512x256 S256x256 S512x256 [1] [0] [0] [1] [] []
  hcc0_scratch2 : 3 + S3x3.numel ≤ 21
  hcc0_scratch3 : 12 + S3x3.numel ≤ 21
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  hstage0_0 : ∀ j, (stage0_0 j).IsWhole
  hstage0_1 : ∀ j, (stage0_1 j).IsWhole
  hstage0_2 : ∀ j, (stage0_2 j).IsWhole

variable [Facts₀]

abbrev cc0_scratch2 : DmaSems sig S3x3 := SemArray.consecutive 3 S3x3 hcc0_scratch2
abbrev cc0_scratch3 : DmaSems sig S3x3 := SemArray.consecutive 12 S3x3 hcc0_scratch3
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x256 : Shape := ⟨2, ![4096, 256]⟩
abbrev S256x256 : Shape := ⟨2, ![256, 256]⟩
abbrev S8x512x256 : Shape := ⟨3, ![8, 512, 256]⟩
abbrev S_ : Shape := ⟨0, ![]⟩
abbrev S512x256 : Shape := ⟨2, ![512, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x256, .f32⟩
  | .hbm, ⟨2, _⟩ => ⟨S8x512x256, .f32⟩
  | .hbm, ⟨3, _⟩ => ⟨S_, .f32⟩
  | .hbm, ⟨4, _⟩ => ⟨S512x256, .f32⟩
  | .hbm, ⟨5, _⟩ => ⟨S512x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  shapeCasts_S4096x256_S8x512x256 : S4096x256.ShapeCasts S8x512x256
  reducesTo_S8x512x256_S512x256_d0 : S8x512x256.ReducesTo [0] S512x256
  h_S_ : 0 < S_.numel
  dot_S512x256_S256x256_S512x256_1_0_0_1_n_n_wf : DotDims.WF S512x256 S256x256 S512x256 [1] [0] [0] [1] [] []

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

class Facts : Prop extends Facts₀ where

variable [Facts]
-- ==== Proof.Mesh.lean ====
/-
  The mesh of the all-reduce: eight devices, each exchanging with three partners. Partner 0 flips bit 0 of the
  device's number, partner 1 reflects it inside its group of four (q ↦ 3 − q, i.e. it flips bits 0 and 1), partner 2
  flips bit 2. Each map is an involution, and the three together generate all eight devices, which is what makes three
  exchange stages a full sum. The kernel's printed device chains are these maps; the row group g of stage d goes to
  partner (g + d) mod 3.
-/
import proofs.«900560_g7700000000000561_dist_matmul_of_ar_i_m512_n256_k256_v7x_i8_f32_1_alg».proof.Proof.Gen.KernelIdeal
import proofs.«900560_g7700000000000561_dist_matmul_of_ar_i_m512_n256_k256_v7x_i8_f32_1_alg».proof.Proof.Gen.KernelIdeal.Skeleton
import proofs.«900560_g7700000000000561_dist_matmul_of_ar_i_m512_n256_k256_v7x_i8_f32_1_alg».proof.Proof.Gen.KernelIdeal.Launch
import proofs.«900560_g7700000000000561_dist_matmul_of_ar_i_m512_n256_k256_v7x_i8_f32_1_alg».proof.Proof.Gen.KernelIdeal.Points
import proofs.«900560_g7700000000000561_dist_matmul_of_ar_i_m512_n256_k256_v7x_i8_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.AR

open Cert.KernelIdeal Cert.KernelIdeal.Gen
open Idealize.ShloMosaic Idealize.ShloMosaic.TcCoe

/-- Partner `k` of device `c`. -/
def peer (c : Dev nD) (k : Fin 3) : Dev nD :=
  match k with
  | 0 => (![1, 0, 3, 2, 5, 4, 7, 6] : Fin 8 → Fin 8) c
  | 1 => (![3, 2, 1, 0, 7, 6, 5, 4] : Fin 8 → Fin 8) c
  | 2 => (![4, 5, 6, 7, 0, 1, 2, 3] : Fin 8 → Fin 8) c

theorem peer_peer (c : Dev nD) (k : Fin 3) : peer (peer c k) k = c := by revert c k; decide
theorem peer_ne (c : Dev nD) (k : Fin 3) : peer c k ≠ c := by revert c k; decide
theorem peer_inj (c : Dev nD) (k k' : Fin 3) (h : peer c k = peer c k') : k = k' := by revert c k k'; decide

/-- The partner that row group `g` is exchanged with at stage `d`. -/
def via (d g : Fin 3) : Fin 3 := ⟨(g.val + d.val) % 3, Nat.mod_lt _ (by decide)⟩

/-- The three barrier signals address partners 0, 1, 2. -/
theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
/-- Stage 0: row groups 0, 1, 2 go to partners 0, 1, 2. -/
theorem dev4_eq (c : Dev nD) : (⟨k0_dev4 c, k0_dev4_lt c⟩ : Dev nD) = peer c 0 := by revert c; decide +kernel
theorem dev5_eq (c : Dev nD) : (⟨k0_dev5 c, k0_dev5_lt c⟩ : Dev nD) = peer c 1 := by revert c; decide +kernel
theorem dev6_eq (c : Dev nD) : (⟨k0_dev6 c, k0_dev6_lt c⟩ : Dev nD) = peer c 2 := by revert c; decide +kernel
/-- Stage 1: to partners 1, 2, 0. -/
theorem dev7_eq (c : Dev nD) : (⟨k0_dev7 c, k0_dev7_lt c⟩ : Dev nD) = peer c 1 := by revert c; decide +kernel
theorem dev8_eq (c : Dev nD) : (⟨k0_dev8 c, k0_dev8_lt c⟩ : Dev nD) = peer c 2 := by revert c; decide +kernel
theorem dev9_eq (c : Dev nD) : (⟨k0_dev9 c, k0_dev9_lt c⟩ : Dev nD) = peer c 0 := by revert c; decide +kernel
/-- Stage 2: to partners 2, 0, 1. -/
theorem dev10_eq (c : Dev nD) : (⟨k0_dev10 c, k0_dev10_lt c⟩ : Dev nD) = peer c 2 := by revert c; decide +kernel
theorem dev11_eq (c : Dev nD) : (⟨k0_dev11 c, k0_dev11_lt c⟩ : Dev nD) = peer c 0 := by revert c; decide +kernel
theorem dev12_eq (c : Dev nD) : (⟨k0_dev12 c, k0_dev12_lt c⟩ : Dev nD) = peer c 1 := by revert c; decide +kernel

end Cert.KernelIdeal.AR

end
-- ==== Proof.Sched.lean ====
/-
  The protocol of the eight-device all-reduce, as data.

  Every device keeps a running sum (512 x 256, one buffer) and three landing slots (one per stage). At stage d the
  rows of group g (rows 0-175, 176-351, 352-511) of the running sum travel to partner (g + d) mod 3, into that
  partner's slot d, and the same rows of the partner's running sum arrive in this device's slot d; then the whole slot
  is added to the running sum. Since each partner map is an involution, the device that sends me rows g at stage d is
  the one I send them to.

  Cells. On every device: the barrier semaphore (one round of three unit duties, duty k paid by partner k, which hands
  over the three landing regions of ITS OWN slots that this device will fill: region (d, g) with (g + d) mod 3 = k);
  nine send semaphores (one round, one duty: the source rows come back); nine receive semaphores (one round, one
  duty, paid by the partner's transfer: the landing region comes back holding the partner's rows).

  Values. `accV d c` is device c's running sum before stage d: the block of the input at d = 0, and
  `accV (d+1) c = accV d c + slotV d c` where `slotV d c` has, in the rows of group g, the rows of
  `accV d (partner (g + d) mod 3 of c)`. `commC c` is the three slots side by side.
-/
import proofs.«900560_g7700000000000561_dist_matmul_of_ar_i_m512_n256_k256_v7x_i8_f32_1_alg».proof.Proof.Gen.KernelIdeal
import proofs.«900560_g7700000000000561_dist_matmul_of_ar_i_m512_n256_k256_v7x_i8_f32_1_alg».proof.Proof.Gen.KernelIdeal.Skeleton
import proofs.«900560_g7700000000000561_dist_matmul_of_ar_i_m512_n256_k256_v7x_i8_f32_1_alg».proof.Proof.Gen.KernelIdeal.Launch
import proofs.«900560_g7700000000000561_dist_matmul_of_ar_i_m512_n256_k256_v7x_i8_f32_1_alg».proof.Proof.Gen.KernelIdeal.Points
import proofs.«900560_g7700000000000561_dist_matmul_of_ar_i_m512_n256_k256_v7x_i8_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import proofs.«900560_g7700000000000561_dist_matmul_of_ar_i_m512_n256_k256_v7x_i8_f32_1_alg».proof.Proof.Mesh

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Buffers and their pieces -/

abbrev tM : Memref sig .tc .vmem S512x256 .f32 := Memref.whole cc0_stg0_0
abbrev wM : Memref sig .tc .vmem S256x256 .f32 := Memref.whole cc0_stg1_0
abbrev oM : Memref sig .tc .vmem S512x256 .f32 := Memref.whole cc0_stg2_0
/-- The running sum. -/
abbrev accM : Memref sig .tc .vmem S512x256 .bf16 := Memref.whole cc0_scratch0
/-- The three landing slots. -/
abbrev commM : Memref sig .tc .vmem S3x512x256 .bf16 := Memref.whole cc0_scratch1

/-- Row group 0 of the running sum: rows 0 to 175. -/
abbrev srcA : Memref sig .tc .vmem S176x256 .bf16 :=
  accM.slice (Rect.unit (s := S512x256) ![0, 0] S176x256.size inb_S512x256_S176x256_0_0) (fun _ => rfl)
/-- Row group 1 of the running sum: rows 176 to 351. -/
abbrev srcB : Memref sig .tc .vmem S176x256 .bf16 :=
  accM.slice (Rect.unit (s := S512x256) ![176, 0] S176x256.size inb_S512x256_S176x256_176_0) (fun _ => rfl)
/-- Row group 2 of the running sum: rows 352 to 511. -/
abbrev srcC : Memref sig .tc .vmem S160x256 .bf16 :=
  accM.slice (Rect.unit (s := S512x256) ![352, 0] S160x256.size inb_S512x256_S160x256_352_0) (fun _ => rfl)
/-- Row group 0 of landing slot 0. -/
abbrev dst00 : Memref sig .tc .vmem S176x256 .bf16 :=
  (commM.slice (Rect.unit (s := S3x512x256) ![0, 0, 0] S1x176x256.size inb_S3x512x256_S1x176x256_0_0_0) (fun _ => rfl)).squeeze S176x256 squeezes_S1x176x256_S176x256
/-- Row group 1 of landing slot 0. -/
abbrev dst01 : Memref sig .tc .vmem S176x256 .bf16 :=
  (commM.slice (Rect.unit (s := S3x512x256) ![0, 176, 0] S1x176x256.size inb_S3x512x256_S1x176x256_0_176_0) (fun _ => rfl)).squeeze S176x256 squeezes_S1x176x256_S176x256
/-- Row group 2 of landing slot 0. -/
abbrev dst02 : Memref sig .tc .vmem S160x256 .bf16 :=
  (commM.slice (Rect.unit (s := S3x512x256) ![0, 352, 0] S1x160x256.size inb_S3x512x256_S1x160x256_0_352_0) (fun _ => rfl)).squeeze S160x256 squeezes_S1x160x256_S160x256
/-- Row group 0 of landing slot 1. -/
abbrev dst10 : Memref sig .tc .vmem S176x256 .bf16 :=
  (commM.slice (Rect.unit (s := S3x512x256) ![1, 0, 0] S1x176x256.size inb_S3x512x256_S1x176x256_1_0_0) (fun _ => rfl)).squeeze S176x256 squeezes_S1x176x256_S176x256
/-- Row group 1 of landing slot 1. -/
abbrev dst11 : Memref sig .tc .vmem S176x256 .bf16 :=
  (commM.slice (Rect.unit (s := S3x512x256) ![1, 176, 0] S1x176x256.size inb_S3x512x256_S1x176x256_1_176_0) (fun _ => rfl)).squeeze S176x256 squeezes_S1x176x256_S176x256
/-- Row group 2 of landing slot 1. -/
abbrev dst12 : Memref sig .tc .vmem S160x256 .bf16 :=
  (commM.slice (Rect.unit (s := S3x512x256) ![1, 352, 0] S1x160x256.size inb_S3x512x256_S1x160x256_1_352_0) (fun _ => rfl)).squeeze S160x256 squeezes_S1x160x256_S160x256
/-- Row group 0 of landing slot 2. -/
abbrev dst20 : Memref sig .tc .vmem S176x256 .bf16 :=
  (commM.slice (Rect.unit (s := S3x512x256) ![2, 0, 0] S1x176x256.size inb_S3x512x256_S1x176x256_2_0_0) (fun _ => rfl)).squeeze S176x256 squeezes_S1x176x256_S176x256
/-- Row group 1 of landing slot 2. -/
abbrev dst21 : Memref sig .tc .vmem S176x256 .bf16 :=
  (commM.slice (Rect.unit (s := S3x512x256) ![2, 176, 0] S1x176x256.size inb_S3x512x256_S1x176x256_2_176_0) (fun _ => rfl)).squeeze S176x256 squeezes_S1x176x256_S176x256
/-- Row group 2 of landing slot 2. -/
abbrev dst22 : Memref sig .tc .vmem S160x256 .bf16 :=
  (commM.slice (Rect.unit (s := S3x512x256) ![2, 352, 0] S1x160x256.size inb_S3x512x256_S1x160x256_2_352_0) (fun _ => rfl)).squeeze S160x256 squeezes_S1x160x256_S160x256

/-! ## Cells -/

abbrev barS : Sem sig := (SemArray.scalar (sig.barrier 0 rfl) : Sems sig S_).sem
/-- Send semaphore of stage `d`, row group `g`: DMA semaphores 3 to 11. -/
abbrev sendQ (d g : Fin 3) : DmaSem sig := ⟨3 + 3 * d.val + g.val, by have := d.isLt; have := g.isLt; show _ < 21; omega⟩
/-- Receive semaphore of stage `d`, row group `g`: DMA semaphores 12 to 20. -/
abbrev recvQ (d g : Fin 3) : DmaSem sig := ⟨12 + 3 * d.val + g.val, by have := d.isLt; have := g.isLt; show _ < 21; omega⟩

abbrev barCell (c : Dev nD) : GSem nD τ sig := ((c : Thread nD τ), .reg barS)
abbrev sendCell (c : Dev nD) (d g : Fin 3) : GSem nD τ sig := ((c : Thread nD τ), .dma (sendQ d g))
abbrev recvCell (c : Dev nD) (d g : Fin 3) : GSem nD τ sig := ((c : Thread nD τ), .dma (recvQ d g))

/-- The credit a transfer of rows of group `g` brings: what a landing region of that size counts. -/
abbrev creditOf (g : Fin 3) : ℕ :=
  match g with
  | 0 => (dst00 : Memref sig .tc .vmem S176x256 .bf16).view.dmaCredit
  | 1 => (dst01 : Memref sig .tc .vmem S176x256 .bf16).view.dmaCredit
  | 2 => (dst02 : Memref sig .tc .vmem S160x256 .bf16).view.dmaCredit

theorem creditOf_pos (g : Fin 3) : 0 < creditOf g := by
  match g with
  | 0 => exact View.dmaCredit_pos _ (by decide)
  | 1 => exact View.dmaCredit_pos _ (by decide)
  | 2 => exact View.dmaCredit_pos _ (by decide)

/-! ## Contents -/

/-- The row group of a row. -/
def grp (i : ℕ) : Fin 3 := if i < 176 then 0 else if i < 352 then 1 else 2
/-- The partner row group `g` is exchanged with at stage `d`. -/
def viaN (d : ℕ) (g : Fin 3) : Fin 3 := ⟨(g.val + d) % 3, Nat.mod_lt _ (by decide)⟩

/-- Device `c`'s block of the first input, as staged. -/
def tblk (c : Dev nD) : Vec F S512x256 .f32 :=
  (win0_0.blk (0 : Fin 1)).view.read (Elt F) (m ((c : Thread nD τ).loc main_arg0))
/-- Device `c`'s copy of the second input, as staged. -/
def wblk (c : Dev nD) : Vec F S256x256 .f32 :=
  (win0_1.blk (0 : Fin 1)).view.read (Elt F) (m ((c : Thread nD τ).loc main_arg1))

/-- The running sum of device `c` before stage `d`. -/
def accV : ℕ → Dev nD → FVec F S512x256 .bf16
  | 0, c => k0_pay3 (tblk m c)
  | d + 1, c => addf (accV d c) (fun ij => accV d (peer c (viaN d (grp (ij 0).val))) ij)

/-- What lands in slot `d` of device `c`: in the rows of group `g`, those rows of the partner's running sum. -/
def slotV (d : ℕ) (c : Dev nD) : FVec F S512x256 .bf16 := fun ij => accV m d (peer c (viaN d (grp (ij 0).val))) ij

theorem accV_succ (d : ℕ) (c : Dev nD) : accV m (d + 1) c = addf (accV m d c) (slotV m d c) := rfl

/-- The three slots of device `c` once filled. -/
def commC (c : Dev nD) : Vec F S3x512x256 .bf16 := fun idx => slotV m (idx 0).val c (ix2 (idx 1) (idx 2))

/-- The result block: the full sum times the second input. -/
def outV (c : Dev nD) : FVec F S512x256 .f32 := k0_pay2 (accV m 3 c) (wblk m c)

end Cert.KernelIdeal.AR

end
-- ==== Proof.Proto.lean ====
/-
  The all-reduce's schedule of duties: who pays which semaphore, by how much, and what each payment hands over.
  (Mesh.lean has the partners, Sched.lean the buffers, the cells and the values.)

  A barrier cell has one round of three unit duties; duty k is partner k's signal and hands this device the three
  landing regions of that partner's slots which this device fills (stage d, row group g with (g + d) mod 3 = k).
  A send cell (stage d, group g) has one duty: the device's own transfer, which returns the source rows.
  A receive cell (stage d, group g) has one duty: the partner's transfer, which returns the landing region holding
  the partner's rows, that is, that part of `commC`.
  What a device owes at launch: its nine transfers' credit on its partners' receive cells and one unit on each
  partner's barrier cell. Waiting is ordered by levels: barrier cells at 1, receive cells of stage d at 2 + d,
  everything else at 0; a device waits on a cell only while everything it still owes lies strictly above it.
-/
import proofs.«900560_g7700000000000561_dist_matmul_of_ar_i_m512_n256_k256_v7x_i8_f32_1_alg».proof.Proof.Gen.KernelIdeal
import proofs.«900560_g7700000000000561_dist_matmul_of_ar_i_m512_n256_k256_v7x_i8_f32_1_alg».proof.Proof.Gen.KernelIdeal.Skeleton
import proofs.«900560_g7700000000000561_dist_matmul_of_ar_i_m512_n256_k256_v7x_i8_f32_1_alg».proof.Proof.Gen.KernelIdeal.Launch
import proofs.«900560_g7700000000000561_dist_matmul_of_ar_i_m512_n256_k256_v7x_i8_f32_1_alg».proof.Proof.Gen.KernelIdeal.Points
import proofs.«900560_g7700000000000561_dist_matmul_of_ar_i_m512_n256_k256_v7x_i8_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import proofs.«900560_g7700000000000561_dist_matmul_of_ar_i_m512_n256_k256_v7x_i8_f32_1_alg».proof.Proof.Mesh
import proofs.«900560_g7700000000000561_dist_matmul_of_ar_i_m512_n256_k256_v7x_i8_f32_1_alg».proof.Proof.Sched

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## What the payments hand over -/

def sendPay (c : Dev nD) (d g : Fin 3) : sProp 𝕄 :=
  match g with
  | 0 => ((srcA : Memref sig .tc .vmem S176x256 .bf16).view.loc (c : Thread nD τ) ↦[(srcA : Memref sig .tc .vmem S176x256 .bf16).view.set]{fullShare} accV m d.val c)
  | 1 => ((srcB : Memref sig .tc .vmem S176x256 .bf16).view.loc (c : Thread nD τ) ↦[(srcB : Memref sig .tc .vmem S176x256 .bf16).view.set]{fullShare} accV m d.val c)
  | 2 => ((srcC : Memref sig .tc .vmem S160x256 .bf16).view.loc (c : Thread nD τ) ↦[(srcC : Memref sig .tc .vmem S160x256 .bf16).view.set]{fullShare} accV m d.val c)

def recvPay (c : Dev nD) (d g : Fin 3) : sProp 𝕄 :=
  match d, g with
  | 0, 0 => ((dst00 : Memref sig .tc .vmem S176x256 .bf16).view.loc (c : Thread nD τ) ↦[(dst00 : Memref sig .tc .vmem S176x256 .bf16).view.set]{fullShare} commC m c)
  | 0, 1 => ((dst01 : Memref sig .tc .vmem S176x256 .bf16).view.loc (c : Thread nD τ) ↦[(dst01 : Memref sig .tc .vmem S176x256 .bf16).view.set]{fullShare} commC m c)
  | 0, 2 => ((dst02 : Memref sig .tc .vmem S160x256 .bf16).view.loc (c : Thread nD τ) ↦[(dst02 : Memref sig .tc .vmem S160x256 .bf16).view.set]{fullShare} commC m c)
  | 1, 0 => ((dst10 : Memref sig .tc .vmem S176x256 .bf16).view.loc (c : Thread nD τ) ↦[(dst10 : Memref sig .tc .vmem S176x256 .bf16).view.set]{fullShare} commC m c)
  | 1, 1 => ((dst11 : Memref sig .tc .vmem S176x256 .bf16).view.loc (c : Thread nD τ) ↦[(dst11 : Memref sig .tc .vmem S176x256 .bf16).view.set]{fullShare} commC m c)
  | 1, 2 => ((dst12 : Memref sig .tc .vmem S160x256 .bf16).view.loc (c : Thread nD τ) ↦[(dst12 : Memref sig .tc .vmem S160x256 .bf16).view.set]{fullShare} commC m c)
  | 2, 0 => ((dst20 : Memref sig .tc .vmem S176x256 .bf16).view.loc (c : Thread nD τ) ↦[(dst20 : Memref sig .tc .vmem S176x256 .bf16).view.set]{fullShare} commC m c)
  | 2, 1 => ((dst21 : Memref sig .tc .vmem S176x256 .bf16).view.loc (c : Thread nD τ) ↦[(dst21 : Memref sig .tc .vmem S176x256 .bf16).view.set]{fullShare} commC m c)
  | 2, 2 => ((dst22 : Memref sig .tc .vmem S160x256 .bf16).view.loc (c : Thread nD τ) ↦[(dst22 : Memref sig .tc .vmem S160x256 .bf16).view.set]{fullShare} commC m c)

def barPay (c : Dev nD) (k : Fin 3) : sProp 𝕄 :=
  match k with
  | 0 => iprop((∃ f, (dst00 : Memref sig .tc .vmem S176x256 .bf16).view.loc (peer c 0 : Thread nD τ) ↦[(dst00 : Memref sig .tc .vmem S176x256 .bf16).view.set]{fullShare} f) ∗ (∃ f, (dst12 : Memref sig .tc .vmem S160x256 .bf16).view.loc (peer c 0 : Thread nD τ) ↦[(dst12 : Memref sig .tc .vmem S160x256 .bf16).view.set]{fullShare} f) ∗ (∃ f, (dst21 : Memref sig .tc .vmem S176x256 .bf16).view.loc (peer c 0 : Thread nD τ) ↦[(dst21 : Memref sig .tc .vmem S176x256 .bf16).view.set]{fullShare} f))
  | 1 => iprop((∃ f, (dst01 : Memref sig .tc .vmem S176x256 .bf16).view.loc (peer c 1 : Thread nD τ) ↦[(dst01 : Memref sig .tc .vmem S176x256 .bf16).view.set]{fullShare} f) ∗ (∃ f, (dst10 : Memref sig .tc .vmem S176x256 .bf16).view.loc (peer c 1 : Thread nD τ) ↦[(dst10 : Memref sig .tc .vmem S176x256 .bf16).view.set]{fullShare} f) ∗ (∃ f, (dst22 : Memref sig .tc .vmem S160x256 .bf16).view.loc (peer c 1 : Thread nD τ) ↦[(dst22 : Memref sig .tc .vmem S160x256 .bf16).view.set]{fullShare} f))
  | 2 => iprop((∃ f, (dst02 : Memref sig .tc .vmem S160x256 .bf16).view.loc (peer c 2 : Thread nD τ) ↦[(dst02 : Memref sig .tc .vmem S160x256 .bf16).view.set]{fullShare} f) ∗ (∃ f, (dst11 : Memref sig .tc .vmem S176x256 .bf16).view.loc (peer c 2 : Thread nD τ) ↦[(dst11 : Memref sig .tc .vmem S176x256 .bf16).view.set]{fullShare} f) ∗ (∃ f, (dst20 : Memref sig .tc .vmem S176x256 .bf16).view.loc (peer c 2 : Thread nD τ) ↦[(dst20 : Memref sig .tc .vmem S176x256 .bf16).view.set]{fullShare} f))

/-- Which transfer cell a DMA semaphore is: (is it a send cell, stage, row group). Semaphores 0-2 stage the windows. -/
def xferIx (q : DmaSem sig) : Option (Bool × Fin 3 × Fin 3) :=
  if h : 3 ≤ q.val ∧ q.val < 12 then some (true, ⟨(q.val - 3) / 3, by omega⟩, ⟨(q.val - 3) % 3, Nat.mod_lt _ (by decide)⟩)
  else if h : 12 ≤ q.val then some (false, ⟨(q.val - 12) / 3, by have := q.isLt; (have h21 : q.val < 21 := this); omega⟩, ⟨(q.val - 12) % 3, Nat.mod_lt _ (by decide)⟩)
  else none

theorem xferIx_send (d g : Fin 3) : xferIx (sendQ d g) = some (true, d, g) := by revert d g; decide
theorem xferIx_recv (d g : Fin 3) : xferIx (recvQ d g) = some (false, d, g) := by revert d g; decide

def xferPay (c : Dev nD) : Bool × Fin 3 × Fin 3 → sProp 𝕄
  | (true, d, g) => sendPay m c d g
  | (false, d, g) => recvPay m c d g

/-- The schedule. -/
def arRd : Rounds.Schedule (GSem nD τ sig) (Fin 3) 𝕄 where
  duties g r :=
    if r = 0 ∧ g.1.2 = .tc then
      (match g.2 with
        | .reg s => if s = barS then Finset.univ else ∅
        | .dma q => if (xferIx q).isSome then {0} else ∅)
    else ∅
  unitless _ := False
  amount g _ _ :=
    match g.2 with
    | .reg _ => 1
    | .dma q => match xferIx q with | some ix => creditOf ix.2.2 | none => 1
  payload g _ k :=
    match g.2 with
    | .reg s => if s = barS then barPay g.1.1 k else iprop(emp)
    | .dma q => match xferIx q with | some ix => xferPay m g.1.1 ix | none => iprop(emp)
  amount_pos g _ _ _ := by
    split
    · exact Nat.one_pos
    · split
      · exact creditOf_pos _
      · exact Nat.one_pos

end Cert.KernelIdeal.AR

end
-- ==== Proof.Tables.lean ====
/-
  The schedule's tables read at the cells, what each device owes at launch, and the order of waiting.

  A device waits on its barrier cell while it owes nine transfers (levels 2, 3, 4, above the barrier's 1); during
  stage d it waits on its own send cells (level 0) and on its receive cells of stage d (level 2 + d) while it owes
  the transfers of the later stages only (levels above 2 + d).
-/
import proofs.«900560_g7700000000000561_dist_matmul_of_ar_i_m512_n256_k256_v7x_i8_f32_1_alg».proof.Proof.Gen.KernelIdeal
import proofs.«900560_g7700000000000561_dist_matmul_of_ar_i_m512_n256_k256_v7x_i8_f32_1_alg».proof.Proof.Gen.KernelIdeal.Skeleton
import proofs.«900560_g7700000000000561_dist_matmul_of_ar_i_m512_n256_k256_v7x_i8_f32_1_alg».proof.Proof.Gen.KernelIdeal.Launch
import proofs.«900560_g7700000000000561_dist_matmul_of_ar_i_m512_n256_k256_v7x_i8_f32_1_alg».proof.Proof.Gen.KernelIdeal.Points
import proofs.«900560_g7700000000000561_dist_matmul_of_ar_i_m512_n256_k256_v7x_i8_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import proofs.«900560_g7700000000000561_dist_matmul_of_ar_i_m512_n256_k256_v7x_i8_f32_1_alg».proof.Proof.Mesh
import proofs.«900560_g7700000000000561_dist_matmul_of_ar_i_m512_n256_k256_v7x_i8_f32_1_alg».proof.Proof.Sched
import proofs.«900560_g7700000000000561_dist_matmul_of_ar_i_m512_n256_k256_v7x_i8_f32_1_alg».proof.Proof.Proto

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The tables -/

section Tables
variable (c : Dev nD) (d g : Fin 3)

theorem duties_bar : (arRd (F := F) m).duties (barCell c) 0 = Finset.univ := by
  dsimp only [arRd]; rw [if_pos ⟨rfl, rfl⟩]; exact if_pos rfl
theorem duties_send : (arRd (F := F) m).duties (sendCell c d g) 0 = {0} := by
  dsimp only [arRd]; rw [if_pos ⟨rfl, rfl⟩, xferIx_send]; rfl
theorem duties_recv : (arRd (F := F) m).duties (recvCell c d g) 0 = {0} := by
  dsimp only [arRd]; rw [if_pos ⟨rfl, rfl⟩, xferIx_recv]; rfl
theorem duties_later (x : GSem nD τ sig) : ∀ r, 1 ≤ r → (arRd (F := F) m).duties x r = ∅ :=
  fun r hr => by dsimp only [arRd]; rw [if_neg fun h => by omega]

theorem amount_bar (k : Fin 3) : (arRd (F := F) m).amount (barCell c) 0 k = 1 := rfl
theorem amount_send (k : Fin 3) : (arRd (F := F) m).amount (sendCell c d g) 0 k = creditOf g := by
  dsimp only [arRd]; rw [xferIx_send]
theorem amount_recv (k : Fin 3) : (arRd (F := F) m).amount (recvCell c d g) 0 k = creditOf g := by
  dsimp only [arRd]; rw [xferIx_recv]

theorem expect_bar : (arRd (F := F) m).expect (barCell c) 0 = 3 := by
  unfold Schedule.expect Schedule.amountOf
  rw [duties_bar, Finset.sum_congr rfl fun k _ => amount_bar m c k, Finset.sum_const, Finset.card_univ, Fintype.card_fin, smul_eq_mul]
theorem expect_send : (arRd (F := F) m).expect (sendCell c d g) 0 = creditOf g := by
  unfold Schedule.expect Schedule.amountOf; rw [duties_send, Finset.sum_singleton, amount_send]
theorem expect_recv : (arRd (F := F) m).expect (recvCell c d g) 0 = creditOf g := by
  unfold Schedule.expect Schedule.amountOf; rw [duties_recv, Finset.sum_singleton, amount_recv]

theorem payload_bar (k : Fin 3) : (arRd m).payload (barCell c) 0 k = barPay c k := by
  dsimp only [arRd]; exact if_pos rfl
theorem payload_send (k : Fin 3) : (arRd m).payload (sendCell c d g) 0 k = sendPay m c d g := by
  dsimp only [arRd]; rw [xferIx_send]; rfl
theorem payload_recv (k : Fin 3) : (arRd m).payload (recvCell c d g) 0 k = recvPay m c d g := by
  dsimp only [arRd]; rw [xferIx_recv]; rfl

end Tables

/-! ## What each device owes at launch -/

/-- The transfers of stage 2. -/
abbrev R2 (c : Dev nD) : CellTallies nD τ sig Unit := (tallyAt (recvCell (peer c 1) 2 2) () (creditOf 2)) + (tallyAt (recvCell (peer c 0) 2 1) () (creditOf 1)) + (tallyAt (recvCell (peer c 2) 2 0) () (creditOf 0))
/-- The transfers of stages 1 and 2. -/
abbrev R1 (c : Dev nD) : CellTallies nD τ sig Unit := R2 c + (tallyAt (recvCell (peer c 0) 1 2) () (creditOf 2)) + (tallyAt (recvCell (peer c 2) 1 1) () (creditOf 1)) + (tallyAt (recvCell (peer c 1) 1 0) () (creditOf 0))
/-- All nine transfers. -/
abbrev R0 (c : Dev nD) : CellTallies nD τ sig Unit := R1 c + (tallyAt (recvCell (peer c 2) 0 2) () (creditOf 2)) + (tallyAt (recvCell (peer c 1) 0 1) () (creditOf 1)) + (tallyAt (recvCell (peer c 0) 0 0) () (creditOf 0))
/-- At launch: the nine transfers and one unit on each partner's barrier cell (the first signal peels the last summand). -/
abbrev O₀ (c : Dev nD) : CellTallies nD τ sig Unit :=
  R0 c + tallyAt (barCell (peer c 2)) () 1 + tallyAt (barCell (peer c 1)) () 1 + tallyAt (barCell (peer c 0)) () 1

/-! ## Levels -/

def L (x : GSem nD τ sig) : Finset Unit := if x.1.2 = .tc then {()} else ∅
/-- Barrier cells at 1, the receive cells of stage d at 2 + d, everything else at 0. -/
def lv (x : GSem nD τ sig) (_ : Unit) : ℕ :=
  match x.2 with
  | .reg s => if s = barS then 1 else 0
  | .dma q => if 12 ≤ q.val then 2 + (q.val - 12) / 3 else 0

theorem L_of_ne (x : GSem nD τ sig) (h : x.1.2 ≠ .tc) : L x = ∅ := if_neg h
theorem L_tc (c : Dev nD) (sm : SemLoc sig) : L ((c : Thread nD τ), sm) = {()} := if_pos rfl

theorem lv_recv (c : Dev nD) (d g : Fin 3) : lv (recvCell c d g) () = 2 + d.val := by
  fin_cases d <;> fin_cases g <;> rfl
theorem lv_send (c : Dev nD) (d g : Fin 3) : lv (sendCell c d g) () = 0 := by
  fin_cases d <;> fin_cases g <;> rfl
theorem lv_bar (c : Dev nD) : lv (barCell c) () = 1 := rfl

theorem tallyAt_pos {x y : GSem nD τ sig} {n : ℕ} {u : Unit} (h : 0 < (tallyAt y () n : CellTallies nD τ sig Unit) x u) : x = y := by
  rw [tallyAt_apply] at h
  by_contra hn
  rw [if_neg (fun h' => hn h'.1)] at h
  exact Nat.lt_irrefl 0 h

/-- Where stage 2's debts lie. -/
theorem R2_pos {c : Dev nD} {x : GSem nD τ sig} {u : Unit} (h : 0 < R2 c x u) : L x = {()} ∧ 4 ≤ lv x u := by
  rcases Pipeline.add_pos_cases h with h | h
  · rcases Pipeline.add_pos_cases h with h | h
    · rw [tallyAt_pos h]; exact ⟨L_tc _ _, by rw [lv_recv]; decide⟩
    · rw [tallyAt_pos h]; exact ⟨L_tc _ _, by rw [lv_recv]; decide⟩
  · rw [tallyAt_pos h]; exact ⟨L_tc _ _, by rw [lv_recv]; decide⟩
/-- Where the debts of stages 1 and 2 lie. -/
theorem R1_pos {c : Dev nD} {x : GSem nD τ sig} {u : Unit} (h : 0 < R1 c x u) : L x = {()} ∧ 3 ≤ lv x u := by
  rcases Pipeline.add_pos_cases h with h | h
  · rcases Pipeline.add_pos_cases h with h | h
    · rcases Pipeline.add_pos_cases h with h | h
      · exact ⟨(R2_pos h).1, by have := (R2_pos h).2; omega⟩
      · rw [tallyAt_pos h]; exact ⟨L_tc _ _, by rw [lv_recv]; decide⟩
    · rw [tallyAt_pos h]; exact ⟨L_tc _ _, by rw [lv_recv]; decide⟩
  · rw [tallyAt_pos h]; exact ⟨L_tc _ _, by rw [lv_recv]; decide⟩
/-- Where all nine transfers' debts lie. -/
theorem R0_pos {c : Dev nD} {x : GSem nD τ sig} {u : Unit} (h : 0 < R0 c x u) : L x = {()} ∧ 2 ≤ lv x u := by
  rcases Pipeline.add_pos_cases h with h | h
  · rcases Pipeline.add_pos_cases h with h | h
    · rcases Pipeline.add_pos_cases h with h | h
      · exact ⟨(R1_pos h).1, by have := (R1_pos h).2; omega⟩
      · rw [tallyAt_pos h]; exact ⟨L_tc _ _, by rw [lv_recv]; decide⟩
    · rw [tallyAt_pos h]; exact ⟨L_tc _ _, by rw [lv_recv]; decide⟩
  · rw [tallyAt_pos h]; exact ⟨L_tc _ _, by rw [lv_recv]; decide⟩
/-- Where everything owed at launch lies. -/
theorem O₀_pos {c : Dev nD} {x : GSem nD τ sig} {u : Unit} (h : 0 < O₀ c x u) : L x = {()} ∧ 1 ≤ lv x u := by
  rcases Pipeline.add_pos_cases h with h | h
  · rcases Pipeline.add_pos_cases h with h | h
    · rcases Pipeline.add_pos_cases h with h | h
      · exact ⟨(R0_pos h).1, by have := (R0_pos h).2; omega⟩
      · rw [tallyAt_pos h]; exact ⟨L_tc _ _, by rw [lv_bar]⟩
    · rw [tallyAt_pos h]; exact ⟨L_tc _ _, by rw [lv_bar]⟩
  · rw [tallyAt_pos h]; exact ⟨L_tc _ _, by rw [lv_bar]⟩

/-- A wait on a cell of level `n` while everything owed lies above `n`. -/
theorem mayWait_above (c : Dev nD) (sm : SemLoc sig) (O : CellTallies nD τ sig Unit) (n : ℕ)
    (hn : lv ((c : Thread nD τ), sm) () = n)
    (hO : ∀ (x : GSem nD τ sig) (u : Unit), 0 < O x u → L x = {()} ∧ n + 1 ≤ lv x u) :
    (levAts L lv : sProp 𝕄) ⊢ MayWait (c : Thread nD τ) sm () O :=
  Pipeline.mayWait_of_levAts (by rw [L_tc]; exact Finset.mem_singleton_self _)
    (fun x u hx => ⟨by rw [(hO x u hx).1]; exact Finset.mem_singleton_self _, by rw [hn]; exact (hO x u hx).2⟩)

end Cert.KernelIdeal.AR

end
-- ==== Proof.Ghost.lean ====
/-
  What a device's thread holds when its body starts and when it ends.

  At the start: the invariants of the cells it touches (its own nineteen, its partners' barrier cells, and the nine
  receive cells of its partners that its transfers pay), that each of those cells is at its first round, its own
  position on its own cells, the tokens of the duties it pays (one barrier duty per partner, its nine send duties,
  the nine receive duties on its partners), the credit to wait with (three units on its barrier cell, each receive
  cell's transfer credit), and its two scratch buffers. At the end: the scratch buffers, and its eighteen transfer
  semaphores back at zero.
-/
import proofs.«900560_g7700000000000561_dist_matmul_of_ar_i_m512_n256_k256_v7x_i8_f32_1_alg».proof.Proof.Gen.KernelIdeal
import proofs.«900560_g7700000000000561_dist_matmul_of_ar_i_m512_n256_k256_v7x_i8_f32_1_alg».proof.Proof.Gen.KernelIdeal.Skeleton
import proofs.«900560_g7700000000000561_dist_matmul_of_ar_i_m512_n256_k256_v7x_i8_f32_1_alg».proof.Proof.Gen.KernelIdeal.Launch
import proofs.«900560_g7700000000000561_dist_matmul_of_ar_i_m512_n256_k256_v7x_i8_f32_1_alg».proof.Proof.Gen.KernelIdeal.Points
import proofs.«900560_g7700000000000561_dist_matmul_of_ar_i_m512_n256_k256_v7x_i8_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import proofs.«900560_g7700000000000561_dist_matmul_of_ar_i_m512_n256_k256_v7x_i8_f32_1_alg».proof.Proof.Mesh
import proofs.«900560_g7700000000000561_dist_matmul_of_ar_i_m512_n256_k256_v7x_i8_f32_1_alg».proof.Proof.Sched
import proofs.«900560_g7700000000000561_dist_matmul_of_ar_i_m512_n256_k256_v7x_i8_f32_1_alg».proof.Proof.Proto
import proofs.«900560_g7700000000000561_dist_matmul_of_ar_i_m512_n256_k256_v7x_i8_f32_1_alg».proof.Proof.Tables

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The cells by number -/

/-- A device's nineteen cells: 0 the barrier, 1-9 the send cells, 10-18 the receive cells. -/
abbrev csem : Fin 19 → SemLoc sig := fun i => if i.val = 0 then .reg barS else .dma ⟨i.val + 2, by have := i.isLt; show _ < 21; omega⟩
abbrev kcell (ck : Dev nD × Fin 19) : GSem nD τ sig := ((ck.1 : Thread nD τ), csem ck.2)
abbrev iBar : Fin 19 := 0
abbrev iSend (d g : Fin 3) : Fin 19 := ⟨1 + 3 * d.val + g.val, by have := d.isLt; have := g.isLt; omega⟩
abbrev iRecv (d g : Fin 3) : Fin 19 := ⟨10 + 3 * d.val + g.val, by have := d.isLt; have := g.isLt; omega⟩
/-- The eighteen transfer semaphores, the kernel's own. -/
abbrev osem : Fin 18 → SemLoc sig := fun i => .dma ⟨i.val + 3, by have := i.isLt; show _ < 21; omega⟩

theorem kcell_bar (c : Dev nD) : kcell (c, iBar) = barCell c := rfl
theorem kcell_send (c : Dev nD) (d g : Fin 3) : kcell (c, iSend d g) = sendCell c d g := by fin_cases d <;> fin_cases g <;> rfl
theorem kcell_recv (c : Dev nD) (d g : Fin 3) : kcell (c, iRecv d g) = recvCell c d g := by fin_cases d <;> fin_cases g <;> rfl

/-! ## The ghost state of a device -/

def invs (K : Dev nD × Fin 19 → ℕ) (c : Dev nD) : sProp 𝕄 :=
  iprop(cellInv ER (arRd m) (K (c, iBar)) (barCell c)
    ∗ cellInv ER (arRd m) (K (c, iSend 0 0)) (sendCell c 0 0)
    ∗ cellInv ER (arRd m) (K (c, iSend 0 1)) (sendCell c 0 1)
    ∗ cellInv ER (arRd m) (K (c, iSend 0 2)) (sendCell c 0 2)
    ∗ cellInv ER (arRd m) (K (c, iSend 1 0)) (sendCell c 1 0)
    ∗ cellInv ER (arRd m) (K (c, iSend 1 1)) (sendCell c 1 1)
    ∗ cellInv ER (arRd m) (K (c, iSend 1 2)) (sendCell c 1 2)
    ∗ cellInv ER (arRd m) (K (c, iSend 2 0)) (sendCell c 2 0)
    ∗ cellInv ER (arRd m) (K (c, iSend 2 1)) (sendCell c 2 1)
    ∗ cellInv ER (arRd m) (K (c, iSend 2 2)) (sendCell c 2 2)
    ∗ cellInv ER (arRd m) (K (c, iRecv 0 0)) (recvCell c 0 0)
    ∗ cellInv ER (arRd m) (K (c, iRecv 0 1)) (recvCell c 0 1)
    ∗ cellInv ER (arRd m) (K (c, iRecv 0 2)) (recvCell c 0 2)
    ∗ cellInv ER (arRd m) (K (c, iRecv 1 0)) (recvCell c 1 0)
    ∗ cellInv ER (arRd m) (K (c, iRecv 1 1)) (recvCell c 1 1)
    ∗ cellInv ER (arRd m) (K (c, iRecv 1 2)) (recvCell c 1 2)
    ∗ cellInv ER (arRd m) (K (c, iRecv 2 0)) (recvCell c 2 0)
    ∗ cellInv ER (arRd m) (K (c, iRecv 2 1)) (recvCell c 2 1)
    ∗ cellInv ER (arRd m) (K (c, iRecv 2 2)) (recvCell c 2 2)
    ∗ cellInv ER (arRd m) (K (peer c 0, iBar)) (barCell (peer c 0))
    ∗ cellInv ER (arRd m) (K (peer c 1, iBar)) (barCell (peer c 1))
    ∗ cellInv ER (arRd m) (K (peer c 2, iBar)) (barCell (peer c 2))
    ∗ cellInv ER (arRd m) (K (peer c 0, iRecv 0 0)) (recvCell (peer c 0) 0 0)
    ∗ cellInv ER (arRd m) (K (peer c 1, iRecv 0 1)) (recvCell (peer c 1) 0 1)
    ∗ cellInv ER (arRd m) (K (peer c 2, iRecv 0 2)) (recvCell (peer c 2) 0 2)
    ∗ cellInv ER (arRd m) (K (peer c 1, iRecv 1 0)) (recvCell (peer c 1) 1 0)
    ∗ cellInv ER (arRd m) (K (peer c 2, iRecv 1 1)) (recvCell (peer c 2) 1 1)
    ∗ cellInv ER (arRd m) (K (peer c 0, iRecv 1 2)) (recvCell (peer c 0) 1 2)
    ∗ cellInv ER (arRd m) (K (peer c 2, iRecv 2 0)) (recvCell (peer c 2) 2 0)
    ∗ cellInv ER (arRd m) (K (peer c 0, iRecv 2 1)) (recvCell (peer c 0) 2 1)
    ∗ cellInv ER (arRd m) (K (peer c 1, iRecv 2 2)) (recvCell (peer c 1) 2 2))

def marks (c : Dev nD) : sProp 𝕄 :=
  iprop(reached ER (barCell c) 0
    ∗ reached ER (sendCell c 0 0) 0
    ∗ reached ER (sendCell c 0 1) 0
    ∗ reached ER (sendCell c 0 2) 0
    ∗ reached ER (sendCell c 1 0) 0
    ∗ reached ER (sendCell c 1 1) 0
    ∗ reached ER (sendCell c 1 2) 0
    ∗ reached ER (sendCell c 2 0) 0
    ∗ reached ER (sendCell c 2 1) 0
    ∗ reached ER (sendCell c 2 2) 0
    ∗ reached ER (recvCell c 0 0) 0
    ∗ reached ER (recvCell c 0 1) 0
    ∗ reached ER (recvCell c 0 2) 0
    ∗ reached ER (recvCell c 1 0) 0
    ∗ reached ER (recvCell c 1 1) 0
    ∗ reached ER (recvCell c 1 2) 0
    ∗ reached ER (recvCell c 2 0) 0
    ∗ reached ER (recvCell c 2 1) 0
    ∗ reached ER (recvCell c 2 2) 0
    ∗ reached ER (barCell (peer c 0)) 0
    ∗ reached ER (barCell (peer c 1)) 0
    ∗ reached ER (barCell (peer c 2)) 0
    ∗ reached ER (recvCell (peer c 0) 0 0) 0
    ∗ reached ER (recvCell (peer c 1) 0 1) 0
    ∗ reached ER (recvCell (peer c 2) 0 2) 0
    ∗ reached ER (recvCell (peer c 1) 1 0) 0
    ∗ reached ER (recvCell (peer c 2) 1 1) 0
    ∗ reached ER (recvCell (peer c 0) 1 2) 0
    ∗ reached ER (recvCell (peer c 2) 2 0) 0
    ∗ reached ER (recvCell (peer c 0) 2 1) 0
    ∗ reached ER (recvCell (peer c 1) 2 2) 0)

def poss (c : Dev nD) : sProp 𝕄 :=
  iprop(atPos ER (barCell c) 0 ∅ 0
    ∗ atPos ER (sendCell c 0 0) 0 ∅ 0
    ∗ atPos ER (sendCell c 0 1) 0 ∅ 0
    ∗ atPos ER (sendCell c 0 2) 0 ∅ 0
    ∗ atPos ER (sendCell c 1 0) 0 ∅ 0
    ∗ atPos ER (sendCell c 1 1) 0 ∅ 0
    ∗ atPos ER (sendCell c 1 2) 0 ∅ 0
    ∗ atPos ER (sendCell c 2 0) 0 ∅ 0
    ∗ atPos ER (sendCell c 2 1) 0 ∅ 0
    ∗ atPos ER (sendCell c 2 2) 0 ∅ 0
    ∗ atPos ER (recvCell c 0 0) 0 ∅ 0
    ∗ atPos ER (recvCell c 0 1) 0 ∅ 0
    ∗ atPos ER (recvCell c 0 2) 0 ∅ 0
    ∗ atPos ER (recvCell c 1 0) 0 ∅ 0
    ∗ atPos ER (recvCell c 1 1) 0 ∅ 0
    ∗ atPos ER (recvCell c 1 2) 0 ∅ 0
    ∗ atPos ER (recvCell c 2 0) 0 ∅ 0
    ∗ atPos ER (recvCell c 2 1) 0 ∅ 0
    ∗ atPos ER (recvCell c 2 2) 0 ∅ 0)

def payToks (c : Dev nD) : sProp 𝕄 :=
  iprop(dutyTok ER (barCell (peer c 0)) 0 (0 : Fin 3)
    ∗ dutyTok ER (barCell (peer c 1)) 0 (1 : Fin 3)
    ∗ dutyTok ER (barCell (peer c 2)) 0 (2 : Fin 3)
    ∗ dutyTok ER (sendCell c 0 0) 0 (0 : Fin 3)
    ∗ dutyTok ER (sendCell c 0 1) 0 (0 : Fin 3)
    ∗ dutyTok ER (sendCell c 0 2) 0 (0 : Fin 3)
    ∗ dutyTok ER (sendCell c 1 0) 0 (0 : Fin 3)
    ∗ dutyTok ER (sendCell c 1 1) 0 (0 : Fin 3)
    ∗ dutyTok ER (sendCell c 1 2) 0 (0 : Fin 3)
    ∗ dutyTok ER (sendCell c 2 0) 0 (0 : Fin 3)
    ∗ dutyTok ER (sendCell c 2 1) 0 (0 : Fin 3)
    ∗ dutyTok ER (sendCell c 2 2) 0 (0 : Fin 3)
    ∗ dutyTok ER (recvCell (peer c 0) 0 0) 0 (0 : Fin 3)
    ∗ dutyTok ER (recvCell (peer c 1) 0 1) 0 (0 : Fin 3)
    ∗ dutyTok ER (recvCell (peer c 2) 0 2) 0 (0 : Fin 3)
    ∗ dutyTok ER (recvCell (peer c 1) 1 0) 0 (0 : Fin 3)
    ∗ dutyTok ER (recvCell (peer c 2) 1 1) 0 (0 : Fin 3)
    ∗ dutyTok ER (recvCell (peer c 0) 1 2) 0 (0 : Fin 3)
    ∗ dutyTok ER (recvCell (peer c 2) 2 0) 0 (0 : Fin 3)
    ∗ dutyTok ER (recvCell (peer c 0) 2 1) 0 (0 : Fin 3)
    ∗ dutyTok ER (recvCell (peer c 1) 2 2) 0 (0 : Fin 3))

def creds (c : Dev nD) : sProp 𝕄 :=
  iprop(cred (tallyAt (barCell c) () 3)
    ∗ cred (tallyAt (recvCell c 0 0) () (creditOf 0))
    ∗ cred (tallyAt (recvCell c 0 1) () (creditOf 1))
    ∗ cred (tallyAt (recvCell c 0 2) () (creditOf 2))
    ∗ cred (tallyAt (recvCell c 1 0) () (creditOf 0))
    ∗ cred (tallyAt (recvCell c 1 1) () (creditOf 1))
    ∗ cred (tallyAt (recvCell c 1 2) () (creditOf 2))
    ∗ cred (tallyAt (recvCell c 2 0) () (creditOf 0))
    ∗ cred (tallyAt (recvCell c 2 1) () (creditOf 1))
    ∗ cred (tallyAt (recvCell c 2 2) () (creditOf 2)))

def ownZero (c : Dev nD) : sProp 𝕄 :=
  iprop(semVal (sendCell c 0 0) 0
    ∗ semVal (sendCell c 0 1) 0
    ∗ semVal (sendCell c 0 2) 0
    ∗ semVal (sendCell c 1 0) 0
    ∗ semVal (sendCell c 1 1) 0
    ∗ semVal (sendCell c 1 2) 0
    ∗ semVal (sendCell c 2 0) 0
    ∗ semVal (sendCell c 2 1) 0
    ∗ semVal (sendCell c 2 2) 0
    ∗ semVal (recvCell c 0 0) 0
    ∗ semVal (recvCell c 0 1) 0
    ∗ semVal (recvCell c 0 2) 0
    ∗ semVal (recvCell c 1 0) 0
    ∗ semVal (recvCell c 1 1) 0
    ∗ semVal (recvCell c 1 2) 0
    ∗ semVal (recvCell c 2 0) 0
    ∗ semVal (recvCell c 2 1) 0
    ∗ semVal (recvCell c 2 2) 0)

instance invs_persistent (K : Dev nD × Fin 19 → ℕ) (c : Dev nD) : BI.Persistent (invs m K c) := by unfold invs; infer_instance
instance marks_persistent (c : Dev nD) : BI.Persistent (marks (F := F) c) := by unfold marks; infer_instance

def ghost (K : Dev nD × Fin 19 → ℕ) (c : Dev nD) : sProp 𝕄 :=
  iprop(invs m K c ∗ marks c ∗ poss c ∗ payToks c)

/-- What a device's body starts from, besides its buffers. -/
def start (c : Dev nD) : sProp 𝕄 :=
  iprop((∃ K, ghost m K c) ∗ creds c ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)
def Φ₁ (c : Dev nD) : sProp 𝕄 := iprop(scratch c ∗ ownZero c)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => tblk m c
    | ⟨1, _⟩ => wblk m c
    | ⟨2, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.AR

end
-- ==== Proof.Regions.lean ====
/-
  The running-sum buffer as its three row groups, the landing buffer as its nine regions (three slots of three row
  groups), as assertions: set algebra of rectangles.
-/
import proofs.«900560_g7700000000000561_dist_matmul_of_ar_i_m512_n256_k256_v7x_i8_f32_1_alg».proof.Proof.Gen.KernelIdeal
import proofs.«900560_g7700000000000561_dist_matmul_of_ar_i_m512_n256_k256_v7x_i8_f32_1_alg».proof.Proof.Gen.KernelIdeal.Skeleton
import proofs.«900560_g7700000000000561_dist_matmul_of_ar_i_m512_n256_k256_v7x_i8_f32_1_alg».proof.Proof.Gen.KernelIdeal.Launch
import proofs.«900560_g7700000000000561_dist_matmul_of_ar_i_m512_n256_k256_v7x_i8_f32_1_alg».proof.Proof.Gen.KernelIdeal.Points
import proofs.«900560_g7700000000000561_dist_matmul_of_ar_i_m512_n256_k256_v7x_i8_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import proofs.«900560_g7700000000000561_dist_matmul_of_ar_i_m512_n256_k256_v7x_i8_f32_1_alg».proof.Proof.Mesh
import proofs.«900560_g7700000000000561_dist_matmul_of_ar_i_m512_n256_k256_v7x_i8_f32_1_alg».proof.Proof.Sched

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- Slot `d` of the landing buffer, as the body loads it. -/
abbrev slotR0 : Rect S3x512x256 := Rect.unit (s := S3x512x256) ![0, 0, 0] S1x512x256.size inb_S3x512x256_S1x512x256_0_0_0
abbrev slotR1 : Rect S3x512x256 := Rect.unit (s := S3x512x256) ![1, 0, 0] S1x512x256.size inb_S3x512x256_S1x512x256_1_0_0
abbrev slotR2 : Rect S3x512x256 := Rect.unit (s := S3x512x256) ![2, 0, 0] S1x512x256.size inb_S3x512x256_S1x512x256_2_0_0

/-! ## Element sets of the views -/

theorem set_srcA : (srcA : Memref sig .tc .vmem S176x256 .bf16).view.set
    = (Rect.unit (s := S512x256) ![0, 0] S176x256.size inb_S512x256_S176x256_0_0).set :=
  View.set_slice_whole _ _
theorem set_srcB : (srcB : Memref sig .tc .vmem S176x256 .bf16).view.set
    = (Rect.unit (s := S512x256) ![176, 0] S176x256.size inb_S512x256_S176x256_176_0).set :=
  View.set_slice_whole _ _
theorem set_srcC : (srcC : Memref sig .tc .vmem S160x256 .bf16).view.set
    = (Rect.unit (s := S512x256) ![352, 0] S160x256.size inb_S512x256_S160x256_352_0).set :=
  View.set_slice_whole _ _
theorem set_dst00 : (dst00 : Memref sig .tc .vmem S176x256 .bf16).view.set
    = (Rect.unit (s := S3x512x256) ![0, 0, 0] S1x176x256.size inb_S3x512x256_S1x176x256_0_0_0).set :=
  (View.set_reshape _ _).trans (View.set_slice_whole _ _)
theorem set_dst01 : (dst01 : Memref sig .tc .vmem S176x256 .bf16).view.set
    = (Rect.unit (s := S3x512x256) ![0, 176, 0] S1x176x256.size inb_S3x512x256_S1x176x256_0_176_0).set :=
  (View.set_reshape _ _).trans (View.set_slice_whole _ _)
theorem set_dst02 : (dst02 : Memref sig .tc .vmem S160x256 .bf16).view.set
    = (Rect.unit (s := S3x512x256) ![0, 352, 0] S1x160x256.size inb_S3x512x256_S1x160x256_0_352_0).set :=
  (View.set_reshape _ _).trans (View.set_slice_whole _ _)
theorem set_dst10 : (dst10 : Memref sig .tc .vmem S176x256 .bf16).view.set
    = (Rect.unit (s := S3x512x256) ![1, 0, 0] S1x176x256.size inb_S3x512x256_S1x176x256_1_0_0).set :=
  (View.set_reshape _ _).trans (View.set_slice_whole _ _)
theorem set_dst11 : (dst11 : Memref sig .tc .vmem S176x256 .bf16).view.set
    = (Rect.unit (s := S3x512x256) ![1, 176, 0] S1x176x256.size inb_S3x512x256_S1x176x256_1_176_0).set :=
  (View.set_reshape _ _).trans (View.set_slice_whole _ _)
theorem set_dst12 : (dst12 : Memref sig .tc .vmem S160x256 .bf16).view.set
    = (Rect.unit (s := S3x512x256) ![1, 352, 0] S1x160x256.size inb_S3x512x256_S1x160x256_1_352_0).set :=
  (View.set_reshape _ _).trans (View.set_slice_whole _ _)
theorem set_dst20 : (dst20 : Memref sig .tc .vmem S176x256 .bf16).view.set
    = (Rect.unit (s := S3x512x256) ![2, 0, 0] S1x176x256.size inb_S3x512x256_S1x176x256_2_0_0).set :=
  (View.set_reshape _ _).trans (View.set_slice_whole _ _)
theorem set_dst21 : (dst21 : Memref sig .tc .vmem S176x256 .bf16).view.set
    = (Rect.unit (s := S3x512x256) ![2, 176, 0] S1x176x256.size inb_S3x512x256_S1x176x256_2_176_0).set :=
  (View.set_reshape _ _).trans (View.set_slice_whole _ _)
theorem set_dst22 : (dst22 : Memref sig .tc .vmem S160x256 .bf16).view.set
    = (Rect.unit (s := S3x512x256) ![2, 352, 0] S1x160x256.size inb_S3x512x256_S1x160x256_2_352_0).set :=
  (View.set_reshape _ _).trans (View.set_slice_whole _ _)

/-- A rectangle of the landing buffer, seen through the whole buffer's view, is itself. -/
theorem setOn_comm (M : Finset S3x512x256.Idx) :
    (commM : Memref sig .tc .vmem S3x512x256 .bf16).view.setOn M = M := Finset.map_refl

/-! ## Membership in a block of rows -/

/-- A block of whole rows of the running-sum buffer holds the indices whose row lies in its range. -/
theorem mem_rows2 {r0 n : Nat} {inb} {i : S512x256.Idx} :
    i ∈ (Rect.unit (s := S512x256) ![r0, 0] ![n, 256] inb).set ↔ r0 ≤ (i 0).val ∧ (i 0).val < r0 + n := by
  rw [Rect.mem_set_unit]
  constructor
  · intro h; exact h 0
  · intro h a
    fin_cases a
    · exact h
    · have := (i 1).isLt
      show 0 ≤ (i 1).val ∧ (i 1).val < 0 + 256
      have h256 : S512x256.size 1 = 256 := rfl
      omega

/-- A block of whole rows of one slot of the landing buffer holds the indices of that slot whose row lies in its
    range. -/
theorem mem_rows3 {d r0 n : Nat} {inb} {i : S3x512x256.Idx} :
    i ∈ (Rect.unit (s := S3x512x256) ![d, r0, 0] ![1, n, 256] inb).set
      ↔ (i 0).val = d ∧ r0 ≤ (i 1).val ∧ (i 1).val < r0 + n := by
  rw [Rect.mem_set_unit]
  constructor
  · intro h
    have h0 : d ≤ (i 0).val ∧ (i 0).val < d + 1 := h 0
    have h1 : r0 ≤ (i 1).val ∧ (i 1).val < r0 + n := h 1
    omega
  · intro h a
    fin_cases a
    · show d ≤ (i 0).val ∧ (i 0).val < d + 1
      omega
    · exact h.2
    · have := (i 2).isLt
      show 0 ≤ (i 2).val ∧ (i 2).val < 0 + 256
      have h256 : S3x512x256.size 2 = 256 := rfl
      omega

/-! ## The set identities -/

/-- Rows 0-175, 176-351 and 352-511 are all the rows. -/
theorem cover_acc : (Finset.univ : Finset S512x256.Idx)
    = (Rect.unit (s := S512x256) ![0, 0] S176x256.size inb_S512x256_S176x256_0_0).set ∪ ((Rect.unit (s := S512x256) ![176, 0] S176x256.size inb_S512x256_S176x256_176_0).set ∪ (Rect.unit (s := S512x256) ![352, 0] S160x256.size inb_S512x256_S160x256_352_0).set) := by
  ext i
  simp only [Finset.mem_univ, Finset.mem_union, mem_rows2, true_iff]
  have h : (i 0).val < 512 := (i 0).isLt
  omega

/-- In slot 0, rows 0-175, 176-351 and 352-511 are all the rows. -/
theorem cover_slot0 : slotR0.set
    = (Rect.unit (s := S3x512x256) ![0, 0, 0] S1x176x256.size inb_S3x512x256_S1x176x256_0_0_0).set ∪ ((Rect.unit (s := S3x512x256) ![0, 176, 0] S1x176x256.size inb_S3x512x256_S1x176x256_0_176_0).set ∪ (Rect.unit (s := S3x512x256) ![0, 352, 0] S1x160x256.size inb_S3x512x256_S1x160x256_0_352_0).set) := by
  ext i
  simp only [slotR0, slotR1, slotR2, Finset.mem_union, mem_rows3]
  have h : (i 1).val < 512 := (i 1).isLt
  omega

/-- In slot 1, rows 0-175, 176-351 and 352-511 are all the rows. -/
theorem cover_slot1 : slotR1.set
    = (Rect.unit (s := S3x512x256) ![1, 0, 0] S1x176x256.size inb_S3x512x256_S1x176x256_1_0_0).set ∪ ((Rect.unit (s := S3x512x256) ![1, 176, 0] S1x176x256.size inb_S3x512x256_S1x176x256_1_176_0).set ∪ (Rect.unit (s := S3x512x256) ![1, 352, 0] S1x160x256.size inb_S3x512x256_S1x160x256_1_352_0).set) := by
  ext i
  simp only [slotR0, slotR1, slotR2, Finset.mem_union, mem_rows3]
  have h : (i 1).val < 512 := (i 1).isLt
  omega

/-- In slot 2, rows 0-175, 176-351 and 352-511 are all the rows. -/
theorem cover_slot2 : slotR2.set
    = (Rect.unit (s := S3x512x256) ![2, 0, 0] S1x176x256.size inb_S3x512x256_S1x176x256_2_0_0).set ∪ ((Rect.unit (s := S3x512x256) ![2, 176, 0] S1x176x256.size inb_S3x512x256_S1x176x256_2_176_0).set ∪ (Rect.unit (s := S3x512x256) ![2, 352, 0] S1x160x256.size inb_S3x512x256_S1x160x256_2_352_0).set) := by
  ext i
  simp only [slotR0, slotR1, slotR2, Finset.mem_union, mem_rows3]
  have h : (i 1).val < 512 := (i 1).isLt
  omega

/-- Slots 0, 1 and 2 are the landing buffer. -/
theorem cover_comm : (Finset.univ : Finset S3x512x256.Idx) = slotR0.set ∪ (slotR1.set ∪ slotR2.set) := by
  ext i
  simp only [slotR0, slotR1, slotR2, Finset.mem_univ, Finset.mem_union, mem_rows3, true_iff]
  have h : (i 0).val < 3 := (i 0).isLt
  have h1 : (i 1).val < 512 := (i 1).isLt
  omega

/-! ## Three disjoint pieces -/

section Three
variable {ℓ : Loc nD τ sig} {S A B C : Finset (Idx ℓ)} {q : PosShare TreeShare} {f : Buf (Elt F) ℓ}

/-- A set of elements that is the union of three pairwise disjoint sets is held exactly when the three are. -/
theorem pointsTo_three (hS : S = A ∪ (B ∪ C)) (hAB : Disjoint A B) (hAC : Disjoint A C) (hBC : Disjoint B C) :
    (ℓ ↦[S]{q} f : sProp 𝕄) ⊣⊢ iprop((ℓ ↦[A]{q} f) ∗ (ℓ ↦[B]{q} f) ∗ (ℓ ↦[C]{q} f)) := by
  subst hS
  exact (pointsTo_union (Finset.disjoint_union_right.mpr ⟨hAB, hAC⟩)).trans (sep_congr_right (pointsTo_union hBC))

end Three

/-! ## Cutting and joining -/

/-- The running sum is its three row groups. -/
theorem acc_split (c : Dev nD) (f : Buf (Elt F) ((accM : Memref sig .tc .vmem S512x256 .bf16).view.loc (c : Thread nD τ))) :
    (((accM : Memref sig .tc .vmem S512x256 .bf16).view.loc (c : Thread nD τ) ↦{fullShare} f : sProp 𝕄))
      ⊣⊢ iprop(((srcA : Memref sig .tc .vmem S176x256 .bf16).view.loc (c : Thread nD τ) ↦[(srcA : Memref sig .tc .vmem S176x256 .bf16).view.set]{fullShare} f)
        ∗ ((srcB : Memref sig .tc .vmem S176x256 .bf16).view.loc (c : Thread nD τ) ↦[(srcB : Memref sig .tc .vmem S176x256 .bf16).view.set]{fullShare} f)
        ∗ ((srcC : Memref sig .tc .vmem S160x256 .bf16).view.loc (c : Thread nD τ) ↦[(srcC : Memref sig .tc .vmem S160x256 .bf16).view.set]{fullShare} f)) := by
  refine pointsTo_three ?_ ?_ ?_ ?_
  · rw [set_srcA, set_srcB, set_srcC]; exact cover_acc
  · rw [set_srcA, set_srcB]; exact Rect.unit_disjoint 0 (Or.inl (Nat.le_refl _))
  · rw [set_srcA, set_srcC]; exact Rect.unit_disjoint 0 (Or.inl (by decide))
  · rw [set_srcB, set_srcC]; exact Rect.unit_disjoint 0 (Or.inl (Nat.le_refl _))

/-- The three row groups of slot 0 are the slot. -/
theorem slot_join0 (c : Dev nD) (f : Buf (Elt F) ((commM : Memref sig .tc .vmem S3x512x256 .bf16).view.loc (c : Thread nD τ))) :
    (iprop(((dst00 : Memref sig .tc .vmem S176x256 .bf16).view.loc (c : Thread nD τ) ↦[(dst00 : Memref sig .tc .vmem S176x256 .bf16).view.set]{fullShare} f)
        ∗ ((dst01 : Memref sig .tc .vmem S176x256 .bf16).view.loc (c : Thread nD τ) ↦[(dst01 : Memref sig .tc .vmem S176x256 .bf16).view.set]{fullShare} f)
        ∗ ((dst02 : Memref sig .tc .vmem S160x256 .bf16).view.loc (c : Thread nD τ) ↦[(dst02 : Memref sig .tc .vmem S160x256 .bf16).view.set]{fullShare} f)) : sProp 𝕄)
      ⊣⊢ ((commM : Memref sig .tc .vmem S3x512x256 .bf16).view.loc (c : Thread nD τ) ↦[(commM : Memref sig .tc .vmem S3x512x256 .bf16).view.setOn slotR0.set]{fullShare} f) := by
  refine (pointsTo_three ?_ ?_ ?_ ?_).symm
  · rw [setOn_comm, set_dst00, set_dst01, set_dst02]; exact cover_slot0
  · rw [set_dst00, set_dst01]; exact Rect.unit_disjoint 1 (Or.inl (Nat.le_refl _))
  · rw [set_dst00, set_dst02]; exact Rect.unit_disjoint 1 (Or.inl (by decide))
  · rw [set_dst01, set_dst02]; exact Rect.unit_disjoint 1 (Or.inl (Nat.le_refl _))

/-- The three row groups of slot 1 are the slot. -/
theorem slot_join1 (c : Dev nD) (f : Buf (Elt F) ((commM : Memref sig .tc .vmem S3x512x256 .bf16).view.loc (c : Thread nD τ))) :
    (iprop(((dst10 : Memref sig .tc .vmem S176x256 .bf16).view.loc (c : Thread nD τ) ↦[(dst10 : Memref sig .tc .vmem S176x256 .bf16).view.set]{fullShare} f)
        ∗ ((dst11 : Memref sig .tc .vmem S176x256 .bf16).view.loc (c : Thread nD τ) ↦[(dst11 : Memref sig .tc .vmem S176x256 .bf16).view.set]{fullShare} f)
        ∗ ((dst12 : Memref sig .tc .vmem S160x256 .bf16).view.loc (c : Thread nD τ) ↦[(dst12 : Memref sig .tc .vmem S160x256 .bf16).view.set]{fullShare} f)) : sProp 𝕄)
      ⊣⊢ ((commM : Memref sig .tc .vmem S3x512x256 .bf16).view.loc (c : Thread nD τ) ↦[(commM : Memref sig .tc .vmem S3x512x256 .bf16).view.setOn slotR1.set]{fullShare} f) := by
  refine (pointsTo_three ?_ ?_ ?_ ?_).symm
  · rw [setOn_comm, set_dst10, set_dst11, set_dst12]; exact cover_slot1
  · rw [set_dst10, set_dst11]; exact Rect.unit_disjoint 1 (Or.inl (Nat.le_refl _))
  · rw [set_dst10, set_dst12]; exact Rect.unit_disjoint 1 (Or.inl (by decide))
  · rw [set_dst11, set_dst12]; exact Rect.unit_disjoint 1 (Or.inl (Nat.le_refl _))

/-- The three row groups of slot 2 are the slot. -/
theorem slot_join2 (c : Dev nD) (f : Buf (Elt F) ((commM : Memref sig .tc .vmem S3x512x256 .bf16).view.loc (c : Thread nD τ))) :
    (iprop(((dst20 : Memref sig .tc .vmem S176x256 .bf16).view.loc (c : Thread nD τ) ↦[(dst20 : Memref sig .tc .vmem S176x256 .bf16).view.set]{fullShare} f)
        ∗ ((dst21 : Memref sig .tc .vmem S176x256 .bf16).view.loc (c : Thread nD τ) ↦[(dst21 : Memref sig .tc .vmem S176x256 .bf16).view.set]{fullShare} f)
        ∗ ((dst22 : Memref sig .tc .vmem S160x256 .bf16).view.loc (c : Thread nD τ) ↦[(dst22 : Memref sig .tc .vmem S160x256 .bf16).view.set]{fullShare} f)) : sProp 𝕄)
      ⊣⊢ ((commM : Memref sig .tc .vmem S3x512x256 .bf16).view.loc (c : Thread nD τ) ↦[(commM : Memref sig .tc .vmem S3x512x256 .bf16).view.setOn slotR2.set]{fullShare} f) := by
  refine (pointsTo_three ?_ ?_ ?_ ?_).symm
  · rw [setOn_comm, set_dst20, set_dst21, set_dst22]; exact cover_slot2
  · rw [set_dst20, set_dst21]; exact Rect.unit_disjoint 1 (Or.inl (Nat.le_refl _))
  · rw [set_dst20, set_dst22]; exact Rect.unit_disjoint 1 (Or.inl (by decide))
  · rw [set_dst21, set_dst22]; exact Rect.unit_disjoint 1 (Or.inl (Nat.le_refl _))

/-- The landing buffer is its three slots. -/
theorem comm_split (c : Dev nD) (f : Buf (Elt F) ((commM : Memref sig .tc .vmem S3x512x256 .bf16).view.loc (c : Thread nD τ))) :
    (((commM : Memref sig .tc .vmem S3x512x256 .bf16).view.loc (c : Thread nD τ) ↦{fullShare} f : sProp 𝕄))
      ⊣⊢ iprop(((commM : Memref sig .tc .vmem S3x512x256 .bf16).view.loc (c : Thread nD τ) ↦[(commM : Memref sig .tc .vmem S3x512x256 .bf16).view.setOn slotR0.set]{fullShare} f)
        ∗ ((commM : Memref sig .tc .vmem S3x512x256 .bf16).view.loc (c : Thread nD τ) ↦[(commM : Memref sig .tc .vmem S3x512x256 .bf16).view.setOn slotR1.set]{fullShare} f)
        ∗ ((commM : Memref sig .tc .vmem S3x512x256 .bf16).view.loc (c : Thread nD τ) ↦[(commM : Memref sig .tc .vmem S3x512x256 .bf16).view.setOn slotR2.set]{fullShare} f)) := by
  refine pointsTo_three ?_ ?_ ?_ ?_
  · rw [setOn_comm, setOn_comm, setOn_comm]; exact cover_comm
  · rw [setOn_comm, setOn_comm]; exact Rect.unit_disjoint 0 (Or.inl (Nat.le_refl _))
  · rw [setOn_comm, setOn_comm]; exact Rect.unit_disjoint 0 (Or.inl (by decide))
  · rw [setOn_comm, setOn_comm]; exact Rect.unit_disjoint 0 (Or.inl (Nat.le_refl _))

end Cert.KernelIdeal.AR

end
-- ==== Proof.Landing.lean ====
/-
  What a transfer's landing holds, element by element, and what a slot reads back as: the index arithmetic of a
  row-group slice of the running sum laid into the same rows of a slot.
-/
import proofs.«900560_g7700000000000561_dist_matmul_of_ar_i_m512_n256_k256_v7x_i8_f32_1_alg».proof.Proof.Gen.KernelIdeal
import proofs.«900560_g7700000000000561_dist_matmul_of_ar_i_m512_n256_k256_v7x_i8_f32_1_alg».proof.Proof.Gen.KernelIdeal.Skeleton
import proofs.«900560_g7700000000000561_dist_matmul_of_ar_i_m512_n256_k256_v7x_i8_f32_1_alg».proof.Proof.Gen.KernelIdeal.Launch
import proofs.«900560_g7700000000000561_dist_matmul_of_ar_i_m512_n256_k256_v7x_i8_f32_1_alg».proof.Proof.Gen.KernelIdeal.Points
import proofs.«900560_g7700000000000561_dist_matmul_of_ar_i_m512_n256_k256_v7x_i8_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import Idealize.ShloMosaic.Lib.ValueLayout
import proofs.«900560_g7700000000000561_dist_matmul_of_ar_i_m512_n256_k256_v7x_i8_f32_1_alg».proof.Proof.Mesh
import proofs.«900560_g7700000000000561_dist_matmul_of_ar_i_m512_n256_k256_v7x_i8_f32_1_alg».proof.Proof.Sched
import proofs.«900560_g7700000000000561_dist_matmul_of_ar_i_m512_n256_k256_v7x_i8_f32_1_alg».proof.Proof.Regions

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 16384

/-! ## Row groups -/

theorem grp_lo {i : ℕ} (h : i < 176) : grp i = 0 := by unfold grp; rw [if_pos h]
theorem grp_mid {i : ℕ} (h1 : 176 ≤ i) (h2 : i < 352) : grp i = 1 := by
  unfold grp; rw [if_neg (by omega), if_pos h2]
theorem grp_hi {i : ℕ} (h : 352 ≤ i) : grp i = 2 := by
  unfold grp; rw [if_neg (by omega), if_neg (by omega)]

/-! ## Where a row-group slice sits -/

/-- The rows `r0 .. r0+n-1` of the running sum. -/
abbrev srcOf (r0 n : ℕ) (inbS : ∀ a, (![r0, 0] : Fin 2 → ℕ) a + (![n, 256] : Fin 2 → ℕ) a ≤ S512x256.size a) :
    Memref sig .tc .vmem ⟨2, ![n, 256]⟩ .bf16 :=
  accM.slice (Rect.unit (s := S512x256) ![r0, 0] ![n, 256] inbS) (fun _ => rfl)

/-- The rows `r0 .. r0+n-1` of slot `d`, the slot axis dropped. -/
abbrev dstOf (d r0 n : ℕ) (inbD : ∀ a, (![d, r0, 0] : Fin 3 → ℕ) a + (![1, n, 256] : Fin 3 → ℕ) a ≤ S3x512x256.size a)
    (sq : (⟨3, ![1, n, 256]⟩ : Shape).Squeezes ⟨2, ![n, 256]⟩) :
    Memref sig .tc .vmem ⟨2, ![n, 256]⟩ .bf16 :=
  (commM.slice (Rect.unit (s := S3x512x256) ![d, r0, 0] ![1, n, 256] inbD) (fun _ => rfl)).squeeze ⟨2, ![n, 256]⟩ sq

/-- Index `(p, q)` of the slice of the running sum is its element `(r0 + p, q)`. -/
theorem src_emb (r0 n : ℕ) (inbS : ∀ a, (![r0, 0] : Fin 2 → ℕ) a + (![n, 256] : Fin 2 → ℕ) a ≤ S512x256.size a)
    (p : Fin n) (q : Fin 256) :
    (srcOf r0 n inbS).view.emb (ix2 p q)
      = (ix2 (⟨r0 + p.val, by have h : r0 + n ≤ 512 := inbS 0; have := p.isLt; omega⟩ : Fin 512) q : S512x256.Idx) := by
  funext a
  match a with
  | ⟨0, _⟩ => apply Fin.ext; show r0 + 1 * p.val = r0 + p.val; omega
  | ⟨1, _⟩ => apply Fin.ext; show 0 + 1 * q.val = q.val; omega

/-- Index `(p, q)` of the slice of slot `d` is the landing buffer's element `(d, r0 + p, q)`: the dropped axis reads 0
    inside the slice, which starts at `d`. -/
theorem dst_emb (d r0 n : ℕ) (inbD : ∀ a, (![d, r0, 0] : Fin 3 → ℕ) a + (![1, n, 256] : Fin 3 → ℕ) a ≤ S3x512x256.size a)
    (sq : (⟨3, ![1, n, 256]⟩ : Shape).Squeezes ⟨2, ![n, 256]⟩) (p : Fin n) (q : Fin 256) :
    (dstOf d r0 n inbD sq).view.emb (ix2 p q)
      = (ix3 (⟨d, by have h : d + 1 ≤ 3 := inbD 0; omega⟩ : Fin 3)
          (⟨r0 + p.val, by have h : r0 + n ≤ 512 := inbD 1; have := p.isLt; omega⟩ : Fin 512) q : S3x512x256.Idx) := by
  show (Rect.unit (s := S3x512x256) ![d, r0, 0] ![1, n, 256] inbD).emb (Shape.reshapeEquiv sq.numel_eq (ix2 p q)) = _
  rw [reshapeEquiv_ix2_1ab]
  funext a
  match a with
  | ⟨0, _⟩ => apply Fin.ext; show d + 1 * 0 = d; omega
  | ⟨1, _⟩ => apply Fin.ext; show r0 + 1 * p.val = r0 + p.val; omega
  | ⟨2, _⟩ => apply Fin.ext; show 0 + 1 * q.val = q.val; omega

/-! ## What a landing holds -/

/-- Rows `r0 .. r0+n-1` of device `c`'s running sum before stage `d`, landed in the same rows of slot `d` of the
    partner `k` those rows are exchanged with, are that part of the partner's filled slots: at element `(d, r0 + p, q)`
    the partner's slot holds the running sum of ITS partner `k`, which is `c`. -/
theorem landing_core (d r0 n : ℕ) (k : Fin 3)
    (inbS : ∀ a, (![r0, 0] : Fin 2 → ℕ) a + (![n, 256] : Fin 2 → ℕ) a ≤ S512x256.size a)
    (inbD : ∀ a, (![d, r0, 0] : Fin 3 → ℕ) a + (![1, n, 256] : Fin 3 → ℕ) a ≤ S3x512x256.size a)
    (sq : (⟨3, ![1, n, 256]⟩ : Shape).Squeezes ⟨2, ![n, 256]⟩)
    (hk : ∀ p : Fin n, viaN d (grp (r0 + p.val)) = k)
    (c : Dev nD) (fd : Buf (Elt F) ((dstOf d r0 n inbD sq).view.loc (peer c k : Thread nD τ))) :
    (((dstOf d r0 n inbD sq).view.loc (peer c k : Thread nD τ) ↦[(dstOf d r0 n inbD sq).view.set]{fullShare}
        ((dstOf d r0 n inbD sq).view.write (Elt F) fd ((srcOf r0 n inbS).view.read (Elt F) (accV m d c)) Finset.univ) : sProp 𝕄))
      = ((dstOf d r0 n inbD sq).view.loc (peer c k : Thread nD τ) ↦[(dstOf d r0 n inbD sq).view.set]{fullShare} commC m (peer c k)) := by
  refine BI.Region.is_congr ?_
  intro i hi
  obtain ⟨y, rfl⟩ := View.exists_emb_of_mem_set _ hi
  rw [View.write_emb_of_mem _ _ (Finset.mem_univ y)]
  obtain ⟨p, q, rfl⟩ : ∃ p q, y = ix2 p q := ⟨y 0, y 1, eq_ix2 y⟩
  rw [View.read_apply, cast_cast, cast_eq, src_emb, dst_emb]
  show accV m d c _ = accV m d (peer (peer c k) (viaN d (grp (r0 + p.val)))) _
  rw [hk p, peer_peer]

/-- The rows of group 0 of device `c`'s running sum before stage 0, landed in partner 0's slot 0, are that part of the partner's filled slots. -/
theorem landing00 (c : Dev nD) (fd : Buf (Elt F) ((dst00 : Memref sig .tc .vmem S176x256 .bf16).view.loc (peer c 0 : Thread nD τ))) :
    (((dst00 : Memref sig .tc .vmem S176x256 .bf16).view.loc (peer c 0 : Thread nD τ) ↦[(dst00 : Memref sig .tc .vmem S176x256 .bf16).view.set]{fullShare} ((dst00 : Memref sig .tc .vmem S176x256 .bf16).view.write (Elt F) fd ((srcA : Memref sig .tc .vmem S176x256 .bf16).view.read (Elt F) (accV m 0 c)) Finset.univ) : sProp 𝕄))
      = ((dst00 : Memref sig .tc .vmem S176x256 .bf16).view.loc (peer c 0 : Thread nD τ) ↦[(dst00 : Memref sig .tc .vmem S176x256 .bf16).view.set]{fullShare} commC m (peer c 0)) :=
  landing_core m 0 0 176 0 inb_S512x256_S176x256_0_0 inb_S3x512x256_S1x176x256_0_0_0 squeezes_S1x176x256_S176x256
    (fun p => by rw [grp_lo (by have := p.isLt; omega)]; rfl) c fd
/-- The rows of group 1 of device `c`'s running sum before stage 0, landed in partner 1's slot 0, are that part of the partner's filled slots. -/
theorem landing01 (c : Dev nD) (fd : Buf (Elt F) ((dst01 : Memref sig .tc .vmem S176x256 .bf16).view.loc (peer c 1 : Thread nD τ))) :
    (((dst01 : Memref sig .tc .vmem S176x256 .bf16).view.loc (peer c 1 : Thread nD τ) ↦[(dst01 : Memref sig .tc .vmem S176x256 .bf16).view.set]{fullShare} ((dst01 : Memref sig .tc .vmem S176x256 .bf16).view.write (Elt F) fd ((srcB : Memref sig .tc .vmem S176x256 .bf16).view.read (Elt F) (accV m 0 c)) Finset.univ) : sProp 𝕄))
      = ((dst01 : Memref sig .tc .vmem S176x256 .bf16).view.loc (peer c 1 : Thread nD τ) ↦[(dst01 : Memref sig .tc .vmem S176x256 .bf16).view.set]{fullShare} commC m (peer c 1)) :=
  landing_core m 0 176 176 1 inb_S512x256_S176x256_176_0 inb_S3x512x256_S1x176x256_0_176_0 squeezes_S1x176x256_S176x256
    (fun p => by rw [grp_mid (by omega) (by have := p.isLt; omega)]; rfl) c fd
/-- The rows of group 2 of device `c`'s running sum before stage 0, landed in partner 2's slot 0, are that part of the partner's filled slots. -/
theorem landing02 (c : Dev nD) (fd : Buf (Elt F) ((dst02 : Memref sig .tc .vmem S160x256 .bf16).view.loc (peer c 2 : Thread nD τ))) :
    (((dst02 : Memref sig .tc .vmem S160x256 .bf16).view.loc (peer c 2 : Thread nD τ) ↦[(dst02 : Memref sig .tc .vmem S160x256 .bf16).view.set]{fullShare} ((dst02 : Memref sig .tc .vmem S160x256 .bf16).view.write (Elt F) fd ((srcC : Memref sig .tc .vmem S160x256 .bf16).view.read (Elt F) (accV m 0 c)) Finset.univ) : sProp 𝕄))
      = ((dst02 : Memref sig .tc .vmem S160x256 .bf16).view.loc (peer c 2 : Thread nD τ) ↦[(dst02 : Memref sig .tc .vmem S160x256 .bf16).view.set]{fullShare} commC m (peer c 2)) :=
  landing_core m 0 352 160 2 inb_S512x256_S160x256_352_0 inb_S3x512x256_S1x160x256_0_352_0 squeezes_S1x160x256_S160x256
    (fun p => by rw [grp_hi (by omega)]; rfl) c fd
/-- The rows of group 0 of device `c`'s running sum before stage 1, landed in partner 1's slot 1, are that part of the partner's filled slots. -/
theorem landing10 (c : Dev nD) (fd : Buf (Elt F) ((dst10 : Memref sig .tc .vmem S176x256 .bf16).view.loc (peer c 1 : Thread nD τ))) :
    (((dst10 : Memref sig .tc .vmem S176x256 .bf16).view.loc (peer c 1 : Thread nD τ) ↦[(dst10 : Memref sig .tc .vmem S176x256 .bf16).view.set]{fullShare} ((dst10 : Memref sig .tc .vmem S176x256 .bf16).view.write (Elt F) fd ((srcA : Memref sig .tc .vmem S176x256 .bf16).view.read (Elt F) (accV m 1 c)) Finset.univ) : sProp 𝕄))
      = ((dst10 : Memref sig .tc .vmem S176x256 .bf16).view.loc (peer c 1 : Thread nD τ) ↦[(dst10 : Memref sig .tc .vmem S176x256 .bf16).view.set]{fullShare} commC m (peer c 1)) :=
  landing_core m 1 0 176 1 inb_S512x256_S176x256_0_0 inb_S3x512x256_S1x176x256_1_0_0 squeezes_S1x176x256_S176x256
    (fun p => by rw [grp_lo (by have := p.isLt; omega)]; rfl) c fd
/-- The rows of group 1 of device `c`'s running sum before stage 1, landed in partner 2's slot 1, are that part of the partner's filled slots. -/
theorem landing11 (c : Dev nD) (fd : Buf (Elt F) ((dst11 : Memref sig .tc .vmem S176x256 .bf16).view.loc (peer c 2 : Thread nD τ))) :
    (((dst11 : Memref sig .tc .vmem S176x256 .bf16).view.loc (peer c 2 : Thread nD τ) ↦[(dst11 : Memref sig .tc .vmem S176x256 .bf16).view.set]{fullShare} ((dst11 : Memref sig .tc .vmem S176x256 .bf16).view.write (Elt F) fd ((srcB : Memref sig .tc .vmem S176x256 .bf16).view.read (Elt F) (accV m 1 c)) Finset.univ) : sProp 𝕄))
      = ((dst11 : Memref sig .tc .vmem S176x256 .bf16).view.loc (peer c 2 : Thread nD τ) ↦[(dst11 : Memref sig .tc .vmem S176x256 .bf16).view.set]{fullShare} commC m (peer c 2)) :=
  landing_core m 1 176 176 2 inb_S512x256_S176x256_176_0 inb_S3x512x256_S1x176x256_1_176_0 squeezes_S1x176x256_S176x256
    (fun p => by rw [grp_mid (by omega) (by have := p.isLt; omega)]; rfl) c fd
/-- The rows of group 2 of device `c`'s running sum before stage 1, landed in partner 0's slot 1, are that part of the partner's filled slots. -/
theorem landing12 (c : Dev nD) (fd : Buf (Elt F) ((dst12 : Memref sig .tc .vmem S160x256 .bf16).view.loc (peer c 0 : Thread nD τ))) :
    (((dst12 : Memref sig .tc .vmem S160x256 .bf16).view.loc (peer c 0 : Thread nD τ) ↦[(dst12 : Memref sig .tc .vmem S160x256 .bf16).view.set]{fullShare} ((dst12 : Memref sig .tc .vmem S160x256 .bf16).view.write (Elt F) fd ((srcC : Memref sig .tc .vmem S160x256 .bf16).view.read (Elt F) (accV m 1 c)) Finset.univ) : sProp 𝕄))
      = ((dst12 : Memref sig .tc .vmem S160x256 .bf16).view.loc (peer c 0 : Thread nD τ) ↦[(dst12 : Memref sig .tc .vmem S160x256 .bf16).view.set]{fullShare} commC m (peer c 0)) :=
  landing_core m 1 352 160 0 inb_S512x256_S160x256_352_0 inb_S3x512x256_S1x160x256_1_352_0 squeezes_S1x160x256_S160x256
    (fun p => by rw [grp_hi (by omega)]; rfl) c fd
/-- The rows of group 0 of device `c`'s running sum before stage 2, landed in partner 2's slot 2, are that part of the partner's filled slots. -/
theorem landing20 (c : Dev nD) (fd : Buf (Elt F) ((dst20 : Memref sig .tc .vmem S176x256 .bf16).view.loc (peer c 2 : Thread nD τ))) :
    (((dst20 : Memref sig .tc .vmem S176x256 .bf16).view.loc (peer c 2 : Thread nD τ) ↦[(dst20 : Memref sig .tc .vmem S176x256 .bf16).view.set]{fullShare} ((dst20 : Memref sig .tc .vmem S176x256 .bf16).view.write (Elt F) fd ((srcA : Memref sig .tc .vmem S176x256 .bf16).view.read (Elt F) (accV m 2 c)) Finset.univ) : sProp 𝕄))
      = ((dst20 : Memref sig .tc .vmem S176x256 .bf16).view.loc (peer c 2 : Thread nD τ) ↦[(dst20 : Memref sig .tc .vmem S176x256 .bf16).view.set]{fullShare} commC m (peer c 2)) :=
  landing_core m 2 0 176 2 inb_S512x256_S176x256_0_0 inb_S3x512x256_S1x176x256_2_0_0 squeezes_S1x176x256_S176x256
    (fun p => by rw [grp_lo (by have := p.isLt; omega)]; rfl) c fd
/-- The rows of group 1 of device `c`'s running sum before stage 2, landed in partner 0's slot 2, are that part of the partner's filled slots. -/
theorem landing21 (c : Dev nD) (fd : Buf (Elt F) ((dst21 : Memref sig .tc .vmem S176x256 .bf16).view.loc (peer c 0 : Thread nD τ))) :
    (((dst21 : Memref sig .tc .vmem S176x256 .bf16).view.loc (peer c 0 : Thread nD τ) ↦[(dst21 : Memref sig .tc .vmem S176x256 .bf16).view.set]{fullShare} ((dst21 : Memref sig .tc .vmem S176x256 .bf16).view.write (Elt F) fd ((srcB : Memref sig .tc .vmem S176x256 .bf16).view.read (Elt F) (accV m 2 c)) Finset.univ) : sProp 𝕄))
      = ((dst21 : Memref sig .tc .vmem S176x256 .bf16).view.loc (peer c 0 : Thread nD τ) ↦[(dst21 : Memref sig .tc .vmem S176x256 .bf16).view.set]{fullShare} commC m (peer c 0)) :=
  landing_core m 2 176 176 0 inb_S512x256_S176x256_176_0 inb_S3x512x256_S1x176x256_2_176_0 squeezes_S1x176x256_S176x256
    (fun p => by rw [grp_mid (by omega) (by have := p.isLt; omega)]; rfl) c fd
/-- The rows of group 2 of device `c`'s running sum before stage 2, landed in partner 1's slot 2, are that part of the partner's filled slots. -/
theorem landing22 (c : Dev nD) (fd : Buf (Elt F) ((dst22 : Memref sig .tc .vmem S160x256 .bf16).view.loc (peer c 1 : Thread nD τ))) :
    (((dst22 : Memref sig .tc .vmem S160x256 .bf16).view.loc (peer c 1 : Thread nD τ) ↦[(dst22 : Memref sig .tc .vmem S160x256 .bf16).view.set]{fullShare} ((dst22 : Memref sig .tc .vmem S160x256 .bf16).view.write (Elt F) fd ((srcC : Memref sig .tc .vmem S160x256 .bf16).view.read (Elt F) (accV m 2 c)) Finset.univ) : sProp 𝕄))
      = ((dst22 : Memref sig .tc .vmem S160x256 .bf16).view.loc (peer c 1 : Thread nD τ) ↦[(dst22 : Memref sig .tc .vmem S160x256 .bf16).view.set]{fullShare} commC m (peer c 1)) :=
  landing_core m 2 352 160 1 inb_S512x256_S160x256_352_0 inb_S3x512x256_S1x160x256_2_352_0 squeezes_S1x160x256_S160x256
    (fun p => by rw [grp_hi (by omega)]; rfl) c fd

/-! ## Reading a slot back -/

/-- Slot `d`, loaded whole through the unit rectangle at `(d, 0, 0)` and seen as 512 x 256, is `slotV d`. -/
theorem read_slot_core (d : ℕ) (inb : ∀ a, (![d, 0, 0] : Fin 3 → ℕ) a + S1x512x256.size a ≤ S3x512x256.size a) (c : Dev nD) :
    shapeCast S512x256 ((commM : Memref sig .tc .vmem S3x512x256 .bf16).view.readAt (Elt F)
        (Rect.unit (s := S3x512x256) ![d, 0, 0] S1x512x256.size inb).toLoadRect (commC m c)) shapeCasts_S1x512x256_S512x256
      = slotV m d c := by
  funext ij
  obtain ⟨i, j, rfl⟩ : ∃ i j, ij = ix2 i j := ⟨ij 0, ij 1, eq_ix2 ij⟩
  refine (shapeCast_1ab_ab_apply _ _ i j).trans ?_
  rw [View.readAt_apply, View.read_apply, cast_eq]
  have hd : d < 3 := by have h : d + 1 ≤ 3 := inb 0; omega
  have e : (commM : Memref sig .tc .vmem S3x512x256 .bf16).view.emb
        ((Rect.unit (s := S3x512x256) ![d, 0, 0] S1x512x256.size inb).toLoadRect.idx (ix3 (0 : Fin 1) i j))
      = (ix3 (⟨d, hd⟩ : Fin 3) i j : S3x512x256.Idx) := by
    funext a
    match a with
    | ⟨0, _⟩ => apply Fin.ext; show d + 1 * 0 = d; omega
    | ⟨1, _⟩ => apply Fin.ext; show 0 + 1 * i.val = i.val; omega
    | ⟨2, _⟩ => apply Fin.ext; show 0 + 1 * j.val = j.val; omega
  rw [e]
  rfl

/-- Slot 0, loaded whole and seen as 512 x 256, is `slotV 0`. -/
theorem read_slot0 (c : Dev nD) :
    shapeCast S512x256 ((commM : Memref sig .tc .vmem S3x512x256 .bf16).view.readAt (Elt F) slotR0.toLoadRect (commC m c)) shapeCasts_S1x512x256_S512x256 = slotV m 0 c :=
  read_slot_core m 0 inb_S3x512x256_S1x512x256_0_0_0 c
/-- Slot 1, loaded whole and seen as 512 x 256, is `slotV 1`. -/
theorem read_slot1 (c : Dev nD) :
    shapeCast S512x256 ((commM : Memref sig .tc .vmem S3x512x256 .bf16).view.readAt (Elt F) slotR1.toLoadRect (commC m c)) shapeCasts_S1x512x256_S512x256 = slotV m 1 c :=
  read_slot_core m 1 inb_S3x512x256_S1x512x256_1_0_0 c
/-- Slot 2, loaded whole and seen as 512 x 256, is `slotV 2`. -/
theorem read_slot2 (c : Dev nD) :
    shapeCast S512x256 ((commM : Memref sig .tc .vmem S3x512x256 .bf16).view.readAt (Elt F) slotR2.toLoadRect (commC m c)) shapeCasts_S1x512x256_S512x256 = slotV m 2 c :=
  read_slot_core m 2 inb_S3x512x256_S1x512x256_2_0_0 c

/-! ## Axioms -/

/-- info: 'Cert.KernelIdeal.AR.landing00' depends on axioms: [propext, Classical.choice, Quot.sound] -/
#guard_msgs in #print axioms landing00

/-- info: 'Cert.KernelIdeal.AR.landing01' depends on axioms: [propext, Classical.choice, Quot.sound] -/
#guard_msgs in #print axioms landing01

/-- info: 'Cert.KernelIdeal.AR.landing02' depends on axioms: [propext, Classical.choice, Quot.sound] -/
#guard_msgs in #print axioms landing02

/-- info: 'Cert.KernelIdeal.AR.landing10' depends on axioms: [propext, Classical.choice, Quot.sound] -/
#guard_msgs in #print axioms landing10

/-- info: 'Cert.KernelIdeal.AR.landing11' depends on axioms: [propext, Classical.choice, Quot.sound] -/
#guard_msgs in #print axioms landing11

/-- info: 'Cert.KernelIdeal.AR.landing12' depends on axioms: [propext, Classical.choice, Quot.sound] -/
#guard_msgs in #print axioms landing12

/-- info: 'Cert.KernelIdeal.AR.landing20' depends on axioms: [propext, Classical.choice, Quot.sound] -/
#guard_msgs in #print axioms landing20

/-- info: 'Cert.KernelIdeal.AR.landing21' depends on axioms: [propext, Classical.choice, Quot.sound] -/
#guard_msgs in #print axioms landing21

/-- info: 'Cert.KernelIdeal.AR.landing22' depends on axioms: [propext, Classical.choice, Quot.sound] -/
#guard_msgs in #print axioms landing22

/-- info: 'Cert.KernelIdeal.AR.read_slot0' depends on axioms: [propext, Classical.choice, Quot.sound] -/
#guard_msgs in #print axioms read_slot0

/-- info: 'Cert.KernelIdeal.AR.read_slot1' depends on axioms: [propext, Classical.choice, Quot.sound] -/
#guard_msgs in #print axioms read_slot1

/-- info: 'Cert.KernelIdeal.AR.read_slot2' depends on axioms: [propext, Classical.choice, Quot.sound] -/
#guard_msgs in #print axioms read_slot2

end Cert.KernelIdeal.AR

end
-- ==== Proof.Steps.lean ====
/-
  The rules of the rounds discipline at this protocol's cells: each remote step of a device's body as one
  entailment, with the schedule's side conditions discharged once.
-/
import proofs.«900560_g7700000000000561_dist_matmul_of_ar_i_m512_n256_k256_v7x_i8_f32_1_alg».proof.Proof.Gen.KernelIdeal
import proofs.«900560_g7700000000000561_dist_matmul_of_ar_i_m512_n256_k256_v7x_i8_f32_1_alg».proof.Proof.Gen.KernelIdeal.Skeleton
import proofs.«900560_g7700000000000561_dist_matmul_of_ar_i_m512_n256_k256_v7x_i8_f32_1_alg».proof.Proof.Gen.KernelIdeal.Launch
import proofs.«900560_g7700000000000561_dist_matmul_of_ar_i_m512_n256_k256_v7x_i8_f32_1_alg».proof.Proof.Gen.KernelIdeal.Points
import proofs.«900560_g7700000000000561_dist_matmul_of_ar_i_m512_n256_k256_v7x_i8_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import proofs.«900560_g7700000000000561_dist_matmul_of_ar_i_m512_n256_k256_v7x_i8_f32_1_alg».proof.Proof.Mesh
import proofs.«900560_g7700000000000561_dist_matmul_of_ar_i_m512_n256_k256_v7x_i8_f32_1_alg».proof.Proof.Sched
import proofs.«900560_g7700000000000561_dist_matmul_of_ar_i_m512_n256_k256_v7x_i8_f32_1_alg».proof.Proof.Proto
import proofs.«900560_g7700000000000561_dist_matmul_of_ar_i_m512_n256_k256_v7x_i8_f32_1_alg».proof.Proof.Tables
import proofs.«900560_g7700000000000561_dist_matmul_of_ar_i_m512_n256_k256_v7x_i8_f32_1_alg».proof.Proof.Ghost
import proofs.«900560_g7700000000000561_dist_matmul_of_ar_i_m512_n256_k256_v7x_i8_f32_1_alg».proof.Proof.Regions
import proofs.«900560_g7700000000000561_dist_matmul_of_ar_i_m512_n256_k256_v7x_i8_f32_1_alg».proof.Proof.Landing

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

section Steps
variable (K : Dev nD × Fin 19 → ℕ) (c : Dev nD)
variable {α : Type} {Q : α → sProp (MT nD τ sig Unit (Elt F) ℕ UU ℕ)}

omit [FloatOps F] in
/-- What partner `k`'s barrier duty `k` hands over, read on this device: the partner's partner `k` is this device. -/
theorem barPay_peer0 : barPay (F := F) (peer c 0) 0
    = iprop((∃ f, (dst00 : Memref sig .tc .vmem S176x256 .bf16).view.loc (c : Thread nD τ) ↦[(dst00 : Memref sig .tc .vmem S176x256 .bf16).view.set]{fullShare} f)
      ∗ (∃ f, (dst12 : Memref sig .tc .vmem S160x256 .bf16).view.loc (c : Thread nD τ) ↦[(dst12 : Memref sig .tc .vmem S160x256 .bf16).view.set]{fullShare} f)
      ∗ (∃ f, (dst21 : Memref sig .tc .vmem S176x256 .bf16).view.loc (c : Thread nD τ) ↦[(dst21 : Memref sig .tc .vmem S176x256 .bf16).view.set]{fullShare} f)) := by
  unfold barPay; dsimp only; rw [peer_peer]

omit [FloatOps F] in
/-- What partner `k`'s barrier duty `k` hands over, read on this device: the partner's partner `k` is this device. -/
theorem barPay_peer1 : barPay (F := F) (peer c 1) 1
    = iprop((∃ f, (dst01 : Memref sig .tc .vmem S176x256 .bf16).view.loc (c : Thread nD τ) ↦[(dst01 : Memref sig .tc .vmem S176x256 .bf16).view.set]{fullShare} f)
      ∗ (∃ f, (dst10 : Memref sig .tc .vmem S176x256 .bf16).view.loc (c : Thread nD τ) ↦[(dst10 : Memref sig .tc .vmem S176x256 .bf16).view.set]{fullShare} f)
      ∗ (∃ f, (dst22 : Memref sig .tc .vmem S160x256 .bf16).view.loc (c : Thread nD τ) ↦[(dst22 : Memref sig .tc .vmem S160x256 .bf16).view.set]{fullShare} f)) := by
  unfold barPay; dsimp only; rw [peer_peer]

omit [FloatOps F] in
/-- What partner `k`'s barrier duty `k` hands over, read on this device: the partner's partner `k` is this device. -/
theorem barPay_peer2 : barPay (F := F) (peer c 2) 2
    = iprop((∃ f, (dst02 : Memref sig .tc .vmem S160x256 .bf16).view.loc (c : Thread nD τ) ↦[(dst02 : Memref sig .tc .vmem S160x256 .bf16).view.set]{fullShare} f)
      ∗ (∃ f, (dst11 : Memref sig .tc .vmem S176x256 .bf16).view.loc (c : Thread nD τ) ↦[(dst11 : Memref sig .tc .vmem S176x256 .bf16).view.set]{fullShare} f)
      ∗ (∃ f, (dst20 : Memref sig .tc .vmem S176x256 .bf16).view.loc (c : Thread nD τ) ↦[(dst20 : Memref sig .tc .vmem S176x256 .bf16).view.set]{fullShare} f)) := by
  unfold barPay; dsimp only; rw [peer_peer]

/-- The whole of the barrier cell's round: the three partners' landing regions, partner by partner. -/
theorem rest_bar : bigSep ((arRd (F := F) m).duties (barCell c) 0 \ ∅) (fun d => (arRd (F := F) m).payload (barCell c) 0 d)
    = iprop(((∃ f, (dst00 : Memref sig .tc .vmem S176x256 .bf16).view.loc (peer c 0 : Thread nD τ) ↦[(dst00 : Memref sig .tc .vmem S176x256 .bf16).view.set]{fullShare} f) ∗ (∃ f, (dst12 : Memref sig .tc .vmem S160x256 .bf16).view.loc (peer c 0 : Thread nD τ) ↦[(dst12 : Memref sig .tc .vmem S160x256 .bf16).view.set]{fullShare} f) ∗ (∃ f, (dst21 : Memref sig .tc .vmem S176x256 .bf16).view.loc (peer c 0 : Thread nD τ) ↦[(dst21 : Memref sig .tc .vmem S176x256 .bf16).view.set]{fullShare} f))
      ∗ ((∃ f, (dst01 : Memref sig .tc .vmem S176x256 .bf16).view.loc (peer c 1 : Thread nD τ) ↦[(dst01 : Memref sig .tc .vmem S176x256 .bf16).view.set]{fullShare} f) ∗ (∃ f, (dst10 : Memref sig .tc .vmem S176x256 .bf16).view.loc (peer c 1 : Thread nD τ) ↦[(dst10 : Memref sig .tc .vmem S176x256 .bf16).view.set]{fullShare} f) ∗ (∃ f, (dst22 : Memref sig .tc .vmem S160x256 .bf16).view.loc (peer c 1 : Thread nD τ) ↦[(dst22 : Memref sig .tc .vmem S160x256 .bf16).view.set]{fullShare} f))
      ∗ ((∃ f, (dst02 : Memref sig .tc .vmem S160x256 .bf16).view.loc (peer c 2 : Thread nD τ) ↦[(dst02 : Memref sig .tc .vmem S160x256 .bf16).view.set]{fullShare} f) ∗ (∃ f, (dst11 : Memref sig .tc .vmem S176x256 .bf16).view.loc (peer c 2 : Thread nD τ) ↦[(dst11 : Memref sig .tc .vmem S176x256 .bf16).view.set]{fullShare} f) ∗ (∃ f, (dst20 : Memref sig .tc .vmem S176x256 .bf16).view.loc (peer c 2 : Thread nD τ) ↦[(dst20 : Memref sig .tc .vmem S176x256 .bf16).view.set]{fullShare} f))) := by
  rw [Finset.sdiff_empty, duties_bar, bigSep_univ_eq_bigSepL [0, 1, 2] (by decide) (by decide), bigSepL_cons_cons, bigSepL_cons_cons, bigSepL_singleton,
    payload_bar, payload_bar, payload_bar]
  rfl
/-- A send cell's round has the one duty: the whole of the round is that duty's payload. -/
theorem rest_send (d g : Fin 3) : bigSep ((arRd (F := F) m).duties (sendCell c d g) 0 \ ∅) (fun k => (arRd (F := F) m).payload (sendCell c d g) 0 k)
    = (arRd (F := F) m).payload (sendCell c d g) 0 0 := by
  rw [Finset.sdiff_empty, duties_send, bigSep_singleton]
/-- A receive cell's round has the one duty: the whole of the round is that duty's payload. -/
theorem rest_recv (d g : Fin 3) : bigSep ((arRd (F := F) m).duties (recvCell c d g) 0 \ ∅) (fun k => (arRd (F := F) m).payload (recvCell c d g) 0 k)
    = (arRd (F := F) m).payload (recvCell c d g) 0 0 := by
  rw [Finset.sdiff_empty, duties_recv, bigSep_singleton]

/-- The signal to partner 0's barrier cell: it pays duty 0 there and hands over this device's three landing regions that partner fills. -/
theorem step_signal0 (O : CellTallies nD τ sig Unit) (W : Waits sig Unit)
    (f0 : Buf (Elt F) ((dst00 : Memref sig .tc .vmem S176x256 .bf16).view.loc (c : Thread nD τ))) (f1 : Buf (Elt F) ((dst12 : Memref sig .tc .vmem S160x256 .bf16).view.loc (c : Thread nD τ))) (f2 : Buf (Elt F) ((dst21 : Memref sig .tc .vmem S176x256 .bf16).view.loc (c : Thread nD τ)))
    {kont : PUnit → Prog (TpuEff nD τ sig (Elt F) Λ₀ .tc) α} :
    iprop(cellInv ER (arRd m) (K (peer c 0, iBar)) (barCell (peer c 0))
        ∗ reached ER (barCell (peer c 0)) 0
        ∗ dutyTok ER (barCell (peer c 0)) 0 (0 : Fin 3)
        ∗ owes (c : Thread nD τ) (O + tallyAt (barCell (peer c 0)) () 1) W
        ∗ ((dst00 : Memref sig .tc .vmem S176x256 .bf16).view.loc (c : Thread nD τ) ↦[(dst00 : Memref sig .tc .vmem S176x256 .bf16).view.set]{fullShare} f0)
        ∗ ((dst12 : Memref sig .tc .vmem S160x256 .bf16).view.loc (c : Thread nD τ) ↦[(dst12 : Memref sig .tc .vmem S160x256 .bf16).view.set]{fullShare} f1)
        ∗ ((dst21 : Memref sig .tc .vmem S176x256 .bf16).view.loc (c : Thread nD τ) ↦[(dst21 : Memref sig .tc .vmem S176x256 .bf16).view.set]{fullShare} f2))
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (peer c 0 : Thread nD τ) barS (1#32).toNat) kont) Q) := by
  iintro ⟨HI, Hr, Ht, HO, H0, H1, H2⟩ Hk
  iapply (Rounds.wp_signal 𝒱₀ ER (arRd m) (c : Thread nD τ) none (dst := (peer c 0 : Thread nD τ)) (κ := K (peer c 0, iBar))
      (d := 0) (by rw [duties_bar]; exact Finset.mem_univ _) ((amount_bar m (peer c 0) 0).trans (by decide)) () O rfl)
    $$ [HI Hr Ht HO H0 H1 H2]
  · isplitl [HI]; · iexact HI
    isplitl [HO]; · iexact HO
    isplitl [Ht]; · iexact Ht
    isplitl [H0 H1 H2]
    · rw [payload_bar, barPay_peer0]
      isplitl [H0]; · iexists f0; iexact H0
      isplitl [H1]; · iexists f1; iexact H1
      iexists f2; iexact H2
    · iexact Hr
  iexact Hk

/-- The signal to partner 1's barrier cell: it pays duty 1 there and hands over this device's three landing regions that partner fills. -/
theorem step_signal1 (O : CellTallies nD τ sig Unit) (W : Waits sig Unit)
    (f0 : Buf (Elt F) ((dst01 : Memref sig .tc .vmem S176x256 .bf16).view.loc (c : Thread nD τ))) (f1 : Buf (Elt F) ((dst10 : Memref sig .tc .vmem S176x256 .bf16).view.loc (c : Thread nD τ))) (f2 : Buf (Elt F) ((dst22 : Memref sig .tc .vmem S160x256 .bf16).view.loc (c : Thread nD τ)))
    {kont : PUnit → Prog (TpuEff nD τ sig (Elt F) Λ₀ .tc) α} :
    iprop(cellInv ER (arRd m) (K (peer c 1, iBar)) (barCell (peer c 1))
        ∗ reached ER (barCell (peer c 1)) 0
        ∗ dutyTok ER (barCell (peer c 1)) 0 (1 : Fin 3)
        ∗ owes (c : Thread nD τ) (O + tallyAt (barCell (peer c 1)) () 1) W
        ∗ ((dst01 : Memref sig .tc .vmem S176x256 .bf16).view.loc (c : Thread nD τ) ↦[(dst01 : Memref sig .tc .vmem S176x256 .bf16).view.set]{fullShare} f0)
        ∗ ((dst10 : Memref sig .tc .vmem S176x256 .bf16).view.loc (c : Thread nD τ) ↦[(dst10 : Memref sig .tc .vmem S176x256 .bf16).view.set]{fullShare} f1)
        ∗ ((dst22 : Memref sig .tc .vmem S160x256 .bf16).view.loc (c : Thread nD τ) ↦[(dst22 : Memref sig .tc .vmem S160x256 .bf16).view.set]{fullShare} f2))
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (peer c 1 : Thread nD τ) barS (1#32).toNat) kont) Q) := by
  iintro ⟨HI, Hr, Ht, HO, H0, H1, H2⟩ Hk
  iapply (Rounds.wp_signal 𝒱₀ ER (arRd m) (c : Thread nD τ) none (dst := (peer c 1 : Thread nD τ)) (κ := K (peer c 1, iBar))
      (d := 1) (by rw [duties_bar]; exact Finset.mem_univ _) ((amount_bar m (peer c 1) 1).trans (by decide)) () O rfl)
    $$ [HI Hr Ht HO H0 H1 H2]
  · isplitl [HI]; · iexact HI
    isplitl [HO]; · iexact HO
    isplitl [Ht]; · iexact Ht
    isplitl [H0 H1 H2]
    · rw [payload_bar, barPay_peer1]
      isplitl [H0]; · iexists f0; iexact H0
      isplitl [H1]; · iexists f1; iexact H1
      iexists f2; iexact H2
    · iexact Hr
  iexact Hk

/-- The signal to partner 2's barrier cell: it pays duty 2 there and hands over this device's three landing regions that partner fills. -/
theorem step_signal2 (O : CellTallies nD τ sig Unit) (W : Waits sig Unit)
    (f0 : Buf (Elt F) ((dst02 : Memref sig .tc .vmem S160x256 .bf16).view.loc (c : Thread nD τ))) (f1 : Buf (Elt F) ((dst11 : Memref sig .tc .vmem S176x256 .bf16).view.loc (c : Thread nD τ))) (f2 : Buf (Elt F) ((dst20 : Memref sig .tc .vmem S176x256 .bf16).view.loc (c : Thread nD τ)))
    {kont : PUnit → Prog (TpuEff nD τ sig (Elt F) Λ₀ .tc) α} :
    iprop(cellInv ER (arRd m) (K (peer c 2, iBar)) (barCell (peer c 2))
        ∗ reached ER (barCell (peer c 2)) 0
        ∗ dutyTok ER (barCell (peer c 2)) 0 (2 : Fin 3)
        ∗ owes (c : Thread nD τ) (O + tallyAt (barCell (peer c 2)) () 1) W
        ∗ ((dst02 : Memref sig .tc .vmem S160x256 .bf16).view.loc (c : Thread nD τ) ↦[(dst02 : Memref sig .tc .vmem S160x256 .bf16).view.set]{fullShare} f0)
        ∗ ((dst11 : Memref sig .tc .vmem S176x256 .bf16).view.loc (c : Thread nD τ) ↦[(dst11 : Memref sig .tc .vmem S176x256 .bf16).view.set]{fullShare} f1)
        ∗ ((dst20 : Memref sig .tc .vmem S176x256 .bf16).view.loc (c : Thread nD τ) ↦[(dst20 : Memref sig .tc .vmem S176x256 .bf16).view.set]{fullShare} f2))
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (peer c 2 : Thread nD τ) barS (1#32).toNat) kont) Q) := by
  iintro ⟨HI, Hr, Ht, HO, H0, H1, H2⟩ Hk
  iapply (Rounds.wp_signal 𝒱₀ ER (arRd m) (c : Thread nD τ) none (dst := (peer c 2 : Thread nD τ)) (κ := K (peer c 2, iBar))
      (d := 2) (by rw [duties_bar]; exact Finset.mem_univ _) ((amount_bar m (peer c 2) 2).trans (by decide)) () O rfl)
    $$ [HI Hr Ht HO H0 H1 H2]
  · isplitl [HI]; · iexact HI
    isplitl [HO]; · iexact HO
    isplitl [Ht]; · iexact Ht
    isplitl [H0 H1 H2]
    · rw [payload_bar, barPay_peer2]
      isplitl [H0]; · iexists f0; iexact H0
      isplitl [H1]; · iexists f1; iexact H1
      iexists f2; iexact H2
    · iexact Hr
  iexact Hk

/-- The wait for three units on the device's own barrier cell: every partner is inside the kernel, and each has
    handed over the three landing regions of its slots that this device fills. -/
theorem step_wait_bar (O : CellTallies nD τ sig Unit) (W : Waits sig Unit)
    (hmw : (levAts L lv : sProp 𝕄) ⊢ MayWait (c : Thread nD τ) (.reg barS) () O)
    {kont : PUnit → Prog (TpuEff nD τ sig (Elt F) Λ₀ .tc) α} :
    iprop(cellInv ER (arRd m) (K (c, iBar)) (barCell c) ∗ levAts L lv ∗ cred (tallyAt (barCell c) () 3)
        ∗ owes (c : Thread nD τ) O W ∗ atPos ER (barCell c) 0 ∅ 0)
      ⊢ iprop(((owes (c : Thread nD τ) O (insert (SemLoc.reg barS, ()) W) ∗ atPos ER (barCell c) 1 ∅ 0
            ∗ (∃ f, (dst00 : Memref sig .tc .vmem S176x256 .bf16).view.loc (peer c 0 : Thread nD τ) ↦[(dst00 : Memref sig .tc .vmem S176x256 .bf16).view.set]{fullShare} f)
            ∗ (∃ f, (dst12 : Memref sig .tc .vmem S160x256 .bf16).view.loc (peer c 0 : Thread nD τ) ↦[(dst12 : Memref sig .tc .vmem S160x256 .bf16).view.set]{fullShare} f)
            ∗ (∃ f, (dst21 : Memref sig .tc .vmem S176x256 .bf16).view.loc (peer c 0 : Thread nD τ) ↦[(dst21 : Memref sig .tc .vmem S176x256 .bf16).view.set]{fullShare} f)
            ∗ (∃ f, (dst01 : Memref sig .tc .vmem S176x256 .bf16).view.loc (peer c 1 : Thread nD τ) ↦[(dst01 : Memref sig .tc .vmem S176x256 .bf16).view.set]{fullShare} f)
            ∗ (∃ f, (dst10 : Memref sig .tc .vmem S176x256 .bf16).view.loc (peer c 1 : Thread nD τ) ↦[(dst10 : Memref sig .tc .vmem S176x256 .bf16).view.set]{fullShare} f)
            ∗ (∃ f, (dst22 : Memref sig .tc .vmem S160x256 .bf16).view.loc (peer c 1 : Thread nD τ) ↦[(dst22 : Memref sig .tc .vmem S160x256 .bf16).view.set]{fullShare} f)
            ∗ (∃ f, (dst02 : Memref sig .tc .vmem S160x256 .bf16).view.loc (peer c 2 : Thread nD τ) ↦[(dst02 : Memref sig .tc .vmem S160x256 .bf16).view.set]{fullShare} f)
            ∗ (∃ f, (dst11 : Memref sig .tc .vmem S176x256 .bf16).view.loc (peer c 2 : Thread nD τ) ↦[(dst11 : Memref sig .tc .vmem S176x256 .bf16).view.set]{fullShare} f)
            ∗ (∃ f, (dst20 : Memref sig .tc .vmem S176x256 .bf16).view.loc (peer c 2 : Thread nD τ) ↦[(dst20 : Memref sig .tc .vmem S176x256 .bf16).view.set]{fullShare} f))
          -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS (3#32).toNat) kont) Q) := by
  iintro ⟨HI, Hlev, Hc, HO, Hat⟩ Hk
  iapply (Rounds.wp_wait_rest_token 𝒱₀ ER (arRd m) (c : Thread nD τ) none (κ := K (c, iBar))
      (wpE_semWait_eq 𝒱₀ (c : Thread nD τ) none Set.univ) (Set.mem_univ _) () (O := O) (W := W) (R := 0) (m := 0) (T := ∅)
      (by rw [expect_bar]; decide)) $$ [HI Hlev Hc HO Hat]
  · isplitl [HI]; · iexact HI
    isplitl [Hc]; · iexact Hc
    isplitl [HO]; · iexact HO
    isplitl [Hlev]; · iapply hmw; iexact Hlev
    iexact Hat
  iintro ⟨HO, Hat, -, Hpay⟩
  ihave Hp := (Entails.of_eq (rest_bar m c)) $$ Hpay
  icases Hp with ⟨⟨A0, A1, A2⟩, ⟨B0, B1, B2⟩, C0, C1, C2⟩
  iapply Hk
  isplitl [HO]; · iexact HO
  isplitl [Hat]; · iexact Hat
  isplitl [A0]; · iexact A0
  isplitl [A1]; · iexact A1
  isplitl [A2]; · iexact A2
  isplitl [B0]; · iexact B0
  isplitl [B1]; · iexact B1
  isplitl [B2]; · iexact B2
  isplitl [C0]; · iexact C0
  isplitl [C1]; · iexact C1
  iexact C2

/-- A transfer of row group `g` at stage `d` to partner `k`: it pays the device's own send duty and the partner's
    receive duty, with the landing stated as that part of the partner's filled slots. -/
theorem step_send {s : Shape} (src dst : Memref sig .tc .vmem s .bf16) (d g k : Fin 3) (n : Dev nD) (hn : n = peer c k)
    (fs : Buf (Elt F) (src.view.loc (c : Thread nD τ)))
    (hN : dst.view.dmaCredit = creditOf g)
    (hps : ((src.view.loc (c : Thread nD τ) ↦[src.view.set]{fullShare} fs : sProp 𝕄)) ⊢ (arRd m).payload (sendCell c d g) 0 0)
    (hpr : ∀ fd : Buf (Elt F) (dst.view.loc (peer c k : Thread nD τ)),
      ((dst.view.loc (peer c k : Thread nD τ) ↦[dst.view.set]{fullShare} (dst.view.write (Elt F) fd (src.view.read (Elt F) fs) Finset.univ) : sProp 𝕄))
        ⊢ (arRd m).payload (recvCell (peer c k) d g) 0 0)
    {hsc : (dst : Memref sig (Dev.tc n : Thread nD τ).2.kind .vmem s .bf16).view.ref.isScScratch = false}
    {hsrc : src.view.WordExact} {hdst : dst.view.WordExact}
    {hsem : DmaTarget.Typed .vmem (.dma (recvQ d g)) (.remote (Dev.tc n : Thread nD τ) (dst : Memref sig .tc .vmem s .bf16) (.dma (sendQ d g)) hsc)}
    (O : CellTallies nD τ sig Unit) (W : Waits sig Unit) (fd : Buf (Elt F) (dst.view.loc (peer c k : Thread nD τ)))
    {kont : PUnit → Prog (TpuEff nD τ sig (Elt F) Λ₀ .tc) α} :
    iprop(cellInv ER (arRd m) (K (c, iSend d g)) (sendCell c d g) ∗ cellInv ER (arRd m) (K (peer c k, iRecv d g)) (recvCell (peer c k) d g)
        ∗ reached ER (sendCell c d g) 0 ∗ reached ER (recvCell (peer c k) d g) 0
        ∗ dutyTok ER (sendCell c d g) 0 (0 : Fin 3) ∗ dutyTok ER (recvCell (peer c k) d g) 0 (0 : Fin 3)
        ∗ owes (c : Thread nD τ) (O + tallyAt (recvCell (peer c k) d g) () (creditOf g)) W
        ∗ (src.view.loc (c : Thread nD τ) ↦[src.view.set]{fullShare} fs)
        ∗ (dst.view.loc (peer c k : Thread nD τ) ↦[dst.view.set]{fullShare} fd))
      ⊢ iprop(((cred (tallyAt (sendCell c d g) () (creditOf g)) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma src (.remote (Dev.tc n : Thread nD τ) dst (.dma (sendQ d g)) hsc) (.dma (recvQ d g)) hsrc hdst hsem) kont) Q) := by
  subst hn
  iintro ⟨HIs, HIr, Hrs, Hrr, Hts, Htr, HO, Hsrc, Hdst⟩ Hk
  iapply (Rounds.wp_send_pointsTo 𝒱₀ ER (arRd m) (c : Thread nD τ) none (c' := (peer c k : Thread nD τ)) (src := src) (dst := dst)
      (sS := .dma (sendQ d g)) (sem := .dma (recvQ d g)) (κ₁ := K (c, iSend d g)) (κ₂ := K (peer c k, iRecv d g))
      (r₁ := 0) (r₂ := 0) (d₁ := 0) (d₂ := 0) (fs := fs) (fd := fd)
      (by rw [duties_send]; exact Finset.mem_singleton_self _) (by rw [duties_recv]; exact Finset.mem_singleton_self _)
      () () (creditOf g) ((View.amount_dma dst.view (recvQ d g)).trans hN) (amount_send m c d g 0) (amount_recv m (peer c k) d g 0) O rfl (W := W) hps (hpr fd))
    $$ [HIs HIr Hrs Hrr Hts Htr HO Hsrc Hdst]
  · isplitl [HIs]; · iexact HIs
    isplitl [HIr]; · iexact HIr
    isplitl [Hsrc]; · iexact Hsrc
    isplitl [Hdst]; · iexact Hdst
    isplitl [HO]; · iexact HO
    isplitl [Hts]; · iexact Hts
    isplitl [Hrs]; · iexact Hrs
    isplitl [Htr]; · iexact Htr
    iexact Hrr
  iexact Hk

/-- The wait on a send cell: the source rows come back. -/
theorem step_wait_send {s : Shape} (src dst : Memref sig .tc .vmem s .bf16) (d g : Fin 3)
    (fs : Buf (Elt F) (src.view.loc (c : Thread nD τ)))
    (hN : src.view.dmaCredit = creditOf g)
    (hp : (arRd m).payload (sendCell c d g) 0 0 ⊢ ((src.view.loc (c : Thread nD τ) ↦[src.view.set]{fullShare} fs : sProp 𝕄)))
    {hs : dst.view.WordExact} {hd : src.view.WordExact}
    (O : CellTallies nD τ sig Unit) (W : Waits sig Unit)
    (hmw : (levAts L lv : sProp 𝕄) ⊢ MayWait (c : Thread nD τ) (.dma (sendQ d g)) () O)
    {kont : PUnit → Prog (TpuEff nD τ sig (Elt F) Λ₀ .tc) α} :
    iprop(cellInv ER (arRd m) (K (c, iSend d g)) (sendCell c d g) ∗ levAts L lv ∗ cred (tallyAt (sendCell c d g) () (creditOf g))
        ∗ owes (c : Thread nD τ) O W ∗ atPos ER (sendCell c d g) 0 ∅ 0)
      ⊢ iprop(((owes (c : Thread nD τ) O (insert (SemLoc.dma (sendQ d g), ()) W) ∗ atPos ER (sendCell c d g) 1 ∅ 0
            ∗ (src.view.loc (c : Thread nD τ) ↦[src.view.set]{fullShare} fs))
          -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (sendQ d g) dst src hs hd) kont) Q) := by
  iintro ⟨HI, Hlev, Hc, HO, Hat⟩ Hk
  iapply (Rounds.wp_wait_rest_token 𝒱₀ ER (arRd m) (c : Thread nD τ) none (κ := K (c, iSend d g)) (sm := .dma (sendQ d g)) (k' := src.view.dmaCredit)
      (wpE_waitDma2_eq 𝒱₀ (c : Thread nD τ) none Set.univ) (Set.mem_univ _) () (O := O) (W := W) (R := 0) (m := 0) (T := ∅)
      (by rw [Nat.zero_add, hN, expect_send])) $$ [HI Hlev Hc HO Hat]
  · isplitl [HI]; · iexact HI
    isplitl [Hc]; · rw [hN]; iexact Hc
    isplitl [HO]; · iexact HO
    isplitl [Hlev]; · iapply hmw; iexact Hlev
    iexact Hat
  iintro ⟨HO, Hat, -, Hpay⟩
  iapply Hk
  isplitl [HO]; · iexact HO
  isplitl [Hat]; · iexact Hat
  iapply hp
  iapply (Entails.of_eq (rest_send m c d g))
  iexact Hpay

/-- The wait on a receive cell: the landing region comes back holding the partner's rows. -/
theorem step_wait_recv {s : Shape} (src dst : Memref sig .tc .vmem s .bf16) (d g : Fin 3)
    (fr : Buf (Elt F) (dst.view.loc (c : Thread nD τ)))
    (hN : dst.view.dmaCredit = creditOf g)
    (hp : (arRd m).payload (recvCell c d g) 0 0 ⊢ ((dst.view.loc (c : Thread nD τ) ↦[dst.view.set]{fullShare} fr : sProp 𝕄)))
    {hs : src.view.WordExact} {hd : dst.view.WordExact}
    (O : CellTallies nD τ sig Unit) (W : Waits sig Unit)
    (hmw : (levAts L lv : sProp 𝕄) ⊢ MayWait (c : Thread nD τ) (.dma (recvQ d g)) () O)
    {kont : PUnit → Prog (TpuEff nD τ sig (Elt F) Λ₀ .tc) α} :
    iprop(cellInv ER (arRd m) (K (c, iRecv d g)) (recvCell c d g) ∗ levAts L lv ∗ cred (tallyAt (recvCell c d g) () (creditOf g))
        ∗ owes (c : Thread nD τ) O W ∗ atPos ER (recvCell c d g) 0 ∅ 0)
      ⊢ iprop(((owes (c : Thread nD τ) O (insert (SemLoc.dma (recvQ d g), ()) W) ∗ atPos ER (recvCell c d g) 1 ∅ 0
            ∗ (dst.view.loc (c : Thread nD τ) ↦[dst.view.set]{fullShare} fr))
          -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (recvQ d g) src dst hs hd) kont) Q) := by
  iintro ⟨HI, Hlev, Hc, HO, Hat⟩ Hk
  iapply (Rounds.wp_wait_rest_token 𝒱₀ ER (arRd m) (c : Thread nD τ) none (κ := K (c, iRecv d g)) (sm := .dma (recvQ d g)) (k' := dst.view.dmaCredit)
      (wpE_waitDma2_eq 𝒱₀ (c : Thread nD τ) none Set.univ) (Set.mem_univ _) () (O := O) (W := W) (R := 0) (m := 0) (T := ∅)
      (by rw [Nat.zero_add, hN, expect_recv])) $$ [HI Hlev Hc HO Hat]
  · isplitl [HI]; · iexact HI
    isplitl [Hc]; · rw [hN]; iexact Hc
    isplitl [HO]; · iexact HO
    isplitl [Hlev]; · iapply hmw; iexact Hlev
    iexact Hat
  iintro ⟨HO, Hat, -, Hpay⟩
  iapply Hk
  isplitl [HO]; · iexact HO
  isplitl [Hat]; · iexact Hat
  iapply hp
  iapply (Entails.of_eq (rest_recv m c d g))
  iexact Hpay

/-- A transfer cell whose one round is over closes: its counter is zero and the device's again. -/
theorem step_close_send (d g : Fin 3) :
    iprop(cellInv ER (arRd m) (K (c, iSend d g)) (sendCell c d g) ∗ atPos ER (sendCell c d g) 1 ∅ 0)
      ⊢ (|={Set.univ}=> semVal (sendCell c d g) 0 : sProp 𝕄) := by
  exact Rounds.cell_close ER (arRd m) (Set.mem_univ (K (c, iSend d g))) (fun h => h) (R := 1) (duties_later m (sendCell c d g))
theorem step_close_recv (d g : Fin 3) :
    iprop(cellInv ER (arRd m) (K (c, iRecv d g)) (recvCell c d g) ∗ atPos ER (recvCell c d g) 1 ∅ 0)
      ⊢ (|={Set.univ}=> semVal (recvCell c d g) 0 : sProp 𝕄) := by
  exact Rounds.cell_close ER (arRd m) (Set.mem_univ (K (c, iRecv d g))) (fun h => h) (R := 1) (duties_later m (recvCell c d g))

end Steps

end Cert.KernelIdeal.AR

end
-- ==== Proof.Body.lean ====
/-
  One device's body, stepped from what its thread holds at the start to what it holds at the end.
-/
import proofs.«900560_g7700000000000561_dist_matmul_of_ar_i_m512_n256_k256_v7x_i8_f32_1_alg».proof.Proof.Gen.KernelIdeal
import proofs.«900560_g7700000000000561_dist_matmul_of_ar_i_m512_n256_k256_v7x_i8_f32_1_alg».proof.Proof.Gen.KernelIdeal.Skeleton
import proofs.«900560_g7700000000000561_dist_matmul_of_ar_i_m512_n256_k256_v7x_i8_f32_1_alg».proof.Proof.Gen.KernelIdeal.Launch
import proofs.«900560_g7700000000000561_dist_matmul_of_ar_i_m512_n256_k256_v7x_i8_f32_1_alg».proof.Proof.Gen.KernelIdeal.Points
import proofs.«900560_g7700000000000561_dist_matmul_of_ar_i_m512_n256_k256_v7x_i8_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import proofs.«900560_g7700000000000561_dist_matmul_of_ar_i_m512_n256_k256_v7x_i8_f32_1_alg».proof.Proof.Mesh
import proofs.«900560_g7700000000000561_dist_matmul_of_ar_i_m512_n256_k256_v7x_i8_f32_1_alg».proof.Proof.Sched
import proofs.«900560_g7700000000000561_dist_matmul_of_ar_i_m512_n256_k256_v7x_i8_f32_1_alg».proof.Proof.Proto
import proofs.«900560_g7700000000000561_dist_matmul_of_ar_i_m512_n256_k256_v7x_i8_f32_1_alg».proof.Proof.Tables
import proofs.«900560_g7700000000000561_dist_matmul_of_ar_i_m512_n256_k256_v7x_i8_f32_1_alg».proof.Proof.Ghost
import proofs.«900560_g7700000000000561_dist_matmul_of_ar_i_m512_n256_k256_v7x_i8_f32_1_alg».proof.Proof.Regions
import proofs.«900560_g7700000000000561_dist_matmul_of_ar_i_m512_n256_k256_v7x_i8_f32_1_alg».proof.Proof.Landing
import proofs.«900560_g7700000000000561_dist_matmul_of_ar_i_m512_n256_k256_v7x_i8_f32_1_alg».proof.Proof.Steps

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

open Idealize.ShloMosaic.Tactic

local notation "𝕄" => MT nD τ sig Unit (Elt F) ℕ UU ℕ

variable (m : (ℓ : Loc nD τ sig) → Buf (Elt F) ℓ) (ρ : Dev nD → PrngReg)

theorem fetch_0 (t : Fin cfg0.N) : (cfg0.win (0 : Fin 3)).fetch t = true := fetch0_0 t
theorem fetch_1 (t : Fin cfg0.N) : (cfg0.win (1 : Fin 3)).fetch t = true := fetch0_1 t

abbrev t₀ : Fin cfg0.N := t0_0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 19 → ℕ) (c : Dev nD) : sProp 𝕄 :=
  iprop((ghost m K c ∗ creds c ∗ levAts L lv ∗ scratch c)
    ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ c ∗ (dats m 0 c).owesAt () t₀.succ ∗ stg c cc0_stg0_0 (tblk m c) ∗ stg c cc0_stg1_0 (wblk m c) ∗ stg c cc0_stg2_0 (outV m c))

/-! ## Loads and stores of whole buffers, and the three additions -/

abbrev rT : Rect S512x256 := Rect.unit (s := S512x256) ![0, 0] S512x256.size inb_S512x256_S512x256_0_0
abbrev rW : Rect S256x256 := Rect.unit (s := S256x256) ![0, 0] S256x256.size inb_S256x256_S256x256_0_0

omit [FloatOps F] in
theorem hz2 : (![0, 0] : Fin 2 → Nat) = fun _ => 0 := funext fun a => by fin_cases a <;> rfl
omit [FloatOps F] in
theorem read_t (f : (cc0_stg0_0 : Ref sig .tc).ty.Contents (Elt F)) : (tM : Memref sig .tc .vmem S512x256 .f32).view.readAt (Elt F) rT.toLoadRect f = f :=
  Memref.readAt_unit_zero (Elt F) cc0_stg0_0 hz2 _ f
omit [FloatOps F] in
theorem read_w (f : (cc0_stg1_0 : Ref sig .tc).ty.Contents (Elt F)) : (wM : Memref sig .tc .vmem S256x256 .f32).view.readAt (Elt F) rW.toLoadRect f = f :=
  Memref.readAt_unit_zero (Elt F) cc0_stg1_0 hz2 _ f
omit [FloatOps F] in
theorem read_acc (f : (cc0_scratch0 : Ref sig .tc).ty.Contents (Elt F)) : (accM : Memref sig .tc .vmem S512x256 .bf16).view.readAt (Elt F) rT.toLoadRect f = f :=
  Memref.readAt_unit_zero (Elt F) cc0_scratch0 hz2 _ f
omit [FloatOps F] in
theorem write_acc (f w : (cc0_scratch0 : Ref sig .tc).ty.Contents (Elt F)) :
    ((accM : Memref sig .tc .vmem S512x256 .bf16).access rT : View sig .tc _ _ _).write (Elt F) f w Finset.univ = w :=
  Memref.write_access_unit_zero_univ (Elt F) cc0_scratch0 hz2 _ f w
omit [FloatOps F] in
theorem write_o (f w : (cc0_stg2_0 : Ref sig .tc).ty.Contents (Elt F)) :
    ((oM : Memref sig .tc .vmem S512x256 .f32).access rT : View sig .tc _ _ _).write (Elt F) f w Finset.univ = w :=
  Memref.write_access_unit_zero_univ (Elt F) cc0_stg2_0 hz2 _ f w

/-- Stage 0's addition: the running sum plus slot 0 is the next running sum. -/
theorem step_val0 (c : Dev nD) :
    k0_pay5 (k0_pay4 (accV m 0 c) ((commM : Memref sig .tc .vmem S3x512x256 .bf16).view.readAt (Elt F) slotR0.toLoadRect (commC m c))) = accV m 1 c := by
  show shapeCast S512x256 (addf (accV m 0 c) (shapeCast S512x256 ((commM : Memref sig .tc .vmem S3x512x256 .bf16).view.readAt (Elt F) slotR0.toLoadRect (commC m c)) shapeCasts_S1x512x256_S512x256)) shapeCasts_S512x256_S512x256 = _
  rw [read_slot0, shapeCast_self]; rfl
/-- Stage 1's addition. -/
theorem step_val1 (c : Dev nD) :
    k0_pay6 (accV m 1 c) ((commM : Memref sig .tc .vmem S3x512x256 .bf16).view.readAt (Elt F) slotR1.toLoadRect (commC m c)) = accV m 2 c := by
  show shapeCast S512x256 (addf (accV m 1 c) (shapeCast S512x256 ((commM : Memref sig .tc .vmem S3x512x256 .bf16).view.readAt (Elt F) slotR1.toLoadRect (commC m c)) shapeCasts_S1x512x256_S512x256)) shapeCasts_S512x256_S512x256 = _
  rw [read_slot1, shapeCast_self]; rfl
/-- Stage 2's addition. -/
theorem step_val2 (c : Dev nD) :
    k0_pay1 (accV m 2 c) ((commM : Memref sig .tc .vmem S3x512x256 .bf16).view.readAt (Elt F) slotR2.toLoadRect (commC m c)) = accV m 3 c := by
  show shapeCast S512x256 (addf (accV m 2 c) (shapeCast S512x256 ((commM : Memref sig .tc .vmem S3x512x256 .bf16).view.readAt (Elt F) slotR2.toLoadRect (commC m c)) shapeCasts_S1x512x256_S512x256)) shapeCasts_S512x256_S512x256 = _
  rw [read_slot2, shapeCast_self]; rfl

/-! ## The transfer semaphores by number -/

theorem sendSem00 : ((cc0_scratch2.slice (Rect.unit (s := S3x3) ![0, 0] S1x1.size inb_S3x3_S1x1_0_0)).squeeze S_ squeezes_S1x1_S_).sem = sendQ 0 0 := rfl
theorem recvSem00 : ((cc0_scratch3.slice (Rect.unit (s := S3x3) ![0, 0] S1x1.size inb_S3x3_S1x1_0_0)).squeeze S_ squeezes_S1x1_S_).sem = recvQ 0 0 := rfl
theorem sendSem01 : ((cc0_scratch2.slice (Rect.unit (s := S3x3) ![0, 1] S1x1.size inb_S3x3_S1x1_0_1)).squeeze S_ squeezes_S1x1_S_).sem = sendQ 0 1 := rfl
theorem recvSem01 : ((cc0_scratch3.slice (Rect.unit (s := S3x3) ![0, 1] S1x1.size inb_S3x3_S1x1_0_1)).squeeze S_ squeezes_S1x1_S_).sem = recvQ 0 1 := rfl
theorem sendSem02 : ((cc0_scratch2.slice (Rect.unit (s := S3x3) ![0, 2] S1x1.size inb_S3x3_S1x1_0_2)).squeeze S_ squeezes_S1x1_S_).sem = sendQ 0 2 := rfl
theorem recvSem02 : ((cc0_scratch3.slice (Rect.unit (s := S3x3) ![0, 2] S1x1.size inb_S3x3_S1x1_0_2)).squeeze S_ squeezes_S1x1_S_).sem = recvQ 0 2 := rfl
theorem sendSem10 : ((cc0_scratch2.slice (Rect.unit (s := S3x3) ![1, 0] S1x1.size inb_S3x3_S1x1_1_0)).squeeze S_ squeezes_S1x1_S_).sem = sendQ 1 0 := rfl
theorem recvSem10 : ((cc0_scratch3.slice (Rect.unit (s := S3x3) ![1, 0] S1x1.size inb_S3x3_S1x1_1_0)).squeeze S_ squeezes_S1x1_S_).sem = recvQ 1 0 := rfl
theorem sendSem11 : ((cc0_scratch2.slice (Rect.unit (s := S3x3) ![1, 1] S1x1.size inb_S3x3_S1x1_1_1)).squeeze S_ squeezes_S1x1_S_).sem = sendQ 1 1 := rfl
theorem recvSem11 : ((cc0_scratch3.slice (Rect.unit (s := S3x3) ![1, 1] S1x1.size inb_S3x3_S1x1_1_1)).squeeze S_ squeezes_S1x1_S_).sem = recvQ 1 1 := rfl
theorem sendSem12 : ((cc0_scratch2.slice (Rect.unit (s := S3x3) ![1, 2] S1x1.size inb_S3x3_S1x1_1_2)).squeeze S_ squeezes_S1x1_S_).sem = sendQ 1 2 := rfl
theorem recvSem12 : ((cc0_scratch3.slice (Rect.unit (s := S3x3) ![1, 2] S1x1.size inb_S3x3_S1x1_1_2)).squeeze S_ squeezes_S1x1_S_).sem = recvQ 1 2 := rfl
theorem sendSem20 : ((cc0_scratch2.slice (Rect.unit (s := S3x3) ![2, 0] S1x1.size inb_S3x3_S1x1_2_0)).squeeze S_ squeezes_S1x1_S_).sem = sendQ 2 0 := rfl
theorem recvSem20 : ((cc0_scratch3.slice (Rect.unit (s := S3x3) ![2, 0] S1x1.size inb_S3x3_S1x1_2_0)).squeeze S_ squeezes_S1x1_S_).sem = recvQ 2 0 := rfl
theorem sendSem21 : ((cc0_scratch2.slice (Rect.unit (s := S3x3) ![2, 1] S1x1.size inb_S3x3_S1x1_2_1)).squeeze S_ squeezes_S1x1_S_).sem = sendQ 2 1 := rfl
theorem recvSem21 : ((cc0_scratch3.slice (Rect.unit (s := S3x3) ![2, 1] S1x1.size inb_S3x3_S1x1_2_1)).squeeze S_ squeezes_S1x1_S_).sem = recvQ 2 1 := rfl
theorem sendSem22 : ((cc0_scratch2.slice (Rect.unit (s := S3x3) ![2, 2] S1x1.size inb_S3x3_S1x1_2_2)).squeeze S_ squeezes_S1x1_S_).sem = sendQ 2 2 := rfl
theorem recvSem22 : ((cc0_scratch3.slice (Rect.unit (s := S3x3) ![2, 2] S1x1.size inb_S3x3_S1x1_2_2)).squeeze S_ squeezes_S1x1_S_).sem = recvQ 2 2 := rfl

/-! ## The payloads in the spelling of the buffers' pieces -/

theorem payload_send00 (x : Dev nD) (k : Fin 3) : (arRd m).payload (sendCell x 0 0) 0 k = ((srcA : Memref sig .tc .vmem S176x256 .bf16).view.loc (x : Thread nD τ) ↦[(srcA : Memref sig .tc .vmem S176x256 .bf16).view.set]{fullShare} accV m 0 x) := by
  rw [payload_send]; rfl
theorem payload_recv00 (x : Dev nD) (k : Fin 3) : (arRd m).payload (recvCell x 0 0) 0 k = ((dst00 : Memref sig .tc .vmem S176x256 .bf16).view.loc (x : Thread nD τ) ↦[(dst00 : Memref sig .tc .vmem S176x256 .bf16).view.set]{fullShare} commC m x) := by
  rw [payload_recv]; rfl
theorem payload_send01 (x : Dev nD) (k : Fin 3) : (arRd m).payload (sendCell x 0 1) 0 k = ((srcB : Memref sig .tc .vmem S176x256 .bf16).view.loc (x : Thread nD τ) ↦[(srcB : Memref sig .tc .vmem S176x256 .bf16).view.set]{fullShare} accV m 0 x) := by
  rw [payload_send]; rfl
theorem payload_recv01 (x : Dev nD) (k : Fin 3) : (arRd m).payload (recvCell x 0 1) 0 k = ((dst01 : Memref sig .tc .vmem S176x256 .bf16).view.loc (x : Thread nD τ) ↦[(dst01 : Memref sig .tc .vmem S176x256 .bf16).view.set]{fullShare} commC m x) := by
  rw [payload_recv]; rfl
theorem payload_send02 (x : Dev nD) (k : Fin 3) : (arRd m).payload (sendCell x 0 2) 0 k = ((srcC : Memref sig .tc .vmem S160x256 .bf16).view.loc (x : Thread nD τ) ↦[(srcC : Memref sig .tc .vmem S160x256 .bf16).view.set]{fullShare} accV m 0 x) := by
  rw [payload_send]; rfl
theorem payload_recv02 (x : Dev nD) (k : Fin 3) : (arRd m).payload (recvCell x 0 2) 0 k = ((dst02 : Memref sig .tc .vmem S160x256 .bf16).view.loc (x : Thread nD τ) ↦[(dst02 : Memref sig .tc .vmem S160x256 .bf16).view.set]{fullShare} commC m x) := by
  rw [payload_recv]; rfl
theorem payload_send10 (x : Dev nD) (k : Fin 3) : (arRd m).payload (sendCell x 1 0) 0 k = ((srcA : Memref sig .tc .vmem S176x256 .bf16).view.loc (x : Thread nD τ) ↦[(srcA : Memref sig .tc .vmem S176x256 .bf16).view.set]{fullShare} accV m 1 x) := by
  rw [payload_send]; rfl
theorem payload_recv10 (x : Dev nD) (k : Fin 3) : (arRd m).payload (recvCell x 1 0) 0 k = ((dst10 : Memref sig .tc .vmem S176x256 .bf16).view.loc (x : Thread nD τ) ↦[(dst10 : Memref sig .tc .vmem S176x256 .bf16).view.set]{fullShare} commC m x) := by
  rw [payload_recv]; rfl
theorem payload_send11 (x : Dev nD) (k : Fin 3) : (arRd m).payload (sendCell x 1 1) 0 k = ((srcB : Memref sig .tc .vmem S176x256 .bf16).view.loc (x : Thread nD τ) ↦[(srcB : Memref sig .tc .vmem S176x256 .bf16).view.set]{fullShare} accV m 1 x) := by
  rw [payload_send]; rfl
theorem payload_recv11 (x : Dev nD) (k : Fin 3) : (arRd m).payload (recvCell x 1 1) 0 k = ((dst11 : Memref sig .tc .vmem S176x256 .bf16).view.loc (x : Thread nD τ) ↦[(dst11 : Memref sig .tc .vmem S176x256 .bf16).view.set]{fullShare} commC m x) := by
  rw [payload_recv]; rfl
theorem payload_send12 (x : Dev nD) (k : Fin 3) : (arRd m).payload (sendCell x 1 2) 0 k = ((srcC : Memref sig .tc .vmem S160x256 .bf16).view.loc (x : Thread nD τ) ↦[(srcC : Memref sig .tc .vmem S160x256 .bf16).view.set]{fullShare} accV m 1 x) := by
  rw [payload_send]; rfl
theorem payload_recv12 (x : Dev nD) (k : Fin 3) : (arRd m).payload (recvCell x 1 2) 0 k = ((dst12 : Memref sig .tc .vmem S160x256 .bf16).view.loc (x : Thread nD τ) ↦[(dst12 : Memref sig .tc .vmem S160x256 .bf16).view.set]{fullShare} commC m x) := by
  rw [payload_recv]; rfl
theorem payload_send20 (x : Dev nD) (k : Fin 3) : (arRd m).payload (sendCell x 2 0) 0 k = ((srcA : Memref sig .tc .vmem S176x256 .bf16).view.loc (x : Thread nD τ) ↦[(srcA : Memref sig .tc .vmem S176x256 .bf16).view.set]{fullShare} accV m 2 x) := by
  rw [payload_send]; rfl
theorem payload_recv20 (x : Dev nD) (k : Fin 3) : (arRd m).payload (recvCell x 2 0) 0 k = ((dst20 : Memref sig .tc .vmem S176x256 .bf16).view.loc (x : Thread nD τ) ↦[(dst20 : Memref sig .tc .vmem S176x256 .bf16).view.set]{fullShare} commC m x) := by
  rw [payload_recv]; rfl
theorem payload_send21 (x : Dev nD) (k : Fin 3) : (arRd m).payload (sendCell x 2 1) 0 k = ((srcB : Memref sig .tc .vmem S176x256 .bf16).view.loc (x : Thread nD τ) ↦[(srcB : Memref sig .tc .vmem S176x256 .bf16).view.set]{fullShare} accV m 2 x) := by
  rw [payload_send]; rfl
theorem payload_recv21 (x : Dev nD) (k : Fin 3) : (arRd m).payload (recvCell x 2 1) 0 k = ((dst21 : Memref sig .tc .vmem S176x256 .bf16).view.loc (x : Thread nD τ) ↦[(dst21 : Memref sig .tc .vmem S176x256 .bf16).view.set]{fullShare} commC m x) := by
  rw [payload_recv]; rfl
theorem payload_send22 (x : Dev nD) (k : Fin 3) : (arRd m).payload (sendCell x 2 2) 0 k = ((srcC : Memref sig .tc .vmem S160x256 .bf16).view.loc (x : Thread nD τ) ↦[(srcC : Memref sig .tc .vmem S160x256 .bf16).view.set]{fullShare} accV m 2 x) := by
  rw [payload_send]; rfl
theorem payload_recv22 (x : Dev nD) (k : Fin 3) : (arRd m).payload (recvCell x 2 2) 0 k = ((dst22 : Memref sig .tc .vmem S160x256 .bf16).view.loc (x : Thread nD τ) ↦[(dst22 : Memref sig .tc .vmem S160x256 .bf16).view.set]{fullShare} commC m x) := by
  rw [payload_recv]; rfl

set_option maxHeartbeats 8000000 in
/-- One device's body, rule by rule in program order: the three signals; the input block rounded into the running
    sum; the wait for the partners; three stages of three transfers, their six waits, and the slot added; the matrix
    product stored; the transfer cells closed. -/
theorem sound_body (K : Dev nD × Fin 19 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  unfold bodyPre ghost invs marks poss payToks creds scratch
  iintro ⟨⟨⟨⟨⟨#HIb, #HIs00, #HIs01, #HIs02, #HIs10, #HIs11, #HIs12, #HIs20, #HIs21, #HIs22, #HIr00, #HIr01, #HIr02, #HIr10, #HIr11, #HIr12, #HIr20, #HIr21, #HIr22, #HIpb0, #HIpb1, #HIpb2, #HIpr00, #HIpr01, #HIpr02, #HIpr10, #HIpr11, #HIpr12, #HIpr20, #HIpr21, #HIpr22⟩, ⟨#Hrb, #Hrs00, #Hrs01, #Hrs02, #Hrs10, #Hrs11, #Hrs12, #Hrs20, #Hrs21, #Hrs22, #Hrr00, #Hrr01, #Hrr02, #Hrr10, #Hrr11, #Hrr12, #Hrr20, #Hrr21, #Hrr22, #Hrpb0, #Hrpb1, #Hrpb2, #Hrpr00, #Hrpr01, #Hrpr02, #Hrpr10, #Hrpr11, #Hrpr12, #Hrpr20, #Hrpr21, #Hrpr22⟩, ⟨Hab, Has00, Has01, Has02, Has10, Has11, Has12, Has20, Has21, Has22, Har00, Har01, Har02, Har10, Har11, Har12, Har20, Har21, Har22⟩, Htb0, Htb1, Htb2, Hts00, Hts01, Hts02, Hts10, Hts11, Hts12, Hts20, Hts21, Hts22, Htr00, Htr01, Htr02, Htr10, Htr11, Htr12, Htr20, Htr21, Htr22⟩, ⟨Hcb, Hcr00, Hcr01, Hcr02, Hcr10, Hcr11, Hcr12, Hcr20, Hcr21, Hcr22⟩, #Hlev, ⟨⟨%fa, Hacc⟩, ⟨%fc, Hcomm⟩⟩⟩, Ho, ⟨%d0, %g0, %hg0, Hx⟩, ⟨%d1, %g1, %hg1, Hw⟩, ⟨%d2, %g2, %hg2, Hout⟩⟩, Hk⟩
  have hx : g0 = tblk m c := by rw [hg0]; unfold Dat.before; rw [if_pos (fetch_0 t₀)]; rfl
  have hw : g1 = wblk m c := by rw [hg1]; unfold Dat.before; rw [if_pos (fetch_1 t₀)]; rfl
  subst hx; subst hw
  unfold Dat.owesAt Pipeline.owesWithin
  icases Ho with ⟨%W, %hW, HO⟩
  rw [show (dats m 0 c).owed t₀.castSucc = O₀ c from rfl]
  clear hg0 hg1 hg2 hW
  -- the landing buffer cut into its nine regions, to hand three to each partner
  ihave Hc3 := (comm_split c fc).1 $$ Hcomm
  icases Hc3 with ⟨Hsl0, Hsl1, Hsl2⟩
  ihave Hs0 := (slot_join0 c fc).2 $$ Hsl0
  icases Hs0 with ⟨Hc00, Hc01, Hc02⟩
  ihave Hs1 := (slot_join1 c fc).2 $$ Hsl1
  icases Hs1 with ⟨Hc10, Hc11, Hc12⟩
  ihave Hs2 := (slot_join2 c fc).2 $$ Hsl2
  icases Hs2 with ⟨Hc20, Hc21, Hc22⟩
  -- the program laid out flat
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, wp_deviceId]
  simp only [dev1_eq c, dev2_eq c, dev3_eq c, sendSem00, recvSem00, sendSem01, recvSem01, sendSem02, recvSem02, sendSem10, recvSem10, sendSem11, recvSem11, sendSem12, recvSem12, sendSem20, recvSem20, sendSem21, recvSem21, sendSem22, recvSem22]
  -- the signal to partner 0: its barrier duty, with this device's three landing regions that partner fills
  iapply (step_signal0 m K c (R0 c + tallyAt (barCell (peer c 2)) () 1 + tallyAt (barCell (peer c 1)) () 1) W fc fc fc) $$ [Htb0 HO Hc00 Hc12 Hc21]
  · isplitr; · iexact HIpb0
    isplitr; · iexact Hrpb0
    isplitl [Htb0]; · iexact Htb0
    isplitl [HO]; · iexact HO
    isplitl [Hc00]; · iexact Hc00
    isplitl [Hc12]; · iexact Hc12
    iexact Hc21
  iintro HO
  -- the signal to partner 1: its barrier duty, with this device's three landing regions that partner fills
  iapply (step_signal1 m K c (R0 c + tallyAt (barCell (peer c 2)) () 1) W fc fc fc) $$ [Htb1 HO Hc01 Hc10 Hc22]
  · isplitr; · iexact HIpb1
    isplitr; · iexact Hrpb1
    isplitl [Htb1]; · iexact Htb1
    isplitl [HO]; · iexact HO
    isplitl [Hc01]; · iexact Hc01
    isplitl [Hc10]; · iexact Hc10
    iexact Hc22
  iintro HO
  -- the signal to partner 2: its barrier duty, with this device's three landing regions that partner fills
  iapply (step_signal2 m K c (R0 c) W fc fc fc) $$ [Htb2 HO Hc02 Hc11 Hc20]
  · isplitr; · iexact HIpb2
    isplitr; · iexact Hrpb2
    isplitl [Htb2]; · iexact Htb2
    isplitl [HO]; · iexact HO
    isplitl [Hc02]; · iexact Hc02
    isplitl [Hc11]; · iexact Hc11
    iexact Hc20
  iintro HO
  -- the input block, rounded, becomes the running sum
  iapply (wp_load 𝒱₀ (c : Thread nD τ) none Set.univ (m := tM) (Finset.subset_univ _)) $$ Hx; iintro Hx
  rw [read_t]
  iapply (wp_load 𝒱₀ (c : Thread nD τ) none Set.univ (m := accM) (Finset.subset_univ _)) $$ Hacc; iintro Hacc
  iapply (wp_store 𝒱₀ (c : Thread nD τ) none Set.univ (m := accM) (r := rT) (Mk := Finset.univ) (Finset.subset_univ _)) $$ Hacc; iintro Hacc
  rw [write_acc, show k0_pay3 (tblk m c) = accV m 0 c from rfl]
  -- the wait for the three partners
  iapply (step_wait_bar m K c (R0 c) W (mayWait_above c (.reg barS) (R0 c) 1 (lv_bar c) (fun x u h => R0_pos h))) $$ [Hcb HO Hab]
  · isplitr; · iexact HIb
    isplitr; · iexact Hlev
    isplitl [Hcb]; · iexact Hcb
    isplitl [HO]; · iexact HO
    iexact Hab
  iintro ⟨HO, Hab, ⟨%q00, Hq00⟩, ⟨%q12, Hq12⟩, ⟨%q21, Hq21⟩, ⟨%q01, Hq01⟩, ⟨%q10, Hq10⟩, ⟨%q22, Hq22⟩, ⟨%q02, Hq02⟩, ⟨%q11, Hq11⟩, ⟨%q20, Hq20⟩⟩
  -- stage 0: the running sum cut into its row groups
  ihave Ha3 := (acc_split c (accV m 0 c)).1 $$ Hacc
  icases Ha3 with ⟨HsA, HsB, HsC⟩
  -- rows of group 0 to partner 0
  iapply (step_send m K c (srcA : Memref sig .tc .vmem S176x256 .bf16) (dst00 : Memref sig .tc .vmem S176x256 .bf16) 0 0 0 _ (dev4_eq c) (accV m 0 c) rfl
      (by rw [payload_send00]) (fun fd => by rw [payload_recv00, landing00])
      (R1 c + tallyAt (recvCell (peer c 2) 0 2) () (creditOf 2) + tallyAt (recvCell (peer c 1) 0 1) () (creditOf 1)) _ q00) $$ [Hts00 Htr00 HO HsA Hq00]
  · isplitr; · iexact HIs00
    isplitr; · iexact HIpr00
    isplitr; · iexact Hrs00
    isplitr; · iexact Hrpr00
    isplitl [Hts00]; · iexact Hts00
    isplitl [Htr00]; · iexact Htr00
    isplitl [HO]; · iexact HO
    isplitl [HsA]; · iexact HsA
    iexact Hq00
  iintro ⟨Hcs00, HO⟩
  -- rows of group 1 to partner 1
  iapply (step_send m K c (srcB : Memref sig .tc .vmem S176x256 .bf16) (dst01 : Memref sig .tc .vmem S176x256 .bf16) 0 1 1 _ (dev5_eq c) (accV m 0 c) rfl
      (by rw [payload_send01]) (fun fd => by rw [payload_recv01, landing01])
      (R1 c + tallyAt (recvCell (peer c 2) 0 2) () (creditOf 2)) _ q01) $$ [Hts01 Htr01 HO HsB Hq01]
  · isplitr; · iexact HIs01
    isplitr; · iexact HIpr01
    isplitr; · iexact Hrs01
    isplitr; · iexact Hrpr01
    isplitl [Hts01]; · iexact Hts01
    isplitl [Htr01]; · iexact Htr01
    isplitl [HO]; · iexact HO
    isplitl [HsB]; · iexact HsB
    iexact Hq01
  iintro ⟨Hcs01, HO⟩
  -- rows of group 2 to partner 2
  iapply (step_send m K c (srcC : Memref sig .tc .vmem S160x256 .bf16) (dst02 : Memref sig .tc .vmem S160x256 .bf16) 0 2 2 _ (dev6_eq c) (accV m 0 c) rfl
      (by rw [payload_send02]) (fun fd => by rw [payload_recv02, landing02])
      (R1 c) _ q02) $$ [Hts02 Htr02 HO HsC Hq02]
  · isplitr; · iexact HIs02
    isplitr; · iexact HIpr02
    isplitr; · iexact Hrs02
    isplitr; · iexact Hrpr02
    isplitl [Hts02]; · iexact Hts02
    isplitl [Htr02]; · iexact Htr02
    isplitl [HO]; · iexact HO
    isplitl [HsC]; · iexact HsC
    iexact Hq02
  iintro ⟨Hcs02, HO⟩
  -- the rows of group 0 have left: the source rows come back
  iapply (step_wait_send m K c (srcA : Memref sig .tc .vmem S176x256 .bf16) (dst00 : Memref sig .tc .vmem S176x256 .bf16) 0 0 (accV m 0 c) rfl (by rw [payload_send00]) (R1 c) _
      (mayWait_above c (.dma (sendQ 0 0)) (R1 c) 0 (lv_send c 0 0) (fun x u h => ⟨(R1_pos h).1, by have := (R1_pos h).2; omega⟩))) $$ [Hcs00 HO Has00]
  · isplitr; · iexact HIs00
    isplitr; · iexact Hlev
    isplitl [Hcs00]; · iexact Hcs00
    isplitl [HO]; · iexact HO
    iexact Has00
  iintro ⟨HO, Has00, HsA⟩
  -- the partner's rows of group 0 have landed
  iapply (step_wait_recv m K c (srcA : Memref sig .tc .vmem S176x256 .bf16) (dst00 : Memref sig .tc .vmem S176x256 .bf16) 0 0 (commC m c) rfl (by rw [payload_recv00]) (R1 c) _
      (mayWait_above c (.dma (recvQ 0 0)) (R1 c) 2 (lv_recv c 0 0) (fun x u h => R1_pos h))) $$ [Hcr00 HO Har00]
  · isplitr; · iexact HIr00
    isplitr; · iexact Hlev
    isplitl [Hcr00]; · iexact Hcr00
    isplitl [HO]; · iexact HO
    iexact Har00
  iintro ⟨HO, Har00, Hr00⟩
  -- the rows of group 1 have left: the source rows come back
  iapply (step_wait_send m K c (srcB : Memref sig .tc .vmem S176x256 .bf16) (dst01 : Memref sig .tc .vmem S176x256 .bf16) 0 1 (accV m 0 c) rfl (by rw [payload_send01]) (R1 c) _
      (mayWait_above c (.dma (sendQ 0 1)) (R1 c) 0 (lv_send c 0 1) (fun x u h => ⟨(R1_pos h).1, by have := (R1_pos h).2; omega⟩))) $$ [Hcs01 HO Has01]
  · isplitr; · iexact HIs01
    isplitr; · iexact Hlev
    isplitl [Hcs01]; · iexact Hcs01
    isplitl [HO]; · iexact HO
    iexact Has01
  iintro ⟨HO, Has01, HsB⟩
  -- the partner's rows of group 1 have landed
  iapply (step_wait_recv m K c (srcB : Memref sig .tc .vmem S176x256 .bf16) (dst01 : Memref sig .tc .vmem S176x256 .bf16) 0 1 (commC m c) rfl (by rw [payload_recv01]) (R1 c) _
      (mayWait_above c (.dma (recvQ 0 1)) (R1 c) 2 (lv_recv c 0 1) (fun x u h => R1_pos h))) $$ [Hcr01 HO Har01]
  · isplitr; · iexact HIr01
    isplitr; · iexact Hlev
    isplitl [Hcr01]; · iexact Hcr01
    isplitl [HO]; · iexact HO
    iexact Har01
  iintro ⟨HO, Har01, Hr01⟩
  -- the rows of group 2 have left: the source rows come back
  iapply (step_wait_send m K c (srcC : Memref sig .tc .vmem S160x256 .bf16) (dst02 : Memref sig .tc .vmem S160x256 .bf16) 0 2 (accV m 0 c) rfl (by rw [payload_send02]) (R1 c) _
      (mayWait_above c (.dma (sendQ 0 2)) (R1 c) 0 (lv_send c 0 2) (fun x u h => ⟨(R1_pos h).1, by have := (R1_pos h).2; omega⟩))) $$ [Hcs02 HO Has02]
  · isplitr; · iexact HIs02
    isplitr; · iexact Hlev
    isplitl [Hcs02]; · iexact Hcs02
    isplitl [HO]; · iexact HO
    iexact Has02
  iintro ⟨HO, Has02, HsC⟩
  -- the partner's rows of group 2 have landed
  iapply (step_wait_recv m K c (srcC : Memref sig .tc .vmem S160x256 .bf16) (dst02 : Memref sig .tc .vmem S160x256 .bf16) 0 2 (commC m c) rfl (by rw [payload_recv02]) (R1 c) _
      (mayWait_above c (.dma (recvQ 0 2)) (R1 c) 2 (lv_recv c 0 2) (fun x u h => R1_pos h))) $$ [Hcr02 HO Har02]
  · isplitr; · iexact HIr02
    isplitr; · iexact Hlev
    isplitl [Hcr02]; · iexact Hcr02
    isplitl [HO]; · iexact HO
    iexact Har02
  iintro ⟨HO, Har02, Hr02⟩
  -- the running sum whole again, slot 0 whole: the slot is added
  ihave Hacc := (acc_split c (accV m 0 c)).2 $$ [HsA HsB HsC]
  · isplitl [HsA]; · iexact HsA
    isplitl [HsB]; · iexact HsB
    iexact HsC
  ihave Hsl0 := (slot_join0 c (commC m c)).1 $$ [Hr00 Hr01 Hr02]
  · isplitl [Hr00]; · iexact Hr00
    isplitl [Hr01]; · iexact Hr01
    iexact Hr02
  iapply (wp_load 𝒱₀ (c : Thread nD τ) none Set.univ (m := accM) (Finset.subset_univ _)) $$ Hacc; iintro Hacc
  rw [read_acc]
  iapply (wp_load 𝒱₀ (c : Thread nD τ) none Set.univ (m := commM) (r := slotR0.toLoadRect) (S := (commM : Memref sig .tc .vmem S3x512x256 .bf16).view.setOn slotR0.set) subset_rfl) $$ Hsl0; iintro Hsl0
  iapply (wp_load 𝒱₀ (c : Thread nD τ) none Set.univ (m := accM) (Finset.subset_univ _)) $$ Hacc; iintro Hacc
  iapply (wp_store 𝒱₀ (c : Thread nD τ) none Set.univ (m := accM) (r := rT) (Mk := Finset.univ) (Finset.subset_univ _)) $$ Hacc; iintro Hacc
  rw [write_acc, step_val0]
  -- stage 1: the running sum cut into its row groups
  ihave Ha3 := (acc_split c (accV m 1 c)).1 $$ Hacc
  icases Ha3 with ⟨HsA, HsB, HsC⟩
  -- rows of group 0 to partner 1
  iapply (step_send m K c (srcA : Memref sig .tc .vmem S176x256 .bf16) (dst10 : Memref sig .tc .vmem S176x256 .bf16) 1 0 1 _ (dev7_eq c) (accV m 1 c) rfl
      (by rw [payload_send10]) (fun fd => by rw [payload_recv10, landing10])
      (R2 c + tallyAt (recvCell (peer c 0) 1 2) () (creditOf 2) + tallyAt (recvCell (peer c 2) 1 1) () (creditOf 1)) _ q10) $$ [Hts10 Htr10 HO HsA Hq10]
  · isplitr; · iexact HIs10
    isplitr; · iexact HIpr10
    isplitr; · iexact Hrs10
    isplitr; · iexact Hrpr10
    isplitl [Hts10]; · iexact Hts10
    isplitl [Htr10]; · iexact Htr10
    isplitl [HO]; · iexact HO
    isplitl [HsA]; · iexact HsA
    iexact Hq10
  iintro ⟨Hcs10, HO⟩
  -- rows of group 1 to partner 2
  iapply (step_send m K c (srcB : Memref sig .tc .vmem S176x256 .bf16) (dst11 : Memref sig .tc .vmem S176x256 .bf16) 1 1 2 _ (dev8_eq c) (accV m 1 c) rfl
      (by rw [payload_send11]) (fun fd => by rw [payload_recv11, landing11])
      (R2 c + tallyAt (recvCell (peer c 0) 1 2) () (creditOf 2)) _ q11) $$ [Hts11 Htr11 HO HsB Hq11]
  · isplitr; · iexact HIs11
    isplitr; · iexact HIpr11
    isplitr; · iexact Hrs11
    isplitr; · iexact Hrpr11
    isplitl [Hts11]; · iexact Hts11
    isplitl [Htr11]; · iexact Htr11
    isplitl [HO]; · iexact HO
    isplitl [HsB]; · iexact HsB
    iexact Hq11
  iintro ⟨Hcs11, HO⟩
  -- rows of group 2 to partner 0
  iapply (step_send m K c (srcC : Memref sig .tc .vmem S160x256 .bf16) (dst12 : Memref sig .tc .vmem S160x256 .bf16) 1 2 0 _ (dev9_eq c) (accV m 1 c) rfl
      (by rw [payload_send12]) (fun fd => by rw [payload_recv12, landing12])
      (R2 c) _ q12) $$ [Hts12 Htr12 HO HsC Hq12]
  · isplitr; · iexact HIs12
    isplitr; · iexact HIpr12
    isplitr; · iexact Hrs12
    isplitr; · iexact Hrpr12
    isplitl [Hts12]; · iexact Hts12
    isplitl [Htr12]; · iexact Htr12
    isplitl [HO]; · iexact HO
    isplitl [HsC]; · iexact HsC
    iexact Hq12
  iintro ⟨Hcs12, HO⟩
  -- the rows of group 0 have left: the source rows come back
  iapply (step_wait_send m K c (srcA : Memref sig .tc .vmem S176x256 .bf16) (dst10 : Memref sig .tc .vmem S176x256 .bf16) 1 0 (accV m 1 c) rfl (by rw [payload_send10]) (R2 c) _
      (mayWait_above c (.dma (sendQ 1 0)) (R2 c) 0 (lv_send c 1 0) (fun x u h => ⟨(R2_pos h).1, by have := (R2_pos h).2; omega⟩))) $$ [Hcs10 HO Has10]
  · isplitr; · iexact HIs10
    isplitr; · iexact Hlev
    isplitl [Hcs10]; · iexact Hcs10
    isplitl [HO]; · iexact HO
    iexact Has10
  iintro ⟨HO, Has10, HsA⟩
  -- the partner's rows of group 0 have landed
  iapply (step_wait_recv m K c (srcA : Memref sig .tc .vmem S176x256 .bf16) (dst10 : Memref sig .tc .vmem S176x256 .bf16) 1 0 (commC m c) rfl (by rw [payload_recv10]) (R2 c) _
      (mayWait_above c (.dma (recvQ 1 0)) (R2 c) 3 (lv_recv c 1 0) (fun x u h => R2_pos h))) $$ [Hcr10 HO Har10]
  · isplitr; · iexact HIr10
    isplitr; · iexact Hlev
    isplitl [Hcr10]; · iexact Hcr10
    isplitl [HO]; · iexact HO
    iexact Har10
  iintro ⟨HO, Har10, Hr10⟩
  -- the rows of group 1 have left: the source rows come back
  iapply (step_wait_send m K c (srcB : Memref sig .tc .vmem S176x256 .bf16) (dst11 : Memref sig .tc .vmem S176x256 .bf16) 1 1 (accV m 1 c) rfl (by rw [payload_send11]) (R2 c) _
      (mayWait_above c (.dma (sendQ 1 1)) (R2 c) 0 (lv_send c 1 1) (fun x u h => ⟨(R2_pos h).1, by have := (R2_pos h).2; omega⟩))) $$ [Hcs11 HO Has11]
  · isplitr; · iexact HIs11
    isplitr; · iexact Hlev
    isplitl [Hcs11]; · iexact Hcs11
    isplitl [HO]; · iexact HO
    iexact Has11
  iintro ⟨HO, Has11, HsB⟩
  -- the partner's rows of group 1 have landed
  iapply (step_wait_recv m K c (srcB : Memref sig .tc .vmem S176x256 .bf16) (dst11 : Memref sig .tc .vmem S176x256 .bf16) 1 1 (commC m c) rfl (by rw [payload_recv11]) (R2 c) _
      (mayWait_above c (.dma (recvQ 1 1)) (R2 c) 3 (lv_recv c 1 1) (fun x u h => R2_pos h))) $$ [Hcr11 HO Har11]
  · isplitr; · iexact HIr11
    isplitr; · iexact Hlev
    isplitl [Hcr11]; · iexact Hcr11
    isplitl [HO]; · iexact HO
    iexact Har11
  iintro ⟨HO, Har11, Hr11⟩
  -- the rows of group 2 have left: the source rows come back
  iapply (step_wait_send m K c (srcC : Memref sig .tc .vmem S160x256 .bf16) (dst12 : Memref sig .tc .vmem S160x256 .bf16) 1 2 (accV m 1 c) rfl (by rw [payload_send12]) (R2 c) _
      (mayWait_above c (.dma (sendQ 1 2)) (R2 c) 0 (lv_send c 1 2) (fun x u h => ⟨(R2_pos h).1, by have := (R2_pos h).2; omega⟩))) $$ [Hcs12 HO Has12]
  · isplitr; · iexact HIs12
    isplitr; · iexact Hlev
    isplitl [Hcs12]; · iexact Hcs12
    isplitl [HO]; · iexact HO
    iexact Has12
  iintro ⟨HO, Has12, HsC⟩
  -- the partner's rows of group 2 have landed
  iapply (step_wait_recv m K c (srcC : Memref sig .tc .vmem S160x256 .bf16) (dst12 : Memref sig .tc .vmem S160x256 .bf16) 1 2 (commC m c) rfl (by rw [payload_recv12]) (R2 c) _
      (mayWait_above c (.dma (recvQ 1 2)) (R2 c) 3 (lv_recv c 1 2) (fun x u h => R2_pos h))) $$ [Hcr12 HO Har12]
  · isplitr; · iexact HIr12
    isplitr; · iexact Hlev
    isplitl [Hcr12]; · iexact Hcr12
    isplitl [HO]; · iexact HO
    iexact Har12
  iintro ⟨HO, Har12, Hr12⟩
  -- the running sum whole again, slot 1 whole: the slot is added
  ihave Hacc := (acc_split c (accV m 1 c)).2 $$ [HsA HsB HsC]
  · isplitl [HsA]; · iexact HsA
    isplitl [HsB]; · iexact HsB
    iexact HsC
  ihave Hsl1 := (slot_join1 c (commC m c)).1 $$ [Hr10 Hr11 Hr12]
  · isplitl [Hr10]; · iexact Hr10
    isplitl [Hr11]; · iexact Hr11
    iexact Hr12
  iapply (wp_load 𝒱₀ (c : Thread nD τ) none Set.univ (m := accM) (Finset.subset_univ _)) $$ Hacc; iintro Hacc
  rw [read_acc]
  iapply (wp_load 𝒱₀ (c : Thread nD τ) none Set.univ (m := commM) (r := slotR1.toLoadRect) (S := (commM : Memref sig .tc .vmem S3x512x256 .bf16).view.setOn slotR1.set) subset_rfl) $$ Hsl1; iintro Hsl1
  iapply (wp_load 𝒱₀ (c : Thread nD τ) none Set.univ (m := accM) (Finset.subset_univ _)) $$ Hacc; iintro Hacc
  iapply (wp_store 𝒱₀ (c : Thread nD τ) none Set.univ (m := accM) (r := rT) (Mk := Finset.univ) (Finset.subset_univ _)) $$ Hacc; iintro Hacc
  rw [write_acc, step_val1]
  -- stage 2: the running sum cut into its row groups
  ihave Ha3 := (acc_split c (accV m 2 c)).1 $$ Hacc
  icases Ha3 with ⟨HsA, HsB, HsC⟩
  -- rows of group 0 to partner 2
  iapply (step_send m K c (srcA : Memref sig .tc .vmem S176x256 .bf16) (dst20 : Memref sig .tc .vmem S176x256 .bf16) 2 0 2 _ (dev10_eq c) (accV m 2 c) rfl
      (by rw [payload_send20]) (fun fd => by rw [payload_recv20, landing20])
      (tallyAt (recvCell (peer c 1) 2 2) () (creditOf 2) + tallyAt (recvCell (peer c 0) 2 1) () (creditOf 1)) _ q20) $$ [Hts20 Htr20 HO HsA Hq20]
  · isplitr; · iexact HIs20
    isplitr; · iexact HIpr20
    isplitr; · iexact Hrs20
    isplitr; · iexact Hrpr20
    isplitl [Hts20]; · iexact Hts20
    isplitl [Htr20]; · iexact Htr20
    isplitl [HO]; · iexact HO
    isplitl [HsA]; · iexact HsA
    iexact Hq20
  iintro ⟨Hcs20, HO⟩
  -- rows of group 1 to partner 0
  iapply (step_send m K c (srcB : Memref sig .tc .vmem S176x256 .bf16) (dst21 : Memref sig .tc .vmem S176x256 .bf16) 2 1 0 _ (dev11_eq c) (accV m 2 c) rfl
      (by rw [payload_send21]) (fun fd => by rw [payload_recv21, landing21])
      (tallyAt (recvCell (peer c 1) 2 2) () (creditOf 2)) _ q21) $$ [Hts21 Htr21 HO HsB Hq21]
  · isplitr; · iexact HIs21
    isplitr; · iexact HIpr21
    isplitr; · iexact Hrs21
    isplitr; · iexact Hrpr21
    isplitl [Hts21]; · iexact Hts21
    isplitl [Htr21]; · iexact Htr21
    isplitl [HO]; · iexact HO
    isplitl [HsB]; · iexact HsB
    iexact Hq21
  iintro ⟨Hcs21, HO⟩
  ihave HO := (Entails.of_eq (congrArg (fun O => (owes (c : Thread nD τ) O _ : sProp 𝕄)) (zero_add (tallyAt (recvCell (peer c 1) 2 2) () (creditOf 2))).symm)) $$ HO
  -- rows of group 2 to partner 1
  iapply (step_send m K c (srcC : Memref sig .tc .vmem S160x256 .bf16) (dst22 : Memref sig .tc .vmem S160x256 .bf16) 2 2 1 _ (dev12_eq c) (accV m 2 c) rfl
      (by rw [payload_send22]) (fun fd => by rw [payload_recv22, landing22])
      (0) _ q22) $$ [Hts22 Htr22 HO HsC Hq22]
  · isplitr; · iexact HIs22
    isplitr; · iexact HIpr22
    isplitr; · iexact Hrs22
    isplitr; · iexact Hrpr22
    isplitl [Hts22]; · iexact Hts22
    isplitl [Htr22]; · iexact Htr22
    isplitl [HO]; · iexact HO
    isplitl [HsC]; · iexact HsC
    iexact Hq22
  iintro ⟨Hcs22, HO⟩
  -- the rows of group 0 have left: the source rows come back
  iapply (step_wait_send m K c (srcA : Memref sig .tc .vmem S176x256 .bf16) (dst20 : Memref sig .tc .vmem S176x256 .bf16) 2 0 (accV m 2 c) rfl (by rw [payload_send20]) (0) _
      (by rw [MayWait_zero]; iintro -; iempintro)) $$ [Hcs20 HO Has20]
  · isplitr; · iexact HIs20
    isplitr; · iexact Hlev
    isplitl [Hcs20]; · iexact Hcs20
    isplitl [HO]; · iexact HO
    iexact Has20
  iintro ⟨HO, Has20, HsA⟩
  -- the partner's rows of group 0 have landed
  iapply (step_wait_recv m K c (srcA : Memref sig .tc .vmem S176x256 .bf16) (dst20 : Memref sig .tc .vmem S176x256 .bf16) 2 0 (commC m c) rfl (by rw [payload_recv20]) (0) _
      (by rw [MayWait_zero]; iintro -; iempintro)) $$ [Hcr20 HO Har20]
  · isplitr; · iexact HIr20
    isplitr; · iexact Hlev
    isplitl [Hcr20]; · iexact Hcr20
    isplitl [HO]; · iexact HO
    iexact Har20
  iintro ⟨HO, Har20, Hr20⟩
  -- the rows of group 1 have left: the source rows come back
  iapply (step_wait_send m K c (srcB : Memref sig .tc .vmem S176x256 .bf16) (dst21 : Memref sig .tc .vmem S176x256 .bf16) 2 1 (accV m 2 c) rfl (by rw [payload_send21]) (0) _
      (by rw [MayWait_zero]; iintro -; iempintro)) $$ [Hcs21 HO Has21]
  · isplitr; · iexact HIs21
    isplitr; · iexact Hlev
    isplitl [Hcs21]; · iexact Hcs21
    isplitl [HO]; · iexact HO
    iexact Has21
  iintro ⟨HO, Has21, HsB⟩
  -- the partner's rows of group 1 have landed
  iapply (step_wait_recv m K c (srcB : Memref sig .tc .vmem S176x256 .bf16) (dst21 : Memref sig .tc .vmem S176x256 .bf16) 2 1 (commC m c) rfl (by rw [payload_recv21]) (0) _
      (by rw [MayWait_zero]; iintro -; iempintro)) $$ [Hcr21 HO Har21]
  · isplitr; · iexact HIr21
    isplitr; · iexact Hlev
    isplitl [Hcr21]; · iexact Hcr21
    isplitl [HO]; · iexact HO
    iexact Har21
  iintro ⟨HO, Har21, Hr21⟩
  -- the rows of group 2 have left: the source rows come back
  iapply (step_wait_send m K c (srcC : Memref sig .tc .vmem S160x256 .bf16) (dst22 : Memref sig .tc .vmem S160x256 .bf16) 2 2 (accV m 2 c) rfl (by rw [payload_send22]) (0) _
      (by rw [MayWait_zero]; iintro -; iempintro)) $$ [Hcs22 HO Has22]
  · isplitr; · iexact HIs22
    isplitr; · iexact Hlev
    isplitl [Hcs22]; · iexact Hcs22
    isplitl [HO]; · iexact HO
    iexact Has22
  iintro ⟨HO, Has22, HsC⟩
  -- the partner's rows of group 2 have landed
  iapply (step_wait_recv m K c (srcC : Memref sig .tc .vmem S160x256 .bf16) (dst22 : Memref sig .tc .vmem S160x256 .bf16) 2 2 (commC m c) rfl (by rw [payload_recv22]) (0) _
      (by rw [MayWait_zero]; iintro -; iempintro)) $$ [Hcr22 HO Har22]
  · isplitr; · iexact HIr22
    isplitr; · iexact Hlev
    isplitl [Hcr22]; · iexact Hcr22
    isplitl [HO]; · iexact HO
    iexact Har22
  iintro ⟨HO, Har22, Hr22⟩
  -- the running sum whole again, slot 2 whole: the slot is added
  ihave Hacc := (acc_split c (accV m 2 c)).2 $$ [HsA HsB HsC]
  · isplitl [HsA]; · iexact HsA
    isplitl [HsB]; · iexact HsB
    iexact HsC
  ihave Hsl2 := (slot_join2 c (commC m c)).1 $$ [Hr20 Hr21 Hr22]
  · isplitl [Hr20]; · iexact Hr20
    isplitl [Hr21]; · iexact Hr21
    iexact Hr22
  iapply (wp_load 𝒱₀ (c : Thread nD τ) none Set.univ (m := accM) (Finset.subset_univ _)) $$ Hacc; iintro Hacc
  rw [read_acc]
  iapply (wp_load 𝒱₀ (c : Thread nD τ) none Set.univ (m := commM) (r := slotR2.toLoadRect) (S := (commM : Memref sig .tc .vmem S3x512x256 .bf16).view.setOn slotR2.set) subset_rfl) $$ Hsl2; iintro Hsl2
  iapply (wp_load 𝒱₀ (c : Thread nD τ) none Set.univ (m := accM) (Finset.subset_univ _)) $$ Hacc; iintro Hacc
  iapply (wp_store 𝒱₀ (c : Thread nD τ) none Set.univ (m := accM) (r := rT) (Mk := Finset.univ) (Finset.subset_univ _)) $$ Hacc; iintro Hacc
  rw [write_acc, step_val2]
  -- the full sum times the second input
  iapply (wp_load 𝒱₀ (c : Thread nD τ) none Set.univ (m := accM) (Finset.subset_univ _)) $$ Hacc; iintro Hacc
  rw [read_acc]
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Hout; iintro Hout
  iapply (wp_store 𝒱₀ (c : Thread nD τ) none Set.univ (m := oM) (r := rT) (Mk := Finset.univ) (Finset.subset_univ _)) $$ Hout; iintro Hout
  rw [write_o, show k0_pay2 (accV m 3 c) (wblk m c) = outV m c from rfl]
  -- the eighteen transfer cells close: their counters at zero are the device's again
  imod (step_close_send m K c 0 0) $$ [Has00] with Hzs00
  · isplitr; · iexact HIs00
    iexact Has00
  imod (step_close_send m K c 0 1) $$ [Has01] with Hzs01
  · isplitr; · iexact HIs01
    iexact Has01
  imod (step_close_send m K c 0 2) $$ [Has02] with Hzs02
  · isplitr; · iexact HIs02
    iexact Has02
  imod (step_close_send m K c 1 0) $$ [Has10] with Hzs10
  · isplitr; · iexact HIs10
    iexact Has10
  imod (step_close_send m K c 1 1) $$ [Has11] with Hzs11
  · isplitr; · iexact HIs11
    iexact Has11
  imod (step_close_send m K c 1 2) $$ [Has12] with Hzs12
  · isplitr; · iexact HIs12
    iexact Has12
  imod (step_close_send m K c 2 0) $$ [Has20] with Hzs20
  · isplitr; · iexact HIs20
    iexact Has20
  imod (step_close_send m K c 2 1) $$ [Has21] with Hzs21
  · isplitr; · iexact HIs21
    iexact Has21
  imod (step_close_send m K c 2 2) $$ [Has22] with Hzs22
  · isplitr; · iexact HIs22
    iexact Has22
  imod (step_close_recv m K c 0 0) $$ [Har00] with Hzr00
  · isplitr; · iexact HIr00
    iexact Har00
  imod (step_close_recv m K c 0 1) $$ [Har01] with Hzr01
  · isplitr; · iexact HIr01
    iexact Har01
  imod (step_close_recv m K c 0 2) $$ [Har02] with Hzr02
  · isplitr; · iexact HIr02
    iexact Har02
  imod (step_close_recv m K c 1 0) $$ [Har10] with Hzr10
  · isplitr; · iexact HIr10
    iexact Har10
  imod (step_close_recv m K c 1 1) $$ [Har11] with Hzr11
  · isplitr; · iexact HIr11
    iexact Har11
  imod (step_close_recv m K c 1 2) $$ [Har12] with Hzr12
  · isplitr; · iexact HIr12
    iexact Har12
  imod (step_close_recv m K c 2 0) $$ [Har20] with Hzr20
  · isplitr; · iexact HIr20
    iexact Har20
  imod (step_close_recv m K c 2 1) $$ [Har21] with Hzr21
  · isplitr; · iexact HIr21
    iexact Har21
  imod (step_close_recv m K c 2 2) $$ [Har22] with Hzr22
  · isplitr; · iexact HIr22
    iexact Har22
  ihave Hcomm := (comm_split c (commC m c)).2 $$ [Hsl0 Hsl1 Hsl2]
  · isplitl [Hsl0]; · iexact Hsl0
    isplitl [Hsl1]; · iexact Hsl1
    iexact Hsl2
  rw [wp_ret]; imodintro
  iapply Hk
  unfold bodyPost Φ₁ scratch ownZero Dat.owesAt Pipeline.owesWithin
  rw [show (dats m 0 c).owed t₀.succ = 0 from rfl]
  isplitl [Hacc Hcomm Hzs00 Hzs01 Hzs02 Hzs10 Hzs11 Hzs12 Hzs20 Hzs21 Hzs22 Hzr00 Hzr01 Hzr02 Hzr10 Hzr11 Hzr12 Hzr20 Hzr21 Hzr22]
  · isplitl [Hacc Hcomm]
    · isplitl [Hacc]
      · iexists _; iexact Hacc
      · iexists _; iexact Hcomm
    isplitl [Hzs00]; · iexact Hzs00
    isplitl [Hzs01]; · iexact Hzs01
    isplitl [Hzs02]; · iexact Hzs02
    isplitl [Hzs10]; · iexact Hzs10
    isplitl [Hzs11]; · iexact Hzs11
    isplitl [Hzs12]; · iexact Hzs12
    isplitl [Hzs20]; · iexact Hzs20
    isplitl [Hzs21]; · iexact Hzs21
    isplitl [Hzs22]; · iexact Hzs22
    isplitl [Hzr00]; · iexact Hzr00
    isplitl [Hzr01]; · iexact Hzr01
    isplitl [Hzr02]; · iexact Hzr02
    isplitl [Hzr10]; · iexact Hzr10
    isplitl [Hzr11]; · iexact Hzr11
    isplitl [Hzr12]; · iexact Hzr12
    isplitl [Hzr20]; · iexact Hzr20
    isplitl [Hzr21]; · iexact Hzr21
    iexact Hzr22
  isplitl [HO]
  · iexists _
    isplitr
    rotate_left
    · iexact HO
    · ipureintro; exact fun _ _ => Or.inl trivial
  isplitl [Hx]
  · iexists _; isplitr; · (ipureintro; rfl)
    iexact Hx
  isplitl [Hw]
  · iexists _; isplitr; · (ipureintro; rfl)
    iexact Hw
  iexists _; isplitr; · (ipureintro; rfl)
  iexact Hout

/-! ## The body obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

set_option maxRecDepth 4000 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3) (fun _ => bodyPost m c)
  unfold bodyPre' Φ₀ start
  iintro ⟨⟨⟨⟨%K, Hg⟩, Hcr, Hlev⟩, Hscr⟩, Ho, Hx, Hw, Hout⟩
  iapply (sound_body m K c fun _ => bodyPost m c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx]; · iexact Hx
    isplitl [Hw]; · iexact Hw
    iexact Hout
  · iintro H; iexact H

/-- info: 'Cert.KernelIdeal.AR.body_obligation' depends on axioms: [propext, Classical.choice, Quot.sound] -/
#guard_msgs in #print axioms body_obligation

end Cert.KernelIdeal.AR

end
-- ==== Proof.Launch.lean ====
/-
  The launch: from "each device's body is proved" to the run of the whole mesh.
-/
import proofs.«900560_g7700000000000561_dist_matmul_of_ar_i_m512_n256_k256_v7x_i8_f32_1_alg».proof.Proof.Gen.KernelIdeal
import proofs.«900560_g7700000000000561_dist_matmul_of_ar_i_m512_n256_k256_v7x_i8_f32_1_alg».proof.Proof.Gen.KernelIdeal.Skeleton
import proofs.«900560_g7700000000000561_dist_matmul_of_ar_i_m512_n256_k256_v7x_i8_f32_1_alg».proof.Proof.Gen.KernelIdeal.Launch
import proofs.«900560_g7700000000000561_dist_matmul_of_ar_i_m512_n256_k256_v7x_i8_f32_1_alg».proof.Proof.Gen.KernelIdeal.Points
import proofs.«900560_g7700000000000561_dist_matmul_of_ar_i_m512_n256_k256_v7x_i8_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import proofs.«900560_g7700000000000561_dist_matmul_of_ar_i_m512_n256_k256_v7x_i8_f32_1_alg».proof.Proof.Mesh
import proofs.«900560_g7700000000000561_dist_matmul_of_ar_i_m512_n256_k256_v7x_i8_f32_1_alg».proof.Proof.Sched
import proofs.«900560_g7700000000000561_dist_matmul_of_ar_i_m512_n256_k256_v7x_i8_f32_1_alg».proof.Proof.Proto
import proofs.«900560_g7700000000000561_dist_matmul_of_ar_i_m512_n256_k256_v7x_i8_f32_1_alg».proof.Proof.Tables
import proofs.«900560_g7700000000000561_dist_matmul_of_ar_i_m512_n256_k256_v7x_i8_f32_1_alg».proof.Proof.Ghost

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- Device `c`'s window `w` array after the run. -/
def finalA (c : Dev nD) (w : Fin cfg0.W) : Buf (Elt F) ((cfg0.win w).arr.view.loc (c : Thread nD τ)) := (dats m 0 c).arrAt w cfg0.N

/-- Every device's window arrays end at the proof data's final contents. -/
def QC : PUnit × MemSt nD τ sig (Elt F) → Prop := fun r =>
  ∀ c : Dev nD, ∀ w : Fin cfg0.W, r.2.mem ((cfg0.win w).arr.view.loc (c : Thread nD τ)) = finalA m c w

/-! ## The launch -/

/-- The eighteen transfer semaphores are scoped, pairwise distinct, and none of them stages a window. -/
theorem ownSemFacts : Pipeline.OwnSemFacts cfg0.spec osem := by decide

theorem share_eq (c : Dev nD) (w : Fin cfg0.W) : (dats m 0 c).share w = fullShare := by unfold Dat.share; split <;> rfl

/-- Three regions, each at some contents, are an assertion about memory alone when each region at given contents is. -/
theorem storable_three {α β γ : Type} (P : α → sProp 𝕄) (Q : β → sProp 𝕄) (R : γ → sProp 𝕄)
    [∀ x, BI.Storable (upEmb : UEmb _ 𝕄) (P x)] [∀ x, BI.Storable (upEmb : UEmb _ 𝕄) (Q x)] [∀ x, BI.Storable (upEmb : UEmb _ 𝕄) (R x)] :
    BI.Storable (upEmb : UEmb _ 𝕄) iprop((∃ x, P x) ∗ (∃ x, Q x) ∗ (∃ x, R x)) := inferInstance

/-- Every payload of the schedule is an assertion about memory alone, so a cell's invariant can hold it. -/
instance arRd_payload_storable (g : GSem nD τ sig) (r : ℕ) (k : Fin 3) :
    BI.Storable (upEmb : UEmb _ 𝕄) ((arRd (F := F) m).payload g r k) := by
  dsimp only [arRd]
  unfold barPay xferPay sendPay recvPay
  (repeat' split) <;> first | exact storable_three _ _ _ | infer_instance

theorem csem_injective : Function.Injective csem := by decide

theorem kcell_injective : Function.Injective (kcell : Dev nD × Fin 19 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
/-- Every device's nineteen cells. -/
def arCells : Finset (GSem nD τ sig) := Finset.univ.map ⟨kcell, kcell_injective⟩

/-- A device's own cells' duty tokens as minted: the three duties of its barrier cell, and duty 0 of each of its
    eighteen transfer cells. -/
abbrev tokOf (cj : Dev nD × (Fin 3 ⊕ Fin 18)) : GSem nD τ sig × ℕ × Fin 3 :=
  match cj.2 with
  | .inl k => (barCell cj.1, 0, k)
  | .inr i => (((cj.1 : Thread nD τ), osem i), 0, 0)
theorem tokOf_injective : Function.Injective (tokOf : Dev nD × (Fin 3 ⊕ Fin 18) → GSem nD τ sig × ℕ × Fin 3) := by
  rintro ⟨c, j⟩ ⟨c', j'⟩ h
  have h1 : c = c' := by
    have := congrArg (fun x : GSem nD τ sig × ℕ × Fin 3 => x.1.1.1) h
    rcases j with k | i <;> rcases j' with k' | i' <;> exact this
  subst h1
  rcases j with k | i <;> rcases j' with k' | i'
  · have h2 : k = k' := congrArg (fun x : GSem nD τ sig × ℕ × Fin 3 => x.2.2) h
    rw [h2]
  · exact absurd (congrArg (fun x : GSem nD τ sig × ℕ × Fin 3 => x.1.2) h) (fun h' => by cases h')
  · exact absurd (congrArg (fun x : GSem nD τ sig × ℕ × Fin 3 => x.1.2) h) (fun h' => by cases h')
  · have h2 : osem i = osem i' := congrArg (fun x : GSem nD τ sig × ℕ × Fin 3 => x.1.2) h
    rw [ownSemFacts.inj h2]
def arToks : Finset (GSem nD τ sig × ℕ × Fin 3) := Finset.univ.map ⟨tokOf, tokOf_injective⟩

/-- The launch element: the pipeline library's copy beside the protocol's. -/
def u₀ : UU :=
  (initOf (Pipeline.cells cfgs cellOf_inj) (Pipeline.launchToks cfgs cellOf_inj), initOf arCells arToks)

/-- The duty tokens of device `c`'s own cells. -/
def toks (c : Dev nD) : sProp 𝕄 :=
  iprop((dutyTok ER (barCell c) 0 (0 : Fin 3) ∗ dutyTok ER (barCell c) 0 (1 : Fin 3) ∗ dutyTok ER (barCell c) 0 (2 : Fin 3))
    ∗ (dutyTok ER (sendCell c 0 0) 0 (0 : Fin 3)
      ∗ dutyTok ER (sendCell c 0 1) 0 (0 : Fin 3)
      ∗ dutyTok ER (sendCell c 0 2) 0 (0 : Fin 3)
      ∗ dutyTok ER (sendCell c 1 0) 0 (0 : Fin 3)
      ∗ dutyTok ER (sendCell c 1 1) 0 (0 : Fin 3)
      ∗ dutyTok ER (sendCell c 1 2) 0 (0 : Fin 3)
      ∗ dutyTok ER (sendCell c 2 0) 0 (0 : Fin 3)
      ∗ dutyTok ER (sendCell c 2 1) 0 (0 : Fin 3)
      ∗ dutyTok ER (sendCell c 2 2) 0 (0 : Fin 3)
      ∗ dutyTok ER (recvCell c 0 0) 0 (0 : Fin 3)
      ∗ dutyTok ER (recvCell c 0 1) 0 (0 : Fin 3)
      ∗ dutyTok ER (recvCell c 0 2) 0 (0 : Fin 3)
      ∗ dutyTok ER (recvCell c 1 0) 0 (0 : Fin 3)
      ∗ dutyTok ER (recvCell c 1 1) 0 (0 : Fin 3)
      ∗ dutyTok ER (recvCell c 1 2) 0 (0 : Fin 3)
      ∗ dutyTok ER (recvCell c 2 0) 0 (0 : Fin 3)
      ∗ dutyTok ER (recvCell c 2 1) 0 (0 : Fin 3)
      ∗ dutyTok ER (recvCell c 2 2) 0 (0 : Fin 3)))

/-- What the launch element deals device `c`. -/
def G (c : Dev nD) : sProp 𝕄 :=
  iprop((bigSep Finset.univ fun k : Fin 19 => roundState ER (arRd m) (kcell (c, k)) 0)
    ∗ (bigSep Finset.univ fun k : Fin 19 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ
theorem bigSep_fin19 (Φ : Fin 19 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ

theorem fund_ar : BI.own (ER (initOf arCells arToks)) ⊢ (|==> bigSep Finset.univ (G m) : sProp 𝕄) := by
  have hX (Φ : GSem nD τ sig → sProp 𝕄) : bigSep arCells Φ = bigSep Finset.univ fun c : Dev nD => bigSep Finset.univ fun k : Fin 19 => Φ (kcell (c, k)) := by
    unfold arCells; rw [bigSep_map, bigSep_univ_prod]; rfl
  have hT : bigSep arToks (fun x => (dutyTok ER x.1 x.2.1 x.2.2 : sProp 𝕄)) = bigSep Finset.univ fun c : Dev nD => toks c := by
    unfold arToks; rw [bigSep_map, bigSep_univ_prod]
    exact bigSep_congr fun c _ => by unfold toks; rw [bigSep_univ_sum, bigSep_fin3, bigSep_fin18]; rfl
  iintro HX
  imod (Rounds.fund ER (arRd m) arCells arToks) $$ HX with ⟨Hst, Hr, Hat, Htok⟩
  imodintro
  ihave Hst' := (Entails.of_eq (hX fun g => roundState ER (arRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The eighteen transfer semaphores are the kernel's own; -/
theorem ownSems0_eq (c : Dev nD) : (Pipeline.ownSems0 (Ix := Unit) (Name := ℕ) (U := UU) (Lvl := ℕ) (Val := Elt F) (τ := τ) osem c : sProp 𝕄)
    = ownZero c :=
  (Pipeline.ownSems0_eq_of_list c osem [0, 1, 2, 3, 4, 5, 6, 7, 8, 9, 10, 11, 12, 13, 14, 15, 16, 17] (by decide) (by decide)).trans rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 19 => semVal (kcell (c, k)) 0 : sProp 𝕄) := by
  rw [ownSems0_eq, unscopedSems0_eq, bigSep_fin19]
  unfold ownZero
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (arRd m) κ (kcell (c, k))))
          ∗ (bigSep Finset.univ fun k : Fin 19 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 19 => semVal (kcell (c, k)) 0) ∗ bigSep Finset.univ fun k : Fin 19 => roundState ER (arRd m) (kcell (c, k)) 0)
      ⊢ (|={Set.univ}=> bigSep Finset.univ fun k => iprop(∃ κ : ℕ, cellInv ER (arRd m) κ (kcell (c, k))) : sProp 𝕄) from by
        rw [← bigSep_sep']
        exact (bigSep_mono fun k _ => (Rounds.body_intro ER (arRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant, at the names `K` the launch allocated them at, and that every cell is at its first round. -/
def records (K : Dev nD × Fin 19 → ℕ) : sProp 𝕄 :=
  iprop((bigSep Finset.univ fun ck : Dev nD × Fin 19 => cellInv ER (arRd m) (K ck) (kcell ck))
    ∗ bigSep Finset.univ fun ck : Dev nD × Fin 19 => reached ER (kcell ck) 0)

instance records_persistent (K : Dev nD × Fin 19 → ℕ) : BI.Persistent (records m K) := by unfold records; infer_instance

theorem inv_at (K : Dev nD × Fin 19 → ℕ) (ck : Dev nD × Fin 19) :
    (bigSep Finset.univ fun ck : Dev nD × Fin 19 => (cellInv ER (arRd m) (K ck) (kcell ck) : sProp 𝕄)) ⊢ cellInv ER (arRd m) (K ck) (kcell ck) :=
  bigSep_elim (Finset.mem_univ ck)
theorem inv_bar (K : Dev nD × Fin 19 → ℕ) (c : Dev nD) :
    (bigSep Finset.univ fun ck : Dev nD × Fin 19 => (cellInv ER (arRd m) (K ck) (kcell ck) : sProp 𝕄)) ⊢ cellInv ER (arRd m) (K (c, iBar)) (barCell c) :=
  inv_at m K (c, iBar)
theorem inv_send (K : Dev nD × Fin 19 → ℕ) (c : Dev nD) (d g : Fin 3) :
    (bigSep Finset.univ fun ck : Dev nD × Fin 19 => (cellInv ER (arRd m) (K ck) (kcell ck) : sProp 𝕄)) ⊢ cellInv ER (arRd m) (K (c, iSend d g)) (sendCell c d g) := by
  rw [← kcell_send]; exact inv_at m K (c, iSend d g)
theorem inv_recv (K : Dev nD × Fin 19 → ℕ) (c : Dev nD) (d g : Fin 3) :
    (bigSep Finset.univ fun ck : Dev nD × Fin 19 => (cellInv ER (arRd m) (K ck) (kcell ck) : sProp 𝕄)) ⊢ cellInv ER (arRd m) (K (c, iRecv d g)) (recvCell c d g) := by
  rw [← kcell_recv]; exact inv_at m K (c, iRecv d g)
theorem reached_at (ck : Dev nD × Fin 19) :
    (bigSep Finset.univ fun ck : Dev nD × Fin 19 => (reached ER (kcell ck) 0 : sProp 𝕄)) ⊢ reached ER (kcell ck) 0 :=
  bigSep_elim (Finset.mem_univ ck)
theorem reached_bar (c : Dev nD) :
    (bigSep Finset.univ fun ck : Dev nD × Fin 19 => (reached ER (kcell ck) 0 : sProp 𝕄)) ⊢ reached ER (barCell c) 0 :=
  reached_at (F := F) (c, iBar)
theorem reached_send (c : Dev nD) (d g : Fin 3) :
    (bigSep Finset.univ fun ck : Dev nD × Fin 19 => (reached ER (kcell ck) 0 : sProp 𝕄)) ⊢ reached ER (sendCell c d g) 0 := by
  rw [← kcell_send]; exact reached_at (F := F) (c, iSend d g)
theorem reached_recv (c : Dev nD) (d g : Fin 3) :
    (bigSep Finset.univ fun ck : Dev nD × Fin 19 => (reached ER (kcell ck) 0 : sProp 𝕄)) ⊢ reached ER (recvCell c d g) 0 := by
  rw [← kcell_recv]; exact reached_at (F := F) (c, iRecv d g)

theorem invs_intro (K : Dev nD × Fin 19 → ℕ) (c : Dev nD) : records m K ⊢ invs m K c := by
  unfold records invs
  iintro ⟨#HI, #HR⟩
  isplitr; · iapply (inv_bar m K c); iexact HI
  isplitr; · iapply (inv_send m K c 0 0); iexact HI
  isplitr; · iapply (inv_send m K c 0 1); iexact HI
  isplitr; · iapply (inv_send m K c 0 2); iexact HI
  isplitr; · iapply (inv_send m K c 1 0); iexact HI
  isplitr; · iapply (inv_send m K c 1 1); iexact HI
  isplitr; · iapply (inv_send m K c 1 2); iexact HI
  isplitr; · iapply (inv_send m K c 2 0); iexact HI
  isplitr; · iapply (inv_send m K c 2 1); iexact HI
  isplitr; · iapply (inv_send m K c 2 2); iexact HI
  isplitr; · iapply (inv_recv m K c 0 0); iexact HI
  isplitr; · iapply (inv_recv m K c 0 1); iexact HI
  isplitr; · iapply (inv_recv m K c 0 2); iexact HI
  isplitr; · iapply (inv_recv m K c 1 0); iexact HI
  isplitr; · iapply (inv_recv m K c 1 1); iexact HI
  isplitr; · iapply (inv_recv m K c 1 2); iexact HI
  isplitr; · iapply (inv_recv m K c 2 0); iexact HI
  isplitr; · iapply (inv_recv m K c 2 1); iexact HI
  isplitr; · iapply (inv_recv m K c 2 2); iexact HI
  isplitr; · iapply (inv_bar m K (peer c 0)); iexact HI
  isplitr; · iapply (inv_bar m K (peer c 1)); iexact HI
  isplitr; · iapply (inv_bar m K (peer c 2)); iexact HI
  isplitr; · iapply (inv_recv m K (peer c 0) 0 0); iexact HI
  isplitr; · iapply (inv_recv m K (peer c 1) 0 1); iexact HI
  isplitr; · iapply (inv_recv m K (peer c 2) 0 2); iexact HI
  isplitr; · iapply (inv_recv m K (peer c 1) 1 0); iexact HI
  isplitr; · iapply (inv_recv m K (peer c 2) 1 1); iexact HI
  isplitr; · iapply (inv_recv m K (peer c 0) 1 2); iexact HI
  isplitr; · iapply (inv_recv m K (peer c 2) 2 0); iexact HI
  isplitr; · iapply (inv_recv m K (peer c 0) 2 1); iexact HI
  iapply (inv_recv m K (peer c 1) 2 2); iexact HI

theorem marks_intro (K : Dev nD × Fin 19 → ℕ) (c : Dev nD) : records m K ⊢ marks (F := F) c := by
  unfold records marks
  iintro ⟨#HI, #HR⟩
  isplitr; · iapply (reached_bar (F := F) c); iexact HR
  isplitr; · iapply (reached_send (F := F) c 0 0); iexact HR
  isplitr; · iapply (reached_send (F := F) c 0 1); iexact HR
  isplitr; · iapply (reached_send (F := F) c 0 2); iexact HR
  isplitr; · iapply (reached_send (F := F) c 1 0); iexact HR
  isplitr; · iapply (reached_send (F := F) c 1 1); iexact HR
  isplitr; · iapply (reached_send (F := F) c 1 2); iexact HR
  isplitr; · iapply (reached_send (F := F) c 2 0); iexact HR
  isplitr; · iapply (reached_send (F := F) c 2 1); iexact HR
  isplitr; · iapply (reached_send (F := F) c 2 2); iexact HR
  isplitr; · iapply (reached_recv (F := F) c 0 0); iexact HR
  isplitr; · iapply (reached_recv (F := F) c 0 1); iexact HR
  isplitr; · iapply (reached_recv (F := F) c 0 2); iexact HR
  isplitr; · iapply (reached_recv (F := F) c 1 0); iexact HR
  isplitr; · iapply (reached_recv (F := F) c 1 1); iexact HR
  isplitr; · iapply (reached_recv (F := F) c 1 2); iexact HR
  isplitr; · iapply (reached_recv (F := F) c 2 0); iexact HR
  isplitr; · iapply (reached_recv (F := F) c 2 1); iexact HR
  isplitr; · iapply (reached_recv (F := F) c 2 2); iexact HR
  isplitr; · iapply (reached_bar (F := F) (peer c 0)); iexact HR
  isplitr; · iapply (reached_bar (F := F) (peer c 1)); iexact HR
  isplitr; · iapply (reached_bar (F := F) (peer c 2)); iexact HR
  isplitr; · iapply (reached_recv (F := F) (peer c 0) 0 0); iexact HR
  isplitr; · iapply (reached_recv (F := F) (peer c 1) 0 1); iexact HR
  isplitr; · iapply (reached_recv (F := F) (peer c 2) 0 2); iexact HR
  isplitr; · iapply (reached_recv (F := F) (peer c 1) 1 0); iexact HR
  isplitr; · iapply (reached_recv (F := F) (peer c 2) 1 1); iexact HR
  isplitr; · iapply (reached_recv (F := F) (peer c 0) 1 2); iexact HR
  isplitr; · iapply (reached_recv (F := F) (peer c 2) 2 0); iexact HR
  isplitr; · iapply (reached_recv (F := F) (peer c 0) 2 1); iexact HR
  iapply (reached_recv (F := F) (peer c 1) 2 2); iexact HR

/-- What stays with device `c`: its positions on its own cells, and the tokens of the duties it pays. -/
def linear (c : Dev nD) : sProp 𝕄 := iprop(poss c ∗ payToks c)

theorem ghost_intro (K : Dev nD × Fin 19 → ℕ) (c : Dev nD) : iprop(records m K ∗ linear c) ⊢ G' m c := by
  unfold linear G' ghost
  iintro ⟨#HR, Hp, Ht⟩
  iexists K
  isplitr; · iapply (invs_intro m K c); iexact HR
  isplitr; · iapply (marks_intro m K c); iexact HR
  isplitl [Hp]; · iexact Hp
  iexact Ht

theorem poss_eq (c : Dev nD) : (bigSep Finset.univ fun k : Fin 19 => (atPos ER (kcell (c, k)) 0 ∅ 0 : sProp 𝕄)) = poss c :=
  (bigSep_fin19 _).trans rfl

/-- Partner `k` as a permutation of the devices. -/
def pk (k : Fin 3) : Dev nD ≃ Dev nD := ⟨fun c => peer c k, fun c => peer c k, fun c => peer_peer c k, fun c => peer_peer c k⟩

/-- The tokens dealt to their payers: duty `k` of a barrier cell to the owner's partner `k`, a receive cell's duty to the
    partner whose transfer pays it; each map is an involution, so each family is reindexed along it. -/
theorem toks_around : (bigSep Finset.univ fun c : Dev nD => (toks c : sProp 𝕄)) ⊢ bigSep Finset.univ fun c : Dev nD => payToks c := by
  unfold toks payToks
  simp only [bigSep_sep']
  rw [bigSep_univ_equiv (pk 0) (fun c : Dev nD => (dutyTok ER (barCell c) 0 (0 : Fin 3) : sProp 𝕄)),
    bigSep_univ_equiv (pk 1) (fun c : Dev nD => (dutyTok ER (barCell c) 0 (1 : Fin 3) : sProp 𝕄)),
    bigSep_univ_equiv (pk 2) (fun c : Dev nD => (dutyTok ER (barCell c) 0 (2 : Fin 3) : sProp 𝕄)),
    bigSep_univ_equiv (pk 0) (fun c : Dev nD => (dutyTok ER (recvCell c 0 0) 0 (0 : Fin 3) : sProp 𝕄)),
    bigSep_univ_equiv (pk 1) (fun c : Dev nD => (dutyTok ER (recvCell c 0 1) 0 (0 : Fin 3) : sProp 𝕄)),
    bigSep_univ_equiv (pk 2) (fun c : Dev nD => (dutyTok ER (recvCell c 0 2) 0 (0 : Fin 3) : sProp 𝕄)),
    bigSep_univ_equiv (pk 1) (fun c : Dev nD => (dutyTok ER (recvCell c 1 0) 0 (0 : Fin 3) : sProp 𝕄)),
    bigSep_univ_equiv (pk 2) (fun c : Dev nD => (dutyTok ER (recvCell c 1 1) 0 (0 : Fin 3) : sProp 𝕄)),
    bigSep_univ_equiv (pk 0) (fun c : Dev nD => (dutyTok ER (recvCell c 1 2) 0 (0 : Fin 3) : sProp 𝕄)),
    bigSep_univ_equiv (pk 2) (fun c : Dev nD => (dutyTok ER (recvCell c 2 0) 0 (0 : Fin 3) : sProp 𝕄)),
    bigSep_univ_equiv (pk 0) (fun c : Dev nD => (dutyTok ER (recvCell c 2 1) 0 (0 : Fin 3) : sProp 𝕄)),
    bigSep_univ_equiv (pk 1) (fun c : Dev nD => (dutyTok ER (recvCell c 2 2) 0 (0 : Fin 3) : sProp 𝕄))]
  iintro ⟨⟨H1, H2, H3⟩, H4, H5, H6, H7, H8, H9, H10, H11, H12, H13, H14, H15, H16, H17, H18, H19, H20, H21⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (arRd m) κ (kcell (c, k))))
          ∗ (bigSep Finset.univ fun k : Fin 19 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 19 => iprop(∃ κ : ℕ, cellInv ER (arRd m) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄))]
  iintro ⟨HI, ⟨Hat, #HR⟩, Htok⟩
  ihave HK := (BI.bigSep_exists_pi Finset.univ (fun (ck : Dev nD × Fin 19) (κ : ℕ) => (cellInv ER (arRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 19 => (atPos ER (kcell (c, k)) 0 ∅ 0 : sProp 𝕄)) payToks).symm).trans
      (bigSep_mono fun c _ => show _ ⊢ linear c from Entails.of_eq (by unfold linear; rw [poss_eq])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- Every device owing the credit of row group `g` on its partner `k`'s receive cell (stage `d`), device `c` is dealt that
    credit on its own: partner `k` is an involution. -/
theorem cred_recv (c : Dev nD) (k d g : Fin 3) :
    (Pipeline.launchCred (fun x : Dev nD => (tallyAt (recvCell (peer x k) d g) () (creditOf g) : CellTallies nD τ sig Unit)) c : sProp 𝕄)
      ⊢ cred (tallyAt (recvCell c d g) () (creditOf g)) :=
  Pipeline.launchCred_tallyAt (.dma (recvQ d g)) (fun x => peer x k) (fun x => peer x k) (fun x => peer_peer x k) (fun x => peer_peer x k) () (creditOf g) c

/-- Every device owing its partner `k`'s barrier cell one unit, device `c` is dealt one unit on its own. -/
theorem cred_bar (c : Dev nD) (k : Fin 3) :
    (Pipeline.launchCred (fun x : Dev nD => (tallyAt (barCell (peer x k)) () 1 : CellTallies nD τ sig Unit)) c : sProp 𝕄)
      ⊢ cred (tallyAt (barCell c) () 1) :=
  Pipeline.launchCred_tallyAt (.reg barS) (fun x => peer x k) (fun x => peer x k) (fun x => peer_peer x k) (fun x => peer_peer x k) () 1 c

/-- Three unit credits on the barrier cell are one credit of three. -/
theorem cred_bar3 (c : Dev nD) :
    iprop(cred (tallyAt (barCell c) () 1) ∗ cred (tallyAt (barCell c) () 1) ∗ cred (tallyAt (barCell c) () 1))
      ⊢ (cred (tallyAt (barCell c) () 3) : sProp 𝕄) := by
  have e : (tallyAt (barCell c) () 1 + (tallyAt (barCell c) () 1 + tallyAt (barCell c) () 1) : CellTallies nD τ sig Unit) = tallyAt (barCell c) () 3 := by
    rw [tallyAt_add, tallyAt_add]
  rw [← e]
  exact (sep_mono_right (cred_add _ _).2).trans (cred_add _ _).2

/-- The launch credit of device `c`: three units on its barrier cell, and each receive cell's transfer credit. -/
theorem creds_intro (c : Dev nD) : (Pipeline.launchCred O₀ c : sProp 𝕄) ⊢ creds c := by
  show (Pipeline.launchCred (fun x : Dev nD =>
      (tallyAt (recvCell (peer x 1) 2 2) () (creditOf 2) : CellTallies nD τ sig Unit)
      + (tallyAt (recvCell (peer x 0) 2 1) () (creditOf 1) : CellTallies nD τ sig Unit)
      + (tallyAt (recvCell (peer x 2) 2 0) () (creditOf 0) : CellTallies nD τ sig Unit)
      + (tallyAt (recvCell (peer x 0) 1 2) () (creditOf 2) : CellTallies nD τ sig Unit)
      + (tallyAt (recvCell (peer x 2) 1 1) () (creditOf 1) : CellTallies nD τ sig Unit)
      + (tallyAt (recvCell (peer x 1) 1 0) () (creditOf 0) : CellTallies nD τ sig Unit)
      + (tallyAt (recvCell (peer x 2) 0 2) () (creditOf 2) : CellTallies nD τ sig Unit)
      + (tallyAt (recvCell (peer x 1) 0 1) () (creditOf 1) : CellTallies nD τ sig Unit)
      + (tallyAt (recvCell (peer x 0) 0 0) () (creditOf 0) : CellTallies nD τ sig Unit)
      + (tallyAt (barCell (peer x 2)) () 1 : CellTallies nD τ sig Unit)
      + (tallyAt (barCell (peer x 1)) () 1 : CellTallies nD τ sig Unit)
      + (tallyAt (barCell (peer x 0)) () 1 : CellTallies nD τ sig Unit)) c : sProp 𝕄) ⊢ _
  rw [Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add]
  iintro ⟨⟨⟨⟨⟨⟨⟨⟨⟨⟨⟨H1, H2⟩, H3⟩, H4⟩, H5⟩, H6⟩, H7⟩, H8⟩, H9⟩, H10⟩, H11⟩, H12⟩
  ihave C1 := (cred_recv (F := F) c 1 2 2) $$ H1
  ihave C2 := (cred_recv (F := F) c 0 2 1) $$ H2
  ihave C3 := (cred_recv (F := F) c 2 2 0) $$ H3
  ihave C4 := (cred_recv (F := F) c 0 1 2) $$ H4
  ihave C5 := (cred_recv (F := F) c 2 1 1) $$ H5
  ihave C6 := (cred_recv (F := F) c 1 1 0) $$ H6
  ihave C7 := (cred_recv (F := F) c 2 0 2) $$ H7
  ihave C8 := (cred_recv (F := F) c 1 0 1) $$ H8
  ihave C9 := (cred_recv (F := F) c 0 0 0) $$ H9
  ihave B1 := (cred_bar (F := F) c 2) $$ H10
  ihave B2 := (cred_bar (F := F) c 1) $$ H11
  ihave B3 := (cred_bar (F := F) c 0) $$ H12
  ihave B := (cred_bar3 (F := F) c) $$ [B1 B2 B3]
  · isplitl [B1]; · iexact B1
    isplitl [B2]; · iexact B2
    iexact B3
  unfold creds
  isplitl [B]; · iexact B
  isplitl [C9]; · iexact C9
  isplitl [C8]; · iexact C8
  isplitl [C7]; · iexact C7
  isplitl [C6]; · iexact C6
  isplitl [C5]; · iexact C5
  isplitl [C4]; · iexact C4
  isplitl [C3]; · iexact C3
  isplitl [C2]; · iexact C2
  iexact C1

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

/-- The staging cells sit at level 0. -/
theorem lv_stage (c : Dev nD) (w : Fin cfg0.W) (s : Fin (cfg0.win w).nbuf) :
    lv ((c : Thread nD τ), .dma ((cfg0.win w).sem s)) () = 0 := by
  fin_cases w <;> fin_cases s <;> rfl

/-- The pipeline's own waits, on its staging cells: everything a device owes, at launch or later, lies above them. -/
theorem waits (c : Dev nD) : (levAts L lv : sProp 𝕄) ⊢ Pipeline.cellsWaits cfgs (dats m) () 0 c :=
  Pipeline.cellsWaits_intro cfgs (dats m) () 0 c fun w s t => by
    rcases t with ⟨_ | n, ht⟩
    · exact mayWait_above c _ (O₀ c) 0 (lv_stage c w s) (fun x u h => ⟨(O₀_pos h).1, (O₀_pos h).2⟩)
    · show (levAts L lv : sProp 𝕄) ⊢ MayWait (c : Thread nD τ) _ () 0
      rw [MayWait_zero]; iintro -; iempintro

/-! ### The run -/

/-- At the compiled mesh of eight devices, from any memory with zero counters: if every device's body meets its
    obligation, every weakly fair execution of @main terminates and every final state has each device's three
    window arrays at the proof data's final contents. -/
theorem run_main_of (hbody : ∀ c : Dev nD, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ar m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.AR.run_main_of' depends on axioms: [propext, Classical.choice, Quot.sound] -/
#guard_msgs in #print axioms run_main_of

end Cert.KernelIdeal.AR

end
-- ==== Proof.Value.lean ====
/-
  The value of the all-reduce followed by the matrix product, at the ideal instance, against the reference.
-/
import proofs.«900560_g7700000000000561_dist_matmul_of_ar_i_m512_n256_k256_v7x_i8_f32_1_alg».proof.Proof.Gen.KernelIdeal
import proofs.«900560_g7700000000000561_dist_matmul_of_ar_i_m512_n256_k256_v7x_i8_f32_1_alg».proof.Proof.Gen.KernelIdeal.Skeleton
import proofs.«900560_g7700000000000561_dist_matmul_of_ar_i_m512_n256_k256_v7x_i8_f32_1_alg».proof.Proof.Gen.KernelIdeal.Launch
import proofs.«900560_g7700000000000561_dist_matmul_of_ar_i_m512_n256_k256_v7x_i8_f32_1_alg».proof.Proof.Gen.KernelIdeal.Points
import proofs.«900560_g7700000000000561_dist_matmul_of_ar_i_m512_n256_k256_v7x_i8_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import proofs.«900560_g7700000000000561_dist_matmul_of_ar_i_m512_n256_k256_v7x_i8_f32_1_alg».proof.Proof.Sched
import proofs.«900560_g7700000000000561_dist_matmul_of_ar_i_m512_n256_k256_v7x_i8_f32_1_alg».proof.Proof.Gen.ReferenceIdeal.Run
import proofs.«900560_g7700000000000561_dist_matmul_of_ar_i_m512_n256_k256_v7x_i8_f32_1_alg».proof.Proof.Gen.ReferenceIdeal.Read
import Idealize.ShloMosaic.Lib.Layout
import Idealize.ShloMosaic.PureOps.Ideal.Laws

noncomputable section

namespace Cert.KernelIdeal.ARValue

open Cert.KernelIdeal Cert.KernelIdeal.Gen Cert.KernelIdeal.AR
open Idealize.ShloMosaic Idealize.ShloMosaic.TcCoe
open Idealize.ShloMosaic.ValueIdx
open scoped BigOperators

/-! ## The staged blocks are the devices' argument buffers

Each of the two input windows is the whole array at its one point, so what is staged is the array itself. -/

section Blocks
variable {F : FTy → Type} [FloatOps F] (m : (ℓ : Loc nD τ sig) → Buf (Elt F) ℓ)

theorem tblk_eq (c : Dev nD) : tblk m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz _ _

theorem wblk_eq (c : Dev nD) : wblk m c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz _ _

end Blocks

section Kernel
variable (m : (ℓ : Loc nD τ sig) → Buf (Elt Ideal) ℓ)

/-! ## The running sum at an index

Over the extended reals the change of format is the identity and a cast to the same shape moves nothing, so the running
sum starts as the block itself; every stage adds, at a row of group g, the partner's running sum at the same place. -/

theorem accV_zero_apply (c : Dev nD) (ij : S512x256.Idx) : accV m 0 c ij = tblk m c ij := by
  show k0_pay3 (tblk m c) ij = _
  unfold k0_pay3
  simp only [shapeCast_self]
  rfl

theorem accV_succ_apply (d : ℕ) (c : Dev nD) (ij : S512x256.Idx) :
    accV m (d + 1) c ij = accV m d c ij + accV m d (peer c (viaN d (grp (ij 0).val))) ij := rfl

/-! ## Three stages reach all eight devices

For a row of group g the stages use the partner maps (g + 0) mod 3, (g + 1) mod 3, (g + 2) mod 3: each of the three
maps once. Starting at c and applying any subset of them, later stages first, names eight devices, and these are all
eight: the maps flip bit 0, bits 0 and 1, and bit 2 of the device's number. -/

/-- The devices whose blocks are in device c's running sum after the three stages, for a row of group g. -/
def reach (g : Fin 3) (c : Dev nD) : List (Dev nD) :=
  [c, peer c (viaN 0 g),
   peer c (viaN 1 g), peer (peer c (viaN 1 g)) (viaN 0 g),
   peer c (viaN 2 g), peer (peer c (viaN 2 g)) (viaN 0 g),
   peer (peer c (viaN 2 g)) (viaN 1 g), peer (peer (peer c (viaN 2 g)) (viaN 1 g)) (viaN 0 g)]

theorem reach_perm (g : Fin 3) (c : Dev nD) : (reach g c).Perm (List.finRange nD) := by
  revert g c; decide

/-- After the three stages the running sum holds, at every place, the sum of the eight devices' blocks there. -/
theorem accV_three_apply (c : Dev nD) (ij : S512x256.Idx) :
    accV m 3 c ij = ∑ c' : Dev nD, tblk m c' ij := by
  have h : accV m 3 c ij = ((reach (grp (ij 0).val) c).map fun c' => accV m 0 c' ij).sum := by
    simp only [accV_succ_apply, reach, List.map_cons, List.map_nil, List.sum_cons, List.sum_nil, add_zero]
    ac_rfl
  rw [h, ((reach_perm _ c).map _).sum_eq, ← Fin.sum_univ_def]
  exact Finset.sum_congr rfl fun c' _ => accV_zero_apply m c' ij

/-! ## The matrix product at an index

The product contracts the one axis of length 256: axis 1 of the left operand with axis 0 of the right. Accumulated into
zero it is, at (i, j), the sum over k of left (i, k) times right (k, j). The four coordinates of the operands' indices
are read off the dimension numbers one at a time. -/

/-- Row i, column k: where the left operand is read. -/
abbrev lix (i : S512x256.Idx) (k : Fin 256) : S512x256.Idx := fun a => match a with
  | ⟨0, _⟩ => ⟨(i 0).val, (i 0).isLt⟩
  | ⟨1, _⟩ => ⟨k.val, k.isLt⟩
/-- Row k, column j: where the right operand is read. -/
abbrev rix (i : S512x256.Idx) (k : Fin 256) : S256x256.Idx := fun a => match a with
  | ⟨0, _⟩ => ⟨k.val, k.isLt⟩
  | ⟨1, _⟩ => ⟨(i 1).val, (i 1).isLt⟩

theorem dot_lhs_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide),
    dif_pos (show (0 : Fin S512x256.rank) ∈ dot_S512x256_S256x256_S512x256_1_0_0_1_n_n.lhsNonContracting by decide)]
  rfl

theorem dot_lhs_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q

theorem dot_rhs_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q

theorem dot_rhs_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide),
    dif_pos (show (1 : Fin S256x256.rank) ∈ dot_S512x256_S256x256_S512x256_1_0_0_1_n_n.rhsNonContracting by decide)]
  rfl

/-- The result block at (i, j): the sum over k of the full running sum at (i, k) times the second input at (k, j). -/
theorem outV_apply (c : Dev nD) (i : S512x256.Idx) :
    outV m c i = ∑ k : Fin 256, accV m 3 c (lix i k) * wblk m c (rix i k) := by
  show k0_pay2 (accV m 3 c) (wblk m c) i = _
  unfold k0_pay2
  simp only [shapeCast_self, matmul]
  rw [Ideal.matmul_constant_zero_apply,
    ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx i
      ((contrEquiv1 dot_S512x256_S256x256_S512x256_1_0_0_1_n_n 256 rfl rfl).symm k) = lix i k :=
    funext fun a => Fin.ext (by
      match a with
      | ⟨0, _⟩ => exact dot_lhs_0 _ _
      | ⟨1, _⟩ => exact (dot_lhs_1 _ _).trans hk)
  have er : dot_S512x256_S256x256_S512x256_1_0_0_1_n_n.rhsIdx i
      ((contrEquiv1 dot_S512x256_S256x256_S512x256_1_0_0_1_n_n 256 rfl rfl).symm k) = rix i k :=
    funext fun a => Fin.ext (by
      match a with
      | ⟨0, _⟩ => exact (dot_rhs_0 _ _).trans hk
      | ⟨1, _⟩ => exact dot_rhs_1 _ _)
  rw [el, er]
  rfl

end Kernel

/-! ## The reference

One device holds the whole first array T (4096 x 256); it is read as eight blocks of 512 rows, the blocks are summed
into zero, and the sum is multiplied by the second array. Row r of block k is row 512 k + r of T. -/

section Reference
open Cert.ReferenceIdeal.Read

variable (x0 : (⟨Cert.ReferenceIdeal.S4096x256, .f32⟩ : BufTy).Contents (Elt Ideal))

/-- The reference's sum of the blocks at an index: the sum over the eight blocks of T at that place of the block. -/
theorem ref_sum_apply (i : Cert.ReferenceIdeal.S512x256.Idx) :
    val_main_v1 (F := Ideal) x0 i = ∑ k : Fin 8, x0 (idx_main_v0 (idx_main_v1 i k)) := by
  rw [val_main_v1_apply, val_main_cst_apply]
  show Ideal.ofBits .f32 0x00000000#32 + _ = _
  rw [Ideal.ofBits_zero_f32, zero_add]
  exact Finset.sum_congr rfl fun k _ => val_main_v0_apply x0 _

/-- Where place (r, l) of block k of the array cut along its rows is in the whole array, row 512 k + r and column l, is
    where the reference's reshape reads place (k, r, l). -/
theorem block_idx (h : Layout.Tiles ⟨2, ![512, 256]⟩ ⟨2, ![4096, 256]⟩ 0 8) (k : Fin 8) (i : S512x256.Idx) :
    h.idx k i = idx_main_v0 (idx_main_v1 i k) := by
  have h0 : (i 0).val < 512 := (i 0).isLt
  have h1 : (i 1).val < 256 := (i 1).isLt
  funext a
  refine Fin.ext ?_
  match a with
  | ⟨0, _⟩ =>
    show k.val * 512 + (i 0).val = ((k.val * 512 + (i 0).val) * 256 + (i 1).val) / 256
    omega
  | ⟨1, _⟩ =>
    show (i 1).val = ((k.val * 512 + (i 0).val) * 256 + (i 1).val) % 256
    omega

end Reference

/-! ## The two sides meet

Both are, at (i, j), the sum over k of (the sum over the eight blocks of T at (i, k)) times W at (k, j). -/

/-- When every device's first buffer is its block of T, the full running sum is the reference's sum of the blocks. -/
theorem accV_three_eq_ref (m : (ℓ : Loc nD τ sig) → Buf (Elt Ideal) ℓ)
    (x0 : (⟨Cert.ReferenceIdeal.S4096x256, .f32⟩ : BufTy).Contents (Elt Ideal))
    (h : Layout.Tiles ⟨2, ![512, 256]⟩ ⟨2, ![4096, 256]⟩ 0 8)
    (hblk : ∀ c : Dev nD, m ((c : Thread nD τ).loc main_arg0) = Layout.block ⟨2, ![512, 256]⟩ ⟨2, ![4096, 256]⟩ 0 8 c x0 h)
    (c : Dev nD) (ij : S512x256.Idx) :
    accV m 3 c ij = Cert.ReferenceIdeal.Read.val_main_v1 (F := Ideal) x0 ij := by
  rw [accV_three_apply, ref_sum_apply]
  refine Finset.sum_congr rfl fun c' _ => ?_
  have e : tblk m c' = Layout.block ⟨2, ![512, 256]⟩ ⟨2, ![4096, 256]⟩ 0 8 c' x0 h := (tblk_eq m c').trans (hblk c')
  rw [e, Layout.block_apply, block_idx]

/-- Device c's result block is the reference's result: the all-reduce followed by the product computes the product of
    the summed blocks. -/
theorem out_eq_ref
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1))
    (c : Dev Cert.KernelIdeal.nD) :
    Cert.KernelIdeal.AR.outV (F := Ideal) m c
      = Cert.ReferenceIdeal.Read.val_main_v2 (F := Ideal)
          (m' (((0 : Dev Cert.ReferenceIdeal.nD).tc : Thread Cert.ReferenceIdeal.nD Cert.ReferenceIdeal.τ).loc Cert.ReferenceIdeal.main_arg0))
          (m' (((0 : Dev Cert.ReferenceIdeal.nD).tc : Thread Cert.ReferenceIdeal.nD Cert.ReferenceIdeal.τ).loc Cert.ReferenceIdeal.main_arg1)) := by
  funext i
  rw [outV_apply, Cert.ReferenceIdeal.Read.val_main_v2_apply]
  refine Finset.sum_congr rfl fun k _ => ?_
  have el : lix i k = Cert.ReferenceIdeal.Read.lidx_main_v2 i k :=
    funext fun a => by match a with | ⟨0, _⟩ => rfl | ⟨1, _⟩ => rfl
  have er : rix i k = Cert.ReferenceIdeal.Read.ridx_main_v2 i k :=
    funext fun a => by match a with | ⟨0, _⟩ => rfl | ⟨1, _⟩ => rfl
  have ha := accV_three_eq_ref m _ _ (fun c' => (hagree c').1) c (lix i k)
  have hw : wblk m c = m' (((0 : Dev Cert.ReferenceIdeal.nD).tc : Thread Cert.ReferenceIdeal.nD Cert.ReferenceIdeal.τ).loc Cert.ReferenceIdeal.main_arg1) :=
    (wblk_eq m c).trans (hagree c).2
  rw [ha, hw, el, er]

end Cert.KernelIdeal.ARValue

end
-- ==== Proof.Claims.lean ====
/-
  The claims about the idealized kernel and the reference, from the mesh run and the value identity.
-/
import proofs.«900560_g7700000000000561_dist_matmul_of_ar_i_m512_n256_k256_v7x_i8_f32_1_alg».proof.Proof.Gen.KernelIdeal
import proofs.«900560_g7700000000000561_dist_matmul_of_ar_i_m512_n256_k256_v7x_i8_f32_1_alg».proof.Proof.Gen.KernelIdeal.Skeleton
import proofs.«900560_g7700000000000561_dist_matmul_of_ar_i_m512_n256_k256_v7x_i8_f32_1_alg».proof.Proof.Gen.KernelIdeal.Launch
import proofs.«900560_g7700000000000561_dist_matmul_of_ar_i_m512_n256_k256_v7x_i8_f32_1_alg».proof.Proof.Gen.KernelIdeal.Points
import proofs.«900560_g7700000000000561_dist_matmul_of_ar_i_m512_n256_k256_v7x_i8_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import proofs.«900560_g7700000000000561_dist_matmul_of_ar_i_m512_n256_k256_v7x_i8_f32_1_alg».proof.Proof.Mesh
import proofs.«900560_g7700000000000561_dist_matmul_of_ar_i_m512_n256_k256_v7x_i8_f32_1_alg».proof.Proof.Sched
import proofs.«900560_g7700000000000561_dist_matmul_of_ar_i_m512_n256_k256_v7x_i8_f32_1_alg».proof.Proof.Proto
import proofs.«900560_g7700000000000561_dist_matmul_of_ar_i_m512_n256_k256_v7x_i8_f32_1_alg».proof.Proof.Tables
import proofs.«900560_g7700000000000561_dist_matmul_of_ar_i_m512_n256_k256_v7x_i8_f32_1_alg».proof.Proof.Ghost
import proofs.«900560_g7700000000000561_dist_matmul_of_ar_i_m512_n256_k256_v7x_i8_f32_1_alg».proof.Proof.Launch
import proofs.«900560_g7700000000000561_dist_matmul_of_ar_i_m512_n256_k256_v7x_i8_f32_1_alg».proof.Proof.Value
import proofs.«900560_g7700000000000561_dist_matmul_of_ar_i_m512_n256_k256_v7x_i8_f32_1_alg».proof.Defs
import proofs.«900560_g7700000000000561_dist_matmul_of_ar_i_m512_n256_k256_v7x_i8_f32_1_alg».proof.Proof.Gen.ReferenceIdeal
import proofs.«900560_g7700000000000561_dist_matmul_of_ar_i_m512_n256_k256_v7x_i8_f32_1_alg».proof.Proof.Gen.Pre_finite_inputs_Kernel
import proofs.«900560_g7700000000000561_dist_matmul_of_ar_i_m512_n256_k256_v7x_i8_f32_1_alg».proof.Proof.Gen.Pre_finite_inputs_ReferenceIdeal

noncomputable section

namespace Cert.Proof.IdealClaims

open Idealize.ShloMosaic Idealize.ShloMosaic.TcCoe Idealize.SL.Sem
open Idealize.ShloMosaic.Pipeline (Dat BodyObligation)
open Cert.KernelIdeal Cert.KernelIdeal.Gen Cert.KernelIdeal.AR

/-! ## The arrays when the region is left

The region has three windows over whole arrays and one grid point. The two argument arrays are input windows: no
write-back touches them. The result array is an output window written back at that one point, and what is written is
the whole block the body left, over the whole array. -/

section Final

variable {F : FTy → Type} [FloatOps F] (m : (ℓ : Loc nD τ sig) → Buf (Elt F) ℓ)

/-- The first argument's array ends as launched. -/
theorem finalA_0 (c : Dev nD) : finalA m c (0 : Fin cfg0.W) = m ((c : Thread nD τ).loc main_arg0) :=
  (dats m 0 c).arrAt_in (0 : Fin cfg0.W) rfl _

/-- The second argument's array ends as launched. -/
theorem finalA_1 (c : Dev nD) : finalA m c (1 : Fin cfg0.W) = m ((c : Thread nD τ).loc main_arg1) :=
  (dats m 0 c).arrAt_in (1 : Fin cfg0.W) rfl _

/-- The result array ends holding the product the body left: the grid's one point writes the window back, the block
    written is the whole array (offsets `0 * size`, the array's own sizes), and an unmasked write of the whole array
    replaces whatever it held. -/
theorem finalA_2 (c : Dev nD) : finalA m c (2 : Fin cfg0.W) = outV m c := by
  have hN : (dats m 0 c).arrAt (2 : Fin cfg0.W) cfg0.N = (dats m 0 c).arrAt (2 : Fin cfg0.W) (t0_0.val + 1) :=
    congrArg ((dats m 0 c).arrAt (2 : Fin cfg0.W)) N_0
  unfold finalA
  rw [hN, Dat.arrAt_succ, if_pos (flush0_2 t0_0)]
  exact Memref.write_access_unit_zero_univ (Elt F) main_v1
    (off := fun a => win0_2.index t0_0 a * main_v1.ty.shape.size a)
    (funext fun a => Nat.zero_mul _) _ _ (outV m c)

end Final

/-- The reference runs and keeps its arguments: its generated run with the result dropped. -/
theorem frame_ri : Cert.frame_ReferenceIdeal :=
  fun m ρ _ => (θ_run Cert.ReferenceIdeal.defs _ _).mono (fun _ h c => (h c).2)
    (Cert.ReferenceIdeal.Value.run (F := Ideal) m ρ)

/-- The idealized kernel runs on the mesh and keeps its arguments, given each device's body. -/
theorem frame_ki_of
    (hbody : ∀ (m : (ℓ : Loc nD τ sig) → Buf (Elt Ideal) ℓ) (c : Dev nD), BodyObligation (dats (F := Ideal) m 0 c) (defs₀ (F := Ideal)) 𝒱₀ () Set.univ) :
    Cert.frame_KernelIdeal :=
  fun m ρ _ => (θ_run defs _ _).mono
    (fun r h c => ⟨((h c) (0 : Fin cfg0.W)).trans (finalA_0 m c), ((h c) (1 : Fin cfg0.W)).trans (finalA_1 m c)⟩)
    (run_main_of m ρ (hbody m))

/-- Both programs run; every device's result is the reference's. -/
theorem algebraic_of
    (hbody : ∀ (m : (ℓ : Loc nD τ sig) → Buf (Elt Ideal) ℓ) (c : Dev nD), BodyObligation (dats (F := Ideal) m 0 c) (defs₀ (F := Ideal)) 𝒱₀ () Set.univ) :
    Cert.algebraic_KernelIdeal_ReferenceIdeal := by
  intro m ρ m' ρ' _ hagree
  -- the common value: the reference's product of the summed blocks with W, as a term of its argument arrays
  refine ⟨Cert.ReferenceIdeal.Read.val_main_v2 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · -- the mesh run: each device's result array holds its product, which is the reference's
    exact (θ_run defs _ _).mono
      (fun r h c => ⟨((h c) (2 : Fin cfg0.W)).trans ((finalA_2 m c).trans (Cert.KernelIdeal.ARValue.out_eq_ref m m' hagree c)),
        ((h c) (0 : Fin cfg0.W)).trans (finalA_0 m c), ((h c) (1 : Fin cfg0.W)).trans (finalA_1 m c)⟩)
      (run_main_of m ρ (hbody m))
  · -- the reference's run, its result term read as the stage's value
    exact (θ_run Cert.ReferenceIdeal.defs _ _).mono
      (fun r h => ⟨(h 0).1.trans (Cert.ReferenceIdeal.Read.val_main_v2_eq _ _), (h 0).2⟩)
      (Cert.ReferenceIdeal.Value.run (F := Ideal) m' ρ')

/-- info: 'Cert.Proof.IdealClaims.frame_ri' depends on axioms: [propext, Classical.choice, Quot.sound] -/
#guard_msgs in #print axioms frame_ri

/-- info: 'Cert.Proof.IdealClaims.frame_ki_of' depends on axioms: [propext, Classical.choice, Quot.sound] -/
#guard_msgs in #print axioms frame_ki_of

/-- info: 'Cert.Proof.IdealClaims.algebraic_of' depends on axioms: [propext, Classical.choice, Quot.sound] -/
#guard_msgs in #print axioms algebraic_of

end Cert.Proof.IdealClaims

end
-- ==== Proof.KMesh.lean ====
/-
  The mesh of the all-reduce: eight devices, each exchanging with three partners. Partner 0 flips bit 0 of the
  device's number, partner 1 reflects it inside its group of four (q ↦ 3 − q, i.e. it flips bits 0 and 1), partner 2
  flips bit 2. Each map is an involution, and the three together generate all eight devices, which is what makes three
  exchange stages a full sum. The kernel's printed device chains are these maps; the row group g of stage d goes to
  partner (g + d) mod 3.
-/
import proofs.«900560_g7700000000000561_dist_matmul_of_ar_i_m512_n256_k256_v7x_i8_f32_1_alg».proof.Proof.Gen.Kernel
import proofs.«900560_g7700000000000561_dist_matmul_of_ar_i_m512_n256_k256_v7x_i8_f32_1_alg».proof.Proof.Gen.Kernel.Skeleton
import proofs.«900560_g7700000000000561_dist_matmul_of_ar_i_m512_n256_k256_v7x_i8_f32_1_alg».proof.Proof.Gen.Kernel.Launch
import proofs.«900560_g7700000000000561_dist_matmul_of_ar_i_m512_n256_k256_v7x_i8_f32_1_alg».proof.Proof.Gen.Kernel.Points
import proofs.«900560_g7700000000000561_dist_matmul_of_ar_i_m512_n256_k256_v7x_i8_f32_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.AR

open Cert.Kernel Cert.Kernel.Gen
open Idealize.ShloMosaic Idealize.ShloMosaic.TcCoe

/-- Partner `k` of device `c`. -/
def peer (c : Dev nD) (k : Fin 3) : Dev nD :=
  match k with
  | 0 => (![1, 0, 3, 2, 5, 4, 7, 6] : Fin 8 → Fin 8) c
  | 1 => (![3, 2, 1, 0, 7, 6, 5, 4] : Fin 8 → Fin 8) c
  | 2 => (![4, 5, 6, 7, 0, 1, 2, 3] : Fin 8 → Fin 8) c

theorem peer_peer (c : Dev nD) (k : Fin 3) : peer (peer c k) k = c := by revert c k; decide
theorem peer_ne (c : Dev nD) (k : Fin 3) : peer c k ≠ c := by revert c k; decide
theorem peer_inj (c : Dev nD) (k k' : Fin 3) (h : peer c k = peer c k') : k = k' := by revert c k k'; decide

/-- The partner that row group `g` is exchanged with at stage `d`. -/
def via (d g : Fin 3) : Fin 3 := ⟨(g.val + d.val) % 3, Nat.mod_lt _ (by decide)⟩

/-- The three barrier signals address partners 0, 1, 2. -/
theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
/-- Stage 0: row groups 0, 1, 2 go to partners 0, 1, 2. -/
theorem dev4_eq (c : Dev nD) : (⟨k0_dev4 c, k0_dev4_lt c⟩ : Dev nD) = peer c 0 := by revert c; decide +kernel
theorem dev5_eq (c : Dev nD) : (⟨k0_dev5 c, k0_dev5_lt c⟩ : Dev nD) = peer c 1 := by revert c; decide +kernel
theorem dev6_eq (c : Dev nD) : (⟨k0_dev6 c, k0_dev6_lt c⟩ : Dev nD) = peer c 2 := by revert c; decide +kernel
/-- Stage 1: to partners 1, 2, 0. -/
theorem dev7_eq (c : Dev nD) : (⟨k0_dev7 c, k0_dev7_lt c⟩ : Dev nD) = peer c 1 := by revert c; decide +kernel
theorem dev8_eq (c : Dev nD) : (⟨k0_dev8 c, k0_dev8_lt c⟩ : Dev nD) = peer c 2 := by revert c; decide +kernel
theorem dev9_eq (c : Dev nD) : (⟨k0_dev9 c, k0_dev9_lt c⟩ : Dev nD) = peer c 0 := by revert c; decide +kernel
/-- Stage 2: to partners 2, 0, 1. -/
theorem dev10_eq (c : Dev nD) : (⟨k0_dev10 c, k0_dev10_lt c⟩ : Dev nD) = peer c 2 := by revert c; decide +kernel
theorem dev11_eq (c : Dev nD) : (⟨k0_dev11 c, k0_dev11_lt c⟩ : Dev nD) = peer c 0 := by revert c; decide +kernel
theorem dev12_eq (c : Dev nD) : (⟨k0_dev12 c, k0_dev12_lt c⟩ : Dev nD) = peer c 1 := by revert c; decide +kernel

end Cert.Kernel.AR

end
-- ==== Proof.KSched.lean ====
/-
  The protocol of the eight-device all-reduce, as data.

  Every device keeps a running sum (512 x 256, one buffer) and three landing slots (one per stage). At stage d the
  rows of group g (rows 0-175, 176-351, 352-511) of the running sum travel to partner (g + d) mod 3, into that
  partner's slot d, and the same rows of the partner's running sum arrive in this device's slot d; then the whole slot
  is added to the running sum. Since each partner map is an involution, the device that sends me rows g at stage d is
  the one I send them to.

  Cells. On every device: the barrier semaphore (one round of three unit duties, duty k paid by partner k, which hands
  over the three landing regions of ITS OWN slots that this device will fill: region (d, g) with (g + d) mod 3 = k);
  nine send semaphores (one round, one duty: the source rows come back); nine receive semaphores (one round, one
  duty, paid by the partner's transfer: the landing region comes back holding the partner's rows).

  Values. `accV d c` is device c's running sum before stage d: the block of the input at d = 0, and
  `accV (d+1) c = accV d c + slotV d c` where `slotV d c` has, in the rows of group g, the rows of
  `accV d (partner (g + d) mod 3 of c)`. `commC c` is the three slots side by side.
-/
import proofs.«900560_g7700000000000561_dist_matmul_of_ar_i_m512_n256_k256_v7x_i8_f32_1_alg».proof.Proof.Gen.Kernel
import proofs.«900560_g7700000000000561_dist_matmul_of_ar_i_m512_n256_k256_v7x_i8_f32_1_alg».proof.Proof.Gen.Kernel.Skeleton
import proofs.«900560_g7700000000000561_dist_matmul_of_ar_i_m512_n256_k256_v7x_i8_f32_1_alg».proof.Proof.Gen.Kernel.Launch
import proofs.«900560_g7700000000000561_dist_matmul_of_ar_i_m512_n256_k256_v7x_i8_f32_1_alg».proof.Proof.Gen.Kernel.Points
import proofs.«900560_g7700000000000561_dist_matmul_of_ar_i_m512_n256_k256_v7x_i8_f32_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import proofs.«900560_g7700000000000561_dist_matmul_of_ar_i_m512_n256_k256_v7x_i8_f32_1_alg».proof.Proof.KMesh

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Buffers and their pieces -/

abbrev tM : Memref sig .tc .vmem S512x256 .f32 := Memref.whole cc0_stg0_0
abbrev wM : Memref sig .tc .vmem S256x256 .f32 := Memref.whole cc0_stg1_0
abbrev oM : Memref sig .tc .vmem S512x256 .f32 := Memref.whole cc0_stg2_0
/-- The running sum. -/
abbrev accM : Memref sig .tc .vmem S512x256 .bf16 := Memref.whole cc0_scratch0
/-- The three landing slots. -/
abbrev commM : Memref sig .tc .vmem S3x512x256 .bf16 := Memref.whole cc0_scratch1

/-- Row group 0 of the running sum: rows 0 to 175. -/
abbrev srcA : Memref sig .tc .vmem S176x256 .bf16 :=
  accM.slice (Rect.unit (s := S512x256) ![0, 0] S176x256.size inb_S512x256_S176x256_0_0) (fun _ => rfl)
/-- Row group 1 of the running sum: rows 176 to 351. -/
abbrev srcB : Memref sig .tc .vmem S176x256 .bf16 :=
  accM.slice (Rect.unit (s := S512x256) ![176, 0] S176x256.size inb_S512x256_S176x256_176_0) (fun _ => rfl)
/-- Row group 2 of the running sum: rows 352 to 511. -/
abbrev srcC : Memref sig .tc .vmem S160x256 .bf16 :=
  accM.slice (Rect.unit (s := S512x256) ![352, 0] S160x256.size inb_S512x256_S160x256_352_0) (fun _ => rfl)
/-- Row group 0 of landing slot 0. -/
abbrev dst00 : Memref sig .tc .vmem S176x256 .bf16 :=
  (commM.slice (Rect.unit (s := S3x512x256) ![0, 0, 0] S1x176x256.size inb_S3x512x256_S1x176x256_0_0_0) (fun _ => rfl)).squeeze S176x256 squeezes_S1x176x256_S176x256
/-- Row group 1 of landing slot 0. -/
abbrev dst01 : Memref sig .tc .vmem S176x256 .bf16 :=
  (commM.slice (Rect.unit (s := S3x512x256) ![0, 176, 0] S1x176x256.size inb_S3x512x256_S1x176x256_0_176_0) (fun _ => rfl)).squeeze S176x256 squeezes_S1x176x256_S176x256
/-- Row group 2 of landing slot 0. -/
abbrev dst02 : Memref sig .tc .vmem S160x256 .bf16 :=
  (commM.slice (Rect.unit (s := S3x512x256) ![0, 352, 0] S1x160x256.size inb_S3x512x256_S1x160x256_0_352_0) (fun _ => rfl)).squeeze S160x256 squeezes_S1x160x256_S160x256
/-- Row group 0 of landing slot 1. -/
abbrev dst10 : Memref sig .tc .vmem S176x256 .bf16 :=
  (commM.slice (Rect.unit (s := S3x512x256) ![1, 0, 0] S1x176x256.size inb_S3x512x256_S1x176x256_1_0_0) (fun _ => rfl)).squeeze S176x256 squeezes_S1x176x256_S176x256
/-- Row group 1 of landing slot 1. -/
abbrev dst11 : Memref sig .tc .vmem S176x256 .bf16 :=
  (commM.slice (Rect.unit (s := S3x512x256) ![1, 176, 0] S1x176x256.size inb_S3x512x256_S1x176x256_1_176_0) (fun _ => rfl)).squeeze S176x256 squeezes_S1x176x256_S176x256
/-- Row group 2 of landing slot 1. -/
abbrev dst12 : Memref sig .tc .vmem S160x256 .bf16 :=
  (commM.slice (Rect.unit (s := S3x512x256) ![1, 352, 0] S1x160x256.size inb_S3x512x256_S1x160x256_1_352_0) (fun _ => rfl)).squeeze S160x256 squeezes_S1x160x256_S160x256
/-- Row group 0 of landing slot 2. -/
abbrev dst20 : Memref sig .tc .vmem S176x256 .bf16 :=
  (commM.slice (Rect.unit (s := S3x512x256) ![2, 0, 0] S1x176x256.size inb_S3x512x256_S1x176x256_2_0_0) (fun _ => rfl)).squeeze S176x256 squeezes_S1x176x256_S176x256
/-- Row group 1 of landing slot 2. -/
abbrev dst21 : Memref sig .tc .vmem S176x256 .bf16 :=
  (commM.slice (Rect.unit (s := S3x512x256) ![2, 176, 0] S1x176x256.size inb_S3x512x256_S1x176x256_2_176_0) (fun _ => rfl)).squeeze S176x256 squeezes_S1x176x256_S176x256
/-- Row group 2 of landing slot 2. -/
abbrev dst22 : Memref sig .tc .vmem S160x256 .bf16 :=
  (commM.slice (Rect.unit (s := S3x512x256) ![2, 352, 0] S1x160x256.size inb_S3x512x256_S1x160x256_2_352_0) (fun _ => rfl)).squeeze S160x256 squeezes_S1x160x256_S160x256

/-! ## Cells -/

abbrev barS : Sem sig := (SemArray.scalar (sig.barrier 0 rfl) : Sems sig S_).sem
/-- Send semaphore of stage `d`, row group `g`: DMA semaphores 3 to 11. -/
abbrev sendQ (d g : Fin 3) : DmaSem sig := ⟨3 + 3 * d.val + g.val, by have := d.isLt; have := g.isLt; show _ < 21; omega⟩
/-- Receive semaphore of stage `d`, row group `g`: DMA semaphores 12 to 20. -/
abbrev recvQ (d g : Fin 3) : DmaSem sig := ⟨12 + 3 * d.val + g.val, by have := d.isLt; have := g.isLt; show _ < 21; omega⟩

abbrev barCell (c : Dev nD) : GSem nD τ sig := ((c : Thread nD τ), .reg barS)
abbrev sendCell (c : Dev nD) (d g : Fin 3) : GSem nD τ sig := ((c : Thread nD τ), .dma (sendQ d g))
abbrev recvCell (c : Dev nD) (d g : Fin 3) : GSem nD τ sig := ((c : Thread nD τ), .dma (recvQ d g))

/-- The credit a transfer of rows of group `g` brings: what a landing region of that size counts. -/
abbrev creditOf (g : Fin 3) : ℕ :=
  match g with
  | 0 => (dst00 : Memref sig .tc .vmem S176x256 .bf16).view.dmaCredit
  | 1 => (dst01 : Memref sig .tc .vmem S176x256 .bf16).view.dmaCredit
  | 2 => (dst02 : Memref sig .tc .vmem S160x256 .bf16).view.dmaCredit

theorem creditOf_pos (g : Fin 3) : 0 < creditOf g := by
  match g with
  | 0 => exact View.dmaCredit_pos _ (by decide)
  | 1 => exact View.dmaCredit_pos _ (by decide)
  | 2 => exact View.dmaCredit_pos _ (by decide)

/-! ## Contents -/

/-- The row group of a row. -/
def grp (i : ℕ) : Fin 3 := if i < 176 then 0 else if i < 352 then 1 else 2
/-- The partner row group `g` is exchanged with at stage `d`. -/
def viaN (d : ℕ) (g : Fin 3) : Fin 3 := ⟨(g.val + d) % 3, Nat.mod_lt _ (by decide)⟩

/-- Device `c`'s block of the first input, as staged. -/
def tblk (c : Dev nD) : Vec F S512x256 .f32 :=
  (win0_0.blk (0 : Fin 1)).view.read (Elt F) (m ((c : Thread nD τ).loc main_arg0))
/-- Device `c`'s copy of the second input, as staged. -/
def wblk (c : Dev nD) : Vec F S256x256 .f32 :=
  (win0_1.blk (0 : Fin 1)).view.read (Elt F) (m ((c : Thread nD τ).loc main_arg1))

/-- The running sum of device `c` before stage `d`. -/
def accV : ℕ → Dev nD → FVec F S512x256 .bf16
  | 0, c => k0_pay3 (tblk m c)
  | d + 1, c => addf (accV d c) (fun ij => accV d (peer c (viaN d (grp (ij 0).val))) ij)

/-- What lands in slot `d` of device `c`: in the rows of group `g`, those rows of the partner's running sum. -/
def slotV (d : ℕ) (c : Dev nD) : FVec F S512x256 .bf16 := fun ij => accV m d (peer c (viaN d (grp (ij 0).val))) ij

theorem accV_succ (d : ℕ) (c : Dev nD) : accV m (d + 1) c = addf (accV m d c) (slotV m d c) := rfl

/-- The three slots of device `c` once filled. -/
def commC (c : Dev nD) : Vec F S3x512x256 .bf16 := fun idx => slotV m (idx 0).val c (ix2 (idx 1) (idx 2))

/-- The result block: the full sum times the second input. -/
def outV (c : Dev nD) : FVec F S512x256 .f32 := k0_pay2 (accV m 3 c) (wblk m c)

end Cert.Kernel.AR

end
-- ==== Proof.KProto.lean ====
/-
  The all-reduce's schedule of duties: who pays which semaphore, by how much, and what each payment hands over.
  (Mesh.lean has the partners, Sched.lean the buffers, the cells and the values.)

  A barrier cell has one round of three unit duties; duty k is partner k's signal and hands this device the three
  landing regions of that partner's slots which this device fills (stage d, row group g with (g + d) mod 3 = k).
  A send cell (stage d, group g) has one duty: the device's own transfer, which returns the source rows.
  A receive cell (stage d, group g) has one duty: the partner's transfer, which returns the landing region holding
  the partner's rows, that is, that part of `commC`.
  What a device owes at launch: its nine transfers' credit on its partners' receive cells and one unit on each
  partner's barrier cell. Waiting is ordered by levels: barrier cells at 1, receive cells of stage d at 2 + d,
  everything else at 0; a device waits on a cell only while everything it still owes lies strictly above it.
-/
import proofs.«900560_g7700000000000561_dist_matmul_of_ar_i_m512_n256_k256_v7x_i8_f32_1_alg».proof.Proof.Gen.Kernel
import proofs.«900560_g7700000000000561_dist_matmul_of_ar_i_m512_n256_k256_v7x_i8_f32_1_alg».proof.Proof.Gen.Kernel.Skeleton
import proofs.«900560_g7700000000000561_dist_matmul_of_ar_i_m512_n256_k256_v7x_i8_f32_1_alg».proof.Proof.Gen.Kernel.Launch
import proofs.«900560_g7700000000000561_dist_matmul_of_ar_i_m512_n256_k256_v7x_i8_f32_1_alg».proof.Proof.Gen.Kernel.Points
import proofs.«900560_g7700000000000561_dist_matmul_of_ar_i_m512_n256_k256_v7x_i8_f32_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import proofs.«900560_g7700000000000561_dist_matmul_of_ar_i_m512_n256_k256_v7x_i8_f32_1_alg».proof.Proof.KMesh
import proofs.«900560_g7700000000000561_dist_matmul_of_ar_i_m512_n256_k256_v7x_i8_f32_1_alg».proof.Proof.KSched

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## What the payments hand over -/

def sendPay (c : Dev nD) (d g : Fin 3) : sProp 𝕄 :=
  match g with
  | 0 => ((srcA : Memref sig .tc .vmem S176x256 .bf16).view.loc (c : Thread nD τ) ↦[(srcA : Memref sig .tc .vmem S176x256 .bf16).view.set]{fullShare} accV m d.val c)
  | 1 => ((srcB : Memref sig .tc .vmem S176x256 .bf16).view.loc (c : Thread nD τ) ↦[(srcB : Memref sig .tc .vmem S176x256 .bf16).view.set]{fullShare} accV m d.val c)
  | 2 => ((srcC : Memref sig .tc .vmem S160x256 .bf16).view.loc (c : Thread nD τ) ↦[(srcC : Memref sig .tc .vmem S160x256 .bf16).view.set]{fullShare} accV m d.val c)

def recvPay (c : Dev nD) (d g : Fin 3) : sProp 𝕄 :=
  match d, g with
  | 0, 0 => ((dst00 : Memref sig .tc .vmem S176x256 .bf16).view.loc (c : Thread nD τ) ↦[(dst00 : Memref sig .tc .vmem S176x256 .bf16).view.set]{fullShare} commC m c)
  | 0, 1 => ((dst01 : Memref sig .tc .vmem S176x256 .bf16).view.loc (c : Thread nD τ) ↦[(dst01 : Memref sig .tc .vmem S176x256 .bf16).view.set]{fullShare} commC m c)
  | 0, 2 => ((dst02 : Memref sig .tc .vmem S160x256 .bf16).view.loc (c : Thread nD τ) ↦[(dst02 : Memref sig .tc .vmem S160x256 .bf16).view.set]{fullShare} commC m c)
  | 1, 0 => ((dst10 : Memref sig .tc .vmem S176x256 .bf16).view.loc (c : Thread nD τ) ↦[(dst10 : Memref sig .tc .vmem S176x256 .bf16).view.set]{fullShare} commC m c)
  | 1, 1 => ((dst11 : Memref sig .tc .vmem S176x256 .bf16).view.loc (c : Thread nD τ) ↦[(dst11 : Memref sig .tc .vmem S176x256 .bf16).view.set]{fullShare} commC m c)
  | 1, 2 => ((dst12 : Memref sig .tc .vmem S160x256 .bf16).view.loc (c : Thread nD τ) ↦[(dst12 : Memref sig .tc .vmem S160x256 .bf16).view.set]{fullShare} commC m c)
  | 2, 0 => ((dst20 : Memref sig .tc .vmem S176x256 .bf16).view.loc (c : Thread nD τ) ↦[(dst20 : Memref sig .tc .vmem S176x256 .bf16).view.set]{fullShare} commC m c)
  | 2, 1 => ((dst21 : Memref sig .tc .vmem S176x256 .bf16).view.loc (c : Thread nD τ) ↦[(dst21 : Memref sig .tc .vmem S176x256 .bf16).view.set]{fullShare} commC m c)
  | 2, 2 => ((dst22 : Memref sig .tc .vmem S160x256 .bf16).view.loc (c : Thread nD τ) ↦[(dst22 : Memref sig .tc .vmem S160x256 .bf16).view.set]{fullShare} commC m c)

def barPay (c : Dev nD) (k : Fin 3) : sProp 𝕄 :=
  match k with
  | 0 => iprop((∃ f, (dst00 : Memref sig .tc .vmem S176x256 .bf16).view.loc (peer c 0 : Thread nD τ) ↦[(dst00 : Memref sig .tc .vmem S176x256 .bf16).view.set]{fullShare} f) ∗ (∃ f, (dst12 : Memref sig .tc .vmem S160x256 .bf16).view.loc (peer c 0 : Thread nD τ) ↦[(dst12 : Memref sig .tc .vmem S160x256 .bf16).view.set]{fullShare} f) ∗ (∃ f, (dst21 : Memref sig .tc .vmem S176x256 .bf16).view.loc (peer c 0 : Thread nD τ) ↦[(dst21 : Memref sig .tc .vmem S176x256 .bf16).view.set]{fullShare} f))
  | 1 => iprop((∃ f, (dst01 : Memref sig .tc .vmem S176x256 .bf16).view.loc (peer c 1 : Thread nD τ) ↦[(dst01 : Memref sig .tc .vmem S176x256 .bf16).view.set]{fullShare} f) ∗ (∃ f, (dst10 : Memref sig .tc .vmem S176x256 .bf16).view.loc (peer c 1 : Thread nD τ) ↦[(dst10 : Memref sig .tc .vmem S176x256 .bf16).view.set]{fullShare} f) ∗ (∃ f, (dst22 : Memref sig .tc .vmem S160x256 .bf16).view.loc (peer c 1 : Thread nD τ) ↦[(dst22 : Memref sig .tc .vmem S160x256 .bf16).view.set]{fullShare} f))
  | 2 => iprop((∃ f, (dst02 : Memref sig .tc .vmem S160x256 .bf16).view.loc (peer c 2 : Thread nD τ) ↦[(dst02 : Memref sig .tc .vmem S160x256 .bf16).view.set]{fullShare} f) ∗ (∃ f, (dst11 : Memref sig .tc .vmem S176x256 .bf16).view.loc (peer c 2 : Thread nD τ) ↦[(dst11 : Memref sig .tc .vmem S176x256 .bf16).view.set]{fullShare} f) ∗ (∃ f, (dst20 : Memref sig .tc .vmem S176x256 .bf16).view.loc (peer c 2 : Thread nD τ) ↦[(dst20 : Memref sig .tc .vmem S176x256 .bf16).view.set]{fullShare} f))

/-- Which transfer cell a DMA semaphore is: (is it a send cell, stage, row group). Semaphores 0-2 stage the windows. -/
def xferIx (q : DmaSem sig) : Option (Bool × Fin 3 × Fin 3) :=
  if h : 3 ≤ q.val ∧ q.val < 12 then some (true, ⟨(q.val - 3) / 3, by omega⟩, ⟨(q.val - 3) % 3, Nat.mod_lt _ (by decide)⟩)
  else if h : 12 ≤ q.val then some (false, ⟨(q.val - 12) / 3, by have := q.isLt; (have h21 : q.val < 21 := this); omega⟩, ⟨(q.val - 12) % 3, Nat.mod_lt _ (by decide)⟩)
  else none

theorem xferIx_send (d g : Fin 3) : xferIx (sendQ d g) = some (true, d, g) := by revert d g; decide
theorem xferIx_recv (d g : Fin 3) : xferIx (recvQ d g) = some (false, d, g) := by revert d g; decide

def xferPay (c : Dev nD) : Bool × Fin 3 × Fin 3 → sProp 𝕄
  | (true, d, g) => sendPay m c d g
  | (false, d, g) => recvPay m c d g

/-- The schedule. -/
def arRd : Rounds.Schedule (GSem nD τ sig) (Fin 3) 𝕄 where
  duties g r :=
    if r = 0 ∧ g.1.2 = .tc then
      (match g.2 with
        | .reg s => if s = barS then Finset.univ else ∅
        | .dma q => if (xferIx q).isSome then {0} else ∅)
    else ∅
  unitless _ := False
  amount g _ _ :=
    match g.2 with
    | .reg _ => 1
    | .dma q => match xferIx q with | some ix => creditOf ix.2.2 | none => 1
  payload g _ k :=
    match g.2 with
    | .reg s => if s = barS then barPay g.1.1 k else iprop(emp)
    | .dma q => match xferIx q with | some ix => xferPay m g.1.1 ix | none => iprop(emp)
  amount_pos g _ _ _ := by
    split
    · exact Nat.one_pos
    · split
      · exact creditOf_pos _
      · exact Nat.one_pos

end Cert.Kernel.AR

end
-- ==== Proof.KTables.lean ====
/-
  The schedule's tables read at the cells, what each device owes at launch, and the order of waiting.

  A device waits on its barrier cell while it owes nine transfers (levels 2, 3, 4, above the barrier's 1); during
  stage d it waits on its own send cells (level 0) and on its receive cells of stage d (level 2 + d) while it owes
  the transfers of the later stages only (levels above 2 + d).
-/
import proofs.«900560_g7700000000000561_dist_matmul_of_ar_i_m512_n256_k256_v7x_i8_f32_1_alg».proof.Proof.Gen.Kernel
import proofs.«900560_g7700000000000561_dist_matmul_of_ar_i_m512_n256_k256_v7x_i8_f32_1_alg».proof.Proof.Gen.Kernel.Skeleton
import proofs.«900560_g7700000000000561_dist_matmul_of_ar_i_m512_n256_k256_v7x_i8_f32_1_alg».proof.Proof.Gen.Kernel.Launch
import proofs.«900560_g7700000000000561_dist_matmul_of_ar_i_m512_n256_k256_v7x_i8_f32_1_alg».proof.Proof.Gen.Kernel.Points
import proofs.«900560_g7700000000000561_dist_matmul_of_ar_i_m512_n256_k256_v7x_i8_f32_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import proofs.«900560_g7700000000000561_dist_matmul_of_ar_i_m512_n256_k256_v7x_i8_f32_1_alg».proof.Proof.KMesh
import proofs.«900560_g7700000000000561_dist_matmul_of_ar_i_m512_n256_k256_v7x_i8_f32_1_alg».proof.Proof.KSched
import proofs.«900560_g7700000000000561_dist_matmul_of_ar_i_m512_n256_k256_v7x_i8_f32_1_alg».proof.Proof.KProto

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The tables -/

section Tables
variable (c : Dev nD) (d g : Fin 3)

theorem duties_bar : (arRd (F := F) m).duties (barCell c) 0 = Finset.univ := by
  dsimp only [arRd]; rw [if_pos ⟨rfl, rfl⟩]; exact if_pos rfl
theorem duties_send : (arRd (F := F) m).duties (sendCell c d g) 0 = {0} := by
  dsimp only [arRd]; rw [if_pos ⟨rfl, rfl⟩, xferIx_send]; rfl
theorem duties_recv : (arRd (F := F) m).duties (recvCell c d g) 0 = {0} := by
  dsimp only [arRd]; rw [if_pos ⟨rfl, rfl⟩, xferIx_recv]; rfl
theorem duties_later (x : GSem nD τ sig) : ∀ r, 1 ≤ r → (arRd (F := F) m).duties x r = ∅ :=
  fun r hr => by dsimp only [arRd]; rw [if_neg fun h => by omega]

theorem amount_bar (k : Fin 3) : (arRd (F := F) m).amount (barCell c) 0 k = 1 := rfl
theorem amount_send (k : Fin 3) : (arRd (F := F) m).amount (sendCell c d g) 0 k = creditOf g := by
  dsimp only [arRd]; rw [xferIx_send]
theorem amount_recv (k : Fin 3) : (arRd (F := F) m).amount (recvCell c d g) 0 k = creditOf g := by
  dsimp only [arRd]; rw [xferIx_recv]

theorem expect_bar : (arRd (F := F) m).expect (barCell c) 0 = 3 := by
  unfold Schedule.expect Schedule.amountOf
  rw [duties_bar, Finset.sum_congr rfl fun k _ => amount_bar m c k, Finset.sum_const, Finset.card_univ, Fintype.card_fin, smul_eq_mul]
theorem expect_send : (arRd (F := F) m).expect (sendCell c d g) 0 = creditOf g := by
  unfold Schedule.expect Schedule.amountOf; rw [duties_send, Finset.sum_singleton, amount_send]
theorem expect_recv : (arRd (F := F) m).expect (recvCell c d g) 0 = creditOf g := by
  unfold Schedule.expect Schedule.amountOf; rw [duties_recv, Finset.sum_singleton, amount_recv]

theorem payload_bar (k : Fin 3) : (arRd m).payload (barCell c) 0 k = barPay c k := by
  dsimp only [arRd]; exact if_pos rfl
theorem payload_send (k : Fin 3) : (arRd m).payload (sendCell c d g) 0 k = sendPay m c d g := by
  dsimp only [arRd]; rw [xferIx_send]; rfl
theorem payload_recv (k : Fin 3) : (arRd m).payload (recvCell c d g) 0 k = recvPay m c d g := by
  dsimp only [arRd]; rw [xferIx_recv]; rfl

end Tables

/-! ## What each device owes at launch -/

/-- The transfers of stage 2. -/
abbrev R2 (c : Dev nD) : CellTallies nD τ sig Unit := (tallyAt (recvCell (peer c 1) 2 2) () (creditOf 2)) + (tallyAt (recvCell (peer c 0) 2 1) () (creditOf 1)) + (tallyAt (recvCell (peer c 2) 2 0) () (creditOf 0))
/-- The transfers of stages 1 and 2. -/
abbrev R1 (c : Dev nD) : CellTallies nD τ sig Unit := R2 c + (tallyAt (recvCell (peer c 0) 1 2) () (creditOf 2)) + (tallyAt (recvCell (peer c 2) 1 1) () (creditOf 1)) + (tallyAt (recvCell (peer c 1) 1 0) () (creditOf 0))
/-- All nine transfers. -/
abbrev R0 (c : Dev nD) : CellTallies nD τ sig Unit := R1 c + (tallyAt (recvCell (peer c 2) 0 2) () (creditOf 2)) + (tallyAt (recvCell (peer c 1) 0 1) () (creditOf 1)) + (tallyAt (recvCell (peer c 0) 0 0) () (creditOf 0))
/-- At launch: the nine transfers and one unit on each partner's barrier cell (the first signal peels the last summand). -/
abbrev O₀ (c : Dev nD) : CellTallies nD τ sig Unit :=
  R0 c + tallyAt (barCell (peer c 2)) () 1 + tallyAt (barCell (peer c 1)) () 1 + tallyAt (barCell (peer c 0)) () 1

/-! ## Levels -/

def L (x : GSem nD τ sig) : Finset Unit := if x.1.2 = .tc then {()} else ∅
/-- Barrier cells at 1, the receive cells of stage d at 2 + d, everything else at 0. -/
def lv (x : GSem nD τ sig) (_ : Unit) : ℕ :=
  match x.2 with
  | .reg s => if s = barS then 1 else 0
  | .dma q => if 12 ≤ q.val then 2 + (q.val - 12) / 3 else 0

theorem L_of_ne (x : GSem nD τ sig) (h : x.1.2 ≠ .tc) : L x = ∅ := if_neg h
theorem L_tc (c : Dev nD) (sm : SemLoc sig) : L ((c : Thread nD τ), sm) = {()} := if_pos rfl

theorem lv_recv (c : Dev nD) (d g : Fin 3) : lv (recvCell c d g) () = 2 + d.val := by
  fin_cases d <;> fin_cases g <;> rfl
theorem lv_send (c : Dev nD) (d g : Fin 3) : lv (sendCell c d g) () = 0 := by
  fin_cases d <;> fin_cases g <;> rfl
theorem lv_bar (c : Dev nD) : lv (barCell c) () = 1 := rfl

theorem tallyAt_pos {x y : GSem nD τ sig} {n : ℕ} {u : Unit} (h : 0 < (tallyAt y () n : CellTallies nD τ sig Unit) x u) : x = y := by
  rw [tallyAt_apply] at h
  by_contra hn
  rw [if_neg (fun h' => hn h'.1)] at h
  exact Nat.lt_irrefl 0 h

/-- Where stage 2's debts lie. -/
theorem R2_pos {c : Dev nD} {x : GSem nD τ sig} {u : Unit} (h : 0 < R2 c x u) : L x = {()} ∧ 4 ≤ lv x u := by
  rcases Pipeline.add_pos_cases h with h | h
  · rcases Pipeline.add_pos_cases h with h | h
    · rw [tallyAt_pos h]; exact ⟨L_tc _ _, by rw [lv_recv]; decide⟩
    · rw [tallyAt_pos h]; exact ⟨L_tc _ _, by rw [lv_recv]; decide⟩
  · rw [tallyAt_pos h]; exact ⟨L_tc _ _, by rw [lv_recv]; decide⟩
/-- Where the debts of stages 1 and 2 lie. -/
theorem R1_pos {c : Dev nD} {x : GSem nD τ sig} {u : Unit} (h : 0 < R1 c x u) : L x = {()} ∧ 3 ≤ lv x u := by
  rcases Pipeline.add_pos_cases h with h | h
  · rcases Pipeline.add_pos_cases h with h | h
    · rcases Pipeline.add_pos_cases h with h | h
      · exact ⟨(R2_pos h).1, by have := (R2_pos h).2; omega⟩
      · rw [tallyAt_pos h]; exact ⟨L_tc _ _, by rw [lv_recv]; decide⟩
    · rw [tallyAt_pos h]; exact ⟨L_tc _ _, by rw [lv_recv]; decide⟩
  · rw [tallyAt_pos h]; exact ⟨L_tc _ _, by rw [lv_recv]; decide⟩
/-- Where all nine transfers' debts lie. -/
theorem R0_pos {c : Dev nD} {x : GSem nD τ sig} {u : Unit} (h : 0 < R0 c x u) : L x = {()} ∧ 2 ≤ lv x u := by
  rcases Pipeline.add_pos_cases h with h | h
  · rcases Pipeline.add_pos_cases h with h | h
    · rcases Pipeline.add_pos_cases h with h | h
      · exact ⟨(R1_pos h).1, by have := (R1_pos h).2; omega⟩
      · rw [tallyAt_pos h]; exact ⟨L_tc _ _, by rw [lv_recv]; decide⟩
    · rw [tallyAt_pos h]; exact ⟨L_tc _ _, by rw [lv_recv]; decide⟩
  · rw [tallyAt_pos h]; exact ⟨L_tc _ _, by rw [lv_recv]; decide⟩
/-- Where everything owed at launch lies. -/
theorem O₀_pos {c : Dev nD} {x : GSem nD τ sig} {u : Unit} (h : 0 < O₀ c x u) : L x = {()} ∧ 1 ≤ lv x u := by
  rcases Pipeline.add_pos_cases h with h | h
  · rcases Pipeline.add_pos_cases h with h | h
    · rcases Pipeline.add_pos_cases h with h | h
      · exact ⟨(R0_pos h).1, by have := (R0_pos h).2; omega⟩
      · rw [tallyAt_pos h]; exact ⟨L_tc _ _, by rw [lv_bar]⟩
    · rw [tallyAt_pos h]; exact ⟨L_tc _ _, by rw [lv_bar]⟩
  · rw [tallyAt_pos h]; exact ⟨L_tc _ _, by rw [lv_bar]⟩

/-- A wait on a cell of level `n` while everything owed lies above `n`. -/
theorem mayWait_above (c : Dev nD) (sm : SemLoc sig) (O : CellTallies nD τ sig Unit) (n : ℕ)
    (hn : lv ((c : Thread nD τ), sm) () = n)
    (hO : ∀ (x : GSem nD τ sig) (u : Unit), 0 < O x u → L x = {()} ∧ n + 1 ≤ lv x u) :
    (levAts L lv : sProp 𝕄) ⊢ MayWait (c : Thread nD τ) sm () O :=
  Pipeline.mayWait_of_levAts (by rw [L_tc]; exact Finset.mem_singleton_self _)
    (fun x u hx => ⟨by rw [(hO x u hx).1]; exact Finset.mem_singleton_self _, by rw [hn]; exact (hO x u hx).2⟩)

end Cert.Kernel.AR

end
-- ==== Proof.KGhost.lean ====
/-
  What a device's thread holds when its body starts and when it ends.

  At the start: the invariants of the cells it touches (its own nineteen, its partners' barrier cells, and the nine
  receive cells of its partners that its transfers pay), that each of those cells is at its first round, its own
  position on its own cells, the tokens of the duties it pays (one barrier duty per partner, its nine send duties,
  the nine receive duties on its partners), the credit to wait with (three units on its barrier cell, each receive
  cell's transfer credit), and its two scratch buffers. At the end: the scratch buffers, and its eighteen transfer
  semaphores back at zero.
-/
import proofs.«900560_g7700000000000561_dist_matmul_of_ar_i_m512_n256_k256_v7x_i8_f32_1_alg».proof.Proof.Gen.Kernel
import proofs.«900560_g7700000000000561_dist_matmul_of_ar_i_m512_n256_k256_v7x_i8_f32_1_alg».proof.Proof.Gen.Kernel.Skeleton
import proofs.«900560_g7700000000000561_dist_matmul_of_ar_i_m512_n256_k256_v7x_i8_f32_1_alg».proof.Proof.Gen.Kernel.Launch
import proofs.«900560_g7700000000000561_dist_matmul_of_ar_i_m512_n256_k256_v7x_i8_f32_1_alg».proof.Proof.Gen.Kernel.Points
import proofs.«900560_g7700000000000561_dist_matmul_of_ar_i_m512_n256_k256_v7x_i8_f32_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import proofs.«900560_g7700000000000561_dist_matmul_of_ar_i_m512_n256_k256_v7x_i8_f32_1_alg».proof.Proof.KMesh
import proofs.«900560_g7700000000000561_dist_matmul_of_ar_i_m512_n256_k256_v7x_i8_f32_1_alg».proof.Proof.KSched
import proofs.«900560_g7700000000000561_dist_matmul_of_ar_i_m512_n256_k256_v7x_i8_f32_1_alg».proof.Proof.KProto
import proofs.«900560_g7700000000000561_dist_matmul_of_ar_i_m512_n256_k256_v7x_i8_f32_1_alg».proof.Proof.KTables

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The cells by number -/

/-- A device's nineteen cells: 0 the barrier, 1-9 the send cells, 10-18 the receive cells. -/
abbrev csem : Fin 19 → SemLoc sig := fun i => if i.val = 0 then .reg barS else .dma ⟨i.val + 2, by have := i.isLt; show _ < 21; omega⟩
abbrev kcell (ck : Dev nD × Fin 19) : GSem nD τ sig := ((ck.1 : Thread nD τ), csem ck.2)
abbrev iBar : Fin 19 := 0
abbrev iSend (d g : Fin 3) : Fin 19 := ⟨1 + 3 * d.val + g.val, by have := d.isLt; have := g.isLt; omega⟩
abbrev iRecv (d g : Fin 3) : Fin 19 := ⟨10 + 3 * d.val + g.val, by have := d.isLt; have := g.isLt; omega⟩
/-- The eighteen transfer semaphores, the kernel's own. -/
abbrev osem : Fin 18 → SemLoc sig := fun i => .dma ⟨i.val + 3, by have := i.isLt; show _ < 21; omega⟩

theorem kcell_bar (c : Dev nD) : kcell (c, iBar) = barCell c := rfl
theorem kcell_send (c : Dev nD) (d g : Fin 3) : kcell (c, iSend d g) = sendCell c d g := by fin_cases d <;> fin_cases g <;> rfl
theorem kcell_recv (c : Dev nD) (d g : Fin 3) : kcell (c, iRecv d g) = recvCell c d g := by fin_cases d <;> fin_cases g <;> rfl

/-! ## The ghost state of a device -/

def invs (K : Dev nD × Fin 19 → ℕ) (c : Dev nD) : sProp 𝕄 :=
  iprop(cellInv ER (arRd m) (K (c, iBar)) (barCell c)
    ∗ cellInv ER (arRd m) (K (c, iSend 0 0)) (sendCell c 0 0)
    ∗ cellInv ER (arRd m) (K (c, iSend 0 1)) (sendCell c 0 1)
    ∗ cellInv ER (arRd m) (K (c, iSend 0 2)) (sendCell c 0 2)
    ∗ cellInv ER (arRd m) (K (c, iSend 1 0)) (sendCell c 1 0)
    ∗ cellInv ER (arRd m) (K (c, iSend 1 1)) (sendCell c 1 1)
    ∗ cellInv ER (arRd m) (K (c, iSend 1 2)) (sendCell c 1 2)
    ∗ cellInv ER (arRd m) (K (c, iSend 2 0)) (sendCell c 2 0)
    ∗ cellInv ER (arRd m) (K (c, iSend 2 1)) (sendCell c 2 1)
    ∗ cellInv ER (arRd m) (K (c, iSend 2 2)) (sendCell c 2 2)
    ∗ cellInv ER (arRd m) (K (c, iRecv 0 0)) (recvCell c 0 0)
    ∗ cellInv ER (arRd m) (K (c, iRecv 0 1)) (recvCell c 0 1)
    ∗ cellInv ER (arRd m) (K (c, iRecv 0 2)) (recvCell c 0 2)
    ∗ cellInv ER (arRd m) (K (c, iRecv 1 0)) (recvCell c 1 0)
    ∗ cellInv ER (arRd m) (K (c, iRecv 1 1)) (recvCell c 1 1)
    ∗ cellInv ER (arRd m) (K (c, iRecv 1 2)) (recvCell c 1 2)
    ∗ cellInv ER (arRd m) (K (c, iRecv 2 0)) (recvCell c 2 0)
    ∗ cellInv ER (arRd m) (K (c, iRecv 2 1)) (recvCell c 2 1)
    ∗ cellInv ER (arRd m) (K (c, iRecv 2 2)) (recvCell c 2 2)
    ∗ cellInv ER (arRd m) (K (peer c 0, iBar)) (barCell (peer c 0))
    ∗ cellInv ER (arRd m) (K (peer c 1, iBar)) (barCell (peer c 1))
    ∗ cellInv ER (arRd m) (K (peer c 2, iBar)) (barCell (peer c 2))
    ∗ cellInv ER (arRd m) (K (peer c 0, iRecv 0 0)) (recvCell (peer c 0) 0 0)
    ∗ cellInv ER (arRd m) (K (peer c 1, iRecv 0 1)) (recvCell (peer c 1) 0 1)
    ∗ cellInv ER (arRd m) (K (peer c 2, iRecv 0 2)) (recvCell (peer c 2) 0 2)
    ∗ cellInv ER (arRd m) (K (peer c 1, iRecv 1 0)) (recvCell (peer c 1) 1 0)
    ∗ cellInv ER (arRd m) (K (peer c 2, iRecv 1 1)) (recvCell (peer c 2) 1 1)
    ∗ cellInv ER (arRd m) (K (peer c 0, iRecv 1 2)) (recvCell (peer c 0) 1 2)
    ∗ cellInv ER (arRd m) (K (peer c 2, iRecv 2 0)) (recvCell (peer c 2) 2 0)
    ∗ cellInv ER (arRd m) (K (peer c 0, iRecv 2 1)) (recvCell (peer c 0) 2 1)
    ∗ cellInv ER (arRd m) (K (peer c 1, iRecv 2 2)) (recvCell (peer c 1) 2 2))

def marks (c : Dev nD) : sProp 𝕄 :=
  iprop(reached ER (barCell c) 0
    ∗ reached ER (sendCell c 0 0) 0
    ∗ reached ER (sendCell c 0 1) 0
    ∗ reached ER (sendCell c 0 2) 0
    ∗ reached ER (sendCell c 1 0) 0
    ∗ reached ER (sendCell c 1 1) 0
    ∗ reached ER (sendCell c 1 2) 0
    ∗ reached ER (sendCell c 2 0) 0
    ∗ reached ER (sendCell c 2 1) 0
    ∗ reached ER (sendCell c 2 2) 0
    ∗ reached ER (recvCell c 0 0) 0
    ∗ reached ER (recvCell c 0 1) 0
    ∗ reached ER (recvCell c 0 2) 0
    ∗ reached ER (recvCell c 1 0) 0
    ∗ reached ER (recvCell c 1 1) 0
    ∗ reached ER (recvCell c 1 2) 0
    ∗ reached ER (recvCell c 2 0) 0
    ∗ reached ER (recvCell c 2 1) 0
    ∗ reached ER (recvCell c 2 2) 0
    ∗ reached ER (barCell (peer c 0)) 0
    ∗ reached ER (barCell (peer c 1)) 0
    ∗ reached ER (barCell (peer c 2)) 0
    ∗ reached ER (recvCell (peer c 0) 0 0) 0
    ∗ reached ER (recvCell (peer c 1) 0 1) 0
    ∗ reached ER (recvCell (peer c 2) 0 2) 0
    ∗ reached ER (recvCell (peer c 1) 1 0) 0
    ∗ reached ER (recvCell (peer c 2) 1 1) 0
    ∗ reached ER (recvCell (peer c 0) 1 2) 0
    ∗ reached ER (recvCell (peer c 2) 2 0) 0
    ∗ reached ER (recvCell (peer c 0) 2 1) 0
    ∗ reached ER (recvCell (peer c 1) 2 2) 0)

def poss (c : Dev nD) : sProp 𝕄 :=
  iprop(atPos ER (barCell c) 0 ∅ 0
    ∗ atPos ER (sendCell c 0 0) 0 ∅ 0
    ∗ atPos ER (sendCell c 0 1) 0 ∅ 0
    ∗ atPos ER (sendCell c 0 2) 0 ∅ 0
    ∗ atPos ER (sendCell c 1 0) 0 ∅ 0
    ∗ atPos ER (sendCell c 1 1) 0 ∅ 0
    ∗ atPos ER (sendCell c 1 2) 0 ∅ 0
    ∗ atPos ER (sendCell c 2 0) 0 ∅ 0
    ∗ atPos ER (sendCell c 2 1) 0 ∅ 0
    ∗ atPos ER (sendCell c 2 2) 0 ∅ 0
    ∗ atPos ER (recvCell c 0 0) 0 ∅ 0
    ∗ atPos ER (recvCell c 0 1) 0 ∅ 0
    ∗ atPos ER (recvCell c 0 2) 0 ∅ 0
    ∗ atPos ER (recvCell c 1 0) 0 ∅ 0
    ∗ atPos ER (recvCell c 1 1) 0 ∅ 0
    ∗ atPos ER (recvCell c 1 2) 0 ∅ 0
    ∗ atPos ER (recvCell c 2 0) 0 ∅ 0
    ∗ atPos ER (recvCell c 2 1) 0 ∅ 0
    ∗ atPos ER (recvCell c 2 2) 0 ∅ 0)

def payToks (c : Dev nD) : sProp 𝕄 :=
  iprop(dutyTok ER (barCell (peer c 0)) 0 (0 : Fin 3)
    ∗ dutyTok ER (barCell (peer c 1)) 0 (1 : Fin 3)
    ∗ dutyTok ER (barCell (peer c 2)) 0 (2 : Fin 3)
    ∗ dutyTok ER (sendCell c 0 0) 0 (0 : Fin 3)
    ∗ dutyTok ER (sendCell c 0 1) 0 (0 : Fin 3)
    ∗ dutyTok ER (sendCell c 0 2) 0 (0 : Fin 3)
    ∗ dutyTok ER (sendCell c 1 0) 0 (0 : Fin 3)
    ∗ dutyTok ER (sendCell c 1 1) 0 (0 : Fin 3)
    ∗ dutyTok ER (sendCell c 1 2) 0 (0 : Fin 3)
    ∗ dutyTok ER (sendCell c 2 0) 0 (0 : Fin 3)
    ∗ dutyTok ER (sendCell c 2 1) 0 (0 : Fin 3)
    ∗ dutyTok ER (sendCell c 2 2) 0 (0 : Fin 3)
    ∗ dutyTok ER (recvCell (peer c 0) 0 0) 0 (0 : Fin 3)
    ∗ dutyTok ER (recvCell (peer c 1) 0 1) 0 (0 : Fin 3)
    ∗ dutyTok ER (recvCell (peer c 2) 0 2) 0 (0 : Fin 3)
    ∗ dutyTok ER (recvCell (peer c 1) 1 0) 0 (0 : Fin 3)
    ∗ dutyTok ER (recvCell (peer c 2) 1 1) 0 (0 : Fin 3)
    ∗ dutyTok ER (recvCell (peer c 0) 1 2) 0 (0 : Fin 3)
    ∗ dutyTok ER (recvCell (peer c 2) 2 0) 0 (0 : Fin 3)
    ∗ dutyTok ER (recvCell (peer c 0) 2 1) 0 (0 : Fin 3)
    ∗ dutyTok ER (recvCell (peer c 1) 2 2) 0 (0 : Fin 3))

def creds (c : Dev nD) : sProp 𝕄 :=
  iprop(cred (tallyAt (barCell c) () 3)
    ∗ cred (tallyAt (recvCell c 0 0) () (creditOf 0))
    ∗ cred (tallyAt (recvCell c 0 1) () (creditOf 1))
    ∗ cred (tallyAt (recvCell c 0 2) () (creditOf 2))
    ∗ cred (tallyAt (recvCell c 1 0) () (creditOf 0))
    ∗ cred (tallyAt (recvCell c 1 1) () (creditOf 1))
    ∗ cred (tallyAt (recvCell c 1 2) () (creditOf 2))
    ∗ cred (tallyAt (recvCell c 2 0) () (creditOf 0))
    ∗ cred (tallyAt (recvCell c 2 1) () (creditOf 1))
    ∗ cred (tallyAt (recvCell c 2 2) () (creditOf 2)))

def ownZero (c : Dev nD) : sProp 𝕄 :=
  iprop(semVal (sendCell c 0 0) 0
    ∗ semVal (sendCell c 0 1) 0
    ∗ semVal (sendCell c 0 2) 0
    ∗ semVal (sendCell c 1 0) 0
    ∗ semVal (sendCell c 1 1) 0
    ∗ semVal (sendCell c 1 2) 0
    ∗ semVal (sendCell c 2 0) 0
    ∗ semVal (sendCell c 2 1) 0
    ∗ semVal (sendCell c 2 2) 0
    ∗ semVal (recvCell c 0 0) 0
    ∗ semVal (recvCell c 0 1) 0
    ∗ semVal (recvCell c 0 2) 0
    ∗ semVal (recvCell c 1 0) 0
    ∗ semVal (recvCell c 1 1) 0
    ∗ semVal (recvCell c 1 2) 0
    ∗ semVal (recvCell c 2 0) 0
    ∗ semVal (recvCell c 2 1) 0
    ∗ semVal (recvCell c 2 2) 0)

instance invs_persistent (K : Dev nD × Fin 19 → ℕ) (c : Dev nD) : BI.Persistent (invs m K c) := by unfold invs; infer_instance
instance marks_persistent (c : Dev nD) : BI.Persistent (marks (F := F) c) := by unfold marks; infer_instance

def ghost (K : Dev nD × Fin 19 → ℕ) (c : Dev nD) : sProp 𝕄 :=
  iprop(invs m K c ∗ marks c ∗ poss c ∗ payToks c)

/-- What a device's body starts from, besides its buffers. -/
def start (c : Dev nD) : sProp 𝕄 :=
  iprop((∃ K, ghost m K c) ∗ creds c ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratch c)
def Φ₁ (c : Dev nD) : sProp 𝕄 := iprop(scratch c ∗ ownZero c)

/-! ## The pipeline's proof data -/

def dats (_ : Fin 1) (c : Dev nD) : Dat τ (Elt F) Unit ℕ UU ℕ cfg0 c where
  A w := m ((cfg0.win w).arr.view.loc (c : Thread nD τ))
  after w _ := match w with
    | ⟨0, _⟩ => tblk m c
    | ⟨1, _⟩ => wblk m c
    | ⟨2, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.AR

end
-- ==== Proof.KRegions.lean ====
/-
  The running-sum buffer as its three row groups, the landing buffer as its nine regions (three slots of three row
  groups), as assertions: set algebra of rectangles.
-/
import proofs.«900560_g7700000000000561_dist_matmul_of_ar_i_m512_n256_k256_v7x_i8_f32_1_alg».proof.Proof.Gen.Kernel
import proofs.«900560_g7700000000000561_dist_matmul_of_ar_i_m512_n256_k256_v7x_i8_f32_1_alg».proof.Proof.Gen.Kernel.Skeleton
import proofs.«900560_g7700000000000561_dist_matmul_of_ar_i_m512_n256_k256_v7x_i8_f32_1_alg».proof.Proof.Gen.Kernel.Launch
import proofs.«900560_g7700000000000561_dist_matmul_of_ar_i_m512_n256_k256_v7x_i8_f32_1_alg».proof.Proof.Gen.Kernel.Points
import proofs.«900560_g7700000000000561_dist_matmul_of_ar_i_m512_n256_k256_v7x_i8_f32_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import proofs.«900560_g7700000000000561_dist_matmul_of_ar_i_m512_n256_k256_v7x_i8_f32_1_alg».proof.Proof.KMesh
import proofs.«900560_g7700000000000561_dist_matmul_of_ar_i_m512_n256_k256_v7x_i8_f32_1_alg».proof.Proof.KSched

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- Slot `d` of the landing buffer, as the body loads it. -/
abbrev slotR0 : Rect S3x512x256 := Rect.unit (s := S3x512x256) ![0, 0, 0] S1x512x256.size inb_S3x512x256_S1x512x256_0_0_0
abbrev slotR1 : Rect S3x512x256 := Rect.unit (s := S3x512x256) ![1, 0, 0] S1x512x256.size inb_S3x512x256_S1x512x256_1_0_0
abbrev slotR2 : Rect S3x512x256 := Rect.unit (s := S3x512x256) ![2, 0, 0] S1x512x256.size inb_S3x512x256_S1x512x256_2_0_0

/-! ## Element sets of the views -/

theorem set_srcA : (srcA : Memref sig .tc .vmem S176x256 .bf16).view.set
    = (Rect.unit (s := S512x256) ![0, 0] S176x256.size inb_S512x256_S176x256_0_0).set :=
  View.set_slice_whole _ _
theorem set_srcB : (srcB : Memref sig .tc .vmem S176x256 .bf16).view.set
    = (Rect.unit (s := S512x256) ![176, 0] S176x256.size inb_S512x256_S176x256_176_0).set :=
  View.set_slice_whole _ _
theorem set_srcC : (srcC : Memref sig .tc .vmem S160x256 .bf16).view.set
    = (Rect.unit (s := S512x256) ![352, 0] S160x256.size inb_S512x256_S160x256_352_0).set :=
  View.set_slice_whole _ _
theorem set_dst00 : (dst00 : Memref sig .tc .vmem S176x256 .bf16).view.set
    = (Rect.unit (s := S3x512x256) ![0, 0, 0] S1x176x256.size inb_S3x512x256_S1x176x256_0_0_0).set :=
  (View.set_reshape _ _).trans (View.set_slice_whole _ _)
theorem set_dst01 : (dst01 : Memref sig .tc .vmem S176x256 .bf16).view.set
    = (Rect.unit (s := S3x512x256) ![0, 176, 0] S1x176x256.size inb_S3x512x256_S1x176x256_0_176_0).set :=
  (View.set_reshape _ _).trans (View.set_slice_whole _ _)
theorem set_dst02 : (dst02 : Memref sig .tc .vmem S160x256 .bf16).view.set
    = (Rect.unit (s := S3x512x256) ![0, 352, 0] S1x160x256.size inb_S3x512x256_S1x160x256_0_352_0).set :=
  (View.set_reshape _ _).trans (View.set_slice_whole _ _)
theorem set_dst10 : (dst10 : Memref sig .tc .vmem S176x256 .bf16).view.set
    = (Rect.unit (s := S3x512x256) ![1, 0, 0] S1x176x256.size inb_S3x512x256_S1x176x256_1_0_0).set :=
  (View.set_reshape _ _).trans (View.set_slice_whole _ _)
theorem set_dst11 : (dst11 : Memref sig .tc .vmem S176x256 .bf16).view.set
    = (Rect.unit (s := S3x512x256) ![1, 176, 0] S1x176x256.size inb_S3x512x256_S1x176x256_1_176_0).set :=
  (View.set_reshape _ _).trans (View.set_slice_whole _ _)
theorem set_dst12 : (dst12 : Memref sig .tc .vmem S160x256 .bf16).view.set
    = (Rect.unit (s := S3x512x256) ![1, 352, 0] S1x160x256.size inb_S3x512x256_S1x160x256_1_352_0).set :=
  (View.set_reshape _ _).trans (View.set_slice_whole _ _)
theorem set_dst20 : (dst20 : Memref sig .tc .vmem S176x256 .bf16).view.set
    = (Rect.unit (s := S3x512x256) ![2, 0, 0] S1x176x256.size inb_S3x512x256_S1x176x256_2_0_0).set :=
  (View.set_reshape _ _).trans (View.set_slice_whole _ _)
theorem set_dst21 : (dst21 : Memref sig .tc .vmem S176x256 .bf16).view.set
    = (Rect.unit (s := S3x512x256) ![2, 176, 0] S1x176x256.size inb_S3x512x256_S1x176x256_2_176_0).set :=
  (View.set_reshape _ _).trans (View.set_slice_whole _ _)
theorem set_dst22 : (dst22 : Memref sig .tc .vmem S160x256 .bf16).view.set
    = (Rect.unit (s := S3x512x256) ![2, 352, 0] S1x160x256.size inb_S3x512x256_S1x160x256_2_352_0).set :=
  (View.set_reshape _ _).trans (View.set_slice_whole _ _)

/-- A rectangle of the landing buffer, seen through the whole buffer's view, is itself. -/
theorem setOn_comm (M : Finset S3x512x256.Idx) :
    (commM : Memref sig .tc .vmem S3x512x256 .bf16).view.setOn M = M := Finset.map_refl

/-! ## Membership in a block of rows -/

/-- A block of whole rows of the running-sum buffer holds the indices whose row lies in its range. -/
theorem mem_rows2 {r0 n : Nat} {inb} {i : S512x256.Idx} :
    i ∈ (Rect.unit (s := S512x256) ![r0, 0] ![n, 256] inb).set ↔ r0 ≤ (i 0).val ∧ (i 0).val < r0 + n := by
  rw [Rect.mem_set_unit]
  constructor
  · intro h; exact h 0
  · intro h a
    fin_cases a
    · exact h
    · have := (i 1).isLt
      show 0 ≤ (i 1).val ∧ (i 1).val < 0 + 256
      have h256 : S512x256.size 1 = 256 := rfl
      omega

/-- A block of whole rows of one slot of the landing buffer holds the indices of that slot whose row lies in its
    range. -/
theorem mem_rows3 {d r0 n : Nat} {inb} {i : S3x512x256.Idx} :
    i ∈ (Rect.unit (s := S3x512x256) ![d, r0, 0] ![1, n, 256] inb).set
      ↔ (i 0).val = d ∧ r0 ≤ (i 1).val ∧ (i 1).val < r0 + n := by
  rw [Rect.mem_set_unit]
  constructor
  · intro h
    have h0 : d ≤ (i 0).val ∧ (i 0).val < d + 1 := h 0
    have h1 : r0 ≤ (i 1).val ∧ (i 1).val < r0 + n := h 1
    omega
  · intro h a
    fin_cases a
    · show d ≤ (i 0).val ∧ (i 0).val < d + 1
      omega
    · exact h.2
    · have := (i 2).isLt
      show 0 ≤ (i 2).val ∧ (i 2).val < 0 + 256
      have h256 : S3x512x256.size 2 = 256 := rfl
      omega

/-! ## The set identities -/

/-- Rows 0-175, 176-351 and 352-511 are all the rows. -/
theorem cover_acc : (Finset.univ : Finset S512x256.Idx)
    = (Rect.unit (s := S512x256) ![0, 0] S176x256.size inb_S512x256_S176x256_0_0).set ∪ ((Rect.unit (s := S512x256) ![176, 0] S176x256.size inb_S512x256_S176x256_176_0).set ∪ (Rect.unit (s := S512x256) ![352, 0] S160x256.size inb_S512x256_S160x256_352_0).set) := by
  ext i
  simp only [Finset.mem_univ, Finset.mem_union, mem_rows2, true_iff]
  have h : (i 0).val < 512 := (i 0).isLt
  omega

/-- In slot 0, rows 0-175, 176-351 and 352-511 are all the rows. -/
theorem cover_slot0 : slotR0.set
    = (Rect.unit (s := S3x512x256) ![0, 0, 0] S1x176x256.size inb_S3x512x256_S1x176x256_0_0_0).set ∪ ((Rect.unit (s := S3x512x256) ![0, 176, 0] S1x176x256.size inb_S3x512x256_S1x176x256_0_176_0).set ∪ (Rect.unit (s := S3x512x256) ![0, 352, 0] S1x160x256.size inb_S3x512x256_S1x160x256_0_352_0).set) := by
  ext i
  simp only [slotR0, slotR1, slotR2, Finset.mem_union, mem_rows3]
  have h : (i 1).val < 512 := (i 1).isLt
  omega

/-- In slot 1, rows 0-175, 176-351 and 352-511 are all the rows. -/
theorem cover_slot1 : slotR1.set
    = (Rect.unit (s := S3x512x256) ![1, 0, 0] S1x176x256.size inb_S3x512x256_S1x176x256_1_0_0).set ∪ ((Rect.unit (s := S3x512x256) ![1, 176, 0] S1x176x256.size inb_S3x512x256_S1x176x256_1_176_0).set ∪ (Rect.unit (s := S3x512x256) ![1, 352, 0] S1x160x256.size inb_S3x512x256_S1x160x256_1_352_0).set) := by
  ext i
  simp only [slotR0, slotR1, slotR2, Finset.mem_union, mem_rows3]
  have h : (i 1).val < 512 := (i 1).isLt
  omega

/-- In slot 2, rows 0-175, 176-351 and 352-511 are all the rows. -/
theorem cover_slot2 : slotR2.set
    = (Rect.unit (s := S3x512x256) ![2, 0, 0] S1x176x256.size inb_S3x512x256_S1x176x256_2_0_0).set ∪ ((Rect.unit (s := S3x512x256) ![2, 176, 0] S1x176x256.size inb_S3x512x256_S1x176x256_2_176_0).set ∪ (Rect.unit (s := S3x512x256) ![2, 352, 0] S1x160x256.size inb_S3x512x256_S1x160x256_2_352_0).set) := by
  ext i
  simp only [slotR0, slotR1, slotR2, Finset.mem_union, mem_rows3]
  have h : (i 1).val < 512 := (i 1).isLt
  omega

/-- Slots 0, 1 and 2 are the landing buffer. -/
theorem cover_comm : (Finset.univ : Finset S3x512x256.Idx) = slotR0.set ∪ (slotR1.set ∪ slotR2.set) := by
  ext i
  simp only [slotR0, slotR1, slotR2, Finset.mem_univ, Finset.mem_union, mem_rows3, true_iff]
  have h : (i 0).val < 3 := (i 0).isLt
  have h1 : (i 1).val < 512 := (i 1).isLt
  omega

/-! ## Three disjoint pieces -/

section Three
variable {ℓ : Loc nD τ sig} {S A B C : Finset (Idx ℓ)} {q : PosShare TreeShare} {f : Buf (Elt F) ℓ}

/-- A set of elements that is the union of three pairwise disjoint sets is held exactly when the three are. -/
theorem pointsTo_three (hS : S = A ∪ (B ∪ C)) (hAB : Disjoint A B) (hAC : Disjoint A C) (hBC : Disjoint B C) :
    (ℓ ↦[S]{q} f : sProp 𝕄) ⊣⊢ iprop((ℓ ↦[A]{q} f) ∗ (ℓ ↦[B]{q} f) ∗ (ℓ ↦[C]{q} f)) := by
  subst hS
  exact (pointsTo_union (Finset.disjoint_union_right.mpr ⟨hAB, hAC⟩)).trans (sep_congr_right (pointsTo_union hBC))

end Three

/-! ## Cutting and joining -/

/-- The running sum is its three row groups. -/
theorem acc_split (c : Dev nD) (f : Buf (Elt F) ((accM : Memref sig .tc .vmem S512x256 .bf16).view.loc (c : Thread nD τ))) :
    (((accM : Memref sig .tc .vmem S512x256 .bf16).view.loc (c : Thread nD τ) ↦{fullShare} f : sProp 𝕄))
      ⊣⊢ iprop(((srcA : Memref sig .tc .vmem S176x256 .bf16).view.loc (c : Thread nD τ) ↦[(srcA : Memref sig .tc .vmem S176x256 .bf16).view.set]{fullShare} f)
        ∗ ((srcB : Memref sig .tc .vmem S176x256 .bf16).view.loc (c : Thread nD τ) ↦[(srcB : Memref sig .tc .vmem S176x256 .bf16).view.set]{fullShare} f)
        ∗ ((srcC : Memref sig .tc .vmem S160x256 .bf16).view.loc (c : Thread nD τ) ↦[(srcC : Memref sig .tc .vmem S160x256 .bf16).view.set]{fullShare} f)) := by
  refine pointsTo_three ?_ ?_ ?_ ?_
  · rw [set_srcA, set_srcB, set_srcC]; exact cover_acc
  · rw [set_srcA, set_srcB]; exact Rect.unit_disjoint 0 (Or.inl (Nat.le_refl _))
  · rw [set_srcA, set_srcC]; exact Rect.unit_disjoint 0 (Or.inl (by decide))
  · rw [set_srcB, set_srcC]; exact Rect.unit_disjoint 0 (Or.inl (Nat.le_refl _))

/-- The three row groups of slot 0 are the slot. -/
theorem slot_join0 (c : Dev nD) (f : Buf (Elt F) ((commM : Memref sig .tc .vmem S3x512x256 .bf16).view.loc (c : Thread nD τ))) :
    (iprop(((dst00 : Memref sig .tc .vmem S176x256 .bf16).view.loc (c : Thread nD τ) ↦[(dst00 : Memref sig .tc .vmem S176x256 .bf16).view.set]{fullShare} f)
        ∗ ((dst01 : Memref sig .tc .vmem S176x256 .bf16).view.loc (c : Thread nD τ) ↦[(dst01 : Memref sig .tc .vmem S176x256 .bf16).view.set]{fullShare} f)
        ∗ ((dst02 : Memref sig .tc .vmem S160x256 .bf16).view.loc (c : Thread nD τ) ↦[(dst02 : Memref sig .tc .vmem S160x256 .bf16).view.set]{fullShare} f)) : sProp 𝕄)
      ⊣⊢ ((commM : Memref sig .tc .vmem S3x512x256 .bf16).view.loc (c : Thread nD τ) ↦[(commM : Memref sig .tc .vmem S3x512x256 .bf16).view.setOn slotR0.set]{fullShare} f) := by
  refine (pointsTo_three ?_ ?_ ?_ ?_).symm
  · rw [setOn_comm, set_dst00, set_dst01, set_dst02]; exact cover_slot0
  · rw [set_dst00, set_dst01]; exact Rect.unit_disjoint 1 (Or.inl (Nat.le_refl _))
  · rw [set_dst00, set_dst02]; exact Rect.unit_disjoint 1 (Or.inl (by decide))
  · rw [set_dst01, set_dst02]; exact Rect.unit_disjoint 1 (Or.inl (Nat.le_refl _))

/-- The three row groups of slot 1 are the slot. -/
theorem slot_join1 (c : Dev nD) (f : Buf (Elt F) ((commM : Memref sig .tc .vmem S3x512x256 .bf16).view.loc (c : Thread nD τ))) :
    (iprop(((dst10 : Memref sig .tc .vmem S176x256 .bf16).view.loc (c : Thread nD τ) ↦[(dst10 : Memref sig .tc .vmem S176x256 .bf16).view.set]{fullShare} f)
        ∗ ((dst11 : Memref sig .tc .vmem S176x256 .bf16).view.loc (c : Thread nD τ) ↦[(dst11 : Memref sig .tc .vmem S176x256 .bf16).view.set]{fullShare} f)
        ∗ ((dst12 : Memref sig .tc .vmem S160x256 .bf16).view.loc (c : Thread nD τ) ↦[(dst12 : Memref sig .tc .vmem S160x256 .bf16).view.set]{fullShare} f)) : sProp 𝕄)
      ⊣⊢ ((commM : Memref sig .tc .vmem S3x512x256 .bf16).view.loc (c : Thread nD τ) ↦[(commM : Memref sig .tc .vmem S3x512x256 .bf16).view.setOn slotR1.set]{fullShare} f) := by
  refine (pointsTo_three ?_ ?_ ?_ ?_).symm
  · rw [setOn_comm, set_dst10, set_dst11, set_dst12]; exact cover_slot1
  · rw [set_dst10, set_dst11]; exact Rect.unit_disjoint 1 (Or.inl (Nat.le_refl _))
  · rw [set_dst10, set_dst12]; exact Rect.unit_disjoint 1 (Or.inl (by decide))
  · rw [set_dst11, set_dst12]; exact Rect.unit_disjoint 1 (Or.inl (Nat.le_refl _))

/-- The three row groups of slot 2 are the slot. -/
theorem slot_join2 (c : Dev nD) (f : Buf (Elt F) ((commM : Memref sig .tc .vmem S3x512x256 .bf16).view.loc (c : Thread nD τ))) :
    (iprop(((dst20 : Memref sig .tc .vmem S176x256 .bf16).view.loc (c : Thread nD τ) ↦[(dst20 : Memref sig .tc .vmem S176x256 .bf16).view.set]{fullShare} f)
        ∗ ((dst21 : Memref sig .tc .vmem S176x256 .bf16).view.loc (c : Thread nD τ) ↦[(dst21 : Memref sig .tc .vmem S176x256 .bf16).view.set]{fullShare} f)
        ∗ ((dst22 : Memref sig .tc .vmem S160x256 .bf16).view.loc (c : Thread nD τ) ↦[(dst22 : Memref sig .tc .vmem S160x256 .bf16).view.set]{fullShare} f)) : sProp 𝕄)
      ⊣⊢ ((commM : Memref sig .tc .vmem S3x512x256 .bf16).view.loc (c : Thread nD τ) ↦[(commM : Memref sig .tc .vmem S3x512x256 .bf16).view.setOn slotR2.set]{fullShare} f) := by
  refine (pointsTo_three ?_ ?_ ?_ ?_).symm
  · rw [setOn_comm, set_dst20, set_dst21, set_dst22]; exact cover_slot2
  · rw [set_dst20, set_dst21]; exact Rect.unit_disjoint 1 (Or.inl (Nat.le_refl _))
  · rw [set_dst20, set_dst22]; exact Rect.unit_disjoint 1 (Or.inl (by decide))
  · rw [set_dst21, set_dst22]; exact Rect.unit_disjoint 1 (Or.inl (Nat.le_refl _))

/-- The landing buffer is its three slots. -/
theorem comm_split (c : Dev nD) (f : Buf (Elt F) ((commM : Memref sig .tc .vmem S3x512x256 .bf16).view.loc (c : Thread nD τ))) :
    (((commM : Memref sig .tc .vmem S3x512x256 .bf16).view.loc (c : Thread nD τ) ↦{fullShare} f : sProp 𝕄))
      ⊣⊢ iprop(((commM : Memref sig .tc .vmem S3x512x256 .bf16).view.loc (c : Thread nD τ) ↦[(commM : Memref sig .tc .vmem S3x512x256 .bf16).view.setOn slotR0.set]{fullShare} f)
        ∗ ((commM : Memref sig .tc .vmem S3x512x256 .bf16).view.loc (c : Thread nD τ) ↦[(commM : Memref sig .tc .vmem S3x512x256 .bf16).view.setOn slotR1.set]{fullShare} f)
        ∗ ((commM : Memref sig .tc .vmem S3x512x256 .bf16).view.loc (c : Thread nD τ) ↦[(commM : Memref sig .tc .vmem S3x512x256 .bf16).view.setOn slotR2.set]{fullShare} f)) := by
  refine pointsTo_three ?_ ?_ ?_ ?_
  · rw [setOn_comm, setOn_comm, setOn_comm]; exact cover_comm
  · rw [setOn_comm, setOn_comm]; exact Rect.unit_disjoint 0 (Or.inl (Nat.le_refl _))
  · rw [setOn_comm, setOn_comm]; exact Rect.unit_disjoint 0 (Or.inl (by decide))
  · rw [setOn_comm, setOn_comm]; exact Rect.unit_disjoint 0 (Or.inl (Nat.le_refl _))

end Cert.Kernel.AR

end
-- ==== Proof.KLanding.lean ====
/-
  What a transfer's landing holds, element by element, and what a slot reads back as: the index arithmetic of a
  row-group slice of the running sum laid into the same rows of a slot.
-/
import proofs.«900560_g7700000000000561_dist_matmul_of_ar_i_m512_n256_k256_v7x_i8_f32_1_alg».proof.Proof.Gen.Kernel
import proofs.«900560_g7700000000000561_dist_matmul_of_ar_i_m512_n256_k256_v7x_i8_f32_1_alg».proof.Proof.Gen.Kernel.Skeleton
import proofs.«900560_g7700000000000561_dist_matmul_of_ar_i_m512_n256_k256_v7x_i8_f32_1_alg».proof.Proof.Gen.Kernel.Launch
import proofs.«900560_g7700000000000561_dist_matmul_of_ar_i_m512_n256_k256_v7x_i8_f32_1_alg».proof.Proof.Gen.Kernel.Points
import proofs.«900560_g7700000000000561_dist_matmul_of_ar_i_m512_n256_k256_v7x_i8_f32_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import Idealize.ShloMosaic.Lib.ValueLayout
import proofs.«900560_g7700000000000561_dist_matmul_of_ar_i_m512_n256_k256_v7x_i8_f32_1_alg».proof.Proof.KMesh
import proofs.«900560_g7700000000000561_dist_matmul_of_ar_i_m512_n256_k256_v7x_i8_f32_1_alg».proof.Proof.KSched
import proofs.«900560_g7700000000000561_dist_matmul_of_ar_i_m512_n256_k256_v7x_i8_f32_1_alg».proof.Proof.KRegions

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 16384

/-! ## Row groups -/

theorem grp_lo {i : ℕ} (h : i < 176) : grp i = 0 := by unfold grp; rw [if_pos h]
theorem grp_mid {i : ℕ} (h1 : 176 ≤ i) (h2 : i < 352) : grp i = 1 := by
  unfold grp; rw [if_neg (by omega), if_pos h2]
theorem grp_hi {i : ℕ} (h : 352 ≤ i) : grp i = 2 := by
  unfold grp; rw [if_neg (by omega), if_neg (by omega)]

/-! ## Where a row-group slice sits -/

/-- The rows `r0 .. r0+n-1` of the running sum. -/
abbrev srcOf (r0 n : ℕ) (inbS : ∀ a, (![r0, 0] : Fin 2 → ℕ) a + (![n, 256] : Fin 2 → ℕ) a ≤ S512x256.size a) :
    Memref sig .tc .vmem ⟨2, ![n, 256]⟩ .bf16 :=
  accM.slice (Rect.unit (s := S512x256) ![r0, 0] ![n, 256] inbS) (fun _ => rfl)

/-- The rows `r0 .. r0+n-1` of slot `d`, the slot axis dropped. -/
abbrev dstOf (d r0 n : ℕ) (inbD : ∀ a, (![d, r0, 0] : Fin 3 → ℕ) a + (![1, n, 256] : Fin 3 → ℕ) a ≤ S3x512x256.size a)
    (sq : (⟨3, ![1, n, 256]⟩ : Shape).Squeezes ⟨2, ![n, 256]⟩) :
    Memref sig .tc .vmem ⟨2, ![n, 256]⟩ .bf16 :=
  (commM.slice (Rect.unit (s := S3x512x256) ![d, r0, 0] ![1, n, 256] inbD) (fun _ => rfl)).squeeze ⟨2, ![n, 256]⟩ sq

/-- Index `(p, q)` of the slice of the running sum is its element `(r0 + p, q)`. -/
theorem src_emb (r0 n : ℕ) (inbS : ∀ a, (![r0, 0] : Fin 2 → ℕ) a + (![n, 256] : Fin 2 → ℕ) a ≤ S512x256.size a)
    (p : Fin n) (q : Fin 256) :
    (srcOf r0 n inbS).view.emb (ix2 p q)
      = (ix2 (⟨r0 + p.val, by have h : r0 + n ≤ 512 := inbS 0; have := p.isLt; omega⟩ : Fin 512) q : S512x256.Idx) := by
  funext a
  match a with
  | ⟨0, _⟩ => apply Fin.ext; show r0 + 1 * p.val = r0 + p.val; omega
  | ⟨1, _⟩ => apply Fin.ext; show 0 + 1 * q.val = q.val; omega

/-- Index `(p, q)` of the slice of slot `d` is the landing buffer's element `(d, r0 + p, q)`: the dropped axis reads 0
    inside the slice, which starts at `d`. -/
theorem dst_emb (d r0 n : ℕ) (inbD : ∀ a, (![d, r0, 0] : Fin 3 → ℕ) a + (![1, n, 256] : Fin 3 → ℕ) a ≤ S3x512x256.size a)
    (sq : (⟨3, ![1, n, 256]⟩ : Shape).Squeezes ⟨2, ![n, 256]⟩) (p : Fin n) (q : Fin 256) :
    (dstOf d r0 n inbD sq).view.emb (ix2 p q)
      = (ix3 (⟨d, by have h : d + 1 ≤ 3 := inbD 0; omega⟩ : Fin 3)
          (⟨r0 + p.val, by have h : r0 + n ≤ 512 := inbD 1; have := p.isLt; omega⟩ : Fin 512) q : S3x512x256.Idx) := by
  show (Rect.unit (s := S3x512x256) ![d, r0, 0] ![1, n, 256] inbD).emb (Shape.reshapeEquiv sq.numel_eq (ix2 p q)) = _
  rw [reshapeEquiv_ix2_1ab]
  funext a
  match a with
  | ⟨0, _⟩ => apply Fin.ext; show d + 1 * 0 = d; omega
  | ⟨1, _⟩ => apply Fin.ext; show r0 + 1 * p.val = r0 + p.val; omega
  | ⟨2, _⟩ => apply Fin.ext; show 0 + 1 * q.val = q.val; omega

/-! ## What a landing holds -/

/-- Rows `r0 .. r0+n-1` of device `c`'s running sum before stage `d`, landed in the same rows of slot `d` of the
    partner `k` those rows are exchanged with, are that part of the partner's filled slots: at element `(d, r0 + p, q)`
    the partner's slot holds the running sum of ITS partner `k`, which is `c`. -/
theorem landing_core (d r0 n : ℕ) (k : Fin 3)
    (inbS : ∀ a, (![r0, 0] : Fin 2 → ℕ) a + (![n, 256] : Fin 2 → ℕ) a ≤ S512x256.size a)
    (inbD : ∀ a, (![d, r0, 0] : Fin 3 → ℕ) a + (![1, n, 256] : Fin 3 → ℕ) a ≤ S3x512x256.size a)
    (sq : (⟨3, ![1, n, 256]⟩ : Shape).Squeezes ⟨2, ![n, 256]⟩)
    (hk : ∀ p : Fin n, viaN d (grp (r0 + p.val)) = k)
    (c : Dev nD) (fd : Buf (Elt F) ((dstOf d r0 n inbD sq).view.loc (peer c k : Thread nD τ))) :
    (((dstOf d r0 n inbD sq).view.loc (peer c k : Thread nD τ) ↦[(dstOf d r0 n inbD sq).view.set]{fullShare}
        ((dstOf d r0 n inbD sq).view.write (Elt F) fd ((srcOf r0 n inbS).view.read (Elt F) (accV m d c)) Finset.univ) : sProp 𝕄))
      = ((dstOf d r0 n inbD sq).view.loc (peer c k : Thread nD τ) ↦[(dstOf d r0 n inbD sq).view.set]{fullShare} commC m (peer c k)) := by
  refine BI.Region.is_congr ?_
  intro i hi
  obtain ⟨y, rfl⟩ := View.exists_emb_of_mem_set _ hi
  rw [View.write_emb_of_mem _ _ (Finset.mem_univ y)]
  obtain ⟨p, q, rfl⟩ : ∃ p q, y = ix2 p q := ⟨y 0, y 1, eq_ix2 y⟩
  rw [View.read_apply, cast_cast, cast_eq, src_emb, dst_emb]
  show accV m d c _ = accV m d (peer (peer c k) (viaN d (grp (r0 + p.val)))) _
  rw [hk p, peer_peer]

/-- The rows of group 0 of device `c`'s running sum before stage 0, landed in partner 0's slot 0, are that part of the partner's filled slots. -/
theorem landing00 (c : Dev nD) (fd : Buf (Elt F) ((dst00 : Memref sig .tc .vmem S176x256 .bf16).view.loc (peer c 0 : Thread nD τ))) :
    (((dst00 : Memref sig .tc .vmem S176x256 .bf16).view.loc (peer c 0 : Thread nD τ) ↦[(dst00 : Memref sig .tc .vmem S176x256 .bf16).view.set]{fullShare} ((dst00 : Memref sig .tc .vmem S176x256 .bf16).view.write (Elt F) fd ((srcA : Memref sig .tc .vmem S176x256 .bf16).view.read (Elt F) (accV m 0 c)) Finset.univ) : sProp 𝕄))
      = ((dst00 : Memref sig .tc .vmem S176x256 .bf16).view.loc (peer c 0 : Thread nD τ) ↦[(dst00 : Memref sig .tc .vmem S176x256 .bf16).view.set]{fullShare} commC m (peer c 0)) :=
  landing_core m 0 0 176 0 inb_S512x256_S176x256_0_0 inb_S3x512x256_S1x176x256_0_0_0 squeezes_S1x176x256_S176x256
    (fun p => by rw [grp_lo (by have := p.isLt; omega)]; rfl) c fd
/-- The rows of group 1 of device `c`'s running sum before stage 0, landed in partner 1's slot 0, are that part of the partner's filled slots. -/
theorem landing01 (c : Dev nD) (fd : Buf (Elt F) ((dst01 : Memref sig .tc .vmem S176x256 .bf16).view.loc (peer c 1 : Thread nD τ))) :
    (((dst01 : Memref sig .tc .vmem S176x256 .bf16).view.loc (peer c 1 : Thread nD τ) ↦[(dst01 : Memref sig .tc .vmem S176x256 .bf16).view.set]{fullShare} ((dst01 : Memref sig .tc .vmem S176x256 .bf16).view.write (Elt F) fd ((srcB : Memref sig .tc .vmem S176x256 .bf16).view.read (Elt F) (accV m 0 c)) Finset.univ) : sProp 𝕄))
      = ((dst01 : Memref sig .tc .vmem S176x256 .bf16).view.loc (peer c 1 : Thread nD τ) ↦[(dst01 : Memref sig .tc .vmem S176x256 .bf16).view.set]{fullShare} commC m (peer c 1)) :=
  landing_core m 0 176 176 1 inb_S512x256_S176x256_176_0 inb_S3x512x256_S1x176x256_0_176_0 squeezes_S1x176x256_S176x256
    (fun p => by rw [grp_mid (by omega) (by have := p.isLt; omega)]; rfl) c fd
/-- The rows of group 2 of device `c`'s running sum before stage 0, landed in partner 2's slot 0, are that part of the partner's filled slots. -/
theorem landing02 (c : Dev nD) (fd : Buf (Elt F) ((dst02 : Memref sig .tc .vmem S160x256 .bf16).view.loc (peer c 2 : Thread nD τ))) :
    (((dst02 : Memref sig .tc .vmem S160x256 .bf16).view.loc (peer c 2 : Thread nD τ) ↦[(dst02 : Memref sig .tc .vmem S160x256 .bf16).view.set]{fullShare} ((dst02 : Memref sig .tc .vmem S160x256 .bf16).view.write (Elt F) fd ((srcC : Memref sig .tc .vmem S160x256 .bf16).view.read (Elt F) (accV m 0 c)) Finset.univ) : sProp 𝕄))
      = ((dst02 : Memref sig .tc .vmem S160x256 .bf16).view.loc (peer c 2 : Thread nD τ) ↦[(dst02 : Memref sig .tc .vmem S160x256 .bf16).view.set]{fullShare} commC m (peer c 2)) :=
  landing_core m 0 352 160 2 inb_S512x256_S160x256_352_0 inb_S3x512x256_S1x160x256_0_352_0 squeezes_S1x160x256_S160x256
    (fun p => by rw [grp_hi (by omega)]; rfl) c fd
/-- The rows of group 0 of device `c`'s running sum before stage 1, landed in partner 1's slot 1, are that part of the partner's filled slots. -/
theorem landing10 (c : Dev nD) (fd : Buf (Elt F) ((dst10 : Memref sig .tc .vmem S176x256 .bf16).view.loc (peer c 1 : Thread nD τ))) :
    (((dst10 : Memref sig .tc .vmem S176x256 .bf16).view.loc (peer c 1 : Thread nD τ) ↦[(dst10 : Memref sig .tc .vmem S176x256 .bf16).view.set]{fullShare} ((dst10 : Memref sig .tc .vmem S176x256 .bf16).view.write (Elt F) fd ((srcA : Memref sig .tc .vmem S176x256 .bf16).view.read (Elt F) (accV m 1 c)) Finset.univ) : sProp 𝕄))
      = ((dst10 : Memref sig .tc .vmem S176x256 .bf16).view.loc (peer c 1 : Thread nD τ) ↦[(dst10 : Memref sig .tc .vmem S176x256 .bf16).view.set]{fullShare} commC m (peer c 1)) :=
  landing_core m 1 0 176 1 inb_S512x256_S176x256_0_0 inb_S3x512x256_S1x176x256_1_0_0 squeezes_S1x176x256_S176x256
    (fun p => by rw [grp_lo (by have := p.isLt; omega)]; rfl) c fd
/-- The rows of group 1 of device `c`'s running sum before stage 1, landed in partner 2's slot 1, are that part of the partner's filled slots. -/
theorem landing11 (c : Dev nD) (fd : Buf (Elt F) ((dst11 : Memref sig .tc .vmem S176x256 .bf16).view.loc (peer c 2 : Thread nD τ))) :
    (((dst11 : Memref sig .tc .vmem S176x256 .bf16).view.loc (peer c 2 : Thread nD τ) ↦[(dst11 : Memref sig .tc .vmem S176x256 .bf16).view.set]{fullShare} ((dst11 : Memref sig .tc .vmem S176x256 .bf16).view.write (Elt F) fd ((srcB : Memref sig .tc .vmem S176x256 .bf16).view.read (Elt F) (accV m 1 c)) Finset.univ) : sProp 𝕄))
      = ((dst11 : Memref sig .tc .vmem S176x256 .bf16).view.loc (peer c 2 : Thread nD τ) ↦[(dst11 : Memref sig .tc .vmem S176x256 .bf16).view.set]{fullShare} commC m (peer c 2)) :=
  landing_core m 1 176 176 2 inb_S512x256_S176x256_176_0 inb_S3x512x256_S1x176x256_1_176_0 squeezes_S1x176x256_S176x256
    (fun p => by rw [grp_mid (by omega) (by have := p.isLt; omega)]; rfl) c fd
/-- The rows of group 2 of device `c`'s running sum before stage 1, landed in partner 0's slot 1, are that part of the partner's filled slots. -/
theorem landing12 (c : Dev nD) (fd : Buf (Elt F) ((dst12 : Memref sig .tc .vmem S160x256 .bf16).view.loc (peer c 0 : Thread nD τ))) :
    (((dst12 : Memref sig .tc .vmem S160x256 .bf16).view.loc (peer c 0 : Thread nD τ) ↦[(dst12 : Memref sig .tc .vmem S160x256 .bf16).view.set]{fullShare} ((dst12 : Memref sig .tc .vmem S160x256 .bf16).view.write (Elt F) fd ((srcC : Memref sig .tc .vmem S160x256 .bf16).view.read (Elt F) (accV m 1 c)) Finset.univ) : sProp 𝕄))
      = ((dst12 : Memref sig .tc .vmem S160x256 .bf16).view.loc (peer c 0 : Thread nD τ) ↦[(dst12 : Memref sig .tc .vmem S160x256 .bf16).view.set]{fullShare} commC m (peer c 0)) :=
  landing_core m 1 352 160 0 inb_S512x256_S160x256_352_0 inb_S3x512x256_S1x160x256_1_352_0 squeezes_S1x160x256_S160x256
    (fun p => by rw [grp_hi (by omega)]; rfl) c fd
/-- The rows of group 0 of device `c`'s running sum before stage 2, landed in partner 2's slot 2, are that part of the partner's filled slots. -/
theorem landing20 (c : Dev nD) (fd : Buf (Elt F) ((dst20 : Memref sig .tc .vmem S176x256 .bf16).view.loc (peer c 2 : Thread nD τ))) :
    (((dst20 : Memref sig .tc .vmem S176x256 .bf16).view.loc (peer c 2 : Thread nD τ) ↦[(dst20 : Memref sig .tc .vmem S176x256 .bf16).view.set]{fullShare} ((dst20 : Memref sig .tc .vmem S176x256 .bf16).view.write (Elt F) fd ((srcA : Memref sig .tc .vmem S176x256 .bf16).view.read (Elt F) (accV m 2 c)) Finset.univ) : sProp 𝕄))
      = ((dst20 : Memref sig .tc .vmem S176x256 .bf16).view.loc (peer c 2 : Thread nD τ) ↦[(dst20 : Memref sig .tc .vmem S176x256 .bf16).view.set]{fullShare} commC m (peer c 2)) :=
  landing_core m 2 0 176 2 inb_S512x256_S176x256_0_0 inb_S3x512x256_S1x176x256_2_0_0 squeezes_S1x176x256_S176x256
    (fun p => by rw [grp_lo (by have := p.isLt; omega)]; rfl) c fd
/-- The rows of group 1 of device `c`'s running sum before stage 2, landed in partner 0's slot 2, are that part of the partner's filled slots. -/
theorem landing21 (c : Dev nD) (fd : Buf (Elt F) ((dst21 : Memref sig .tc .vmem S176x256 .bf16).view.loc (peer c 0 : Thread nD τ))) :
    (((dst21 : Memref sig .tc .vmem S176x256 .bf16).view.loc (peer c 0 : Thread nD τ) ↦[(dst21 : Memref sig .tc .vmem S176x256 .bf16).view.set]{fullShare} ((dst21 : Memref sig .tc .vmem S176x256 .bf16).view.write (Elt F) fd ((srcB : Memref sig .tc .vmem S176x256 .bf16).view.read (Elt F) (accV m 2 c)) Finset.univ) : sProp 𝕄))
      = ((dst21 : Memref sig .tc .vmem S176x256 .bf16).view.loc (peer c 0 : Thread nD τ) ↦[(dst21 : Memref sig .tc .vmem S176x256 .bf16).view.set]{fullShare} commC m (peer c 0)) :=
  landing_core m 2 176 176 0 inb_S512x256_S176x256_176_0 inb_S3x512x256_S1x176x256_2_176_0 squeezes_S1x176x256_S176x256
    (fun p => by rw [grp_mid (by omega) (by have := p.isLt; omega)]; rfl) c fd
/-- The rows of group 2 of device `c`'s running sum before stage 2, landed in partner 1's slot 2, are that part of the partner's filled slots. -/
theorem landing22 (c : Dev nD) (fd : Buf (Elt F) ((dst22 : Memref sig .tc .vmem S160x256 .bf16).view.loc (peer c 1 : Thread nD τ))) :
    (((dst22 : Memref sig .tc .vmem S160x256 .bf16).view.loc (peer c 1 : Thread nD τ) ↦[(dst22 : Memref sig .tc .vmem S160x256 .bf16).view.set]{fullShare} ((dst22 : Memref sig .tc .vmem S160x256 .bf16).view.write (Elt F) fd ((srcC : Memref sig .tc .vmem S160x256 .bf16).view.read (Elt F) (accV m 2 c)) Finset.univ) : sProp 𝕄))
      = ((dst22 : Memref sig .tc .vmem S160x256 .bf16).view.loc (peer c 1 : Thread nD τ) ↦[(dst22 : Memref sig .tc .vmem S160x256 .bf16).view.set]{fullShare} commC m (peer c 1)) :=
  landing_core m 2 352 160 1 inb_S512x256_S160x256_352_0 inb_S3x512x256_S1x160x256_2_352_0 squeezes_S1x160x256_S160x256
    (fun p => by rw [grp_hi (by omega)]; rfl) c fd

/-! ## Reading a slot back -/

/-- Slot `d`, loaded whole through the unit rectangle at `(d, 0, 0)` and seen as 512 x 256, is `slotV d`. -/
theorem read_slot_core (d : ℕ) (inb : ∀ a, (![d, 0, 0] : Fin 3 → ℕ) a + S1x512x256.size a ≤ S3x512x256.size a) (c : Dev nD) :
    shapeCast S512x256 ((commM : Memref sig .tc .vmem S3x512x256 .bf16).view.readAt (Elt F)
        (Rect.unit (s := S3x512x256) ![d, 0, 0] S1x512x256.size inb).toLoadRect (commC m c)) shapeCasts_S1x512x256_S512x256
      = slotV m d c := by
  funext ij
  obtain ⟨i, j, rfl⟩ : ∃ i j, ij = ix2 i j := ⟨ij 0, ij 1, eq_ix2 ij⟩
  refine (shapeCast_1ab_ab_apply _ _ i j).trans ?_
  rw [View.readAt_apply, View.read_apply, cast_eq]
  have hd : d < 3 := by have h : d + 1 ≤ 3 := inb 0; omega
  have e : (commM : Memref sig .tc .vmem S3x512x256 .bf16).view.emb
        ((Rect.unit (s := S3x512x256) ![d, 0, 0] S1x512x256.size inb).toLoadRect.idx (ix3 (0 : Fin 1) i j))
      = (ix3 (⟨d, hd⟩ : Fin 3) i j : S3x512x256.Idx) := by
    funext a
    match a with
    | ⟨0, _⟩ => apply Fin.ext; show d + 1 * 0 = d; omega
    | ⟨1, _⟩ => apply Fin.ext; show 0 + 1 * i.val = i.val; omega
    | ⟨2, _⟩ => apply Fin.ext; show 0 + 1 * j.val = j.val; omega
  rw [e]
  rfl

/-- Slot 0, loaded whole and seen as 512 x 256, is `slotV 0`. -/
theorem read_slot0 (c : Dev nD) :
    shapeCast S512x256 ((commM : Memref sig .tc .vmem S3x512x256 .bf16).view.readAt (Elt F) slotR0.toLoadRect (commC m c)) shapeCasts_S1x512x256_S512x256 = slotV m 0 c :=
  read_slot_core m 0 inb_S3x512x256_S1x512x256_0_0_0 c
/-- Slot 1, loaded whole and seen as 512 x 256, is `slotV 1`. -/
theorem read_slot1 (c : Dev nD) :
    shapeCast S512x256 ((commM : Memref sig .tc .vmem S3x512x256 .bf16).view.readAt (Elt F) slotR1.toLoadRect (commC m c)) shapeCasts_S1x512x256_S512x256 = slotV m 1 c :=
  read_slot_core m 1 inb_S3x512x256_S1x512x256_1_0_0 c
/-- Slot 2, loaded whole and seen as 512 x 256, is `slotV 2`. -/
theorem read_slot2 (c : Dev nD) :
    shapeCast S512x256 ((commM : Memref sig .tc .vmem S3x512x256 .bf16).view.readAt (Elt F) slotR2.toLoadRect (commC m c)) shapeCasts_S1x512x256_S512x256 = slotV m 2 c :=
  read_slot_core m 2 inb_S3x512x256_S1x512x256_2_0_0 c

/-! ## Axioms -/

/-- info: 'Cert.Kernel.AR.landing00' depends on axioms: [propext, Classical.choice, Quot.sound] -/
#guard_msgs in #print axioms landing00

/-- info: 'Cert.Kernel.AR.landing01' depends on axioms: [propext, Classical.choice, Quot.sound] -/
#guard_msgs in #print axioms landing01

/-- info: 'Cert.Kernel.AR.landing02' depends on axioms: [propext, Classical.choice, Quot.sound] -/
#guard_msgs in #print axioms landing02

/-- info: 'Cert.Kernel.AR.landing10' depends on axioms: [propext, Classical.choice, Quot.sound] -/
#guard_msgs in #print axioms landing10

/-- info: 'Cert.Kernel.AR.landing11' depends on axioms: [propext, Classical.choice, Quot.sound] -/
#guard_msgs in #print axioms landing11

/-- info: 'Cert.Kernel.AR.landing12' depends on axioms: [propext, Classical.choice, Quot.sound] -/
#guard_msgs in #print axioms landing12

/-- info: 'Cert.Kernel.AR.landing20' depends on axioms: [propext, Classical.choice, Quot.sound] -/
#guard_msgs in #print axioms landing20

/-- info: 'Cert.Kernel.AR.landing21' depends on axioms: [propext, Classical.choice, Quot.sound] -/
#guard_msgs in #print axioms landing21

/-- info: 'Cert.Kernel.AR.landing22' depends on axioms: [propext, Classical.choice, Quot.sound] -/
#guard_msgs in #print axioms landing22

/-- info: 'Cert.Kernel.AR.read_slot0' depends on axioms: [propext, Classical.choice, Quot.sound] -/
#guard_msgs in #print axioms read_slot0

/-- info: 'Cert.Kernel.AR.read_slot1' depends on axioms: [propext, Classical.choice, Quot.sound] -/
#guard_msgs in #print axioms read_slot1

/-- info: 'Cert.Kernel.AR.read_slot2' depends on axioms: [propext, Classical.choice, Quot.sound] -/
#guard_msgs in #print axioms read_slot2

end Cert.Kernel.AR

end
-- ==== Proof.KSteps.lean ====
/-
  The rules of the rounds discipline at this protocol's cells: each remote step of a device's body as one
  entailment, with the schedule's side conditions discharged once.
-/
import proofs.«900560_g7700000000000561_dist_matmul_of_ar_i_m512_n256_k256_v7x_i8_f32_1_alg».proof.Proof.Gen.Kernel
import proofs.«900560_g7700000000000561_dist_matmul_of_ar_i_m512_n256_k256_v7x_i8_f32_1_alg».proof.Proof.Gen.Kernel.Skeleton
import proofs.«900560_g7700000000000561_dist_matmul_of_ar_i_m512_n256_k256_v7x_i8_f32_1_alg».proof.Proof.Gen.Kernel.Launch
import proofs.«900560_g7700000000000561_dist_matmul_of_ar_i_m512_n256_k256_v7x_i8_f32_1_alg».proof.Proof.Gen.Kernel.Points
import proofs.«900560_g7700000000000561_dist_matmul_of_ar_i_m512_n256_k256_v7x_i8_f32_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import proofs.«900560_g7700000000000561_dist_matmul_of_ar_i_m512_n256_k256_v7x_i8_f32_1_alg».proof.Proof.KMesh
import proofs.«900560_g7700000000000561_dist_matmul_of_ar_i_m512_n256_k256_v7x_i8_f32_1_alg».proof.Proof.KSched
import proofs.«900560_g7700000000000561_dist_matmul_of_ar_i_m512_n256_k256_v7x_i8_f32_1_alg».proof.Proof.KProto
import proofs.«900560_g7700000000000561_dist_matmul_of_ar_i_m512_n256_k256_v7x_i8_f32_1_alg».proof.Proof.KTables
import proofs.«900560_g7700000000000561_dist_matmul_of_ar_i_m512_n256_k256_v7x_i8_f32_1_alg».proof.Proof.KGhost
import proofs.«900560_g7700000000000561_dist_matmul_of_ar_i_m512_n256_k256_v7x_i8_f32_1_alg».proof.Proof.KRegions
import proofs.«900560_g7700000000000561_dist_matmul_of_ar_i_m512_n256_k256_v7x_i8_f32_1_alg».proof.Proof.KLanding

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

section Steps
variable (K : Dev nD × Fin 19 → ℕ) (c : Dev nD)
variable {α : Type} {Q : α → sProp (MT nD τ sig Unit (Elt F) ℕ UU ℕ)}

omit [FloatOps F] in
/-- What partner `k`'s barrier duty `k` hands over, read on this device: the partner's partner `k` is this device. -/
theorem barPay_peer0 : barPay (F := F) (peer c 0) 0
    = iprop((∃ f, (dst00 : Memref sig .tc .vmem S176x256 .bf16).view.loc (c : Thread nD τ) ↦[(dst00 : Memref sig .tc .vmem S176x256 .bf16).view.set]{fullShare} f)
      ∗ (∃ f, (dst12 : Memref sig .tc .vmem S160x256 .bf16).view.loc (c : Thread nD τ) ↦[(dst12 : Memref sig .tc .vmem S160x256 .bf16).view.set]{fullShare} f)
      ∗ (∃ f, (dst21 : Memref sig .tc .vmem S176x256 .bf16).view.loc (c : Thread nD τ) ↦[(dst21 : Memref sig .tc .vmem S176x256 .bf16).view.set]{fullShare} f)) := by
  unfold barPay; dsimp only; rw [peer_peer]

omit [FloatOps F] in
/-- What partner `k`'s barrier duty `k` hands over, read on this device: the partner's partner `k` is this device. -/
theorem barPay_peer1 : barPay (F := F) (peer c 1) 1
    = iprop((∃ f, (dst01 : Memref sig .tc .vmem S176x256 .bf16).view.loc (c : Thread nD τ) ↦[(dst01 : Memref sig .tc .vmem S176x256 .bf16).view.set]{fullShare} f)
      ∗ (∃ f, (dst10 : Memref sig .tc .vmem S176x256 .bf16).view.loc (c : Thread nD τ) ↦[(dst10 : Memref sig .tc .vmem S176x256 .bf16).view.set]{fullShare} f)
      ∗ (∃ f, (dst22 : Memref sig .tc .vmem S160x256 .bf16).view.loc (c : Thread nD τ) ↦[(dst22 : Memref sig .tc .vmem S160x256 .bf16).view.set]{fullShare} f)) := by
  unfold barPay; dsimp only; rw [peer_peer]

omit [FloatOps F] in
/-- What partner `k`'s barrier duty `k` hands over, read on this device: the partner's partner `k` is this device. -/
theorem barPay_peer2 : barPay (F := F) (peer c 2) 2
    = iprop((∃ f, (dst02 : Memref sig .tc .vmem S160x256 .bf16).view.loc (c : Thread nD τ) ↦[(dst02 : Memref sig .tc .vmem S160x256 .bf16).view.set]{fullShare} f)
      ∗ (∃ f, (dst11 : Memref sig .tc .vmem S176x256 .bf16).view.loc (c : Thread nD τ) ↦[(dst11 : Memref sig .tc .vmem S176x256 .bf16).view.set]{fullShare} f)
      ∗ (∃ f, (dst20 : Memref sig .tc .vmem S176x256 .bf16).view.loc (c : Thread nD τ) ↦[(dst20 : Memref sig .tc .vmem S176x256 .bf16).view.set]{fullShare} f)) := by
  unfold barPay; dsimp only; rw [peer_peer]

/-- The whole of the barrier cell's round: the three partners' landing regions, partner by partner. -/
theorem rest_bar : bigSep ((arRd (F := F) m).duties (barCell c) 0 \ ∅) (fun d => (arRd (F := F) m).payload (barCell c) 0 d)
    = iprop(((∃ f, (dst00 : Memref sig .tc .vmem S176x256 .bf16).view.loc (peer c 0 : Thread nD τ) ↦[(dst00 : Memref sig .tc .vmem S176x256 .bf16).view.set]{fullShare} f) ∗ (∃ f, (dst12 : Memref sig .tc .vmem S160x256 .bf16).view.loc (peer c 0 : Thread nD τ) ↦[(dst12 : Memref sig .tc .vmem S160x256 .bf16).view.set]{fullShare} f) ∗ (∃ f, (dst21 : Memref sig .tc .vmem S176x256 .bf16).view.loc (peer c 0 : Thread nD τ) ↦[(dst21 : Memref sig .tc .vmem S176x256 .bf16).view.set]{fullShare} f))
      ∗ ((∃ f, (dst01 : Memref sig .tc .vmem S176x256 .bf16).view.loc (peer c 1 : Thread nD τ) ↦[(dst01 : Memref sig .tc .vmem S176x256 .bf16).view.set]{fullShare} f) ∗ (∃ f, (dst10 : Memref sig .tc .vmem S176x256 .bf16).view.loc (peer c 1 : Thread nD τ) ↦[(dst10 : Memref sig .tc .vmem S176x256 .bf16).view.set]{fullShare} f) ∗ (∃ f, (dst22 : Memref sig .tc .vmem S160x256 .bf16).view.loc (peer c 1 : Thread nD τ) ↦[(dst22 : Memref sig .tc .vmem S160x256 .bf16).view.set]{fullShare} f))
      ∗ ((∃ f, (dst02 : Memref sig .tc .vmem S160x256 .bf16).view.loc (peer c 2 : Thread nD τ) ↦[(dst02 : Memref sig .tc .vmem S160x256 .bf16).view.set]{fullShare} f) ∗ (∃ f, (dst11 : Memref sig .tc .vmem S176x256 .bf16).view.loc (peer c 2 : Thread nD τ) ↦[(dst11 : Memref sig .tc .vmem S176x256 .bf16).view.set]{fullShare} f) ∗ (∃ f, (dst20 : Memref sig .tc .vmem S176x256 .bf16).view.loc (peer c 2 : Thread nD τ) ↦[(dst20 : Memref sig .tc .vmem S176x256 .bf16).view.set]{fullShare} f))) := by
  rw [Finset.sdiff_empty, duties_bar, bigSep_univ_eq_bigSepL [0, 1, 2] (by decide) (by decide), bigSepL_cons_cons, bigSepL_cons_cons, bigSepL_singleton,
    payload_bar, payload_bar, payload_bar]
  rfl
/-- A send cell's round has the one duty: the whole of the round is that duty's payload. -/
theorem rest_send (d g : Fin 3) : bigSep ((arRd (F := F) m).duties (sendCell c d g) 0 \ ∅) (fun k => (arRd (F := F) m).payload (sendCell c d g) 0 k)
    = (arRd (F := F) m).payload (sendCell c d g) 0 0 := by
  rw [Finset.sdiff_empty, duties_send, bigSep_singleton]
/-- A receive cell's round has the one duty: the whole of the round is that duty's payload. -/
theorem rest_recv (d g : Fin 3) : bigSep ((arRd (F := F) m).duties (recvCell c d g) 0 \ ∅) (fun k => (arRd (F := F) m).payload (recvCell c d g) 0 k)
    = (arRd (F := F) m).payload (recvCell c d g) 0 0 := by
  rw [Finset.sdiff_empty, duties_recv, bigSep_singleton]

/-- The signal to partner 0's barrier cell: it pays duty 0 there and hands over this device's three landing regions that partner fills. -/
theorem step_signal0 (O : CellTallies nD τ sig Unit) (W : Waits sig Unit)
    (f0 : Buf (Elt F) ((dst00 : Memref sig .tc .vmem S176x256 .bf16).view.loc (c : Thread nD τ))) (f1 : Buf (Elt F) ((dst12 : Memref sig .tc .vmem S160x256 .bf16).view.loc (c : Thread nD τ))) (f2 : Buf (Elt F) ((dst21 : Memref sig .tc .vmem S176x256 .bf16).view.loc (c : Thread nD τ)))
    {kont : PUnit → Prog (TpuEff nD τ sig (Elt F) Λ₀ .tc) α} :
    iprop(cellInv ER (arRd m) (K (peer c 0, iBar)) (barCell (peer c 0))
        ∗ reached ER (barCell (peer c 0)) 0
        ∗ dutyTok ER (barCell (peer c 0)) 0 (0 : Fin 3)
        ∗ owes (c : Thread nD τ) (O + tallyAt (barCell (peer c 0)) () 1) W
        ∗ ((dst00 : Memref sig .tc .vmem S176x256 .bf16).view.loc (c : Thread nD τ) ↦[(dst00 : Memref sig .tc .vmem S176x256 .bf16).view.set]{fullShare} f0)
        ∗ ((dst12 : Memref sig .tc .vmem S160x256 .bf16).view.loc (c : Thread nD τ) ↦[(dst12 : Memref sig .tc .vmem S160x256 .bf16).view.set]{fullShare} f1)
        ∗ ((dst21 : Memref sig .tc .vmem S176x256 .bf16).view.loc (c : Thread nD τ) ↦[(dst21 : Memref sig .tc .vmem S176x256 .bf16).view.set]{fullShare} f2))
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (peer c 0 : Thread nD τ) barS (1#32).toNat) kont) Q) := by
  iintro ⟨HI, Hr, Ht, HO, H0, H1, H2⟩ Hk
  iapply (Rounds.wp_signal 𝒱₀ ER (arRd m) (c : Thread nD τ) none (dst := (peer c 0 : Thread nD τ)) (κ := K (peer c 0, iBar))
      (d := 0) (by rw [duties_bar]; exact Finset.mem_univ _) ((amount_bar m (peer c 0) 0).trans (by decide)) () O rfl)
    $$ [HI Hr Ht HO H0 H1 H2]
  · isplitl [HI]; · iexact HI
    isplitl [HO]; · iexact HO
    isplitl [Ht]; · iexact Ht
    isplitl [H0 H1 H2]
    · rw [payload_bar, barPay_peer0]
      isplitl [H0]; · iexists f0; iexact H0
      isplitl [H1]; · iexists f1; iexact H1
      iexists f2; iexact H2
    · iexact Hr
  iexact Hk

/-- The signal to partner 1's barrier cell: it pays duty 1 there and hands over this device's three landing regions that partner fills. -/
theorem step_signal1 (O : CellTallies nD τ sig Unit) (W : Waits sig Unit)
    (f0 : Buf (Elt F) ((dst01 : Memref sig .tc .vmem S176x256 .bf16).view.loc (c : Thread nD τ))) (f1 : Buf (Elt F) ((dst10 : Memref sig .tc .vmem S176x256 .bf16).view.loc (c : Thread nD τ))) (f2 : Buf (Elt F) ((dst22 : Memref sig .tc .vmem S160x256 .bf16).view.loc (c : Thread nD τ)))
    {kont : PUnit → Prog (TpuEff nD τ sig (Elt F) Λ₀ .tc) α} :
    iprop(cellInv ER (arRd m) (K (peer c 1, iBar)) (barCell (peer c 1))
        ∗ reached ER (barCell (peer c 1)) 0
        ∗ dutyTok ER (barCell (peer c 1)) 0 (1 : Fin 3)
        ∗ owes (c : Thread nD τ) (O + tallyAt (barCell (peer c 1)) () 1) W
        ∗ ((dst01 : Memref sig .tc .vmem S176x256 .bf16).view.loc (c : Thread nD τ) ↦[(dst01 : Memref sig .tc .vmem S176x256 .bf16).view.set]{fullShare} f0)
        ∗ ((dst10 : Memref sig .tc .vmem S176x256 .bf16).view.loc (c : Thread nD τ) ↦[(dst10 : Memref sig .tc .vmem S176x256 .bf16).view.set]{fullShare} f1)
        ∗ ((dst22 : Memref sig .tc .vmem S160x256 .bf16).view.loc (c : Thread nD τ) ↦[(dst22 : Memref sig .tc .vmem S160x256 .bf16).view.set]{fullShare} f2))
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (peer c 1 : Thread nD τ) barS (1#32).toNat) kont) Q) := by
  iintro ⟨HI, Hr, Ht, HO, H0, H1, H2⟩ Hk
  iapply (Rounds.wp_signal 𝒱₀ ER (arRd m) (c : Thread nD τ) none (dst := (peer c 1 : Thread nD τ)) (κ := K (peer c 1, iBar))
      (d := 1) (by rw [duties_bar]; exact Finset.mem_univ _) ((amount_bar m (peer c 1) 1).trans (by decide)) () O rfl)
    $$ [HI Hr Ht HO H0 H1 H2]
  · isplitl [HI]; · iexact HI
    isplitl [HO]; · iexact HO
    isplitl [Ht]; · iexact Ht
    isplitl [H0 H1 H2]
    · rw [payload_bar, barPay_peer1]
      isplitl [H0]; · iexists f0; iexact H0
      isplitl [H1]; · iexists f1; iexact H1
      iexists f2; iexact H2
    · iexact Hr
  iexact Hk

/-- The signal to partner 2's barrier cell: it pays duty 2 there and hands over this device's three landing regions that partner fills. -/
theorem step_signal2 (O : CellTallies nD τ sig Unit) (W : Waits sig Unit)
    (f0 : Buf (Elt F) ((dst02 : Memref sig .tc .vmem S160x256 .bf16).view.loc (c : Thread nD τ))) (f1 : Buf (Elt F) ((dst11 : Memref sig .tc .vmem S176x256 .bf16).view.loc (c : Thread nD τ))) (f2 : Buf (Elt F) ((dst20 : Memref sig .tc .vmem S176x256 .bf16).view.loc (c : Thread nD τ)))
    {kont : PUnit → Prog (TpuEff nD τ sig (Elt F) Λ₀ .tc) α} :
    iprop(cellInv ER (arRd m) (K (peer c 2, iBar)) (barCell (peer c 2))
        ∗ reached ER (barCell (peer c 2)) 0
        ∗ dutyTok ER (barCell (peer c 2)) 0 (2 : Fin 3)
        ∗ owes (c : Thread nD τ) (O + tallyAt (barCell (peer c 2)) () 1) W
        ∗ ((dst02 : Memref sig .tc .vmem S160x256 .bf16).view.loc (c : Thread nD τ) ↦[(dst02 : Memref sig .tc .vmem S160x256 .bf16).view.set]{fullShare} f0)
        ∗ ((dst11 : Memref sig .tc .vmem S176x256 .bf16).view.loc (c : Thread nD τ) ↦[(dst11 : Memref sig .tc .vmem S176x256 .bf16).view.set]{fullShare} f1)
        ∗ ((dst20 : Memref sig .tc .vmem S176x256 .bf16).view.loc (c : Thread nD τ) ↦[(dst20 : Memref sig .tc .vmem S176x256 .bf16).view.set]{fullShare} f2))
      ⊢ iprop((owes (c : Thread nD τ) O W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (peer c 2 : Thread nD τ) barS (1#32).toNat) kont) Q) := by
  iintro ⟨HI, Hr, Ht, HO, H0, H1, H2⟩ Hk
  iapply (Rounds.wp_signal 𝒱₀ ER (arRd m) (c : Thread nD τ) none (dst := (peer c 2 : Thread nD τ)) (κ := K (peer c 2, iBar))
      (d := 2) (by rw [duties_bar]; exact Finset.mem_univ _) ((amount_bar m (peer c 2) 2).trans (by decide)) () O rfl)
    $$ [HI Hr Ht HO H0 H1 H2]
  · isplitl [HI]; · iexact HI
    isplitl [HO]; · iexact HO
    isplitl [Ht]; · iexact Ht
    isplitl [H0 H1 H2]
    · rw [payload_bar, barPay_peer2]
      isplitl [H0]; · iexists f0; iexact H0
      isplitl [H1]; · iexists f1; iexact H1
      iexists f2; iexact H2
    · iexact Hr
  iexact Hk

/-- The wait for three units on the device's own barrier cell: every partner is inside the kernel, and each has
    handed over the three landing regions of its slots that this device fills. -/
theorem step_wait_bar (O : CellTallies nD τ sig Unit) (W : Waits sig Unit)
    (hmw : (levAts L lv : sProp 𝕄) ⊢ MayWait (c : Thread nD τ) (.reg barS) () O)
    {kont : PUnit → Prog (TpuEff nD τ sig (Elt F) Λ₀ .tc) α} :
    iprop(cellInv ER (arRd m) (K (c, iBar)) (barCell c) ∗ levAts L lv ∗ cred (tallyAt (barCell c) () 3)
        ∗ owes (c : Thread nD τ) O W ∗ atPos ER (barCell c) 0 ∅ 0)
      ⊢ iprop(((owes (c : Thread nD τ) O (insert (SemLoc.reg barS, ()) W) ∗ atPos ER (barCell c) 1 ∅ 0
            ∗ (∃ f, (dst00 : Memref sig .tc .vmem S176x256 .bf16).view.loc (peer c 0 : Thread nD τ) ↦[(dst00 : Memref sig .tc .vmem S176x256 .bf16).view.set]{fullShare} f)
            ∗ (∃ f, (dst12 : Memref sig .tc .vmem S160x256 .bf16).view.loc (peer c 0 : Thread nD τ) ↦[(dst12 : Memref sig .tc .vmem S160x256 .bf16).view.set]{fullShare} f)
            ∗ (∃ f, (dst21 : Memref sig .tc .vmem S176x256 .bf16).view.loc (peer c 0 : Thread nD τ) ↦[(dst21 : Memref sig .tc .vmem S176x256 .bf16).view.set]{fullShare} f)
            ∗ (∃ f, (dst01 : Memref sig .tc .vmem S176x256 .bf16).view.loc (peer c 1 : Thread nD τ) ↦[(dst01 : Memref sig .tc .vmem S176x256 .bf16).view.set]{fullShare} f)
            ∗ (∃ f, (dst10 : Memref sig .tc .vmem S176x256 .bf16).view.loc (peer c 1 : Thread nD τ) ↦[(dst10 : Memref sig .tc .vmem S176x256 .bf16).view.set]{fullShare} f)
            ∗ (∃ f, (dst22 : Memref sig .tc .vmem S160x256 .bf16).view.loc (peer c 1 : Thread nD τ) ↦[(dst22 : Memref sig .tc .vmem S160x256 .bf16).view.set]{fullShare} f)
            ∗ (∃ f, (dst02 : Memref sig .tc .vmem S160x256 .bf16).view.loc (peer c 2 : Thread nD τ) ↦[(dst02 : Memref sig .tc .vmem S160x256 .bf16).view.set]{fullShare} f)
            ∗ (∃ f, (dst11 : Memref sig .tc .vmem S176x256 .bf16).view.loc (peer c 2 : Thread nD τ) ↦[(dst11 : Memref sig .tc .vmem S176x256 .bf16).view.set]{fullShare} f)
            ∗ (∃ f, (dst20 : Memref sig .tc .vmem S176x256 .bf16).view.loc (peer c 2 : Thread nD τ) ↦[(dst20 : Memref sig .tc .vmem S176x256 .bf16).view.set]{fullShare} f))
          -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS (3#32).toNat) kont) Q) := by
  iintro ⟨HI, Hlev, Hc, HO, Hat⟩ Hk
  iapply (Rounds.wp_wait_rest_token 𝒱₀ ER (arRd m) (c : Thread nD τ) none (κ := K (c, iBar))
      (wpE_semWait_eq 𝒱₀ (c : Thread nD τ) none Set.univ) (Set.mem_univ _) () (O := O) (W := W) (R := 0) (m := 0) (T := ∅)
      (by rw [expect_bar]; decide)) $$ [HI Hlev Hc HO Hat]
  · isplitl [HI]; · iexact HI
    isplitl [Hc]; · iexact Hc
    isplitl [HO]; · iexact HO
    isplitl [Hlev]; · iapply hmw; iexact Hlev
    iexact Hat
  iintro ⟨HO, Hat, -, Hpay⟩
  ihave Hp := (Entails.of_eq (rest_bar m c)) $$ Hpay
  icases Hp with ⟨⟨A0, A1, A2⟩, ⟨B0, B1, B2⟩, C0, C1, C2⟩
  iapply Hk
  isplitl [HO]; · iexact HO
  isplitl [Hat]; · iexact Hat
  isplitl [A0]; · iexact A0
  isplitl [A1]; · iexact A1
  isplitl [A2]; · iexact A2
  isplitl [B0]; · iexact B0
  isplitl [B1]; · iexact B1
  isplitl [B2]; · iexact B2
  isplitl [C0]; · iexact C0
  isplitl [C1]; · iexact C1
  iexact C2

/-- A transfer of row group `g` at stage `d` to partner `k`: it pays the device's own send duty and the partner's
    receive duty, with the landing stated as that part of the partner's filled slots. -/
theorem step_send {s : Shape} (src dst : Memref sig .tc .vmem s .bf16) (d g k : Fin 3) (n : Dev nD) (hn : n = peer c k)
    (fs : Buf (Elt F) (src.view.loc (c : Thread nD τ)))
    (hN : dst.view.dmaCredit = creditOf g)
    (hps : ((src.view.loc (c : Thread nD τ) ↦[src.view.set]{fullShare} fs : sProp 𝕄)) ⊢ (arRd m).payload (sendCell c d g) 0 0)
    (hpr : ∀ fd : Buf (Elt F) (dst.view.loc (peer c k : Thread nD τ)),
      ((dst.view.loc (peer c k : Thread nD τ) ↦[dst.view.set]{fullShare} (dst.view.write (Elt F) fd (src.view.read (Elt F) fs) Finset.univ) : sProp 𝕄))
        ⊢ (arRd m).payload (recvCell (peer c k) d g) 0 0)
    {hsc : (dst : Memref sig (Dev.tc n : Thread nD τ).2.kind .vmem s .bf16).view.ref.isScScratch = false}
    {hsrc : src.view.WordExact} {hdst : dst.view.WordExact}
    {hsem : DmaTarget.Typed .vmem (.dma (recvQ d g)) (.remote (Dev.tc n : Thread nD τ) (dst : Memref sig .tc .vmem s .bf16) (.dma (sendQ d g)) hsc)}
    (O : CellTallies nD τ sig Unit) (W : Waits sig Unit) (fd : Buf (Elt F) (dst.view.loc (peer c k : Thread nD τ)))
    {kont : PUnit → Prog (TpuEff nD τ sig (Elt F) Λ₀ .tc) α} :
    iprop(cellInv ER (arRd m) (K (c, iSend d g)) (sendCell c d g) ∗ cellInv ER (arRd m) (K (peer c k, iRecv d g)) (recvCell (peer c k) d g)
        ∗ reached ER (sendCell c d g) 0 ∗ reached ER (recvCell (peer c k) d g) 0
        ∗ dutyTok ER (sendCell c d g) 0 (0 : Fin 3) ∗ dutyTok ER (recvCell (peer c k) d g) 0 (0 : Fin 3)
        ∗ owes (c : Thread nD τ) (O + tallyAt (recvCell (peer c k) d g) () (creditOf g)) W
        ∗ (src.view.loc (c : Thread nD τ) ↦[src.view.set]{fullShare} fs)
        ∗ (dst.view.loc (peer c k : Thread nD τ) ↦[dst.view.set]{fullShare} fd))
      ⊢ iprop(((cred (tallyAt (sendCell c d g) () (creditOf g)) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ (.op (.enqueueDma src (.remote (Dev.tc n : Thread nD τ) dst (.dma (sendQ d g)) hsc) (.dma (recvQ d g)) hsrc hdst hsem) kont) Q) := by
  subst hn
  iintro ⟨HIs, HIr, Hrs, Hrr, Hts, Htr, HO, Hsrc, Hdst⟩ Hk
  iapply (Rounds.wp_send_pointsTo 𝒱₀ ER (arRd m) (c : Thread nD τ) none (c' := (peer c k : Thread nD τ)) (src := src) (dst := dst)
      (sS := .dma (sendQ d g)) (sem := .dma (recvQ d g)) (κ₁ := K (c, iSend d g)) (κ₂ := K (peer c k, iRecv d g))
      (r₁ := 0) (r₂ := 0) (d₁ := 0) (d₂ := 0) (fs := fs) (fd := fd)
      (by rw [duties_send]; exact Finset.mem_singleton_self _) (by rw [duties_recv]; exact Finset.mem_singleton_self _)
      () () (creditOf g) ((View.amount_dma dst.view (recvQ d g)).trans hN) (amount_send m c d g 0) (amount_recv m (peer c k) d g 0) O rfl (W := W) hps (hpr fd))
    $$ [HIs HIr Hrs Hrr Hts Htr HO Hsrc Hdst]
  · isplitl [HIs]; · iexact HIs
    isplitl [HIr]; · iexact HIr
    isplitl [Hsrc]; · iexact Hsrc
    isplitl [Hdst]; · iexact Hdst
    isplitl [HO]; · iexact HO
    isplitl [Hts]; · iexact Hts
    isplitl [Hrs]; · iexact Hrs
    isplitl [Htr]; · iexact Htr
    iexact Hrr
  iexact Hk

/-- The wait on a send cell: the source rows come back. -/
theorem step_wait_send {s : Shape} (src dst : Memref sig .tc .vmem s .bf16) (d g : Fin 3)
    (fs : Buf (Elt F) (src.view.loc (c : Thread nD τ)))
    (hN : src.view.dmaCredit = creditOf g)
    (hp : (arRd m).payload (sendCell c d g) 0 0 ⊢ ((src.view.loc (c : Thread nD τ) ↦[src.view.set]{fullShare} fs : sProp 𝕄)))
    {hs : dst.view.WordExact} {hd : src.view.WordExact}
    (O : CellTallies nD τ sig Unit) (W : Waits sig Unit)
    (hmw : (levAts L lv : sProp 𝕄) ⊢ MayWait (c : Thread nD τ) (.dma (sendQ d g)) () O)
    {kont : PUnit → Prog (TpuEff nD τ sig (Elt F) Λ₀ .tc) α} :
    iprop(cellInv ER (arRd m) (K (c, iSend d g)) (sendCell c d g) ∗ levAts L lv ∗ cred (tallyAt (sendCell c d g) () (creditOf g))
        ∗ owes (c : Thread nD τ) O W ∗ atPos ER (sendCell c d g) 0 ∅ 0)
      ⊢ iprop(((owes (c : Thread nD τ) O (insert (SemLoc.dma (sendQ d g), ()) W) ∗ atPos ER (sendCell c d g) 1 ∅ 0
            ∗ (src.view.loc (c : Thread nD τ) ↦[src.view.set]{fullShare} fs))
          -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (sendQ d g) dst src hs hd) kont) Q) := by
  iintro ⟨HI, Hlev, Hc, HO, Hat⟩ Hk
  iapply (Rounds.wp_wait_rest_token 𝒱₀ ER (arRd m) (c : Thread nD τ) none (κ := K (c, iSend d g)) (sm := .dma (sendQ d g)) (k' := src.view.dmaCredit)
      (wpE_waitDma2_eq 𝒱₀ (c : Thread nD τ) none Set.univ) (Set.mem_univ _) () (O := O) (W := W) (R := 0) (m := 0) (T := ∅)
      (by rw [Nat.zero_add, hN, expect_send])) $$ [HI Hlev Hc HO Hat]
  · isplitl [HI]; · iexact HI
    isplitl [Hc]; · rw [hN]; iexact Hc
    isplitl [HO]; · iexact HO
    isplitl [Hlev]; · iapply hmw; iexact Hlev
    iexact Hat
  iintro ⟨HO, Hat, -, Hpay⟩
  iapply Hk
  isplitl [HO]; · iexact HO
  isplitl [Hat]; · iexact Hat
  iapply hp
  iapply (Entails.of_eq (rest_send m c d g))
  iexact Hpay

/-- The wait on a receive cell: the landing region comes back holding the partner's rows. -/
theorem step_wait_recv {s : Shape} (src dst : Memref sig .tc .vmem s .bf16) (d g : Fin 3)
    (fr : Buf (Elt F) (dst.view.loc (c : Thread nD τ)))
    (hN : dst.view.dmaCredit = creditOf g)
    (hp : (arRd m).payload (recvCell c d g) 0 0 ⊢ ((dst.view.loc (c : Thread nD τ) ↦[dst.view.set]{fullShare} fr : sProp 𝕄)))
    {hs : src.view.WordExact} {hd : dst.view.WordExact}
    (O : CellTallies nD τ sig Unit) (W : Waits sig Unit)
    (hmw : (levAts L lv : sProp 𝕄) ⊢ MayWait (c : Thread nD τ) (.dma (recvQ d g)) () O)
    {kont : PUnit → Prog (TpuEff nD τ sig (Elt F) Λ₀ .tc) α} :
    iprop(cellInv ER (arRd m) (K (c, iRecv d g)) (recvCell c d g) ∗ levAts L lv ∗ cred (tallyAt (recvCell c d g) () (creditOf g))
        ∗ owes (c : Thread nD τ) O W ∗ atPos ER (recvCell c d g) 0 ∅ 0)
      ⊢ iprop(((owes (c : Thread nD τ) O (insert (SemLoc.dma (recvQ d g), ()) W) ∗ atPos ER (recvCell c d g) 1 ∅ 0
            ∗ (dst.view.loc (c : Thread nD τ) ↦[dst.view.set]{fullShare} fr))
          -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (recvQ d g) src dst hs hd) kont) Q) := by
  iintro ⟨HI, Hlev, Hc, HO, Hat⟩ Hk
  iapply (Rounds.wp_wait_rest_token 𝒱₀ ER (arRd m) (c : Thread nD τ) none (κ := K (c, iRecv d g)) (sm := .dma (recvQ d g)) (k' := dst.view.dmaCredit)
      (wpE_waitDma2_eq 𝒱₀ (c : Thread nD τ) none Set.univ) (Set.mem_univ _) () (O := O) (W := W) (R := 0) (m := 0) (T := ∅)
      (by rw [Nat.zero_add, hN, expect_recv])) $$ [HI Hlev Hc HO Hat]
  · isplitl [HI]; · iexact HI
    isplitl [Hc]; · rw [hN]; iexact Hc
    isplitl [HO]; · iexact HO
    isplitl [Hlev]; · iapply hmw; iexact Hlev
    iexact Hat
  iintro ⟨HO, Hat, -, Hpay⟩
  iapply Hk
  isplitl [HO]; · iexact HO
  isplitl [Hat]; · iexact Hat
  iapply hp
  iapply (Entails.of_eq (rest_recv m c d g))
  iexact Hpay

/-- A transfer cell whose one round is over closes: its counter is zero and the device's again. -/
theorem step_close_send (d g : Fin 3) :
    iprop(cellInv ER (arRd m) (K (c, iSend d g)) (sendCell c d g) ∗ atPos ER (sendCell c d g) 1 ∅ 0)
      ⊢ (|={Set.univ}=> semVal (sendCell c d g) 0 : sProp 𝕄) := by
  exact Rounds.cell_close ER (arRd m) (Set.mem_univ (K (c, iSend d g))) (fun h => h) (R := 1) (duties_later m (sendCell c d g))
theorem step_close_recv (d g : Fin 3) :
    iprop(cellInv ER (arRd m) (K (c, iRecv d g)) (recvCell c d g) ∗ atPos ER (recvCell c d g) 1 ∅ 0)
      ⊢ (|={Set.univ}=> semVal (recvCell c d g) 0 : sProp 𝕄) := by
  exact Rounds.cell_close ER (arRd m) (Set.mem_univ (K (c, iRecv d g))) (fun h => h) (R := 1) (duties_later m (recvCell c d g))

end Steps

end Cert.Kernel.AR

end
-- ==== Proof.KBody.lean ====
/-
  One device's body, stepped from what its thread holds at the start to what it holds at the end.
-/
import proofs.«900560_g7700000000000561_dist_matmul_of_ar_i_m512_n256_k256_v7x_i8_f32_1_alg».proof.Proof.Gen.Kernel
import proofs.«900560_g7700000000000561_dist_matmul_of_ar_i_m512_n256_k256_v7x_i8_f32_1_alg».proof.Proof.Gen.Kernel.Skeleton
import proofs.«900560_g7700000000000561_dist_matmul_of_ar_i_m512_n256_k256_v7x_i8_f32_1_alg».proof.Proof.Gen.Kernel.Launch
import proofs.«900560_g7700000000000561_dist_matmul_of_ar_i_m512_n256_k256_v7x_i8_f32_1_alg».proof.Proof.Gen.Kernel.Points
import proofs.«900560_g7700000000000561_dist_matmul_of_ar_i_m512_n256_k256_v7x_i8_f32_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import proofs.«900560_g7700000000000561_dist_matmul_of_ar_i_m512_n256_k256_v7x_i8_f32_1_alg».proof.Proof.KMesh
import proofs.«900560_g7700000000000561_dist_matmul_of_ar_i_m512_n256_k256_v7x_i8_f32_1_alg».proof.Proof.KSched
import proofs.«900560_g7700000000000561_dist_matmul_of_ar_i_m512_n256_k256_v7x_i8_f32_1_alg».proof.Proof.KProto
import proofs.«900560_g7700000000000561_dist_matmul_of_ar_i_m512_n256_k256_v7x_i8_f32_1_alg».proof.Proof.KTables
import proofs.«900560_g7700000000000561_dist_matmul_of_ar_i_m512_n256_k256_v7x_i8_f32_1_alg».proof.Proof.KGhost
import proofs.«900560_g7700000000000561_dist_matmul_of_ar_i_m512_n256_k256_v7x_i8_f32_1_alg».proof.Proof.KRegions
import proofs.«900560_g7700000000000561_dist_matmul_of_ar_i_m512_n256_k256_v7x_i8_f32_1_alg».proof.Proof.KLanding
import proofs.«900560_g7700000000000561_dist_matmul_of_ar_i_m512_n256_k256_v7x_i8_f32_1_alg».proof.Proof.KSteps

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

open Idealize.ShloMosaic.Tactic

local notation "𝕄" => MT nD τ sig Unit (Elt F) ℕ UU ℕ

variable (m : (ℓ : Loc nD τ sig) → Buf (Elt F) ℓ) (ρ : Dev nD → PrngReg)

theorem fetch_0 (t : Fin cfg0.N) : (cfg0.win (0 : Fin 3)).fetch t = true := fetch0_0 t
theorem fetch_1 (t : Fin cfg0.N) : (cfg0.win (1 : Fin 3)).fetch t = true := fetch0_1 t

abbrev t₀ : Fin cfg0.N := t0_0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 19 → ℕ) (c : Dev nD) : sProp 𝕄 :=
  iprop((ghost m K c ∗ creds c ∗ levAts L lv ∗ scratch c)
    ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ c ∗ (dats m 0 c).owesAt () t₀.succ ∗ stg c cc0_stg0_0 (tblk m c) ∗ stg c cc0_stg1_0 (wblk m c) ∗ stg c cc0_stg2_0 (outV m c))

/-! ## Loads and stores of whole buffers, and the three additions -/

abbrev rT : Rect S512x256 := Rect.unit (s := S512x256) ![0, 0] S512x256.size inb_S512x256_S512x256_0_0
abbrev rW : Rect S256x256 := Rect.unit (s := S256x256) ![0, 0] S256x256.size inb_S256x256_S256x256_0_0

omit [FloatOps F] in
theorem hz2 : (![0, 0] : Fin 2 → Nat) = fun _ => 0 := funext fun a => by fin_cases a <;> rfl
omit [FloatOps F] in
theorem read_t (f : (cc0_stg0_0 : Ref sig .tc).ty.Contents (Elt F)) : (tM : Memref sig .tc .vmem S512x256 .f32).view.readAt (Elt F) rT.toLoadRect f = f :=
  Memref.readAt_unit_zero (Elt F) cc0_stg0_0 hz2 _ f
omit [FloatOps F] in
theorem read_w (f : (cc0_stg1_0 : Ref sig .tc).ty.Contents (Elt F)) : (wM : Memref sig .tc .vmem S256x256 .f32).view.readAt (Elt F) rW.toLoadRect f = f :=
  Memref.readAt_unit_zero (Elt F) cc0_stg1_0 hz2 _ f
omit [FloatOps F] in
theorem read_acc (f : (cc0_scratch0 : Ref sig .tc).ty.Contents (Elt F)) : (accM : Memref sig .tc .vmem S512x256 .bf16).view.readAt (Elt F) rT.toLoadRect f = f :=
  Memref.readAt_unit_zero (Elt F) cc0_scratch0 hz2 _ f
omit [FloatOps F] in
theorem write_acc (f w : (cc0_scratch0 : Ref sig .tc).ty.Contents (Elt F)) :
    ((accM : Memref sig .tc .vmem S512x256 .bf16).access rT : View sig .tc _ _ _).write (Elt F) f w Finset.univ = w :=
  Memref.write_access_unit_zero_univ (Elt F) cc0_scratch0 hz2 _ f w
omit [FloatOps F] in
theorem write_o (f w : (cc0_stg2_0 : Ref sig .tc).ty.Contents (Elt F)) :
    ((oM : Memref sig .tc .vmem S512x256 .f32).access rT : View sig .tc _ _ _).write (Elt F) f w Finset.univ = w :=
  Memref.write_access_unit_zero_univ (Elt F) cc0_stg2_0 hz2 _ f w

/-- Stage 0's addition: the running sum plus slot 0 is the next running sum. -/
theorem step_val0 (c : Dev nD) :
    k0_pay5 (k0_pay4 (accV m 0 c) ((commM : Memref sig .tc .vmem S3x512x256 .bf16).view.readAt (Elt F) slotR0.toLoadRect (commC m c))) = accV m 1 c := by
  show shapeCast S512x256 (addf (accV m 0 c) (shapeCast S512x256 ((commM : Memref sig .tc .vmem S3x512x256 .bf16).view.readAt (Elt F) slotR0.toLoadRect (commC m c)) shapeCasts_S1x512x256_S512x256)) shapeCasts_S512x256_S512x256 = _
  rw [read_slot0, shapeCast_self]; rfl
/-- Stage 1's addition. -/
theorem step_val1 (c : Dev nD) :
    k0_pay6 (accV m 1 c) ((commM : Memref sig .tc .vmem S3x512x256 .bf16).view.readAt (Elt F) slotR1.toLoadRect (commC m c)) = accV m 2 c := by
  show shapeCast S512x256 (addf (accV m 1 c) (shapeCast S512x256 ((commM : Memref sig .tc .vmem S3x512x256 .bf16).view.readAt (Elt F) slotR1.toLoadRect (commC m c)) shapeCasts_S1x512x256_S512x256)) shapeCasts_S512x256_S512x256 = _
  rw [read_slot1, shapeCast_self]; rfl
/-- Stage 2's addition. -/
theorem step_val2 (c : Dev nD) :
    k0_pay1 (accV m 2 c) ((commM : Memref sig .tc .vmem S3x512x256 .bf16).view.readAt (Elt F) slotR2.toLoadRect (commC m c)) = accV m 3 c := by
  show shapeCast S512x256 (addf (accV m 2 c) (shapeCast S512x256 ((commM : Memref sig .tc .vmem S3x512x256 .bf16).view.readAt (Elt F) slotR2.toLoadRect (commC m c)) shapeCasts_S1x512x256_S512x256)) shapeCasts_S512x256_S512x256 = _
  rw [read_slot2, shapeCast_self]; rfl

/-! ## The transfer semaphores by number -/

theorem sendSem00 : ((cc0_scratch2.slice (Rect.unit (s := S3x3) ![0, 0] S1x1.size inb_S3x3_S1x1_0_0)).squeeze S_ squeezes_S1x1_S_).sem = sendQ 0 0 := rfl
theorem recvSem00 : ((cc0_scratch3.slice (Rect.unit (s := S3x3) ![0, 0] S1x1.size inb_S3x3_S1x1_0_0)).squeeze S_ squeezes_S1x1_S_).sem = recvQ 0 0 := rfl
theorem sendSem01 : ((cc0_scratch2.slice (Rect.unit (s := S3x3) ![0, 1] S1x1.size inb_S3x3_S1x1_0_1)).squeeze S_ squeezes_S1x1_S_).sem = sendQ 0 1 := rfl
theorem recvSem01 : ((cc0_scratch3.slice (Rect.unit (s := S3x3) ![0, 1] S1x1.size inb_S3x3_S1x1_0_1)).squeeze S_ squeezes_S1x1_S_).sem = recvQ 0 1 := rfl
theorem sendSem02 : ((cc0_scratch2.slice (Rect.unit (s := S3x3) ![0, 2] S1x1.size inb_S3x3_S1x1_0_2)).squeeze S_ squeezes_S1x1_S_).sem = sendQ 0 2 := rfl
theorem recvSem02 : ((cc0_scratch3.slice (Rect.unit (s := S3x3) ![0, 2] S1x1.size inb_S3x3_S1x1_0_2)).squeeze S_ squeezes_S1x1_S_).sem = recvQ 0 2 := rfl
theorem sendSem10 : ((cc0_scratch2.slice (Rect.unit (s := S3x3) ![1, 0] S1x1.size inb_S3x3_S1x1_1_0)).squeeze S_ squeezes_S1x1_S_).sem = sendQ 1 0 := rfl
theorem recvSem10 : ((cc0_scratch3.slice (Rect.unit (s := S3x3) ![1, 0] S1x1.size inb_S3x3_S1x1_1_0)).squeeze S_ squeezes_S1x1_S_).sem = recvQ 1 0 := rfl
theorem sendSem11 : ((cc0_scratch2.slice (Rect.unit (s := S3x3) ![1, 1] S1x1.size inb_S3x3_S1x1_1_1)).squeeze S_ squeezes_S1x1_S_).sem = sendQ 1 1 := rfl
theorem recvSem11 : ((cc0_scratch3.slice (Rect.unit (s := S3x3) ![1, 1] S1x1.size inb_S3x3_S1x1_1_1)).squeeze S_ squeezes_S1x1_S_).sem = recvQ 1 1 := rfl
theorem sendSem12 : ((cc0_scratch2.slice (Rect.unit (s := S3x3) ![1, 2] S1x1.size inb_S3x3_S1x1_1_2)).squeeze S_ squeezes_S1x1_S_).sem = sendQ 1 2 := rfl
theorem recvSem12 : ((cc0_scratch3.slice (Rect.unit (s := S3x3) ![1, 2] S1x1.size inb_S3x3_S1x1_1_2)).squeeze S_ squeezes_S1x1_S_).sem = recvQ 1 2 := rfl
theorem sendSem20 : ((cc0_scratch2.slice (Rect.unit (s := S3x3) ![2, 0] S1x1.size inb_S3x3_S1x1_2_0)).squeeze S_ squeezes_S1x1_S_).sem = sendQ 2 0 := rfl
theorem recvSem20 : ((cc0_scratch3.slice (Rect.unit (s := S3x3) ![2, 0] S1x1.size inb_S3x3_S1x1_2_0)).squeeze S_ squeezes_S1x1_S_).sem = recvQ 2 0 := rfl
theorem sendSem21 : ((cc0_scratch2.slice (Rect.unit (s := S3x3) ![2, 1] S1x1.size inb_S3x3_S1x1_2_1)).squeeze S_ squeezes_S1x1_S_).sem = sendQ 2 1 := rfl
theorem recvSem21 : ((cc0_scratch3.slice (Rect.unit (s := S3x3) ![2, 1] S1x1.size inb_S3x3_S1x1_2_1)).squeeze S_ squeezes_S1x1_S_).sem = recvQ 2 1 := rfl
theorem sendSem22 : ((cc0_scratch2.slice (Rect.unit (s := S3x3) ![2, 2] S1x1.size inb_S3x3_S1x1_2_2)).squeeze S_ squeezes_S1x1_S_).sem = sendQ 2 2 := rfl
theorem recvSem22 : ((cc0_scratch3.slice (Rect.unit (s := S3x3) ![2, 2] S1x1.size inb_S3x3_S1x1_2_2)).squeeze S_ squeezes_S1x1_S_).sem = recvQ 2 2 := rfl

/-! ## The payloads in the spelling of the buffers' pieces -/

theorem payload_send00 (x : Dev nD) (k : Fin 3) : (arRd m).payload (sendCell x 0 0) 0 k = ((srcA : Memref sig .tc .vmem S176x256 .bf16).view.loc (x : Thread nD τ) ↦[(srcA : Memref sig .tc .vmem S176x256 .bf16).view.set]{fullShare} accV m 0 x) := by
  rw [payload_send]; rfl
theorem payload_recv00 (x : Dev nD) (k : Fin 3) : (arRd m).payload (recvCell x 0 0) 0 k = ((dst00 : Memref sig .tc .vmem S176x256 .bf16).view.loc (x : Thread nD τ) ↦[(dst00 : Memref sig .tc .vmem S176x256 .bf16).view.set]{fullShare} commC m x) := by
  rw [payload_recv]; rfl
theorem payload_send01 (x : Dev nD) (k : Fin 3) : (arRd m).payload (sendCell x 0 1) 0 k = ((srcB : Memref sig .tc .vmem S176x256 .bf16).view.loc (x : Thread nD τ) ↦[(srcB : Memref sig .tc .vmem S176x256 .bf16).view.set]{fullShare} accV m 0 x) := by
  rw [payload_send]; rfl
theorem payload_recv01 (x : Dev nD) (k : Fin 3) : (arRd m).payload (recvCell x 0 1) 0 k = ((dst01 : Memref sig .tc .vmem S176x256 .bf16).view.loc (x : Thread nD τ) ↦[(dst01 : Memref sig .tc .vmem S176x256 .bf16).view.set]{fullShare} commC m x) := by
  rw [payload_recv]; rfl
theorem payload_send02 (x : Dev nD) (k : Fin 3) : (arRd m).payload (sendCell x 0 2) 0 k = ((srcC : Memref sig .tc .vmem S160x256 .bf16).view.loc (x : Thread nD τ) ↦[(srcC : Memref sig .tc .vmem S160x256 .bf16).view.set]{fullShare} accV m 0 x) := by
  rw [payload_send]; rfl
theorem payload_recv02 (x : Dev nD) (k : Fin 3) : (arRd m).payload (recvCell x 0 2) 0 k = ((dst02 : Memref sig .tc .vmem S160x256 .bf16).view.loc (x : Thread nD τ) ↦[(dst02 : Memref sig .tc .vmem S160x256 .bf16).view.set]{fullShare} commC m x) := by
  rw [payload_recv]; rfl
theorem payload_send10 (x : Dev nD) (k : Fin 3) : (arRd m).payload (sendCell x 1 0) 0 k = ((srcA : Memref sig .tc .vmem S176x256 .bf16).view.loc (x : Thread nD τ) ↦[(srcA : Memref sig .tc .vmem S176x256 .bf16).view.set]{fullShare} accV m 1 x) := by
  rw [payload_send]; rfl
theorem payload_recv10 (x : Dev nD) (k : Fin 3) : (arRd m).payload (recvCell x 1 0) 0 k = ((dst10 : Memref sig .tc .vmem S176x256 .bf16).view.loc (x : Thread nD τ) ↦[(dst10 : Memref sig .tc .vmem S176x256 .bf16).view.set]{fullShare} commC m x) := by
  rw [payload_recv]; rfl
theorem payload_send11 (x : Dev nD) (k : Fin 3) : (arRd m).payload (sendCell x 1 1) 0 k = ((srcB : Memref sig .tc .vmem S176x256 .bf16).view.loc (x : Thread nD τ) ↦[(srcB : Memref sig .tc .vmem S176x256 .bf16).view.set]{fullShare} accV m 1 x) := by
  rw [payload_send]; rfl
theorem payload_recv11 (x : Dev nD) (k : Fin 3) : (arRd m).payload (recvCell x 1 1) 0 k = ((dst11 : Memref sig .tc .vmem S176x256 .bf16).view.loc (x : Thread nD τ) ↦[(dst11 : Memref sig .tc .vmem S176x256 .bf16).view.set]{fullShare} commC m x) := by
  rw [payload_recv]; rfl
theorem payload_send12 (x : Dev nD) (k : Fin 3) : (arRd m).payload (sendCell x 1 2) 0 k = ((srcC : Memref sig .tc .vmem S160x256 .bf16).view.loc (x : Thread nD τ) ↦[(srcC : Memref sig .tc .vmem S160x256 .bf16).view.set]{fullShare} accV m 1 x) := by
  rw [payload_send]; rfl
theorem payload_recv12 (x : Dev nD) (k : Fin 3) : (arRd m).payload (recvCell x 1 2) 0 k = ((dst12 : Memref sig .tc .vmem S160x256 .bf16).view.loc (x : Thread nD τ) ↦[(dst12 : Memref sig .tc .vmem S160x256 .bf16).view.set]{fullShare} commC m x) := by
  rw [payload_recv]; rfl
theorem payload_send20 (x : Dev nD) (k : Fin 3) : (arRd m).payload (sendCell x 2 0) 0 k = ((srcA : Memref sig .tc .vmem S176x256 .bf16).view.loc (x : Thread nD τ) ↦[(srcA : Memref sig .tc .vmem S176x256 .bf16).view.set]{fullShare} accV m 2 x) := by
  rw [payload_send]; rfl
theorem payload_recv20 (x : Dev nD) (k : Fin 3) : (arRd m).payload (recvCell x 2 0) 0 k = ((dst20 : Memref sig .tc .vmem S176x256 .bf16).view.loc (x : Thread nD τ) ↦[(dst20 : Memref sig .tc .vmem S176x256 .bf16).view.set]{fullShare} commC m x) := by
  rw [payload_recv]; rfl
theorem payload_send21 (x : Dev nD) (k : Fin 3) : (arRd m).payload (sendCell x 2 1) 0 k = ((srcB : Memref sig .tc .vmem S176x256 .bf16).view.loc (x : Thread nD τ) ↦[(srcB : Memref sig .tc .vmem S176x256 .bf16).view.set]{fullShare} accV m 2 x) := by
  rw [payload_send]; rfl
theorem payload_recv21 (x : Dev nD) (k : Fin 3) : (arRd m).payload (recvCell x 2 1) 0 k = ((dst21 : Memref sig .tc .vmem S176x256 .bf16).view.loc (x : Thread nD τ) ↦[(dst21 : Memref sig .tc .vmem S176x256 .bf16).view.set]{fullShare} commC m x) := by
  rw [payload_recv]; rfl
theorem payload_send22 (x : Dev nD) (k : Fin 3) : (arRd m).payload (sendCell x 2 2) 0 k = ((srcC : Memref sig .tc .vmem S160x256 .bf16).view.loc (x : Thread nD τ) ↦[(srcC : Memref sig .tc .vmem S160x256 .bf16).view.set]{fullShare} accV m 2 x) := by
  rw [payload_send]; rfl
theorem payload_recv22 (x : Dev nD) (k : Fin 3) : (arRd m).payload (recvCell x 2 2) 0 k = ((dst22 : Memref sig .tc .vmem S160x256 .bf16).view.loc (x : Thread nD τ) ↦[(dst22 : Memref sig .tc .vmem S160x256 .bf16).view.set]{fullShare} commC m x) := by
  rw [payload_recv]; rfl

set_option maxHeartbeats 8000000 in
/-- One device's body, rule by rule in program order: the three signals; the input block rounded into the running
    sum; the wait for the partners; three stages of three transfers, their six waits, and the slot added; the matrix
    product stored; the transfer cells closed. -/
theorem sound_body (K : Dev nD × Fin 19 → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  unfold bodyPre ghost invs marks poss payToks creds scratch
  iintro ⟨⟨⟨⟨⟨#HIb, #HIs00, #HIs01, #HIs02, #HIs10, #HIs11, #HIs12, #HIs20, #HIs21, #HIs22, #HIr00, #HIr01, #HIr02, #HIr10, #HIr11, #HIr12, #HIr20, #HIr21, #HIr22, #HIpb0, #HIpb1, #HIpb2, #HIpr00, #HIpr01, #HIpr02, #HIpr10, #HIpr11, #HIpr12, #HIpr20, #HIpr21, #HIpr22⟩, ⟨#Hrb, #Hrs00, #Hrs01, #Hrs02, #Hrs10, #Hrs11, #Hrs12, #Hrs20, #Hrs21, #Hrs22, #Hrr00, #Hrr01, #Hrr02, #Hrr10, #Hrr11, #Hrr12, #Hrr20, #Hrr21, #Hrr22, #Hrpb0, #Hrpb1, #Hrpb2, #Hrpr00, #Hrpr01, #Hrpr02, #Hrpr10, #Hrpr11, #Hrpr12, #Hrpr20, #Hrpr21, #Hrpr22⟩, ⟨Hab, Has00, Has01, Has02, Has10, Has11, Has12, Has20, Has21, Has22, Har00, Har01, Har02, Har10, Har11, Har12, Har20, Har21, Har22⟩, Htb0, Htb1, Htb2, Hts00, Hts01, Hts02, Hts10, Hts11, Hts12, Hts20, Hts21, Hts22, Htr00, Htr01, Htr02, Htr10, Htr11, Htr12, Htr20, Htr21, Htr22⟩, ⟨Hcb, Hcr00, Hcr01, Hcr02, Hcr10, Hcr11, Hcr12, Hcr20, Hcr21, Hcr22⟩, #Hlev, ⟨⟨%fa, Hacc⟩, ⟨%fc, Hcomm⟩⟩⟩, Ho, ⟨%d0, %g0, %hg0, Hx⟩, ⟨%d1, %g1, %hg1, Hw⟩, ⟨%d2, %g2, %hg2, Hout⟩⟩, Hk⟩
  have hx : g0 = tblk m c := by rw [hg0]; unfold Dat.before; rw [if_pos (fetch_0 t₀)]; rfl
  have hw : g1 = wblk m c := by rw [hg1]; unfold Dat.before; rw [if_pos (fetch_1 t₀)]; rfl
  subst hx; subst hw
  unfold Dat.owesAt Pipeline.owesWithin
  icases Ho with ⟨%W, %hW, HO⟩
  rw [show (dats m 0 c).owed t₀.castSucc = O₀ c from rfl]
  clear hg0 hg1 hg2 hW
  -- the landing buffer cut into its nine regions, to hand three to each partner
  ihave Hc3 := (comm_split c fc).1 $$ Hcomm
  icases Hc3 with ⟨Hsl0, Hsl1, Hsl2⟩
  ihave Hs0 := (slot_join0 c fc).2 $$ Hsl0
  icases Hs0 with ⟨Hc00, Hc01, Hc02⟩
  ihave Hs1 := (slot_join1 c fc).2 $$ Hsl1
  icases Hs1 with ⟨Hc10, Hc11, Hc12⟩
  ihave Hs2 := (slot_join2 c fc).2 $$ Hsl2
  icases Hs2 with ⟨Hc20, Hc21, Hc22⟩
  -- the program laid out flat
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, wp_deviceId]
  simp only [dev1_eq c, dev2_eq c, dev3_eq c, sendSem00, recvSem00, sendSem01, recvSem01, sendSem02, recvSem02, sendSem10, recvSem10, sendSem11, recvSem11, sendSem12, recvSem12, sendSem20, recvSem20, sendSem21, recvSem21, sendSem22, recvSem22]
  -- the signal to partner 0: its barrier duty, with this device's three landing regions that partner fills
  iapply (step_signal0 m K c (R0 c + tallyAt (barCell (peer c 2)) () 1 + tallyAt (barCell (peer c 1)) () 1) W fc fc fc) $$ [Htb0 HO Hc00 Hc12 Hc21]
  · isplitr; · iexact HIpb0
    isplitr; · iexact Hrpb0
    isplitl [Htb0]; · iexact Htb0
    isplitl [HO]; · iexact HO
    isplitl [Hc00]; · iexact Hc00
    isplitl [Hc12]; · iexact Hc12
    iexact Hc21
  iintro HO
  -- the signal to partner 1: its barrier duty, with this device's three landing regions that partner fills
  iapply (step_signal1 m K c (R0 c + tallyAt (barCell (peer c 2)) () 1) W fc fc fc) $$ [Htb1 HO Hc01 Hc10 Hc22]
  · isplitr; · iexact HIpb1
    isplitr; · iexact Hrpb1
    isplitl [Htb1]; · iexact Htb1
    isplitl [HO]; · iexact HO
    isplitl [Hc01]; · iexact Hc01
    isplitl [Hc10]; · iexact Hc10
    iexact Hc22
  iintro HO
  -- the signal to partner 2: its barrier duty, with this device's three landing regions that partner fills
  iapply (step_signal2 m K c (R0 c) W fc fc fc) $$ [Htb2 HO Hc02 Hc11 Hc20]
  · isplitr; · iexact HIpb2
    isplitr; · iexact Hrpb2
    isplitl [Htb2]; · iexact Htb2
    isplitl [HO]; · iexact HO
    isplitl [Hc02]; · iexact Hc02
    isplitl [Hc11]; · iexact Hc11
    iexact Hc20
  iintro HO
  -- the input block, rounded, becomes the running sum
  iapply (wp_load 𝒱₀ (c : Thread nD τ) none Set.univ (m := tM) (Finset.subset_univ _)) $$ Hx; iintro Hx
  rw [read_t]
  iapply (wp_load 𝒱₀ (c : Thread nD τ) none Set.univ (m := accM) (Finset.subset_univ _)) $$ Hacc; iintro Hacc
  iapply (wp_store 𝒱₀ (c : Thread nD τ) none Set.univ (m := accM) (r := rT) (Mk := Finset.univ) (Finset.subset_univ _)) $$ Hacc; iintro Hacc
  rw [write_acc, show k0_pay3 (tblk m c) = accV m 0 c from rfl]
  -- the wait for the three partners
  iapply (step_wait_bar m K c (R0 c) W (mayWait_above c (.reg barS) (R0 c) 1 (lv_bar c) (fun x u h => R0_pos h))) $$ [Hcb HO Hab]
  · isplitr; · iexact HIb
    isplitr; · iexact Hlev
    isplitl [Hcb]; · iexact Hcb
    isplitl [HO]; · iexact HO
    iexact Hab
  iintro ⟨HO, Hab, ⟨%q00, Hq00⟩, ⟨%q12, Hq12⟩, ⟨%q21, Hq21⟩, ⟨%q01, Hq01⟩, ⟨%q10, Hq10⟩, ⟨%q22, Hq22⟩, ⟨%q02, Hq02⟩, ⟨%q11, Hq11⟩, ⟨%q20, Hq20⟩⟩
  -- stage 0: the running sum cut into its row groups
  ihave Ha3 := (acc_split c (accV m 0 c)).1 $$ Hacc
  icases Ha3 with ⟨HsA, HsB, HsC⟩
  -- rows of group 0 to partner 0
  iapply (step_send m K c (srcA : Memref sig .tc .vmem S176x256 .bf16) (dst00 : Memref sig .tc .vmem S176x256 .bf16) 0 0 0 _ (dev4_eq c) (accV m 0 c) rfl
      (by rw [payload_send00]) (fun fd => by rw [payload_recv00, landing00])
      (R1 c + tallyAt (recvCell (peer c 2) 0 2) () (creditOf 2) + tallyAt (recvCell (peer c 1) 0 1) () (creditOf 1)) _ q00) $$ [Hts00 Htr00 HO HsA Hq00]
  · isplitr; · iexact HIs00
    isplitr; · iexact HIpr00
    isplitr; · iexact Hrs00
    isplitr; · iexact Hrpr00
    isplitl [Hts00]; · iexact Hts00
    isplitl [Htr00]; · iexact Htr00
    isplitl [HO]; · iexact HO
    isplitl [HsA]; · iexact HsA
    iexact Hq00
  iintro ⟨Hcs00, HO⟩
  -- rows of group 1 to partner 1
  iapply (step_send m K c (srcB : Memref sig .tc .vmem S176x256 .bf16) (dst01 : Memref sig .tc .vmem S176x256 .bf16) 0 1 1 _ (dev5_eq c) (accV m 0 c) rfl
      (by rw [payload_send01]) (fun fd => by rw [payload_recv01, landing01])
      (R1 c + tallyAt (recvCell (peer c 2) 0 2) () (creditOf 2)) _ q01) $$ [Hts01 Htr01 HO HsB Hq01]
  · isplitr; · iexact HIs01
    isplitr; · iexact HIpr01
    isplitr; · iexact Hrs01
    isplitr; · iexact Hrpr01
    isplitl [Hts01]; · iexact Hts01
    isplitl [Htr01]; · iexact Htr01
    isplitl [HO]; · iexact HO
    isplitl [HsB]; · iexact HsB
    iexact Hq01
  iintro ⟨Hcs01, HO⟩
  -- rows of group 2 to partner 2
  iapply (step_send m K c (srcC : Memref sig .tc .vmem S160x256 .bf16) (dst02 : Memref sig .tc .vmem S160x256 .bf16) 0 2 2 _ (dev6_eq c) (accV m 0 c) rfl
      (by rw [payload_send02]) (fun fd => by rw [payload_recv02, landing02])
      (R1 c) _ q02) $$ [Hts02 Htr02 HO HsC Hq02]
  · isplitr; · iexact HIs02
    isplitr; · iexact HIpr02
    isplitr; · iexact Hrs02
    isplitr; · iexact Hrpr02
    isplitl [Hts02]; · iexact Hts02
    isplitl [Htr02]; · iexact Htr02
    isplitl [HO]; · iexact HO
    isplitl [HsC]; · iexact HsC
    iexact Hq02
  iintro ⟨Hcs02, HO⟩
  -- the rows of group 0 have left: the source rows come back
  iapply (step_wait_send m K c (srcA : Memref sig .tc .vmem S176x256 .bf16) (dst00 : Memref sig .tc .vmem S176x256 .bf16) 0 0 (accV m 0 c) rfl (by rw [payload_send00]) (R1 c) _
      (mayWait_above c (.dma (sendQ 0 0)) (R1 c) 0 (lv_send c 0 0) (fun x u h => ⟨(R1_pos h).1, by have := (R1_pos h).2; omega⟩))) $$ [Hcs00 HO Has00]
  · isplitr; · iexact HIs00
    isplitr; · iexact Hlev
    isplitl [Hcs00]; · iexact Hcs00
    isplitl [HO]; · iexact HO
    iexact Has00
  iintro ⟨HO, Has00, HsA⟩
  -- the partner's rows of group 0 have landed
  iapply (step_wait_recv m K c (srcA : Memref sig .tc .vmem S176x256 .bf16) (dst00 : Memref sig .tc .vmem S176x256 .bf16) 0 0 (commC m c) rfl (by rw [payload_recv00]) (R1 c) _
      (mayWait_above c (.dma (recvQ 0 0)) (R1 c) 2 (lv_recv c 0 0) (fun x u h => R1_pos h))) $$ [Hcr00 HO Har00]
  · isplitr; · iexact HIr00
    isplitr; · iexact Hlev
    isplitl [Hcr00]; · iexact Hcr00
    isplitl [HO]; · iexact HO
    iexact Har00
  iintro ⟨HO, Har00, Hr00⟩
  -- the rows of group 1 have left: the source rows come back
  iapply (step_wait_send m K c (srcB : Memref sig .tc .vmem S176x256 .bf16) (dst01 : Memref sig .tc .vmem S176x256 .bf16) 0 1 (accV m 0 c) rfl (by rw [payload_send01]) (R1 c) _
      (mayWait_above c (.dma (sendQ 0 1)) (R1 c) 0 (lv_send c 0 1) (fun x u h => ⟨(R1_pos h).1, by have := (R1_pos h).2; omega⟩))) $$ [Hcs01 HO Has01]
  · isplitr; · iexact HIs01
    isplitr; · iexact Hlev
    isplitl [Hcs01]; · iexact Hcs01
    isplitl [HO]; · iexact HO
    iexact Has01
  iintro ⟨HO, Has01, HsB⟩
  -- the partner's rows of group 1 have landed
  iapply (step_wait_recv m K c (srcB : Memref sig .tc .vmem S176x256 .bf16) (dst01 : Memref sig .tc .vmem S176x256 .bf16) 0 1 (commC m c) rfl (by rw [payload_recv01]) (R1 c) _
      (mayWait_above c (.dma (recvQ 0 1)) (R1 c) 2 (lv_recv c 0 1) (fun x u h => R1_pos h))) $$ [Hcr01 HO Har01]
  · isplitr; · iexact HIr01
    isplitr; · iexact Hlev
    isplitl [Hcr01]; · iexact Hcr01
    isplitl [HO]; · iexact HO
    iexact Har01
  iintro ⟨HO, Har01, Hr01⟩
  -- the rows of group 2 have left: the source rows come back
  iapply (step_wait_send m K c (srcC : Memref sig .tc .vmem S160x256 .bf16) (dst02 : Memref sig .tc .vmem S160x256 .bf16) 0 2 (accV m 0 c) rfl (by rw [payload_send02]) (R1 c) _
      (mayWait_above c (.dma (sendQ 0 2)) (R1 c) 0 (lv_send c 0 2) (fun x u h => ⟨(R1_pos h).1, by have := (R1_pos h).2; omega⟩))) $$ [Hcs02 HO Has02]
  · isplitr; · iexact HIs02
    isplitr; · iexact Hlev
    isplitl [Hcs02]; · iexact Hcs02
    isplitl [HO]; · iexact HO
    iexact Has02
  iintro ⟨HO, Has02, HsC⟩
  -- the partner's rows of group 2 have landed
  iapply (step_wait_recv m K c (srcC : Memref sig .tc .vmem S160x256 .bf16) (dst02 : Memref sig .tc .vmem S160x256 .bf16) 0 2 (commC m c) rfl (by rw [payload_recv02]) (R1 c) _
      (mayWait_above c (.dma (recvQ 0 2)) (R1 c) 2 (lv_recv c 0 2) (fun x u h => R1_pos h))) $$ [Hcr02 HO Har02]
  · isplitr; · iexact HIr02
    isplitr; · iexact Hlev
    isplitl [Hcr02]; · iexact Hcr02
    isplitl [HO]; · iexact HO
    iexact Har02
  iintro ⟨HO, Har02, Hr02⟩
  -- the running sum whole again, slot 0 whole: the slot is added
  ihave Hacc := (acc_split c (accV m 0 c)).2 $$ [HsA HsB HsC]
  · isplitl [HsA]; · iexact HsA
    isplitl [HsB]; · iexact HsB
    iexact HsC
  ihave Hsl0 := (slot_join0 c (commC m c)).1 $$ [Hr00 Hr01 Hr02]
  · isplitl [Hr00]; · iexact Hr00
    isplitl [Hr01]; · iexact Hr01
    iexact Hr02
  iapply (wp_load 𝒱₀ (c : Thread nD τ) none Set.univ (m := accM) (Finset.subset_univ _)) $$ Hacc; iintro Hacc
  rw [read_acc]
  iapply (wp_load 𝒱₀ (c : Thread nD τ) none Set.univ (m := commM) (r := slotR0.toLoadRect) (S := (commM : Memref sig .tc .vmem S3x512x256 .bf16).view.setOn slotR0.set) subset_rfl) $$ Hsl0; iintro Hsl0
  iapply (wp_load 𝒱₀ (c : Thread nD τ) none Set.univ (m := accM) (Finset.subset_univ _)) $$ Hacc; iintro Hacc
  iapply (wp_store 𝒱₀ (c : Thread nD τ) none Set.univ (m := accM) (r := rT) (Mk := Finset.univ) (Finset.subset_univ _)) $$ Hacc; iintro Hacc
  rw [write_acc, step_val0]
  -- stage 1: the running sum cut into its row groups
  ihave Ha3 := (acc_split c (accV m 1 c)).1 $$ Hacc
  icases Ha3 with ⟨HsA, HsB, HsC⟩
  -- rows of group 0 to partner 1
  iapply (step_send m K c (srcA : Memref sig .tc .vmem S176x256 .bf16) (dst10 : Memref sig .tc .vmem S176x256 .bf16) 1 0 1 _ (dev7_eq c) (accV m 1 c) rfl
      (by rw [payload_send10]) (fun fd => by rw [payload_recv10, landing10])
      (R2 c + tallyAt (recvCell (peer c 0) 1 2) () (creditOf 2) + tallyAt (recvCell (peer c 2) 1 1) () (creditOf 1)) _ q10) $$ [Hts10 Htr10 HO HsA Hq10]
  · isplitr; · iexact HIs10
    isplitr; · iexact HIpr10
    isplitr; · iexact Hrs10
    isplitr; · iexact Hrpr10
    isplitl [Hts10]; · iexact Hts10
    isplitl [Htr10]; · iexact Htr10
    isplitl [HO]; · iexact HO
    isplitl [HsA]; · iexact HsA
    iexact Hq10
  iintro ⟨Hcs10, HO⟩
  -- rows of group 1 to partner 2
  iapply (step_send m K c (srcB : Memref sig .tc .vmem S176x256 .bf16) (dst11 : Memref sig .tc .vmem S176x256 .bf16) 1 1 2 _ (dev8_eq c) (accV m 1 c) rfl
      (by rw [payload_send11]) (fun fd => by rw [payload_recv11, landing11])
      (R2 c + tallyAt (recvCell (peer c 0) 1 2) () (creditOf 2)) _ q11) $$ [Hts11 Htr11 HO HsB Hq11]
  · isplitr; · iexact HIs11
    isplitr; · iexact HIpr11
    isplitr; · iexact Hrs11
    isplitr; · iexact Hrpr11
    isplitl [Hts11]; · iexact Hts11
    isplitl [Htr11]; · iexact Htr11
    isplitl [HO]; · iexact HO
    isplitl [HsB]; · iexact HsB
    iexact Hq11
  iintro ⟨Hcs11, HO⟩
  -- rows of group 2 to partner 0
  iapply (step_send m K c (srcC : Memref sig .tc .vmem S160x256 .bf16) (dst12 : Memref sig .tc .vmem S160x256 .bf16) 1 2 0 _ (dev9_eq c) (accV m 1 c) rfl
      (by rw [payload_send12]) (fun fd => by rw [payload_recv12, landing12])
      (R2 c) _ q12) $$ [Hts12 Htr12 HO HsC Hq12]
  · isplitr; · iexact HIs12
    isplitr; · iexact HIpr12
    isplitr; · iexact Hrs12
    isplitr; · iexact Hrpr12
    isplitl [Hts12]; · iexact Hts12
    isplitl [Htr12]; · iexact Htr12
    isplitl [HO]; · iexact HO
    isplitl [HsC]; · iexact HsC
    iexact Hq12
  iintro ⟨Hcs12, HO⟩
  -- the rows of group 0 have left: the source rows come back
  iapply (step_wait_send m K c (srcA : Memref sig .tc .vmem S176x256 .bf16) (dst10 : Memref sig .tc .vmem S176x256 .bf16) 1 0 (accV m 1 c) rfl (by rw [payload_send10]) (R2 c) _
      (mayWait_above c (.dma (sendQ 1 0)) (R2 c) 0 (lv_send c 1 0) (fun x u h => ⟨(R2_pos h).1, by have := (R2_pos h).2; omega⟩))) $$ [Hcs10 HO Has10]
  · isplitr; · iexact HIs10
    isplitr; · iexact Hlev
    isplitl [Hcs10]; · iexact Hcs10
    isplitl [HO]; · iexact HO
    iexact Has10
  iintro ⟨HO, Has10, HsA⟩
  -- the partner's rows of group 0 have landed
  iapply (step_wait_recv m K c (srcA : Memref sig .tc .vmem S176x256 .bf16) (dst10 : Memref sig .tc .vmem S176x256 .bf16) 1 0 (commC m c) rfl (by rw [payload_recv10]) (R2 c) _
      (mayWait_above c (.dma (recvQ 1 0)) (R2 c) 3 (lv_recv c 1 0) (fun x u h => R2_pos h))) $$ [Hcr10 HO Har10]
  · isplitr; · iexact HIr10
    isplitr; · iexact Hlev
    isplitl [Hcr10]; · iexact Hcr10
    isplitl [HO]; · iexact HO
    iexact Har10
  iintro ⟨HO, Har10, Hr10⟩
  -- the rows of group 1 have left: the source rows come back
  iapply (step_wait_send m K c (srcB : Memref sig .tc .vmem S176x256 .bf16) (dst11 : Memref sig .tc .vmem S176x256 .bf16) 1 1 (accV m 1 c) rfl (by rw [payload_send11]) (R2 c) _
      (mayWait_above c (.dma (sendQ 1 1)) (R2 c) 0 (lv_send c 1 1) (fun x u h => ⟨(R2_pos h).1, by have := (R2_pos h).2; omega⟩))) $$ [Hcs11 HO Has11]
  · isplitr; · iexact HIs11
    isplitr; · iexact Hlev
    isplitl [Hcs11]; · iexact Hcs11
    isplitl [HO]; · iexact HO
    iexact Has11
  iintro ⟨HO, Has11, HsB⟩
  -- the partner's rows of group 1 have landed
  iapply (step_wait_recv m K c (srcB : Memref sig .tc .vmem S176x256 .bf16) (dst11 : Memref sig .tc .vmem S176x256 .bf16) 1 1 (commC m c) rfl (by rw [payload_recv11]) (R2 c) _
      (mayWait_above c (.dma (recvQ 1 1)) (R2 c) 3 (lv_recv c 1 1) (fun x u h => R2_pos h))) $$ [Hcr11 HO Har11]
  · isplitr; · iexact HIr11
    isplitr; · iexact Hlev
    isplitl [Hcr11]; · iexact Hcr11
    isplitl [HO]; · iexact HO
    iexact Har11
  iintro ⟨HO, Har11, Hr11⟩
  -- the rows of group 2 have left: the source rows come back
  iapply (step_wait_send m K c (srcC : Memref sig .tc .vmem S160x256 .bf16) (dst12 : Memref sig .tc .vmem S160x256 .bf16) 1 2 (accV m 1 c) rfl (by rw [payload_send12]) (R2 c) _
      (mayWait_above c (.dma (sendQ 1 2)) (R2 c) 0 (lv_send c 1 2) (fun x u h => ⟨(R2_pos h).1, by have := (R2_pos h).2; omega⟩))) $$ [Hcs12 HO Has12]
  · isplitr; · iexact HIs12
    isplitr; · iexact Hlev
    isplitl [Hcs12]; · iexact Hcs12
    isplitl [HO]; · iexact HO
    iexact Has12
  iintro ⟨HO, Has12, HsC⟩
  -- the partner's rows of group 2 have landed
  iapply (step_wait_recv m K c (srcC : Memref sig .tc .vmem S160x256 .bf16) (dst12 : Memref sig .tc .vmem S160x256 .bf16) 1 2 (commC m c) rfl (by rw [payload_recv12]) (R2 c) _
      (mayWait_above c (.dma (recvQ 1 2)) (R2 c) 3 (lv_recv c 1 2) (fun x u h => R2_pos h))) $$ [Hcr12 HO Har12]
  · isplitr; · iexact HIr12
    isplitr; · iexact Hlev
    isplitl [Hcr12]; · iexact Hcr12
    isplitl [HO]; · iexact HO
    iexact Har12
  iintro ⟨HO, Har12, Hr12⟩
  -- the running sum whole again, slot 1 whole: the slot is added
  ihave Hacc := (acc_split c (accV m 1 c)).2 $$ [HsA HsB HsC]
  · isplitl [HsA]; · iexact HsA
    isplitl [HsB]; · iexact HsB
    iexact HsC
  ihave Hsl1 := (slot_join1 c (commC m c)).1 $$ [Hr10 Hr11 Hr12]
  · isplitl [Hr10]; · iexact Hr10
    isplitl [Hr11]; · iexact Hr11
    iexact Hr12
  iapply (wp_load 𝒱₀ (c : Thread nD τ) none Set.univ (m := accM) (Finset.subset_univ _)) $$ Hacc; iintro Hacc
  rw [read_acc]
  iapply (wp_load 𝒱₀ (c : Thread nD τ) none Set.univ (m := commM) (r := slotR1.toLoadRect) (S := (commM : Memref sig .tc .vmem S3x512x256 .bf16).view.setOn slotR1.set) subset_rfl) $$ Hsl1; iintro Hsl1
  iapply (wp_load 𝒱₀ (c : Thread nD τ) none Set.univ (m := accM) (Finset.subset_univ _)) $$ Hacc; iintro Hacc
  iapply (wp_store 𝒱₀ (c : Thread nD τ) none Set.univ (m := accM) (r := rT) (Mk := Finset.univ) (Finset.subset_univ _)) $$ Hacc; iintro Hacc
  rw [write_acc, step_val1]
  -- stage 2: the running sum cut into its row groups
  ihave Ha3 := (acc_split c (accV m 2 c)).1 $$ Hacc
  icases Ha3 with ⟨HsA, HsB, HsC⟩
  -- rows of group 0 to partner 2
  iapply (step_send m K c (srcA : Memref sig .tc .vmem S176x256 .bf16) (dst20 : Memref sig .tc .vmem S176x256 .bf16) 2 0 2 _ (dev10_eq c) (accV m 2 c) rfl
      (by rw [payload_send20]) (fun fd => by rw [payload_recv20, landing20])
      (tallyAt (recvCell (peer c 1) 2 2) () (creditOf 2) + tallyAt (recvCell (peer c 0) 2 1) () (creditOf 1)) _ q20) $$ [Hts20 Htr20 HO HsA Hq20]
  · isplitr; · iexact HIs20
    isplitr; · iexact HIpr20
    isplitr; · iexact Hrs20
    isplitr; · iexact Hrpr20
    isplitl [Hts20]; · iexact Hts20
    isplitl [Htr20]; · iexact Htr20
    isplitl [HO]; · iexact HO
    isplitl [HsA]; · iexact HsA
    iexact Hq20
  iintro ⟨Hcs20, HO⟩
  -- rows of group 1 to partner 0
  iapply (step_send m K c (srcB : Memref sig .tc .vmem S176x256 .bf16) (dst21 : Memref sig .tc .vmem S176x256 .bf16) 2 1 0 _ (dev11_eq c) (accV m 2 c) rfl
      (by rw [payload_send21]) (fun fd => by rw [payload_recv21, landing21])
      (tallyAt (recvCell (peer c 1) 2 2) () (creditOf 2)) _ q21) $$ [Hts21 Htr21 HO HsB Hq21]
  · isplitr; · iexact HIs21
    isplitr; · iexact HIpr21
    isplitr; · iexact Hrs21
    isplitr; · iexact Hrpr21
    isplitl [Hts21]; · iexact Hts21
    isplitl [Htr21]; · iexact Htr21
    isplitl [HO]; · iexact HO
    isplitl [HsB]; · iexact HsB
    iexact Hq21
  iintro ⟨Hcs21, HO⟩
  ihave HO := (Entails.of_eq (congrArg (fun O => (owes (c : Thread nD τ) O _ : sProp 𝕄)) (zero_add (tallyAt (recvCell (peer c 1) 2 2) () (creditOf 2))).symm)) $$ HO
  -- rows of group 2 to partner 1
  iapply (step_send m K c (srcC : Memref sig .tc .vmem S160x256 .bf16) (dst22 : Memref sig .tc .vmem S160x256 .bf16) 2 2 1 _ (dev12_eq c) (accV m 2 c) rfl
      (by rw [payload_send22]) (fun fd => by rw [payload_recv22, landing22])
      (0) _ q22) $$ [Hts22 Htr22 HO HsC Hq22]
  · isplitr; · iexact HIs22
    isplitr; · iexact HIpr22
    isplitr; · iexact Hrs22
    isplitr; · iexact Hrpr22
    isplitl [Hts22]; · iexact Hts22
    isplitl [Htr22]; · iexact Htr22
    isplitl [HO]; · iexact HO
    isplitl [HsC]; · iexact HsC
    iexact Hq22
  iintro ⟨Hcs22, HO⟩
  -- the rows of group 0 have left: the source rows come back
  iapply (step_wait_send m K c (srcA : Memref sig .tc .vmem S176x256 .bf16) (dst20 : Memref sig .tc .vmem S176x256 .bf16) 2 0 (accV m 2 c) rfl (by rw [payload_send20]) (0) _
      (by rw [MayWait_zero]; iintro -; iempintro)) $$ [Hcs20 HO Has20]
  · isplitr; · iexact HIs20
    isplitr; · iexact Hlev
    isplitl [Hcs20]; · iexact Hcs20
    isplitl [HO]; · iexact HO
    iexact Has20
  iintro ⟨HO, Has20, HsA⟩
  -- the partner's rows of group 0 have landed
  iapply (step_wait_recv m K c (srcA : Memref sig .tc .vmem S176x256 .bf16) (dst20 : Memref sig .tc .vmem S176x256 .bf16) 2 0 (commC m c) rfl (by rw [payload_recv20]) (0) _
      (by rw [MayWait_zero]; iintro -; iempintro)) $$ [Hcr20 HO Har20]
  · isplitr; · iexact HIr20
    isplitr; · iexact Hlev
    isplitl [Hcr20]; · iexact Hcr20
    isplitl [HO]; · iexact HO
    iexact Har20
  iintro ⟨HO, Har20, Hr20⟩
  -- the rows of group 1 have left: the source rows come back
  iapply (step_wait_send m K c (srcB : Memref sig .tc .vmem S176x256 .bf16) (dst21 : Memref sig .tc .vmem S176x256 .bf16) 2 1 (accV m 2 c) rfl (by rw [payload_send21]) (0) _
      (by rw [MayWait_zero]; iintro -; iempintro)) $$ [Hcs21 HO Has21]
  · isplitr; · iexact HIs21
    isplitr; · iexact Hlev
    isplitl [Hcs21]; · iexact Hcs21
    isplitl [HO]; · iexact HO
    iexact Has21
  iintro ⟨HO, Has21, HsB⟩
  -- the partner's rows of group 1 have landed
  iapply (step_wait_recv m K c (srcB : Memref sig .tc .vmem S176x256 .bf16) (dst21 : Memref sig .tc .vmem S176x256 .bf16) 2 1 (commC m c) rfl (by rw [payload_recv21]) (0) _
      (by rw [MayWait_zero]; iintro -; iempintro)) $$ [Hcr21 HO Har21]
  · isplitr; · iexact HIr21
    isplitr; · iexact Hlev
    isplitl [Hcr21]; · iexact Hcr21
    isplitl [HO]; · iexact HO
    iexact Har21
  iintro ⟨HO, Har21, Hr21⟩
  -- the rows of group 2 have left: the source rows come back
  iapply (step_wait_send m K c (srcC : Memref sig .tc .vmem S160x256 .bf16) (dst22 : Memref sig .tc .vmem S160x256 .bf16) 2 2 (accV m 2 c) rfl (by rw [payload_send22]) (0) _
      (by rw [MayWait_zero]; iintro -; iempintro)) $$ [Hcs22 HO Has22]
  · isplitr; · iexact HIs22
    isplitr; · iexact Hlev
    isplitl [Hcs22]; · iexact Hcs22
    isplitl [HO]; · iexact HO
    iexact Has22
  iintro ⟨HO, Has22, HsC⟩
  -- the partner's rows of group 2 have landed
  iapply (step_wait_recv m K c (srcC : Memref sig .tc .vmem S160x256 .bf16) (dst22 : Memref sig .tc .vmem S160x256 .bf16) 2 2 (commC m c) rfl (by rw [payload_recv22]) (0) _
      (by rw [MayWait_zero]; iintro -; iempintro)) $$ [Hcr22 HO Har22]
  · isplitr; · iexact HIr22
    isplitr; · iexact Hlev
    isplitl [Hcr22]; · iexact Hcr22
    isplitl [HO]; · iexact HO
    iexact Har22
  iintro ⟨HO, Har22, Hr22⟩
  -- the running sum whole again, slot 2 whole: the slot is added
  ihave Hacc := (acc_split c (accV m 2 c)).2 $$ [HsA HsB HsC]
  · isplitl [HsA]; · iexact HsA
    isplitl [HsB]; · iexact HsB
    iexact HsC
  ihave Hsl2 := (slot_join2 c (commC m c)).1 $$ [Hr20 Hr21 Hr22]
  · isplitl [Hr20]; · iexact Hr20
    isplitl [Hr21]; · iexact Hr21
    iexact Hr22
  iapply (wp_load 𝒱₀ (c : Thread nD τ) none Set.univ (m := accM) (Finset.subset_univ _)) $$ Hacc; iintro Hacc
  rw [read_acc]
  iapply (wp_load 𝒱₀ (c : Thread nD τ) none Set.univ (m := commM) (r := slotR2.toLoadRect) (S := (commM : Memref sig .tc .vmem S3x512x256 .bf16).view.setOn slotR2.set) subset_rfl) $$ Hsl2; iintro Hsl2
  iapply (wp_load 𝒱₀ (c : Thread nD τ) none Set.univ (m := accM) (Finset.subset_univ _)) $$ Hacc; iintro Hacc
  iapply (wp_store 𝒱₀ (c : Thread nD τ) none Set.univ (m := accM) (r := rT) (Mk := Finset.univ) (Finset.subset_univ _)) $$ Hacc; iintro Hacc
  rw [write_acc, step_val2]
  -- the full sum times the second input
  iapply (wp_load 𝒱₀ (c : Thread nD τ) none Set.univ (m := accM) (Finset.subset_univ _)) $$ Hacc; iintro Hacc
  rw [read_acc]
  iapply (wp_load 𝒱₀ (c : Thread nD τ) none Set.univ (m := wM) (Finset.subset_univ _)) $$ Hw; iintro Hw
  rw [read_w]
  iapply (wp_load 𝒱₀ (c : Thread nD τ) none Set.univ (m := oM) (Finset.subset_univ _)) $$ Hout; iintro Hout
  iapply (wp_store 𝒱₀ (c : Thread nD τ) none Set.univ (m := oM) (r := rT) (Mk := Finset.univ) (Finset.subset_univ _)) $$ Hout; iintro Hout
  rw [write_o, show k0_pay2 (accV m 3 c) (wblk m c) = outV m c from rfl]
  -- the eighteen transfer cells close: their counters at zero are the device's again
  imod (step_close_send m K c 0 0) $$ [Has00] with Hzs00
  · isplitr; · iexact HIs00
    iexact Has00
  imod (step_close_send m K c 0 1) $$ [Has01] with Hzs01
  · isplitr; · iexact HIs01
    iexact Has01
  imod (step_close_send m K c 0 2) $$ [Has02] with Hzs02
  · isplitr; · iexact HIs02
    iexact Has02
  imod (step_close_send m K c 1 0) $$ [Has10] with Hzs10
  · isplitr; · iexact HIs10
    iexact Has10
  imod (step_close_send m K c 1 1) $$ [Has11] with Hzs11
  · isplitr; · iexact HIs11
    iexact Has11
  imod (step_close_send m K c 1 2) $$ [Has12] with Hzs12
  · isplitr; · iexact HIs12
    iexact Has12
  imod (step_close_send m K c 2 0) $$ [Has20] with Hzs20
  · isplitr; · iexact HIs20
    iexact Has20
  imod (step_close_send m K c 2 1) $$ [Has21] with Hzs21
  · isplitr; · iexact HIs21
    iexact Has21
  imod (step_close_send m K c 2 2) $$ [Has22] with Hzs22
  · isplitr; · iexact HIs22
    iexact Has22
  imod (step_close_recv m K c 0 0) $$ [Har00] with Hzr00
  · isplitr; · iexact HIr00
    iexact Har00
  imod (step_close_recv m K c 0 1) $$ [Har01] with Hzr01
  · isplitr; · iexact HIr01
    iexact Har01
  imod (step_close_recv m K c 0 2) $$ [Har02] with Hzr02
  · isplitr; · iexact HIr02
    iexact Har02
  imod (step_close_recv m K c 1 0) $$ [Har10] with Hzr10
  · isplitr; · iexact HIr10
    iexact Har10
  imod (step_close_recv m K c 1 1) $$ [Har11] with Hzr11
  · isplitr; · iexact HIr11
    iexact Har11
  imod (step_close_recv m K c 1 2) $$ [Har12] with Hzr12
  · isplitr; · iexact HIr12
    iexact Har12
  imod (step_close_recv m K c 2 0) $$ [Har20] with Hzr20
  · isplitr; · iexact HIr20
    iexact Har20
  imod (step_close_recv m K c 2 1) $$ [Har21] with Hzr21
  · isplitr; · iexact HIr21
    iexact Har21
  imod (step_close_recv m K c 2 2) $$ [Har22] with Hzr22
  · isplitr; · iexact HIr22
    iexact Har22
  ihave Hcomm := (comm_split c (commC m c)).2 $$ [Hsl0 Hsl1 Hsl2]
  · isplitl [Hsl0]; · iexact Hsl0
    isplitl [Hsl1]; · iexact Hsl1
    iexact Hsl2
  rw [wp_ret]; imodintro
  iapply Hk
  unfold bodyPost Φ₁ scratch ownZero Dat.owesAt Pipeline.owesWithin
  rw [show (dats m 0 c).owed t₀.succ = 0 from rfl]
  isplitl [Hacc Hcomm Hzs00 Hzs01 Hzs02 Hzs10 Hzs11 Hzs12 Hzs20 Hzs21 Hzs22 Hzr00 Hzr01 Hzr02 Hzr10 Hzr11 Hzr12 Hzr20 Hzr21 Hzr22]
  · isplitl [Hacc Hcomm]
    · isplitl [Hacc]
      · iexists _; iexact Hacc
      · iexists _; iexact Hcomm
    isplitl [Hzs00]; · iexact Hzs00
    isplitl [Hzs01]; · iexact Hzs01
    isplitl [Hzs02]; · iexact Hzs02
    isplitl [Hzs10]; · iexact Hzs10
    isplitl [Hzs11]; · iexact Hzs11
    isplitl [Hzs12]; · iexact Hzs12
    isplitl [Hzs20]; · iexact Hzs20
    isplitl [Hzs21]; · iexact Hzs21
    isplitl [Hzs22]; · iexact Hzs22
    isplitl [Hzr00]; · iexact Hzr00
    isplitl [Hzr01]; · iexact Hzr01
    isplitl [Hzr02]; · iexact Hzr02
    isplitl [Hzr10]; · iexact Hzr10
    isplitl [Hzr11]; · iexact Hzr11
    isplitl [Hzr12]; · iexact Hzr12
    isplitl [Hzr20]; · iexact Hzr20
    isplitl [Hzr21]; · iexact Hzr21
    iexact Hzr22
  isplitl [HO]
  · iexists _
    isplitr
    rotate_left
    · iexact HO
    · ipureintro; exact fun _ _ => Or.inl trivial
  isplitl [Hx]
  · iexists _; isplitr; · (ipureintro; rfl)
    iexact Hx
  isplitl [Hw]
  · iexists _; isplitr; · (ipureintro; rfl)
    iexact Hw
  iexists _; isplitr; · (ipureintro; rfl)
  iexact Hout

/-! ## The body obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

set_option maxRecDepth 4000 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3) (fun _ => bodyPost m c)
  unfold bodyPre' Φ₀ start
  iintro ⟨⟨⟨⟨%K, Hg⟩, Hcr, Hlev⟩, Hscr⟩, Ho, Hx, Hw, Hout⟩
  iapply (sound_body m K c fun _ => bodyPost m c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx]; · iexact Hx
    isplitl [Hw]; · iexact Hw
    iexact Hout
  · iintro H; iexact H

/-- info: 'Cert.Kernel.AR.body_obligation' depends on axioms: [propext, Classical.choice, Quot.sound] -/
#guard_msgs in #print axioms body_obligation

end Cert.Kernel.AR

end
-- ==== Proof.KLaunch.lean ====
/-
  The launch: from "each device's body is proved" to the run of the whole mesh.
-/
import proofs.«900560_g7700000000000561_dist_matmul_of_ar_i_m512_n256_k256_v7x_i8_f32_1_alg».proof.Proof.Gen.Kernel
import proofs.«900560_g7700000000000561_dist_matmul_of_ar_i_m512_n256_k256_v7x_i8_f32_1_alg».proof.Proof.Gen.Kernel.Skeleton
import proofs.«900560_g7700000000000561_dist_matmul_of_ar_i_m512_n256_k256_v7x_i8_f32_1_alg».proof.Proof.Gen.Kernel.Launch
import proofs.«900560_g7700000000000561_dist_matmul_of_ar_i_m512_n256_k256_v7x_i8_f32_1_alg».proof.Proof.Gen.Kernel.Points
import proofs.«900560_g7700000000000561_dist_matmul_of_ar_i_m512_n256_k256_v7x_i8_f32_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import proofs.«900560_g7700000000000561_dist_matmul_of_ar_i_m512_n256_k256_v7x_i8_f32_1_alg».proof.Proof.KMesh
import proofs.«900560_g7700000000000561_dist_matmul_of_ar_i_m512_n256_k256_v7x_i8_f32_1_alg».proof.Proof.KSched
import proofs.«900560_g7700000000000561_dist_matmul_of_ar_i_m512_n256_k256_v7x_i8_f32_1_alg».proof.Proof.KProto
import proofs.«900560_g7700000000000561_dist_matmul_of_ar_i_m512_n256_k256_v7x_i8_f32_1_alg».proof.Proof.KTables
import proofs.«900560_g7700000000000561_dist_matmul_of_ar_i_m512_n256_k256_v7x_i8_f32_1_alg».proof.Proof.KGhost

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- Device `c`'s window `w` array after the run. -/
def finalA (c : Dev nD) (w : Fin cfg0.W) : Buf (Elt F) ((cfg0.win w).arr.view.loc (c : Thread nD τ)) := (dats m 0 c).arrAt w cfg0.N

/-- Every device's window arrays end at the proof data's final contents. -/
def QC : PUnit × MemSt nD τ sig (Elt F) → Prop := fun r =>
  ∀ c : Dev nD, ∀ w : Fin cfg0.W, r.2.mem ((cfg0.win w).arr.view.loc (c : Thread nD τ)) = finalA m c w

/-! ## The launch -/

/-- The eighteen transfer semaphores are scoped, pairwise distinct, and none of them stages a window. -/
theorem ownSemFacts : Pipeline.OwnSemFacts cfg0.spec osem := by decide

theorem share_eq (c : Dev nD) (w : Fin cfg0.W) : (dats m 0 c).share w = fullShare := by unfold Dat.share; split <;> rfl

/-- Three regions, each at some contents, are an assertion about memory alone when each region at given contents is. -/
theorem storable_three {α β γ : Type} (P : α → sProp 𝕄) (Q : β → sProp 𝕄) (R : γ → sProp 𝕄)
    [∀ x, BI.Storable (upEmb : UEmb _ 𝕄) (P x)] [∀ x, BI.Storable (upEmb : UEmb _ 𝕄) (Q x)] [∀ x, BI.Storable (upEmb : UEmb _ 𝕄) (R x)] :
    BI.Storable (upEmb : UEmb _ 𝕄) iprop((∃ x, P x) ∗ (∃ x, Q x) ∗ (∃ x, R x)) := inferInstance

/-- Every payload of the schedule is an assertion about memory alone, so a cell's invariant can hold it. -/
instance arRd_payload_storable (g : GSem nD τ sig) (r : ℕ) (k : Fin 3) :
    BI.Storable (upEmb : UEmb _ 𝕄) ((arRd (F := F) m).payload g r k) := by
  dsimp only [arRd]
  unfold barPay xferPay sendPay recvPay
  (repeat' split) <;> first | exact storable_three _ _ _ | infer_instance

theorem csem_injective : Function.Injective csem := by decide

theorem kcell_injective : Function.Injective (kcell : Dev nD × Fin 19 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
/-- Every device's nineteen cells. -/
def arCells : Finset (GSem nD τ sig) := Finset.univ.map ⟨kcell, kcell_injective⟩

/-- A device's own cells' duty tokens as minted: the three duties of its barrier cell, and duty 0 of each of its
    eighteen transfer cells. -/
abbrev tokOf (cj : Dev nD × (Fin 3 ⊕ Fin 18)) : GSem nD τ sig × ℕ × Fin 3 :=
  match cj.2 with
  | .inl k => (barCell cj.1, 0, k)
  | .inr i => (((cj.1 : Thread nD τ), osem i), 0, 0)
theorem tokOf_injective : Function.Injective (tokOf : Dev nD × (Fin 3 ⊕ Fin 18) → GSem nD τ sig × ℕ × Fin 3) := by
  rintro ⟨c, j⟩ ⟨c', j'⟩ h
  have h1 : c = c' := by
    have := congrArg (fun x : GSem nD τ sig × ℕ × Fin 3 => x.1.1.1) h
    rcases j with k | i <;> rcases j' with k' | i' <;> exact this
  subst h1
  rcases j with k | i <;> rcases j' with k' | i'
  · have h2 : k = k' := congrArg (fun x : GSem nD τ sig × ℕ × Fin 3 => x.2.2) h
    rw [h2]
  · exact absurd (congrArg (fun x : GSem nD τ sig × ℕ × Fin 3 => x.1.2) h) (fun h' => by cases h')
  · exact absurd (congrArg (fun x : GSem nD τ sig × ℕ × Fin 3 => x.1.2) h) (fun h' => by cases h')
  · have h2 : osem i = osem i' := congrArg (fun x : GSem nD τ sig × ℕ × Fin 3 => x.1.2) h
    rw [ownSemFacts.inj h2]
def arToks : Finset (GSem nD τ sig × ℕ × Fin 3) := Finset.univ.map ⟨tokOf, tokOf_injective⟩

/-- The launch element: the pipeline library's copy beside the protocol's. -/
def u₀ : UU :=
  (initOf (Pipeline.cells cfgs cellOf_inj) (Pipeline.launchToks cfgs cellOf_inj), initOf arCells arToks)

/-- The duty tokens of device `c`'s own cells. -/
def toks (c : Dev nD) : sProp 𝕄 :=
  iprop((dutyTok ER (barCell c) 0 (0 : Fin 3) ∗ dutyTok ER (barCell c) 0 (1 : Fin 3) ∗ dutyTok ER (barCell c) 0 (2 : Fin 3))
    ∗ (dutyTok ER (sendCell c 0 0) 0 (0 : Fin 3)
      ∗ dutyTok ER (sendCell c 0 1) 0 (0 : Fin 3)
      ∗ dutyTok ER (sendCell c 0 2) 0 (0 : Fin 3)
      ∗ dutyTok ER (sendCell c 1 0) 0 (0 : Fin 3)
      ∗ dutyTok ER (sendCell c 1 1) 0 (0 : Fin 3)
      ∗ dutyTok ER (sendCell c 1 2) 0 (0 : Fin 3)
      ∗ dutyTok ER (sendCell c 2 0) 0 (0 : Fin 3)
      ∗ dutyTok ER (sendCell c 2 1) 0 (0 : Fin 3)
      ∗ dutyTok ER (sendCell c 2 2) 0 (0 : Fin 3)
      ∗ dutyTok ER (recvCell c 0 0) 0 (0 : Fin 3)
      ∗ dutyTok ER (recvCell c 0 1) 0 (0 : Fin 3)
      ∗ dutyTok ER (recvCell c 0 2) 0 (0 : Fin 3)
      ∗ dutyTok ER (recvCell c 1 0) 0 (0 : Fin 3)
      ∗ dutyTok ER (recvCell c 1 1) 0 (0 : Fin 3)
      ∗ dutyTok ER (recvCell c 1 2) 0 (0 : Fin 3)
      ∗ dutyTok ER (recvCell c 2 0) 0 (0 : Fin 3)
      ∗ dutyTok ER (recvCell c 2 1) 0 (0 : Fin 3)
      ∗ dutyTok ER (recvCell c 2 2) 0 (0 : Fin 3)))

/-- What the launch element deals device `c`. -/
def G (c : Dev nD) : sProp 𝕄 :=
  iprop((bigSep Finset.univ fun k : Fin 19 => roundState ER (arRd m) (kcell (c, k)) 0)
    ∗ (bigSep Finset.univ fun k : Fin 19 => iprop(atPos ER (kcell (c, k)) 0 ∅ 0 ∗ reached ER (kcell (c, k)) 0)) ∗ toks c)

/-- What the global step makes of it. -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ
theorem bigSep_fin18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ
theorem bigSep_fin19 (Φ : Fin 19 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) :=
  bigSep_univ_eq_bigSepL [0, 1, 2, 3, 4, 5, 6, 7, 8, 9, 10, 11, 12, 13, 14, 15, 16, 17, 18] (by decide) (by decide) Φ

theorem fund_ar : BI.own (ER (initOf arCells arToks)) ⊢ (|==> bigSep Finset.univ (G m) : sProp 𝕄) := by
  have hX (Φ : GSem nD τ sig → sProp 𝕄) : bigSep arCells Φ = bigSep Finset.univ fun c : Dev nD => bigSep Finset.univ fun k : Fin 19 => Φ (kcell (c, k)) := by
    unfold arCells; rw [bigSep_map, bigSep_univ_prod]; rfl
  have hT : bigSep arToks (fun x => (dutyTok ER x.1 x.2.1 x.2.2 : sProp 𝕄)) = bigSep Finset.univ fun c : Dev nD => toks c := by
    unfold arToks; rw [bigSep_map, bigSep_univ_prod]
    exact bigSep_congr fun c _ => by unfold toks; rw [bigSep_univ_sum, bigSep_fin3, bigSep_fin18]; rfl
  iintro HX
  imod (Rounds.fund ER (arRd m) arCells arToks) $$ HX with ⟨Hst, Hr, Hat, Htok⟩
  imodintro
  ihave Hst' := (Entails.of_eq (hX fun g => roundState ER (arRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The eighteen transfer semaphores are the kernel's own; -/
theorem ownSems0_eq (c : Dev nD) : (Pipeline.ownSems0 (Ix := Unit) (Name := ℕ) (U := UU) (Lvl := ℕ) (Val := Elt F) (τ := τ) osem c : sProp 𝕄)
    = ownZero c :=
  (Pipeline.ownSems0_eq_of_list c osem [0, 1, 2, 3, 4, 5, 6, 7, 8, 9, 10, 11, 12, 13, 14, 15, 16, 17] (by decide) (by decide)).trans rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 19 => semVal (kcell (c, k)) 0 : sProp 𝕄) := by
  rw [ownSems0_eq, unscopedSems0_eq, bigSep_fin19]
  unfold ownZero
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (arRd m) κ (kcell (c, k))))
          ∗ (bigSep Finset.univ fun k : Fin 19 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 19 => semVal (kcell (c, k)) 0) ∗ bigSep Finset.univ fun k : Fin 19 => roundState ER (arRd m) (kcell (c, k)) 0)
      ⊢ (|={Set.univ}=> bigSep Finset.univ fun k => iprop(∃ κ : ℕ, cellInv ER (arRd m) κ (kcell (c, k))) : sProp 𝕄) from by
        rw [← bigSep_sep']
        exact (bigSep_mono fun k _ => (Rounds.body_intro ER (arRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant, at the names `K` the launch allocated them at, and that every cell is at its first round. -/
def records (K : Dev nD × Fin 19 → ℕ) : sProp 𝕄 :=
  iprop((bigSep Finset.univ fun ck : Dev nD × Fin 19 => cellInv ER (arRd m) (K ck) (kcell ck))
    ∗ bigSep Finset.univ fun ck : Dev nD × Fin 19 => reached ER (kcell ck) 0)

instance records_persistent (K : Dev nD × Fin 19 → ℕ) : BI.Persistent (records m K) := by unfold records; infer_instance

theorem inv_at (K : Dev nD × Fin 19 → ℕ) (ck : Dev nD × Fin 19) :
    (bigSep Finset.univ fun ck : Dev nD × Fin 19 => (cellInv ER (arRd m) (K ck) (kcell ck) : sProp 𝕄)) ⊢ cellInv ER (arRd m) (K ck) (kcell ck) :=
  bigSep_elim (Finset.mem_univ ck)
theorem inv_bar (K : Dev nD × Fin 19 → ℕ) (c : Dev nD) :
    (bigSep Finset.univ fun ck : Dev nD × Fin 19 => (cellInv ER (arRd m) (K ck) (kcell ck) : sProp 𝕄)) ⊢ cellInv ER (arRd m) (K (c, iBar)) (barCell c) :=
  inv_at m K (c, iBar)
theorem inv_send (K : Dev nD × Fin 19 → ℕ) (c : Dev nD) (d g : Fin 3) :
    (bigSep Finset.univ fun ck : Dev nD × Fin 19 => (cellInv ER (arRd m) (K ck) (kcell ck) : sProp 𝕄)) ⊢ cellInv ER (arRd m) (K (c, iSend d g)) (sendCell c d g) := by
  rw [← kcell_send]; exact inv_at m K (c, iSend d g)
theorem inv_recv (K : Dev nD × Fin 19 → ℕ) (c : Dev nD) (d g : Fin 3) :
    (bigSep Finset.univ fun ck : Dev nD × Fin 19 => (cellInv ER (arRd m) (K ck) (kcell ck) : sProp 𝕄)) ⊢ cellInv ER (arRd m) (K (c, iRecv d g)) (recvCell c d g) := by
  rw [← kcell_recv]; exact inv_at m K (c, iRecv d g)
theorem reached_at (ck : Dev nD × Fin 19) :
    (bigSep Finset.univ fun ck : Dev nD × Fin 19 => (reached ER (kcell ck) 0 : sProp 𝕄)) ⊢ reached ER (kcell ck) 0 :=
  bigSep_elim (Finset.mem_univ ck)
theorem reached_bar (c : Dev nD) :
    (bigSep Finset.univ fun ck : Dev nD × Fin 19 => (reached ER (kcell ck) 0 : sProp 𝕄)) ⊢ reached ER (barCell c) 0 :=
  reached_at (F := F) (c, iBar)
theorem reached_send (c : Dev nD) (d g : Fin 3) :
    (bigSep Finset.univ fun ck : Dev nD × Fin 19 => (reached ER (kcell ck) 0 : sProp 𝕄)) ⊢ reached ER (sendCell c d g) 0 := by
  rw [← kcell_send]; exact reached_at (F := F) (c, iSend d g)
theorem reached_recv (c : Dev nD) (d g : Fin 3) :
    (bigSep Finset.univ fun ck : Dev nD × Fin 19 => (reached ER (kcell ck) 0 : sProp 𝕄)) ⊢ reached ER (recvCell c d g) 0 := by
  rw [← kcell_recv]; exact reached_at (F := F) (c, iRecv d g)

theorem invs_intro (K : Dev nD × Fin 19 → ℕ) (c : Dev nD) : records m K ⊢ invs m K c := by
  unfold records invs
  iintro ⟨#HI, #HR⟩
  isplitr; · iapply (inv_bar m K c); iexact HI
  isplitr; · iapply (inv_send m K c 0 0); iexact HI
  isplitr; · iapply (inv_send m K c 0 1); iexact HI
  isplitr; · iapply (inv_send m K c 0 2); iexact HI
  isplitr; · iapply (inv_send m K c 1 0); iexact HI
  isplitr; · iapply (inv_send m K c 1 1); iexact HI
  isplitr; · iapply (inv_send m K c 1 2); iexact HI
  isplitr; · iapply (inv_send m K c 2 0); iexact HI
  isplitr; · iapply (inv_send m K c 2 1); iexact HI
  isplitr; · iapply (inv_send m K c 2 2); iexact HI
  isplitr; · iapply (inv_recv m K c 0 0); iexact HI
  isplitr; · iapply (inv_recv m K c 0 1); iexact HI
  isplitr; · iapply (inv_recv m K c 0 2); iexact HI
  isplitr; · iapply (inv_recv m K c 1 0); iexact HI
  isplitr; · iapply (inv_recv m K c 1 1); iexact HI
  isplitr; · iapply (inv_recv m K c 1 2); iexact HI
  isplitr; · iapply (inv_recv m K c 2 0); iexact HI
  isplitr; · iapply (inv_recv m K c 2 1); iexact HI
  isplitr; · iapply (inv_recv m K c 2 2); iexact HI
  isplitr; · iapply (inv_bar m K (peer c 0)); iexact HI
  isplitr; · iapply (inv_bar m K (peer c 1)); iexact HI
  isplitr; · iapply (inv_bar m K (peer c 2)); iexact HI
  isplitr; · iapply (inv_recv m K (peer c 0) 0 0); iexact HI
  isplitr; · iapply (inv_recv m K (peer c 1) 0 1); iexact HI
  isplitr; · iapply (inv_recv m K (peer c 2) 0 2); iexact HI
  isplitr; · iapply (inv_recv m K (peer c 1) 1 0); iexact HI
  isplitr; · iapply (inv_recv m K (peer c 2) 1 1); iexact HI
  isplitr; · iapply (inv_recv m K (peer c 0) 1 2); iexact HI
  isplitr; · iapply (inv_recv m K (peer c 2) 2 0); iexact HI
  isplitr; · iapply (inv_recv m K (peer c 0) 2 1); iexact HI
  iapply (inv_recv m K (peer c 1) 2 2); iexact HI

theorem marks_intro (K : Dev nD × Fin 19 → ℕ) (c : Dev nD) : records m K ⊢ marks (F := F) c := by
  unfold records marks
  iintro ⟨#HI, #HR⟩
  isplitr; · iapply (reached_bar (F := F) c); iexact HR
  isplitr; · iapply (reached_send (F := F) c 0 0); iexact HR
  isplitr; · iapply (reached_send (F := F) c 0 1); iexact HR
  isplitr; · iapply (reached_send (F := F) c 0 2); iexact HR
  isplitr; · iapply (reached_send (F := F) c 1 0); iexact HR
  isplitr; · iapply (reached_send (F := F) c 1 1); iexact HR
  isplitr; · iapply (reached_send (F := F) c 1 2); iexact HR
  isplitr; · iapply (reached_send (F := F) c 2 0); iexact HR
  isplitr; · iapply (reached_send (F := F) c 2 1); iexact HR
  isplitr; · iapply (reached_send (F := F) c 2 2); iexact HR
  isplitr; · iapply (reached_recv (F := F) c 0 0); iexact HR
  isplitr; · iapply (reached_recv (F := F) c 0 1); iexact HR
  isplitr; · iapply (reached_recv (F := F) c 0 2); iexact HR
  isplitr; · iapply (reached_recv (F := F) c 1 0); iexact HR
  isplitr; · iapply (reached_recv (F := F) c 1 1); iexact HR
  isplitr; · iapply (reached_recv (F := F) c 1 2); iexact HR
  isplitr; · iapply (reached_recv (F := F) c 2 0); iexact HR
  isplitr; · iapply (reached_recv (F := F) c 2 1); iexact HR
  isplitr; · iapply (reached_recv (F := F) c 2 2); iexact HR
  isplitr; · iapply (reached_bar (F := F) (peer c 0)); iexact HR
  isplitr; · iapply (reached_bar (F := F) (peer c 1)); iexact HR
  isplitr; · iapply (reached_bar (F := F) (peer c 2)); iexact HR
  isplitr; · iapply (reached_recv (F := F) (peer c 0) 0 0); iexact HR
  isplitr; · iapply (reached_recv (F := F) (peer c 1) 0 1); iexact HR
  isplitr; · iapply (reached_recv (F := F) (peer c 2) 0 2); iexact HR
  isplitr; · iapply (reached_recv (F := F) (peer c 1) 1 0); iexact HR
  isplitr; · iapply (reached_recv (F := F) (peer c 2) 1 1); iexact HR
  isplitr; · iapply (reached_recv (F := F) (peer c 0) 1 2); iexact HR
  isplitr; · iapply (reached_recv (F := F) (peer c 2) 2 0); iexact HR
  isplitr; · iapply (reached_recv (F := F) (peer c 0) 2 1); iexact HR
  iapply (reached_recv (F := F) (peer c 1) 2 2); iexact HR

/-- What stays with device `c`: its positions on its own cells, and the tokens of the duties it pays. -/
def linear (c : Dev nD) : sProp 𝕄 := iprop(poss c ∗ payToks c)

theorem ghost_intro (K : Dev nD × Fin 19 → ℕ) (c : Dev nD) : iprop(records m K ∗ linear c) ⊢ G' m c := by
  unfold linear G' ghost
  iintro ⟨#HR, Hp, Ht⟩
  iexists K
  isplitr; · iapply (invs_intro m K c); iexact HR
  isplitr; · iapply (marks_intro m K c); iexact HR
  isplitl [Hp]; · iexact Hp
  iexact Ht

theorem poss_eq (c : Dev nD) : (bigSep Finset.univ fun k : Fin 19 => (atPos ER (kcell (c, k)) 0 ∅ 0 : sProp 𝕄)) = poss c :=
  (bigSep_fin19 _).trans rfl

/-- Partner `k` as a permutation of the devices. -/
def pk (k : Fin 3) : Dev nD ≃ Dev nD := ⟨fun c => peer c k, fun c => peer c k, fun c => peer_peer c k, fun c => peer_peer c k⟩

/-- The tokens dealt to their payers: duty `k` of a barrier cell to the owner's partner `k`, a receive cell's duty to the
    partner whose transfer pays it; each map is an involution, so each family is reindexed along it. -/
theorem toks_around : (bigSep Finset.univ fun c : Dev nD => (toks c : sProp 𝕄)) ⊢ bigSep Finset.univ fun c : Dev nD => payToks c := by
  unfold toks payToks
  simp only [bigSep_sep']
  rw [bigSep_univ_equiv (pk 0) (fun c : Dev nD => (dutyTok ER (barCell c) 0 (0 : Fin 3) : sProp 𝕄)),
    bigSep_univ_equiv (pk 1) (fun c : Dev nD => (dutyTok ER (barCell c) 0 (1 : Fin 3) : sProp 𝕄)),
    bigSep_univ_equiv (pk 2) (fun c : Dev nD => (dutyTok ER (barCell c) 0 (2 : Fin 3) : sProp 𝕄)),
    bigSep_univ_equiv (pk 0) (fun c : Dev nD => (dutyTok ER (recvCell c 0 0) 0 (0 : Fin 3) : sProp 𝕄)),
    bigSep_univ_equiv (pk 1) (fun c : Dev nD => (dutyTok ER (recvCell c 0 1) 0 (0 : Fin 3) : sProp 𝕄)),
    bigSep_univ_equiv (pk 2) (fun c : Dev nD => (dutyTok ER (recvCell c 0 2) 0 (0 : Fin 3) : sProp 𝕄)),
    bigSep_univ_equiv (pk 1) (fun c : Dev nD => (dutyTok ER (recvCell c 1 0) 0 (0 : Fin 3) : sProp 𝕄)),
    bigSep_univ_equiv (pk 2) (fun c : Dev nD => (dutyTok ER (recvCell c 1 1) 0 (0 : Fin 3) : sProp 𝕄)),
    bigSep_univ_equiv (pk 0) (fun c : Dev nD => (dutyTok ER (recvCell c 1 2) 0 (0 : Fin 3) : sProp 𝕄)),
    bigSep_univ_equiv (pk 2) (fun c : Dev nD => (dutyTok ER (recvCell c 2 0) 0 (0 : Fin 3) : sProp 𝕄)),
    bigSep_univ_equiv (pk 0) (fun c : Dev nD => (dutyTok ER (recvCell c 2 1) 0 (0 : Fin 3) : sProp 𝕄)),
    bigSep_univ_equiv (pk 1) (fun c : Dev nD => (dutyTok ER (recvCell c 2 2) 0 (0 : Fin 3) : sProp 𝕄))]
  iintro ⟨⟨H1, H2, H3⟩, H4, H5, H6, H7, H8, H9, H10, H11, H12, H13, H14, H15, H16, H17, H18, H19, H20, H21⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (arRd m) κ (kcell (c, k))))
          ∗ (bigSep Finset.univ fun k : Fin 19 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 19 => iprop(∃ κ : ℕ, cellInv ER (arRd m) κ (kcell ck))),
    bigSep_congr (s := Finset.univ) (fun (c : Dev nD) _ => bigSep_sep' Finset.univ (fun k : Fin 19 => (atPos ER (kcell (c, k)) 0 ∅ 0 : sProp 𝕄)) (fun k => reached ER (kcell (c, k)) 0)),
    bigSep_sep', ← bigSep_univ_prod (fun ck : Dev nD × Fin 19 => (reached ER (kcell ck) 0 : sProp 𝕄))]
  iintro ⟨HI, ⟨Hat, #HR⟩, Htok⟩
  ihave HK := (BI.bigSep_exists_pi Finset.univ (fun (ck : Dev nD × Fin 19) (κ : ℕ) => (cellInv ER (arRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 19 => (atPos ER (kcell (c, k)) 0 ∅ 0 : sProp 𝕄)) payToks).symm).trans
      (bigSep_mono fun c _ => show _ ⊢ linear c from Entails.of_eq (by unfold linear; rw [poss_eq])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- Every device owing the credit of row group `g` on its partner `k`'s receive cell (stage `d`), device `c` is dealt that
    credit on its own: partner `k` is an involution. -/
theorem cred_recv (c : Dev nD) (k d g : Fin 3) :
    (Pipeline.launchCred (fun x : Dev nD => (tallyAt (recvCell (peer x k) d g) () (creditOf g) : CellTallies nD τ sig Unit)) c : sProp 𝕄)
      ⊢ cred (tallyAt (recvCell c d g) () (creditOf g)) :=
  Pipeline.launchCred_tallyAt (.dma (recvQ d g)) (fun x => peer x k) (fun x => peer x k) (fun x => peer_peer x k) (fun x => peer_peer x k) () (creditOf g) c

/-- Every device owing its partner `k`'s barrier cell one unit, device `c` is dealt one unit on its own. -/
theorem cred_bar (c : Dev nD) (k : Fin 3) :
    (Pipeline.launchCred (fun x : Dev nD => (tallyAt (barCell (peer x k)) () 1 : CellTallies nD τ sig Unit)) c : sProp 𝕄)
      ⊢ cred (tallyAt (barCell c) () 1) :=
  Pipeline.launchCred_tallyAt (.reg barS) (fun x => peer x k) (fun x => peer x k) (fun x => peer_peer x k) (fun x => peer_peer x k) () 1 c

/-- Three unit credits on the barrier cell are one credit of three. -/
theorem cred_bar3 (c : Dev nD) :
    iprop(cred (tallyAt (barCell c) () 1) ∗ cred (tallyAt (barCell c) () 1) ∗ cred (tallyAt (barCell c) () 1))
      ⊢ (cred (tallyAt (barCell c) () 3) : sProp 𝕄) := by
  have e : (tallyAt (barCell c) () 1 + (tallyAt (barCell c) () 1 + tallyAt (barCell c) () 1) : CellTallies nD τ sig Unit) = tallyAt (barCell c) () 3 := by
    rw [tallyAt_add, tallyAt_add]
  rw [← e]
  exact (sep_mono_right (cred_add _ _).2).trans (cred_add _ _).2

/-- The launch credit of device `c`: three units on its barrier cell, and each receive cell's transfer credit. -/
theorem creds_intro (c : Dev nD) : (Pipeline.launchCred O₀ c : sProp 𝕄) ⊢ creds c := by
  show (Pipeline.launchCred (fun x : Dev nD =>
      (tallyAt (recvCell (peer x 1) 2 2) () (creditOf 2) : CellTallies nD τ sig Unit)
      + (tallyAt (recvCell (peer x 0) 2 1) () (creditOf 1) : CellTallies nD τ sig Unit)
      + (tallyAt (recvCell (peer x 2) 2 0) () (creditOf 0) : CellTallies nD τ sig Unit)
      + (tallyAt (recvCell (peer x 0) 1 2) () (creditOf 2) : CellTallies nD τ sig Unit)
      + (tallyAt (recvCell (peer x 2) 1 1) () (creditOf 1) : CellTallies nD τ sig Unit)
      + (tallyAt (recvCell (peer x 1) 1 0) () (creditOf 0) : CellTallies nD τ sig Unit)
      + (tallyAt (recvCell (peer x 2) 0 2) () (creditOf 2) : CellTallies nD τ sig Unit)
      + (tallyAt (recvCell (peer x 1) 0 1) () (creditOf 1) : CellTallies nD τ sig Unit)
      + (tallyAt (recvCell (peer x 0) 0 0) () (creditOf 0) : CellTallies nD τ sig Unit)
      + (tallyAt (barCell (peer x 2)) () 1 : CellTallies nD τ sig Unit)
      + (tallyAt (barCell (peer x 1)) () 1 : CellTallies nD τ sig Unit)
      + (tallyAt (barCell (peer x 0)) () 1 : CellTallies nD τ sig Unit)) c : sProp 𝕄) ⊢ _
  rw [Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add, Pipeline.launchCred_add]
  iintro ⟨⟨⟨⟨⟨⟨⟨⟨⟨⟨⟨H1, H2⟩, H3⟩, H4⟩, H5⟩, H6⟩, H7⟩, H8⟩, H9⟩, H10⟩, H11⟩, H12⟩
  ihave C1 := (cred_recv (F := F) c 1 2 2) $$ H1
  ihave C2 := (cred_recv (F := F) c 0 2 1) $$ H2
  ihave C3 := (cred_recv (F := F) c 2 2 0) $$ H3
  ihave C4 := (cred_recv (F := F) c 0 1 2) $$ H4
  ihave C5 := (cred_recv (F := F) c 2 1 1) $$ H5
  ihave C6 := (cred_recv (F := F) c 1 1 0) $$ H6
  ihave C7 := (cred_recv (F := F) c 2 0 2) $$ H7
  ihave C8 := (cred_recv (F := F) c 1 0 1) $$ H8
  ihave C9 := (cred_recv (F := F) c 0 0 0) $$ H9
  ihave B1 := (cred_bar (F := F) c 2) $$ H10
  ihave B2 := (cred_bar (F := F) c 1) $$ H11
  ihave B3 := (cred_bar (F := F) c 0) $$ H12
  ihave B := (cred_bar3 (F := F) c) $$ [B1 B2 B3]
  · isplitl [B1]; · iexact B1
    isplitl [B2]; · iexact B2
    iexact B3
  unfold creds
  isplitl [B]; · iexact B
  isplitl [C9]; · iexact C9
  isplitl [C8]; · iexact C8
  isplitl [C7]; · iexact C7
  isplitl [C6]; · iexact C6
  isplitl [C5]; · iexact C5
  isplitl [C4]; · iexact C4
  isplitl [C3]; · iexact C3
  isplitl [C2]; · iexact C2
  iexact C1

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

/-- The staging cells sit at level 0. -/
theorem lv_stage (c : Dev nD) (w : Fin cfg0.W) (s : Fin (cfg0.win w).nbuf) :
    lv ((c : Thread nD τ), .dma ((cfg0.win w).sem s)) () = 0 := by
  fin_cases w <;> fin_cases s <;> rfl

/-- The pipeline's own waits, on its staging cells: everything a device owes, at launch or later, lies above them. -/
theorem waits (c : Dev nD) : (levAts L lv : sProp 𝕄) ⊢ Pipeline.cellsWaits cfgs (dats m) () 0 c :=
  Pipeline.cellsWaits_intro cfgs (dats m) () 0 c fun w s t => by
    rcases t with ⟨_ | n, ht⟩
    · exact mayWait_above c _ (O₀ c) 0 (lv_stage c w s) (fun x u h => ⟨(O₀_pos h).1, (O₀_pos h).2⟩)
    · show (levAts L lv : sProp 𝕄) ⊢ MayWait (c : Thread nD τ) _ () 0
      rw [MayWait_zero]; iintro -; iempintro

/-! ### The run -/

/-- At the compiled mesh of eight devices, from any memory with zero counters: if every device's body meets its
    obligation, every weakly fair execution of @main terminates and every final state has each device's three
    window arrays at the proof data's final contents. -/
theorem run_main_of (hbody : ∀ c : Dev nD, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ar m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.AR.run_main_of' depends on axioms: [propext, Classical.choice, Quot.sound] -/
#guard_msgs in #print axioms run_main_of

end Cert.Kernel.AR

end
-- ==== Proof.KFrames.lean ====
/-
  The frame of the mesh run: the two argument arrays end as launched (they are input windows, which no write-back
  touches), given each device's body.
-/
import proofs.«900560_g7700000000000561_dist_matmul_of_ar_i_m512_n256_k256_v7x_i8_f32_1_alg».proof.Proof.Gen.Kernel
import proofs.«900560_g7700000000000561_dist_matmul_of_ar_i_m512_n256_k256_v7x_i8_f32_1_alg».proof.Proof.Gen.Kernel.Skeleton
import proofs.«900560_g7700000000000561_dist_matmul_of_ar_i_m512_n256_k256_v7x_i8_f32_1_alg».proof.Proof.Gen.Kernel.Launch
import proofs.«900560_g7700000000000561_dist_matmul_of_ar_i_m512_n256_k256_v7x_i8_f32_1_alg».proof.Proof.Gen.Kernel.Points
import proofs.«900560_g7700000000000561_dist_matmul_of_ar_i_m512_n256_k256_v7x_i8_f32_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic
import Idealize.ShloMosaic.Lib.ValueIdx
import proofs.«900560_g7700000000000561_dist_matmul_of_ar_i_m512_n256_k256_v7x_i8_f32_1_alg».proof.Proof.KMesh
import proofs.«900560_g7700000000000561_dist_matmul_of_ar_i_m512_n256_k256_v7x_i8_f32_1_alg».proof.Proof.KSched
import proofs.«900560_g7700000000000561_dist_matmul_of_ar_i_m512_n256_k256_v7x_i8_f32_1_alg».proof.Proof.KProto
import proofs.«900560_g7700000000000561_dist_matmul_of_ar_i_m512_n256_k256_v7x_i8_f32_1_alg».proof.Proof.KTables
import proofs.«900560_g7700000000000561_dist_matmul_of_ar_i_m512_n256_k256_v7x_i8_f32_1_alg».proof.Proof.KGhost
import proofs.«900560_g7700000000000561_dist_matmul_of_ar_i_m512_n256_k256_v7x_i8_f32_1_alg».proof.Proof.KLaunch

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The first argument's array ends as launched. -/
theorem final_arg0 (c : Dev nD) : finalA m c (0 : Fin cfg0.W) = m ((c : Thread nD τ).loc main_arg0) :=
  (dats m 0 c).arrAt_in (0 : Fin cfg0.W) rfl _

/-- The second argument's array ends as launched. -/
theorem final_arg1 (c : Dev nD) : finalA m c (1 : Fin cfg0.W) = m ((c : Thread nD τ).loc main_arg1) :=
  (dats m 0 c).arrAt_in (1 : Fin cfg0.W) rfl _

/-- Every weakly fair execution of the mesh terminates, faults nowhere, and leaves the argument arrays unchanged. -/
theorem frame_post (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun r h c => ⟨((h c) (0 : Fin cfg0.W)).trans (final_arg0 m c), ((h c) (1 : Fin cfg0.W)).trans (final_arg1 m c)⟩)
    (run_main_of m ρ hbody)

end Cert.Kernel.AR

end
-- ==== Proof.lean ====
/-
  The certificate of the eight-device all-reduce followed by a matrix product, against the one-device reference
  `T.reshape(8, 512, 256).sum(axis = 0) @ W`.

  Each device holds a 512 x 256 block of T and a copy of W. It rounds its block into a running sum, meets its three
  partners on the barrier semaphore (partner 0 flips bit 0 of the device number, partner 1 reflects it inside its
  group of four, partner 2 flips bit 2), and then, in three stages, exchanges the three row groups of the running sum
  with the three partners, a different partner for each row group at each stage, adding what arrives. Every row
  group meets every partner map exactly once, so after the third stage every row holds the sum over all eight
  devices; the running sum times W is the device's result. At the ideal instance rounding is the identity and every
  sum is exact, so the result is the reference's: both are the sum over k of (the sum over the devices of T) times W.

  The frames (word-level and idealized) are the mesh run of proof/Proof/Launch.lean over each device's body
  (proof/Proof/Body.lean) with the values dropped; the value identity is proof/Proof/Value.lean; no rule of the
  ideal pass fired, so the idealization claim is trivial.
-/
import proofs.«900560_g7700000000000561_dist_matmul_of_ar_i_m512_n256_k256_v7x_i8_f32_1_alg».proof.Defs
import proofs.«900560_g7700000000000561_dist_matmul_of_ar_i_m512_n256_k256_v7x_i8_f32_1_alg».proof.Proof.Gen.Kernel
import proofs.«900560_g7700000000000561_dist_matmul_of_ar_i_m512_n256_k256_v7x_i8_f32_1_alg».proof.Proof.Gen.KernelIdeal
import proofs.«900560_g7700000000000561_dist_matmul_of_ar_i_m512_n256_k256_v7x_i8_f32_1_alg».proof.Proof.Gen.ReferenceIdeal
import proofs.«900560_g7700000000000561_dist_matmul_of_ar_i_m512_n256_k256_v7x_i8_f32_1_alg».proof.Proof.Gen.Pre_finite_inputs_Kernel
import proofs.«900560_g7700000000000561_dist_matmul_of_ar_i_m512_n256_k256_v7x_i8_f32_1_alg».proof.Proof.Gen.Pre_finite_inputs_ReferenceIdeal
import proofs.«900560_g7700000000000561_dist_matmul_of_ar_i_m512_n256_k256_v7x_i8_f32_1_alg».proof.Proof.Body
import proofs.«900560_g7700000000000561_dist_matmul_of_ar_i_m512_n256_k256_v7x_i8_f32_1_alg».proof.Proof.Claims
import proofs.«900560_g7700000000000561_dist_matmul_of_ar_i_m512_n256_k256_v7x_i8_f32_1_alg».proof.Proof.KBody
import proofs.«900560_g7700000000000561_dist_matmul_of_ar_i_m512_n256_k256_v7x_i8_f32_1_alg».proof.Proof.KFrames
import Idealize.ShloMosaic.Adequacy
import Idealize.ShloMosaic.Init

noncomputable section

namespace Cert.Proof

open Idealize.ShloMosaic Idealize.SL.Sem

/-- The word-level kernel runs on the mesh and keeps its arguments. -/
theorem frame_k : Cert.frame_Kernel :=
  fun m ρ _ => Cert.Kernel.AR.frame_post (F := Bits) m ρ (Cert.Kernel.AR.body_obligation (F := Bits) m)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k,
  Cert.Proof.IdealClaims.frame_ki_of (fun m c => Cert.KernelIdeal.AR.body_obligation (F := Ideal) m c),
  Cert.Proof.IdealClaims.frame_ri,
  trivial,
  Cert.Proof.IdealClaims.algebraic_of (fun m c => Cert.KernelIdeal.AR.body_obligation (F := Ideal) m c)⟩

end Cert.Proof

end
